-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v205)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v205) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S200000x3 : Shape := ⟨2, ![200000, 3]⟩
abbrev S2x200000 : Shape := ⟨2, ![2, 200000]⟩
abbrev S100000 : Shape := ⟨1, ![100000]⟩
abbrev S9x119x256 : Shape := ⟨3, ![9, 119, 256]⟩
abbrev S3x22x256 : Shape := ⟨3, ![3, 22, 256]⟩
abbrev S4x256x512 : Shape := ⟨3, ![4, 256, 512]⟩
abbrev S4x512 : Shape := ⟨2, ![4, 512]⟩
abbrev S4x512x256 : Shape := ⟨3, ![4, 512, 256]⟩
abbrev S4x256 : Shape := ⟨2, ![4, 256]⟩
abbrev S256x256 : Shape := ⟨2, ![256, 256]⟩
abbrev S256 : Shape := ⟨1, ![256]⟩
abbrev S256x768 : Shape := ⟨2, ![256, 768]⟩
abbrev S768 : Shape := ⟨1, ![768]⟩
abbrev S_ : Shape := ⟨0, ![]⟩
abbrev S1x200000 : Shape := ⟨2, ![1, 200000]⟩
abbrev S200000 : Shape := ⟨1, ![200000]⟩

class Facts : Prop where
  bcast_S_S9x119x256 : S_.BroadcastsInDim S9x119x256 (![] : Fin 0 → Fin S9x119x256.rank)
  reducesTo_S9x119x256_S_d0_1_2 : S9x119x256.ReducesTo [0, 1, 2] S_
  h_S_ : 0 < S_.numel
  bcast_S_S3x22x256 : S_.BroadcastsInDim S3x22x256 (![] : Fin 0 → Fin S3x22x256.rank)
  reducesTo_S3x22x256_S_d0_1_2 : S3x22x256.ReducesTo [0, 1, 2] S_
  bcast_S_S4x256x512 : S_.BroadcastsInDim S4x256x512 (![] : Fin 0 → Fin S4x256x512.rank)
  reducesTo_S4x256x512_S_d0_1_2 : S4x256x512.ReducesTo [0, 1, 2] S_
  bcast_S_S4x512 : S_.BroadcastsInDim S4x512 (![] : Fin 0 → Fin S4x512.rank)
  reducesTo_S4x512_S_d0_1 : S4x512.ReducesTo [0, 1] S_
  bcast_S_S4x512x256 : S_.BroadcastsInDim S4x512x256 (![] : Fin 0 → Fin S4x512x256.rank)
  reducesTo_S4x512x256_S_d0_1_2 : S4x512x256.ReducesTo [0, 1, 2] S_
  bcast_S_S4x256 : S_.BroadcastsInDim S4x256 (![] : Fin 0 → Fin S4x256.rank)
  reducesTo_S4x256_S_d0_1 : S4x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  reducesTo_S200000_S_d0 : S200000.ReducesTo [0] S_

variable [Facts]

def fn_part3 {F : FTy → Type} [FloatOps F] (main_arg2 : IVec S2x200000 32) (main_v48 : IVec S_ 1) (main_v50 : IVec S200000 32) (main_c_18 : IVec S_ 32) : IVec S_ 1 :=
  let main_v51 : IVec S200000 32 := broadcastInDim S200000 ![] bcast_S_S200000 main_c_18
  let main_v52 : IVec S200000 1 := cmpi .sge main_v50 main_v51
  let main_v53 : IVec S1x200000 32 := (extractStridedSlice S1x200000 ![0, 0] · slices_S2x200000_S1x200000_0_0) main_arg2
  let main_v54 : IVec S200000 32 := shapeCast S200000 main_v53 shapeCasts_S1x200000_S200000
  let main_c_19 : IVec S_ 32 := constantI S_ 32 100000#32
  let main_v55 : IVec S200000 32 := broadcastInDim S200000 ![] bcast_S_S200000 main_c_19
  let main_v56 : IVec S200000 1 := cmpi .slt main_v54 main_v55
  let main_v57 : IVec S200000 1 := andi main_v52 main_v56
  let main_c_20 : IVec S_ 1 := constantI S_ 1 1#1
  let main_v58 : IVec S_ 1 := (fun x v => Host.reduce IntOp.andi x v reducesTo_S200000_S_d0 h_S_) main_v57 main_c_20
  let main_v59 : IVec S_ 1 := andi main_v48 main_v58
  main_v59

def fn_part2 {F : FTy → Type} [FloatOps F] (main_arg2 : IVec S2x200000 32) (main_arg11 : FVec F S256 .f32) (main_arg12 : FVec F S256x768 .f32) (main_arg13 : FVec F S768 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x768 .f32 := Host.absf main_arg12
  let main_cst_14 : FVec F S_ .f32 := constant S_ .f32 0x7F800000#32
  let main_v40 : FVec F S256x768 .f32 := broadcastInDim S256x768 ![] bcast_S_S256x768 main_cst_14
  let main_v41 : IVec S256x768 1 := cmpf .olt main_v39 main_v40
  let main_c_15 : IVec S_ 1 := constantI S_ 1 1#1
  let main_v42 : IVec S_ 1 := (fun x v => Host.reduce IntOp.andi x v reducesTo_S256x768_S_d0_1 h_S_) main_v41 main_c_15
  let main_v43 : IVec S_ 1 := andi main_v38 main_v42
  let main_v44 : FVec F S768 .f32 := Host.absf main_arg13
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : IVec S1x200000 32 := (extractStridedSlice S1x200000 ![0, 0] · slices_S2x200000_S1x200000_0_0) main_arg2
  let main_v50 : IVec S200000 32 := shapeCast S200000 main_v49 shapeCasts_S1x200000_S200000
  let main_c_18 : IVec S_ 32 := constantI S_ 32 0#32
  fn_part3 (F := F) main_arg2 main_v48 main_v50 main_c_18

def fn_part1 {F : FTy → Type} [FloatOps F] (main_arg2 : IVec S2x200000 32) (main_arg8 : FVec F S4x512x256 .f32) (main_arg9 : FVec F S4x256 .f32) (main_arg10 : FVec F S256x256 .f32) (main_arg11 : FVec F S256 .f32) (main_arg12 : FVec F S256x768 .f32) (main_arg13 : FVec F S768 .f32) (main_v13 : IVec S_ 1) (main_v16 : IVec S4x512 1) : IVec S_ 1 :=
  let main_c_5 : IVec S_ 1 := constantI S_ 1 1#1
  let main_v17 : IVec S_ 1 := (fun x v => Host.reduce IntOp.andi x v reducesTo_S4x512_S_d0_1 h_S_) main_v16 main_c_5
  let main_v18 : IVec S_ 1 := andi main_v13 main_v17
  let main_v19 : FVec F S4x512x256 .f32 := Host.absf main_arg8
  let main_cst_6 : FVec F S_ .f32 := constant S_ .f32 0x7F800000#32
  let main_v20 : FVec F S4x512x256 .f32 := broadcastInDim S4x512x256 ![] bcast_S_S4x512x256 main_cst_6
  let main_v21 : IVec S4x512x256 1 := cmpf .olt main_v19 main_v20
  let main_c_7 : IVec S_ 1 := constantI S_ 1 1#1
  let main_v22 : IVec S_ 1 := (fun x v => Host.reduce IntOp.andi x v reducesTo_S4x512x256_S_d0_1_2 h_S_) main_v21 main_c_7
  let main_v23 : IVec S_ 1 := andi main_v18 main_v22
  let main_v24 : FVec F S4x256 .f32 := Host.absf main_arg9
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S256x256 .f32 := Host.absf main_arg10
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg11 main_arg12 main_arg13 main_v33

def fn {F : FTy → Type} [FloatOps F] (main_arg0 : IVec S100000x9 32) (main_arg1 : IVec S200000x3 32) (main_arg2 : IVec S2x200000 32) (main_arg3 : IVec S100000 32) (main_arg4 : FVec F S9x119x256 .f32) (main_arg5 : FVec F S3x22x256 .f32) (main_arg6 : FVec F S4x256x512 .f32) (main_arg7 : FVec F S4x512 .f32) (main_arg8 : FVec F S4x512x256 .f32) (main_arg9 : FVec F S4x256 .f32) (main_arg10 : FVec F S256x256 .f32) (main_arg11 : FVec F S256 .f32) (main_arg12 : FVec F S256x768 .f32) (main_arg13 : FVec F S768 .f32) : IVec S_ 1 :=
  let main_v0 : FVec F S9x119x256 .f32 := Host.absf main_arg4
  let main_cst : FVec F S_ .f32 := constant S_ .f32 0x7F800000#32
  let main_v1 : FVec F S9x119x256 .f32 := broadcastInDim S9x119x256 ![] bcast_S_S9x119x256 main_cst
  let main_v2 : IVec S9x119x256 1 := cmpf .olt main_v0 main_v1
  let main_c : IVec S_ 1 := constantI S_ 1 1#1
  let main_v3 : IVec S_ 1 := (fun x v => Host.reduce IntOp.andi x v reducesTo_S9x119x256_S_d0_1_2 h_S_) main_v2 main_c
  let main_v4 : FVec F S3x22x256 .f32 := Host.absf main_arg5
  let main_cst_0 : FVec F S_ .f32 := constant S_ .f32 0x7F800000#32
  let main_v5 : FVec F S3x22x256 .f32 := broadcastInDim S3x22x256 ![] bcast_S_S3x22x256 main_cst_0
  let main_v6 : IVec S3x22x256 1 := cmpf .olt main_v4 main_v5
  let main_c_1 : IVec S_ 1 := constantI S_ 1 1#1
  let main_v7 : IVec S_ 1 := (fun x v => Host.reduce IntOp.andi x v reducesTo_S3x22x256_S_d0_1_2 h_S_) main_v6 main_c_1
  let main_v8 : IVec S_ 1 := andi main_v3 main_v7
  let main_v9 : FVec F S4x256x512 .f32 := Host.absf main_arg6
  let main_cst_2 : FVec F S_ .f32 := constant S_ .f32 0x7F800000#32
  let main_v10 : FVec F S4x256x512 .f32 := broadcastInDim S4x256x512 ![] bcast_S_S4x256x512 main_cst_2
  let main_v11 : IVec S4x256x512 1 := cmpf .olt main_v9 main_v10
  let main_c_3 : IVec S_ 1 := constantI S_ 1 1#1
  let main_v12 : IVec S_ 1 := (fun x v => Host.reduce IntOp.andi x v reducesTo_S4x256x512_S_d0_1_2 h_S_) main_v11 main_c_3
  let main_v13 : IVec S_ 1 := andi main_v8 main_v12
  let main_v14 : FVec F S4x512 .f32 := Host.absf main_arg7
  let main_cst_4 : FVec F S_ .f32 := constant S_ .f32 0x7F800000#32
  let main_v15 : FVec F S4x512 .f32 := broadcastInDim S4x512 ![] bcast_S_S4x512 main_cst_4
  let main_v16 : IVec S4x512 1 := cmpf .olt main_v14 main_v15
  fn_part1 (F := F) main_arg2 main_arg8 main_arg9 main_arg10 main_arg11 main_arg12 main_arg13 main_v13 main_v16
-- ==== Kernel.lean ====
abbrev S100000x9 : Shape := ⟨2, ![100000, 9]⟩
abbrev S200000x3 : Shape := ⟨2, ![200000, 3]⟩
abbrev S2x200000 : Shape := ⟨2, ![2, 200000]⟩
abbrev S100000 : Shape := ⟨1, ![100000]⟩
abbrev S9x119x256 : Shape := ⟨3, ![9, 119, 256]⟩
abbrev S3x22x256 : Shape := ⟨3, ![3, 22, 256]⟩
abbrev S4x256x512 : Shape := ⟨3, ![4, 256, 512]⟩
abbrev S4x512 : Shape := ⟨2, ![4, 512]⟩
abbrev S4x512x256 : Shape := ⟨3, ![4, 512, 256]⟩
abbrev S4x256 : Shape := ⟨2, ![4, 256]⟩
abbrev S256x256 : Shape := ⟨2, ![256, 256]⟩
abbrev S256 : Shape := ⟨1, ![256]⟩
abbrev S256x768 : Shape := ⟨2, ![256, 768]⟩
abbrev S768 : Shape := ⟨1, ![768]⟩
abbrev S1x119x256 : Shape := ⟨3, ![1, 119, 256]⟩
abbrev S119x256 : Shape := ⟨2, ![119, 256]⟩
abbrev S100000x1 : Shape := ⟨2, ![100000, 1]⟩
abbrev S_ : Shape := ⟨0, ![]⟩
abbrev S100000x256 : Shape := ⟨2, ![100000, 256]⟩
abbrev S1x22x256 : Shape := ⟨3, ![1, 22, 256]⟩
abbrev S22x256 : Shape := ⟨2, ![22, 256]⟩
abbrev S200000x1 : Shape := ⟨2, ![200000, 1]⟩
abbrev S200000 : Shape := ⟨1, ![200000]⟩
abbrev S200000x256 : Shape := ⟨2, ![200000, 256]⟩
abbrev S1x200000 : Shape := ⟨2, ![1, 200000]⟩
abbrev S1 : Shape := ⟨1, ![1]⟩
abbrev S1x1 : Shape := ⟨2, ![1, 1]⟩
abbrev S2000x256 : Shape := ⟨2, ![2000, 256]⟩
abbrev S1x256x512 : Shape := ⟨3, ![1, 256, 512]⟩
abbrev S256x512 : Shape := ⟨2, ![256, 512]⟩
abbrev S1x512 : Shape := ⟨2, ![1, 512]⟩
abbrev S512 : Shape := ⟨1, ![512]⟩
abbrev S1x512x256 : Shape := ⟨3, ![1, 512, 256]⟩
abbrev S512x256 : Shape := ⟨2, ![512, 256]⟩
abbrev S1x256 : Shape := ⟨2, ![1, 256]⟩
abbrev S2000x512 : Shape := ⟨2, ![2000, 512]⟩
abbrev S4096x256 : Shape := ⟨2, ![4096, 256]⟩
abbrev S4096x768 : Shape := ⟨2, ![4096, 768]⟩
abbrev S1024x256 : Shape := ⟨2, ![1024, 256]⟩
abbrev S1024x768 : Shape := ⟨2, ![1024, 768]⟩
abbrev S1x768 : Shape := ⟨2, ![1, 768]⟩
abbrev S1024 : Shape := ⟨1, ![1024]⟩
abbrev S1024x1 : Shape := ⟨2, ![1024, 1]⟩

abbrev nBuf : Space → Nat
  | .hbm => 337
  | .vmem => 72
  | .smem => 0
  | _ => 0

abbrev hbmTy0_0 (i : Nat) : BufTy := match i % 128 with
  | 0 => ⟨S100000x9, .i32⟩
  | 1 => ⟨S200000x3, .i32⟩
  | 2 => ⟨S2x200000, .i32⟩
  | 3 => ⟨S100000, .i32⟩
  | 4 => ⟨S9x119x256, .f32⟩
  | 5 => ⟨S3x22x256, .f32⟩
  | 6 => ⟨S4x256x512, .f32⟩
  | 7 => ⟨S4x512, .f32⟩
  | 8 => ⟨S4x512x256, .f32⟩
  | 9 => ⟨S4x256, .f32⟩
  | 10 => ⟨S256x256, .f32⟩
  | 11 => ⟨S256, .f32⟩
  | 12 => ⟨S256x768, .f32⟩
  | 13 => ⟨S768, .f32⟩
  | 14 => ⟨S1x119x256, .f32⟩
  | 15 => ⟨S119x256, .f32⟩
  | 16 => ⟨S100000x1, .i32⟩
  | 17 => ⟨S100000, .i32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x256, .f32⟩
  | 27 => ⟨S1x119x256, .f32⟩
  | 28 => ⟨S119x256, .f32⟩
  | 29 => ⟨S100000x1, .i32⟩
  | 30 => ⟨S100000, .i32⟩
  | 31 => ⟨S_, .i32⟩
  | 32 => ⟨S100000, .i32⟩
  | 33 => ⟨S100000, .i1⟩
  | 34 => ⟨S_, .i32⟩
  | 35 => ⟨S100000, .i32⟩
  | 36 => ⟨S100000, .i32⟩
  | 37 => ⟨S100000, .i32⟩
  | 38 => ⟨S100000x1, .i32⟩
  | 39 => ⟨S100000x256, .f32⟩
  | 40 => ⟨S100000x256, .f32⟩
  | 41 => ⟨S1x119x256, .f32⟩
  | 42 => ⟨S119x256, .f32⟩
  | 43 => ⟨S100000x1, .i32⟩
  | 44 => ⟨S100000, .i32⟩
  | 45 => ⟨S_, .i32⟩
  | 46 => ⟨S100000, .i32⟩
  | 47 => ⟨S100000, .i1⟩
  | 48 => ⟨S_, .i32⟩
  | 49 => ⟨S100000, .i32⟩
  | 50 => ⟨S100000, .i32⟩
  | 51 => ⟨S100000, .i32⟩
  | 52 => ⟨S100000x1, .i32⟩
  | 53 => ⟨S100000x256, .f32⟩
  | 54 => ⟨S100000x256, .f32⟩
  | 55 => ⟨S1x119x256, .f32⟩
  | 56 => ⟨S119x256, .f32⟩
  | 57 => ⟨S100000x1, .i32⟩
  | 58 => ⟨S100000, .i32⟩
  | 59 => ⟨S_, .i32⟩
  | 60 => ⟨S100000, .i32⟩
  | 61 => ⟨S100000, .i1⟩
  | 62 => ⟨S_, .i32⟩
  | 63 => ⟨S100000, .i32⟩
  | 64 => ⟨S100000, .i32⟩
  | 65 => ⟨S100000, .i32⟩
  | 66 => ⟨S100000x1, .i32⟩
  | 67 => ⟨S100000x256, .f32⟩
  | 68 => ⟨S100000x256, .f32⟩
  | 69 => ⟨S1x119x256, .f32⟩
  | 70 => ⟨S119x256, .f32⟩
  | 71 => ⟨S100000x1, .i32⟩
  | 72 => ⟨S100000, .i32⟩
  | 73 => ⟨S_, .i32⟩
  | 74 => ⟨S100000, .i32⟩
  | 75 => ⟨S100000, .i1⟩
  | 76 => ⟨S_, .i32⟩
  | 77 => ⟨S100000, .i32⟩
  | 78 => ⟨S100000, .i32⟩
  | 79 => ⟨S100000, .i32⟩
  | 80 => ⟨S100000x1, .i32⟩
  | 81 => ⟨S100000x256, .f32⟩
  | 82 => ⟨S100000x256, .f32⟩
  | 83 => ⟨S1x119x256, .f32⟩
  | 84 => ⟨S119x256, .f32⟩
  | 85 => ⟨S100000x1, .i32⟩
  | 86 => ⟨S100000, .i32⟩
  | 87 => ⟨S_, .i32⟩
  | 88 => ⟨S100000, .i32⟩
  | 89 => ⟨S100000, .i1⟩
  | 90 => ⟨S_, .i32⟩
  | 91 => ⟨S100000, .i32⟩
  | 92 => ⟨S100000, .i32⟩
  | 93 => ⟨S100000, .i32⟩
  | 94 => ⟨S100000x1, .i32⟩
  | 95 => ⟨S100000x256, .f32⟩
  | 96 => ⟨S100000x256, .f32⟩
  | 97 => ⟨S1x119x256, .f32⟩
  | 98 => ⟨S119x256, .f32⟩
  | 99 => ⟨S100000x1, .i32⟩
  | 100 => ⟨S100000, .i32⟩
  | 101 => ⟨S_, .i32⟩
  | 102 => ⟨S100000, .i32⟩
  | 103 => ⟨S100000, .i1⟩
  | 104 => ⟨S_, .i32⟩
  | 105 => ⟨S100000, .i32⟩
  | 106 => ⟨S100000, .i32⟩
  | 107 => ⟨S100000, .i32⟩
  | 108 => ⟨S100000x1, .i32⟩
  | 109 => ⟨S100000x256, .f32⟩
  | 110 => ⟨S100000x256, .f32⟩
  | 111 => ⟨S1x119x256, .f32⟩
  | 112 => ⟨S119x256, .f32⟩
  | 113 => ⟨S100000x1, .i32⟩
  | 114 => ⟨S100000, .i32⟩
  | 115 => ⟨S_, .i32⟩
  | 116 => ⟨S100000, .i32⟩
  | 117 => ⟨S100000, .i1⟩
  | 118 => ⟨S_, .i32⟩
  | 119 => ⟨S100000, .i32⟩
  | 120 => ⟨S100000, .i32⟩
  | 121 => ⟨S100000, .i32⟩
  | 122 => ⟨S100000x1, .i32⟩
  | 123 => ⟨S100000x256, .f32⟩
  | 124 => ⟨S100000x256, .f32⟩
  | 125 => ⟨S1x119x256, .f32⟩
  | 126 => ⟨S119x256, .f32⟩
  | 127 => ⟨S100000x1, .i32⟩
  | _ => ⟨S100000x9, .i32⟩

abbrev hbmTy0_1 (i : Nat) : BufTy := match i % 128 with
  | 0 => ⟨S100000, .i32⟩
  | 1 => ⟨S_, .i32⟩
  | 2 => ⟨S100000, .i32⟩
  | 3 => ⟨S100000, .i1⟩
  | 4 => ⟨S_, .i32⟩
  | 5 => ⟨S100000, .i32⟩
  | 6 => ⟨S100000, .i32⟩
  | 7 => ⟨S100000, .i32⟩
  | 8 => ⟨S100000x1, .i32⟩
  | 9 => ⟨S100000x256, .f32⟩
  | 10 => ⟨S100000x256, .f32⟩
  | 11 => ⟨S1x22x256, .f32⟩
  | 12 => ⟨S22x256, .f32⟩
  | 13 => ⟨S200000x1, .i32⟩
  | 14 => ⟨S200000, .i32⟩
  | 15 => ⟨S_, .i32⟩
  | 16 => ⟨S200000, .i32⟩
  | 17 => ⟨S200000, .i1⟩
  | 18 => ⟨S_, .i32⟩
  | 19 => ⟨S200000, .i32⟩
  | 20 => ⟨S200000, .i32⟩
  | 21 => ⟨S200000, .i32⟩
  | 22 => ⟨S200000x1, .i32⟩
  | 23 => ⟨S200000x256, .f32⟩
  | 24 => ⟨S1x22x256, .f32⟩
  | 25 => ⟨S22x256, .f32⟩
  | 26 => ⟨S200000x1, .i32⟩
  | 27 => ⟨S200000, .i32⟩
  | 28 => ⟨S_, .i32⟩
  | 29 => ⟨S200000, .i32⟩
  | 30 => ⟨S200000, .i1⟩
  | 31 => ⟨S_, .i32⟩
  | 32 => ⟨S200000, .i32⟩
  | 33 => ⟨S200000, .i32⟩
  | 34 => ⟨S200000, .i32⟩
  | 35 => ⟨S200000x1, .i32⟩
  | 36 => ⟨S200000x256, .f32⟩
  | 37 => ⟨S200000x256, .f32⟩
  | 38 => ⟨S1x22x256, .f32⟩
  | 39 => ⟨S22x256, .f32⟩
  | 40 => ⟨S200000x1, .i32⟩
  | 41 => ⟨S200000, .i32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x256, .f32⟩
  | 51 => ⟨S200000x256, .f32⟩
  | 52 => ⟨S1x200000, .i32⟩
  | 53 => ⟨S200000, .i32⟩
  | 54 => ⟨S1x200000, .i32⟩
  | 55 => ⟨S200000, .i32⟩
  | 56 => ⟨S_, .i32⟩
  | 57 => ⟨S200000, .i32⟩
  | 58 => ⟨S200000, .i1⟩
  | 59 => ⟨S_, .i32⟩
  | 60 => ⟨S200000, .i32⟩
  | 61 => ⟨S200000, .i32⟩
  | 62 => ⟨S200000, .i32⟩
  | 63 => ⟨S200000x1, .i32⟩
  | 64 => ⟨S1, .i32⟩
  | 65 => ⟨S_, .i32⟩
  | 66 => ⟨S200000x1, .i32⟩
  | 67 => ⟨S200000x1, .i1⟩
  | 68 => ⟨S1x1, .i32⟩
  | 69 => ⟨S200000x1, .i32⟩
  | 70 => ⟨S200000x1, .i1⟩
  | 71 => ⟨S200000x1, .i1⟩
  | 72 => ⟨S_, .i1⟩
  | 73 => ⟨S200000, .i1⟩
  | 74 => ⟨S200000x256, .f32⟩
  | 75 => ⟨S200000x256, .i1⟩
  | 76 => ⟨S_, .f32⟩
  | 77 => ⟨S200000x256, .f32⟩
  | 78 => ⟨S200000x256, .f32⟩
  | 79 => ⟨S200000x256, .f32⟩
  | 80 => ⟨S_, .f32⟩
  | 81 => ⟨S100000x256, .f32⟩
  | 82 => ⟨S200000x1, .i32⟩
  | 83 => ⟨S100000x256, .f32⟩
  | 84 => ⟨S1x256x512, .f32⟩
  | 85 => ⟨S256x512, .f32⟩
  | 86 => ⟨S1x512, .f32⟩
  | 87 => ⟨S512, .f32⟩
  | 88 => ⟨S1x512x256, .f32⟩
  | 89 => ⟨S512x256, .f32⟩
  | 90 => ⟨S1x256, .f32⟩
  | 91 => ⟨S256, .f32⟩
  | 92 => ⟨S100000x256, .f32⟩
  | 93 => ⟨S_, .i32⟩
  | 94 => ⟨S200000, .i32⟩
  | 95 => ⟨S200000, .i1⟩
  | 96 => ⟨S_, .i32⟩
  | 97 => ⟨S200000, .i32⟩
  | 98 => ⟨S200000, .i32⟩
  | 99 => ⟨S200000, .i32⟩
  | 100 => ⟨S200000x1, .i32⟩
  | 101 => ⟨S1, .i32⟩
  | 102 => ⟨S_, .i32⟩
  | 103 => ⟨S200000x1, .i32⟩
  | 104 => ⟨S200000x1, .i1⟩
  | 105 => ⟨S1x1, .i32⟩
  | 106 => ⟨S200000x1, .i32⟩
  | 107 => ⟨S200000x1, .i1⟩
  | 108 => ⟨S200000x1, .i1⟩
  | 109 => ⟨S_, .i1⟩
  | 110 => ⟨S200000, .i1⟩
  | 111 => ⟨S200000x256, .f32⟩
  | 112 => ⟨S200000x256, .i1⟩
  | 113 => ⟨S_, .f32⟩
  | 114 => ⟨S200000x256, .f32⟩
  | 115 => ⟨S200000x256, .f32⟩
  | 116 => ⟨S200000x256, .f32⟩
  | 117 => ⟨S_, .f32⟩
  | 118 => ⟨S100000x256, .f32⟩
  | 119 => ⟨S200000x1, .i32⟩
  | 120 => ⟨S100000x256, .f32⟩
  | 121 => ⟨S1x256x512, .f32⟩
  | 122 => ⟨S256x512, .f32⟩
  | 123 => ⟨S1x512, .f32⟩
  | 124 => ⟨S512, .f32⟩
  | 125 => ⟨S1x512x256, .f32⟩
  | 126 => ⟨S512x256, .f32⟩
  | 127 => ⟨S1x256, .f32⟩
  | _ => ⟨S100000x9, .i32⟩

abbrev hbmTy0_2 (i : Nat) : BufTy := match i % 128 with
  | 0 => ⟨S256, .f32⟩
  | 1 => ⟨S100000x256, .f32⟩
  | 2 => ⟨S_, .i32⟩
  | 3 => ⟨S200000, .i32⟩
  | 4 => ⟨S200000, .i1⟩
  | 5 => ⟨S_, .i32⟩
  | 6 => ⟨S200000, .i32⟩
  | 7 => ⟨S200000, .i32⟩
  | 8 => ⟨S200000, .i32⟩
  | 9 => ⟨S200000x1, .i32⟩
  | 10 => ⟨S1, .i32⟩
  | 11 => ⟨S_, .i32⟩
  | 12 => ⟨S200000x1, .i32⟩
  | 13 => ⟨S200000x1, .i1⟩
  | 14 => ⟨S1x1, .i32⟩
  | 15 => ⟨S200000x1, .i32⟩
  | 16 => ⟨S200000x1, .i1⟩
  | 17 => ⟨S200000x1, .i1⟩
  | 18 => ⟨S_, .i1⟩
  | 19 => ⟨S200000, .i1⟩
  | 20 => ⟨S200000x256, .f32⟩
  | 21 => ⟨S200000x256, .i1⟩
  | 22 => ⟨S_, .f32⟩
  | 23 => ⟨S200000x256, .f32⟩
  | 24 => ⟨S200000x256, .f32⟩
  | 25 => ⟨S200000x256, .f32⟩
  | 26 => ⟨S_, .f32⟩
  | 27 => ⟨S100000x256, .f32⟩
  | 28 => ⟨S200000x1, .i32⟩
  | 29 => ⟨S100000x256, .f32⟩
  | 30 => ⟨S1x256x512, .f32⟩
  | 31 => ⟨S256x512, .f32⟩
  | 32 => ⟨S1x512, .f32⟩
  | 33 => ⟨S512, .f32⟩
  | 34 => ⟨S1x512x256, .f32⟩
  | 35 => ⟨S512x256, .f32⟩
  | 36 => ⟨S1x256, .f32⟩
  | 37 => ⟨S256, .f32⟩
  | 38 => ⟨S100000x256, .f32⟩
  | 39 => ⟨S_, .i32⟩
  | 40 => ⟨S200000, .i32⟩
  | 41 => ⟨S200000, .i1⟩
  | 42 => ⟨S_, .i32⟩
  | 43 => ⟨S200000, .i32⟩
  | 44 => ⟨S200000, .i32⟩
  | 45 => ⟨S200000, .i32⟩
  | 46 => ⟨S200000x1, .i32⟩
  | 47 => ⟨S1, .i32⟩
  | 48 => ⟨S_, .i32⟩
  | 49 => ⟨S200000x1, .i32⟩
  | 50 => ⟨S200000x1, .i1⟩
  | 51 => ⟨S1x1, .i32⟩
  | 52 => ⟨S200000x1, .i32⟩
  | 53 => ⟨S200000x1, .i1⟩
  | 54 => ⟨S200000x1, .i1⟩
  | 55 => ⟨S_, .i1⟩
  | 56 => ⟨S200000, .i1⟩
  | 57 => ⟨S200000x256, .f32⟩
  | 58 => ⟨S200000x256, .i1⟩
  | 59 => ⟨S_, .f32⟩
  | 60 => ⟨S200000x256, .f32⟩
  | 61 => ⟨S200000x256, .f32⟩
  | 62 => ⟨S200000x256, .f32⟩
  | 63 => ⟨S_, .f32⟩
  | 64 => ⟨S100000x256, .f32⟩
  | 65 => ⟨S200000x1, .i32⟩
  | 66 => ⟨S100000x256, .f32⟩
  | 67 => ⟨S1x256x512, .f32⟩
  | 68 => ⟨S256x512, .f32⟩
  | 69 => ⟨S1x512, .f32⟩
  | 70 => ⟨S512, .f32⟩
  | 71 => ⟨S1x512x256, .f32⟩
  | 72 => ⟨S512x256, .f32⟩
  | 73 => ⟨S1x256, .f32⟩
  | 74 => ⟨S256, .f32⟩
  | 75 => ⟨S100000x256, .f32⟩
  | 76 => ⟨S_, .f32⟩
  | 77 => ⟨S4096x256, .f32⟩
  | 78 => ⟨S100000x1, .i32⟩
  | 79 => ⟨S4096x256, .f32⟩
  | 80 => ⟨S4096x768, .f32⟩
  | _ => ⟨S100000x9, .i32⟩

abbrev hbmTy (i : Nat) : BufTy := match i / 128 with
  | 0 => hbmTy0_0 i
  | 1 => hbmTy0_1 i
  | 2 => hbmTy0_2 i
  | _ => ⟨S100000x9, .i32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x512, .f32⟩
  | .local _ .vmem, ⟨11, _⟩ => ⟨S512, .f32⟩
  | .local _ .vmem, ⟨12, _⟩ => ⟨S512x256, .f32⟩
  | .local _ .vmem, ⟨13, _⟩ => ⟨S256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256x512, .f32⟩
  | .local _ .vmem, ⟨27, _⟩ => ⟨S512, .f32⟩
  | .local _ .vmem, ⟨28, _⟩ => ⟨S512x256, .f32⟩
  | .local _ .vmem, ⟨29, _⟩ => ⟨S256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S256x512, .f32⟩
  | .local _ .vmem, ⟨43, _⟩ => ⟨S512, .f32⟩
  | .local _ .vmem, ⟨44, _⟩ => ⟨S512x256, .f32⟩
  | .local _ .vmem, ⟨45, _⟩ => ⟨S256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S2000x256, .f32⟩
  | .local _ .vmem, ⟨52, _⟩ => ⟨S2000x256, .f32⟩
  | .local _ .vmem, ⟨53, _⟩ => ⟨S2000x256, .f32⟩
  | .local _ .vmem, ⟨54, _⟩ => ⟨S2000x256, .f32⟩
  | .local _ .vmem, ⟨55, _⟩ => ⟨S2000x256, .f32⟩
  | .local _ .vmem, ⟨56, _⟩ => ⟨S2000x256, .f32⟩
  | .local _ .vmem, ⟨57, _⟩ => ⟨S2000x256, .f32⟩
  | .local _ .vmem, ⟨58, _⟩ => ⟨S256x512, .f32⟩
  | .local _ .vmem, ⟨59, _⟩ => ⟨S512, .f32⟩
  | .local _ .vmem, ⟨60, _⟩ => ⟨S512x256, .f32⟩
  | .local _ .vmem, ⟨61, _⟩ => ⟨S256, .f32⟩
  | .local _ .vmem, ⟨62, _⟩ => ⟨S2000x256, .f32⟩
  | .local _ .vmem, ⟨63, _⟩ => ⟨S2000x256, .f32⟩
  | .local _ .vmem, ⟨64, _⟩ => ⟨S1024x256, .f32⟩
  | .local _ .vmem, ⟨65, _⟩ => ⟨S1024x256, .f32⟩
  | .local _ .vmem, ⟨66, _⟩ => ⟨S256x256, .f32⟩
  | .local _ .vmem, ⟨67, _⟩ => ⟨S256, .f32⟩
  | .local _ .vmem, ⟨68, _⟩ => ⟨S256x768, .f32⟩
  | .local _ .vmem, ⟨69, _⟩ => ⟨S768, .f32⟩
  | .local _ .vmem, ⟨70, _⟩ => ⟨S1024x768, .f32⟩
  | .local _ .vmem, ⟨71, _⟩ => ⟨S1024x768, .f32⟩
  | _, _ => ⟨S100000x9, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_5 : Ref sig .tc := ⟨.hbm, 59, rfl⟩
abbrev main_v39 : Ref sig .tc := ⟨.hbm, 60, rfl⟩
abbrev main_v40 : Ref sig .tc := ⟨.hbm, 61, rfl⟩
abbrev main_c_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_7 : Ref sig .tc := ⟨.hbm, 73, rfl⟩
abbrev main_v51 : Ref sig .tc := ⟨.hbm, 74, rfl⟩
abbrev main_v52 : Ref sig .tc := ⟨.hbm, 75, rfl⟩
abbrev main_c_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_9 : Ref sig .tc := ⟨.hbm, 87, rfl⟩
abbrev main_v63 : Ref sig .tc := ⟨.hbm, 88, rfl⟩
abbrev main_v64 : Ref sig .tc := ⟨.hbm, 89, rfl⟩
abbrev main_c_10 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_11 : Ref sig .tc := ⟨.hbm, 101, rfl⟩
abbrev main_v75 : Ref sig .tc := ⟨.hbm, 102, rfl⟩
abbrev main_v76 : Ref sig .tc := ⟨.hbm, 103, rfl⟩
abbrev main_c_12 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_13 : Ref sig .tc := ⟨.hbm, 115, rfl⟩
abbrev main_v87 : Ref sig .tc := ⟨.hbm, 116, rfl⟩
abbrev main_v88 : Ref sig .tc := ⟨.hbm, 117, rfl⟩
abbrev main_c_14 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_c_15 : Ref sig .tc := ⟨.hbm, 129, rfl⟩
abbrev main_v99 : Ref sig .tc := ⟨.hbm, 130, rfl⟩
abbrev main_v100 : Ref sig .tc := ⟨.hbm, 131, rfl⟩
abbrev main_c_16 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_c_17 : Ref sig .tc := ⟨.hbm, 143, rfl⟩
abbrev main_v111 : Ref sig .tc := ⟨.hbm, 144, rfl⟩
abbrev main_v112 : Ref sig .tc := ⟨.hbm, 145, rfl⟩
abbrev main_c_18 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_c_19 : Ref sig .tc := ⟨.hbm, 156, rfl⟩
abbrev main_v122 : Ref sig .tc := ⟨.hbm, 157, rfl⟩
abbrev main_v123 : Ref sig .tc := ⟨.hbm, 158, rfl⟩
abbrev main_c_20 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_c_21 : Ref sig .tc := ⟨.hbm, 170, rfl⟩
abbrev main_v134 : Ref sig .tc := ⟨.hbm, 171, rfl⟩
abbrev main_v135 : Ref sig .tc := ⟨.hbm, 172, rfl⟩
abbrev main_c_22 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_call0_c : Ref sig .tc := ⟨.hbm, 184, rfl⟩
abbrev main_call0_v0 : Ref sig .tc := ⟨.hbm, 185, rfl⟩
abbrev main_call0_v1 : Ref sig .tc := ⟨.hbm, 186, rfl⟩
abbrev main_call0_c_0 : Ref sig .tc := ⟨.hbm, 187, rfl⟩
abbrev main_call0_v2 : Ref sig .tc := ⟨.hbm, 188, rfl⟩
abbrev main_call0_v3 : Ref sig .tc := ⟨.hbm, 189, rfl⟩
abbrev main_call0_v4 : Ref sig .tc := ⟨.hbm, 190, rfl⟩
abbrev main_call0_v5 : Ref sig .tc := ⟨.hbm, 191, rfl⟩
abbrev main_call0_c_1 : Ref sig .tc := ⟨.hbm, 192, rfl⟩
abbrev main_call0_c_2 : Ref sig .tc := ⟨.hbm, 193, rfl⟩
abbrev main_call0_v6 : Ref sig .tc := ⟨.hbm, 194, rfl⟩
abbrev main_call0_v7 : Ref sig .tc := ⟨.hbm, 195, rfl⟩
abbrev main_call0_v8 : Ref sig .tc := ⟨.hbm, 196, rfl⟩
abbrev main_call0_v9 : Ref sig .tc := ⟨.hbm, 197, rfl⟩
abbrev main_call0_v10 : Ref sig .tc := ⟨.hbm, 198, rfl⟩
abbrev main_call0_v11 : Ref sig .tc := ⟨.hbm, 199, rfl⟩
abbrev main_call0_c_3 : Ref sig .tc := ⟨.hbm, 200, rfl⟩
abbrev main_call0_v12 : Ref sig .tc := ⟨.hbm, 201, rfl⟩
abbrev main_call0_v13 : Ref sig .tc := ⟨.hbm, 202, rfl⟩
abbrev main_call0_v14 : Ref sig .tc := ⟨.hbm, 203, rfl⟩
abbrev main_call0_cst : Ref sig .tc := ⟨.hbm, 204, rfl⟩
abbrev main_call0_v15 : Ref sig .tc := ⟨.hbm, 205, rfl⟩
abbrev main_v146 : Ref sig .tc := ⟨.hbm, 206, rfl⟩
abbrev main_v147 : Ref sig .tc := ⟨.hbm, 207, rfl⟩
abbrev main_cst : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_call1_c : Ref sig .tc := ⟨.hbm, 221, rfl⟩
abbrev main_call1_v0 : Ref sig .tc := ⟨.hbm, 222, rfl⟩
abbrev main_call1_v1 : Ref sig .tc := ⟨.hbm, 223, rfl⟩
abbrev main_call1_c_0 : Ref sig .tc := ⟨.hbm, 224, rfl⟩
abbrev main_call1_v2 : Ref sig .tc := ⟨.hbm, 225, rfl⟩
abbrev main_call1_v3 : Ref sig .tc := ⟨.hbm, 226, rfl⟩
abbrev main_call1_v4 : Ref sig .tc := ⟨.hbm, 227, rfl⟩
abbrev main_call1_v5 : Ref sig .tc := ⟨.hbm, 228, rfl⟩
abbrev main_call1_c_1 : Ref sig .tc := ⟨.hbm, 229, rfl⟩
abbrev main_call1_c_2 : Ref sig .tc := ⟨.hbm, 230, rfl⟩
abbrev main_call1_v6 : Ref sig .tc := ⟨.hbm, 231, rfl⟩
abbrev main_call1_v7 : Ref sig .tc := ⟨.hbm, 232, rfl⟩
abbrev main_call1_v8 : Ref sig .tc := ⟨.hbm, 233, rfl⟩
abbrev main_call1_v9 : Ref sig .tc := ⟨.hbm, 234, rfl⟩
abbrev main_call1_v10 : Ref sig .tc := ⟨.hbm, 235, rfl⟩
abbrev main_call1_v11 : Ref sig .tc := ⟨.hbm, 236, rfl⟩
abbrev main_call1_c_3 : Ref sig .tc := ⟨.hbm, 237, rfl⟩
abbrev main_call1_v12 : Ref sig .tc := ⟨.hbm, 238, rfl⟩
abbrev main_call1_v13 : Ref sig .tc := ⟨.hbm, 239, rfl⟩
abbrev main_call1_v14 : Ref sig .tc := ⟨.hbm, 240, rfl⟩
abbrev main_call1_cst : Ref sig .tc := ⟨.hbm, 241, rfl⟩
abbrev main_call1_v15 : Ref sig .tc := ⟨.hbm, 242, rfl⟩
abbrev main_v160 : Ref sig .tc := ⟨.hbm, 243, rfl⟩
abbrev main_v161 : Ref sig .tc := ⟨.hbm, 244, rfl⟩
abbrev main_cst_23 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_call2_c : Ref sig .tc := ⟨.hbm, 258, rfl⟩
abbrev main_call2_v0 : Ref sig .tc := ⟨.hbm, 259, rfl⟩
abbrev main_call2_v1 : Ref sig .tc := ⟨.hbm, 260, rfl⟩
abbrev main_call2_c_0 : Ref sig .tc := ⟨.hbm, 261, rfl⟩
abbrev main_call2_v2 : Ref sig .tc := ⟨.hbm, 262, rfl⟩
abbrev main_call2_v3 : Ref sig .tc := ⟨.hbm, 263, rfl⟩
abbrev main_call2_v4 : Ref sig .tc := ⟨.hbm, 264, rfl⟩
abbrev main_call2_v5 : Ref sig .tc := ⟨.hbm, 265, rfl⟩
abbrev main_call2_c_1 : Ref sig .tc := ⟨.hbm, 266, rfl⟩
abbrev main_call2_c_2 : Ref sig .tc := ⟨.hbm, 267, rfl⟩
abbrev main_call2_v6 : Ref sig .tc := ⟨.hbm, 268, rfl⟩
abbrev main_call2_v7 : Ref sig .tc := ⟨.hbm, 269, rfl⟩
abbrev main_call2_v8 : Ref sig .tc := ⟨.hbm, 270, rfl⟩
abbrev main_call2_v9 : Ref sig .tc := ⟨.hbm, 271, rfl⟩
abbrev main_call2_v10 : Ref sig .tc := ⟨.hbm, 272, rfl⟩
abbrev main_call2_v11 : Ref sig .tc := ⟨.hbm, 273, rfl⟩
abbrev main_call2_c_3 : Ref sig .tc := ⟨.hbm, 274, rfl⟩
abbrev main_call2_v12 : Ref sig .tc := ⟨.hbm, 275, rfl⟩
abbrev main_call2_v13 : Ref sig .tc := ⟨.hbm, 276, rfl⟩
abbrev main_call2_v14 : Ref sig .tc := ⟨.hbm, 277, rfl⟩
abbrev main_call2_cst : Ref sig .tc := ⟨.hbm, 278, rfl⟩
abbrev main_call2_v15 : Ref sig .tc := ⟨.hbm, 279, rfl⟩
abbrev main_v174 : Ref sig .tc := ⟨.hbm, 280, rfl⟩
abbrev main_v175 : Ref sig .tc := ⟨.hbm, 281, rfl⟩
abbrev main_cst_24 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_v179 : Ref sig .tc := ⟨.hbm, 286, rfl⟩
abbrev main_v180 : Ref sig .tc := ⟨.hbm, 287, rfl⟩
abbrev main_v181 : Ref sig .tc := ⟨.hbm, 288, rfl⟩
abbrev main_v182 : Ref sig .tc := ⟨.hbm, 289, rfl⟩
abbrev main_v183 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_v187 : Ref sig .tc := ⟨.hbm, 294, rfl⟩
abbrev main_call3_c : Ref sig .tc := ⟨.hbm, 295, rfl⟩
abbrev main_call3_v0 : Ref sig .tc := ⟨.hbm, 296, rfl⟩
abbrev main_call3_v1 : Ref sig .tc := ⟨.hbm, 297, rfl⟩
abbrev main_call3_c_0 : Ref sig .tc := ⟨.hbm, 298, rfl⟩
abbrev main_call3_v2 : Ref sig .tc := ⟨.hbm, 299, rfl⟩
abbrev main_call3_v3 : Ref sig .tc := ⟨.hbm, 300, rfl⟩
abbrev main_call3_v4 : Ref sig .tc := ⟨.hbm, 301, rfl⟩
abbrev main_call3_v5 : Ref sig .tc := ⟨.hbm, 302, rfl⟩
abbrev main_call3_c_1 : Ref sig .tc := ⟨.hbm, 303, rfl⟩
abbrev main_call3_c_2 : Ref sig .tc := ⟨.hbm, 304, rfl⟩
abbrev main_call3_v6 : Ref sig .tc := ⟨.hbm, 305, rfl⟩
abbrev main_call3_v7 : Ref sig .tc := ⟨.hbm, 306, rfl⟩
abbrev main_call3_v8 : Ref sig .tc := ⟨.hbm, 307, rfl⟩
abbrev main_call3_v9 : Ref sig .tc := ⟨.hbm, 308, rfl⟩
abbrev main_call3_v10 : Ref sig .tc := ⟨.hbm, 309, rfl⟩
abbrev main_call3_v11 : Ref sig .tc := ⟨.hbm, 310, rfl⟩
abbrev main_call3_c_3 : Ref sig .tc := ⟨.hbm, 311, rfl⟩
abbrev main_call3_v12 : Ref sig .tc := ⟨.hbm, 312, rfl⟩
abbrev main_call3_v13 : Ref sig .tc := ⟨.hbm, 313, rfl⟩
abbrev main_call3_v14 : Ref sig .tc := ⟨.hbm, 314, rfl⟩
abbrev main_call3_cst : Ref sig .tc := ⟨.hbm, 315, rfl⟩
abbrev main_call3_v15 : Ref sig .tc := ⟨.hbm, 316, rfl⟩
abbrev main_v188 : Ref sig .tc := ⟨.hbm, 317, rfl⟩
abbrev main_v189 : Ref sig .tc := ⟨.hbm, 318, rfl⟩
abbrev main_cst_25 : Ref sig .tc := ⟨.hbm, 319, rfl⟩
abbrev main_v190 : Ref sig .tc := ⟨.hbm, 320, rfl⟩
abbrev main_v191 : Ref sig .tc := ⟨.hbm, 321, rfl⟩
abbrev main_v192 : Ref sig .tc := ⟨.hbm, 322, rfl⟩
abbrev main_v193 : Ref sig .tc := ⟨.hbm, 323, rfl⟩
abbrev main_v194 : Ref sig .tc := ⟨.hbm, 324, rfl⟩
abbrev main_v195 : Ref sig .tc := ⟨.hbm, 325, rfl⟩
abbrev main_v196 : Ref sig .tc := ⟨.hbm, 326, rfl⟩
abbrev main_v197 : Ref sig .tc := ⟨.hbm, 327, rfl⟩
abbrev main_v198 : Ref sig .tc := ⟨.hbm, 328, rfl⟩
abbrev main_v199 : Ref sig .tc := ⟨.hbm, 329, rfl⟩
abbrev main_v200 : Ref sig .tc := ⟨.hbm, 330, rfl⟩
abbrev main_v201 : Ref sig .tc := ⟨.hbm, 331, rfl⟩
abbrev main_cst_26 : Ref sig .tc := ⟨.hbm, 332, rfl⟩
abbrev main_v202 : Ref sig .tc := ⟨.hbm, 333, rfl⟩
abbrev main_v203 : Ref sig .tc := ⟨.hbm, 334, rfl⟩
abbrev main_v204 : Ref sig .tc := ⟨.hbm, 335, rfl⟩
abbrev main_v205 : Ref sig .tc := ⟨.hbm, 336, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg6_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg5_0 : Ref sig .tc := ⟨.vmem, 61, rfl⟩
abbrev cc7_stg6_0 : Ref sig .tc := ⟨.vmem, 62, rfl⟩
abbrev cc7_stg6_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem6_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem3_0 : DmaSem sig := 59
abbrev cc7_sem4_0 : DmaSem sig := 60
abbrev cc7_sem5_0 : DmaSem sig := 61
abbrev cc7_sem6_0 : DmaSem sig := 62
abbrev cc7_sem6_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S512x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S256x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S512x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x256 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x768 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S768 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S1024x768 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  slices_S9x119x256_S1x119x256_0_0_0 : S9x119x256.Slices ![0, 0, 0] S1x119x256
  shapeCasts_S1x119x256_S119x256 : S1x119x256.ShapeCasts S119x256
  slices_S100000x9_S100000x1_0_0 : S100000x9.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S9x119x256_S1x119x256_1_0_0 : S9x119x256.Slices ![1, 0, 0] S1x119x256
  slices_S100000x9_S100000x1_0_1 : S100000x9.Slices ![0, 1] S100000x1
  slices_S9x119x256_S1x119x256_2_0_0 : S9x119x256.Slices ![2, 0, 0] S1x119x256
  slices_S100000x9_S100000x1_0_2 : S100000x9.Slices ![0, 2] S100000x1
  slices_S9x119x256_S1x119x256_3_0_0 : S9x119x256.Slices ![3, 0, 0] S1x119x256
  slices_S100000x9_S100000x1_0_3 : S100000x9.Slices ![0, 3] S100000x1
  slices_S9x119x256_S1x119x256_4_0_0 : S9x119x256.Slices ![4, 0, 0] S1x119x256
  slices_S100000x9_S100000x1_0_4 : S100000x9.Slices ![0, 4] S100000x1
  slices_S9x119x256_S1x119x256_5_0_0 : S9x119x256.Slices ![5, 0, 0] S1x119x256
  slices_S100000x9_S100000x1_0_5 : S100000x9.Slices ![0, 5] S100000x1
  slices_S9x119x256_S1x119x256_6_0_0 : S9x119x256.Slices ![6, 0, 0] S1x119x256
  slices_S100000x9_S100000x1_0_6 : S100000x9.Slices ![0, 6] S100000x1
  slices_S9x119x256_S1x119x256_7_0_0 : S9x119x256.Slices ![7, 0, 0] S1x119x256
  slices_S100000x9_S100000x1_0_7 : S100000x9.Slices ![0, 7] S100000x1
  slices_S9x119x256_S1x119x256_8_0_0 : S9x119x256.Slices ![8, 0, 0] S1x119x256
  slices_S100000x9_S100000x1_0_8 : S100000x9.Slices ![0, 8] S100000x1
  slices_S3x22x256_S1x22x256_0_0_0 : S3x22x256.Slices ![0, 0, 0] S1x22x256
  shapeCasts_S1x22x256_S22x256 : S1x22x256.ShapeCasts S22x256
  slices_S200000x3_S200000x1_0_0 : S200000x3.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S3x22x256_S1x22x256_1_0_0 : S3x22x256.Slices ![1, 0, 0] S1x22x256
  slices_S200000x3_S200000x1_0_1 : S200000x3.Slices ![0, 1] S200000x1
  slices_S3x22x256_S1x22x256_2_0_0 : S3x22x256.Slices ![2, 0, 0] S1x22x256
  slices_S200000x3_S200000x1_0_2 : S200000x3.Slices ![0, 2] S200000x1
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x256_0 : S200000.BroadcastsInDim S200000x256 (![0] : Fin 1 → Fin S200000x256.rank)
  bcast_S_S200000x256 : S_.BroadcastsInDim S200000x256 (![] : Fin 0 → Fin S200000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bcast_S_S100000x256 : S_.BroadcastsInDim S100000x256 (![] : Fin 0 → Fin S100000x256.rank)
  slices_S4x256x512_S1x256x512_0_0_0 : S4x256x512.Slices ![0, 0, 0] S1x256x512
  shapeCasts_S1x256x512_S256x512 : S1x256x512.ShapeCasts S256x512
  slices_S4x512_S1x512_0_0 : S4x512.Slices ![0, 0] S1x512
  shapeCasts_S1x512_S512 : S1x512.ShapeCasts S512
  slices_S4x512x256_S1x512x256_0_0_0 : S4x512x256.Slices ![0, 0, 0] S1x512x256
  shapeCasts_S1x512x256_S512x256 : S1x512x256.ShapeCasts S512x256
  slices_S4x256_S1x256_0_0 : S4x256.Slices ![0, 0] S1x256
  shapeCasts_S1x256_S256 : S1x256.ShapeCasts S256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2000x256 : S1x256.Broadcasts S2000x256
  slices_S4x256x512_S1x256x512_1_0_0 : S4x256x512.Slices ![1, 0, 0] S1x256x512
  slices_S4x512_S1x512_1_0 : S4x512.Slices ![1, 0] S1x512
  slices_S4x512x256_S1x512x256_1_0_0 : S4x512x256.Slices ![1, 0, 0] S1x512x256
  slices_S4x256_S1x256_1_0 : S4x256.Slices ![1, 0] S1x256
  slices_S4x256x512_S1x256x512_2_0_0 : S4x256x512.Slices ![2, 0, 0] S1x256x512
  slices_S4x512_S1x512_2_0 : S4x512.Slices ![2, 0] S1x512
  slices_S4x512x256_S1x512x256_2_0_0 : S4x512x256.Slices ![2, 0, 0] S1x512x256
  slices_S4x256_S1x256_2_0 : S4x256.Slices ![2, 0] S1x256
  slices_S4x256x512_S1x256x512_3_0_0 : S4x256x512.Slices ![3, 0, 0] S1x256x512
  slices_S4x512_S1x512_3_0 : S4x512.Slices ![3, 0] S1x512
  slices_S4x512x256_S1x512x256_3_0_0 : S4x512x256.Slices ![3, 0, 0] S1x512x256
  slices_S4x256_S1x256_3_0 : S4x256.Slices ![3, 0] S1x256
  bcast_S_S4096x256 : S_.BroadcastsInDim S4096x256 (![] : Fin 0 → Fin S4096x256.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  broadcasts_S1x256_S1024x256 : S1x256.Broadcasts S1024x256
  inb_S256x768_S256x768_0_0 : ∀ a, (![0, 0] : Fin 2 → Nat) a + S256x768.size a ≤ S256x768.size a
  h_S256x768 : 0 < S256x768.numel
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  reduces_S1024x768_S1024 : S1024x768.Reduces [1] S1024
  shapeCasts_S1024_S1024x1 : S1024.ShapeCasts S1024x1
  broadcasts_S1024x1_S1024x768 : S1024x1.Broadcasts S1024x768
  inb_S1024x768_S1024x768_0_0 : ∀ a, (![0, 0] : Fin 2 → Nat) a + S1024x768.size a ≤ S1024x768.size a
  h_S1024x768 : 0 < S1024x768.numel
  gather_S119x256_S100000x1_S100000x256_1_0_n_n_0_1_1256_wf : GatherDims.WF S119x256 S100000x1 S100000x256 [1] [0] [] [0] [] 1 ![1, 256]
  gather_S22x256_S200000x1_S200000x256_1_0_n_n_0_1_1256_wf : GatherDims.WF S22x256 S200000x1 S200000x256 [1] [0] [] [0] [] 1 ![1, 256]
  gather_S100000x256_S200000x1_S200000x256_1_0_n_n_0_1_1256_wf : GatherDims.WF S100000x256 S200000x1 S200000x256 [1] [0] [] [0] [] 1 ![1, 256]
  scatter_S100000x256_S200000x1_S200000x256_1_0_0_1_wf : ScatterDims.WF S100000x256 S200000x1 S200000x256 [1] [0] [0] 1
  dot_S2000x256_S256x512_S2000x512_1_0_0_1_n_n_wf : DotDims.WF S2000x256 S256x512 S2000x512 [1] [0] [0] [1] [] []
  dot_S2000x512_S512x256_S2000x256_1_0_0_1_n_n_wf : DotDims.WF S2000x512 S512x256 S2000x256 [1] [0] [0] [1] [] []
  scatter_S4096x256_S100000x1_S100000x256_1_0_0_1_wf : ScatterDims.WF S4096x256 S100000x1 S100000x256 [1] [0] [0] 1
  dot_S1024x256_S256x256_S1024x256_1_0_0_1_n_n_wf : DotDims.WF S1024x256 S256x256 S1024x256 [1] [0] [0] [1] [] []
  dot_S1024x256_S256x768_S1024x768_1_0_0_1_n_n_wf : DotDims.WF S1024x256 S256x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S200000x256.size a
  hwx0_1 : ∀ i : grid0.Coords, EltTy.bits .f32 = 32 ∨ (Rect.block (s := S200000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S200000x256.size a
  hwx0_2 : ∀ i : grid0.Coords, EltTy.bits .f32 = 32 ∨ (Rect.block (s := S200000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .f32 = 32 ∨ (Rect.block (s := S256x512) S256x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S512x256.size a
  hwx1_4 : ∀ i : grid1.Coords, EltTy.bits .f32 = 32 ∨ (Rect.block (s := S512x256) S512x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S100000x256.size a
  hwx1_6 : ∀ i : grid1.Coords, EltTy.bits .f32 = 32 ∨ (Rect.block (s := S100000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S200000x256.size a
  hwx2_0 : ∀ i : grid2.Coords, EltTy.bits .f32 = 32 ∨ (Rect.block (s := S200000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S200000x256.size a
  hwx2_1 : ∀ i : grid2.Coords, EltTy.bits .f32 = 32 ∨ (Rect.block (s := S200000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S200000x256.size a
  hwx2_2 : ∀ i : grid2.Coords, EltTy.bits .f32 = 32 ∨ (Rect.block (s := S200000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .f32 = 32 ∨ (Rect.block (s := S100000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x512.size a ≤ S256x512.size a
  hwx3_2 : ∀ i : grid3.Coords, EltTy.bits .f32 = 32 ∨ (Rect.block (s := S256x512) S256x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512.size a ≤ S512.size a
  hwx3_3 : ∀ i : grid3.Coords, EltTy.bits .f32 = 32 ∨ (Rect.block (s := S512) S512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x256.size a ≤ S512x256.size a
  hwx3_4 : ∀ i : grid3.Coords, EltTy.bits .f32 = 32 ∨ (Rect.block (s := S512x256) S512x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256.size a ≤ S256.size a
  hwx3_5 : ∀ i : grid3.Coords, EltTy.bits .f32 = 32 ∨ (Rect.block (s := S256) S256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S100000x256.size a
  hwx3_6 : ∀ i : grid3.Coords, EltTy.bits .f32 = 32 ∨ (Rect.block (s := S100000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S200000x256.size a
  hwx4_0 : ∀ i : grid4.Coords, EltTy.bits .f32 = 32 ∨ (Rect.block (s := S200000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S200000x256.size a
  hwx4_1 : ∀ i : grid4.Coords, EltTy.bits .f32 = 32 ∨ (Rect.block (s := S200000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S200000x256.size a
  hwx4_2 : ∀ i : grid4.Coords, EltTy.bits .f32 = 32 ∨ (Rect.block (s := S200000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S100000x256.size a
  hwx5_0 : ∀ i : grid5.Coords, EltTy.bits .f32 = 32 ∨ (Rect.block (s := S100000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S100000x256.size a
  hwx5_1 : ∀ i : grid5.Coords, EltTy.bits .f32 = 32 ∨ (Rect.block (s := S100000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x512.size a ≤ S256x512.size a
  hwx5_2 : ∀ i : grid5.Coords, EltTy.bits .f32 = 32 ∨ (Rect.block (s := S256x512) S256x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S512.size a ≤ S512.size a
  hwx5_3 : ∀ i : grid5.Coords, EltTy.bits .f32 = 32 ∨ (Rect.block (s := S512) S512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S512x256.size a ≤ S512x256.size a
  hwx5_4 : ∀ i : grid5.Coords, EltTy.bits .f32 = 32 ∨ (Rect.block (s := S512x256) S512x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256.size a ≤ S256.size a
  hwx5_5 : ∀ i : grid5.Coords, EltTy.bits .f32 = 32 ∨ (Rect.block (s := S256) S256.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x256.size a ≤ S100000x256.size a
  hwx5_6 : ∀ i : grid5.Coords, EltTy.bits .f32 = 32 ∨ (Rect.block (s := S100000x256) S2000x256.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S200000x256.size a
  hwx6_0 : ∀ i : grid6.Coords, EltTy.bits .f32 = 32 ∨ (Rect.block (s := S200000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S200000x256.size a
  hwx6_1 : ∀ i : grid6.Coords, EltTy.bits .f32 = 32 ∨ (Rect.block (s := S200000x256) S2000x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x256.size a ≤ S200000x256.size a
  hwx6_2 : ∀ i : grid6.Coords, EltTy.bits .f32 = 32 ∨ (Rect.block (s := S200000x256) S2000x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S100000x256.size a
  hwx7_0 : ∀ i : grid7.Coords, EltTy.bits .f32 = 32 ∨ (Rect.block (s := S100000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S100000x256.size a
  hwx7_1 : ∀ i : grid7.Coords, EltTy.bits .f32 = 32 ∨ (Rect.block (s := S100000x256) S2000x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x512.size a ≤ S256x512.size a
  hwx7_2 : ∀ i : grid7.Coords, EltTy.bits .f32 = 32 ∨ (Rect.block (s := S256x512) S256x512.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S512.size a ≤ S512.size a
  hwx7_3 : ∀ i : grid7.Coords, EltTy.bits .f32 = 32 ∨ (Rect.block (s := S512) S512.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S512x256.size a ≤ S512x256.size a
  hwx7_4 : ∀ i : grid7.Coords, EltTy.bits .f32 = 32 ∨ (Rect.block (s := S512x256) S512x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256.size a ≤ S256.size a
  hwx7_5 : ∀ i : grid7.Coords, EltTy.bits .f32 = 32 ∨ (Rect.block (s := S256) S256.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x256.size a ≤ S100000x256.size a
  hwx7_6 : ∀ i : grid7.Coords, EltTy.bits .f32 = 32 ∨ (Rect.block (s := S100000x256) S2000x256.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x256.size a ≤ S4096x256.size a
  hwx8_0 : ∀ i : grid8.Coords, EltTy.bits .f32 = 32 ∨ (Rect.block (s := S4096x256) S1024x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x256.size a ≤ S256x256.size a
  hwx8_1 : ∀ i : grid8.Coords, EltTy.bits .f32 = 32 ∨ (Rect.block (s := S256x256) S256x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256.size a ≤ S256.size a
  hwx8_2 : ∀ i : grid8.Coords, EltTy.bits .f32 = 32 ∨ (Rect.block (s := S256) S256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x768.size a ≤ S256x768.size a
  hwx8_3 : ∀ i : grid8.Coords, EltTy.bits .f32 = 32 ∨ (Rect.block (s := S256x768) S256x768.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S768.size a ≤ S768.size a
  hwx8_4 : ∀ i : grid8.Coords, EltTy.bits .f32 = 32 ∨ (Rect.block (s := S768) S768.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1024x768.size a ≤ S4096x768.size a
  hwx8_5 : ∀ i : grid8.Coords, EltTy.bits .f32 = 32 ∨ (Rect.block (s := S4096x768) S1024x768.size (cc8_transform_5 i) (hinb8_5 i)).WholeWords (EltTy.packing .f32)

variable [Facts₀]

def gather_S119x256_S100000x1_S100000x256_1_0_n_n_0_1_1256 : GatherDims S119x256 S100000x1 S100000x256 where
  offsetDims := [1]
  collapsedSliceDims := [0]
  operandBatchingDims := []
  startIndicesBatchingDims := []
  startIndexMap := [0]
  indexVectorDim := 1
  sliceSizes := ![1, 256]
  wf := gather_S119x256_S100000x1_S100000x256_1_0_n_n_0_1_1256_wf
def gather_S22x256_S200000x1_S200000x256_1_0_n_n_0_1_1256 : GatherDims S22x256 S200000x1 S200000x256 where
  offsetDims := [1]
  collapsedSliceDims := [0]
  operandBatchingDims := []
  startIndicesBatchingDims := []
  startIndexMap := [0]
  indexVectorDim := 1
  sliceSizes := ![1, 256]
  wf := gather_S22x256_S200000x1_S200000x256_1_0_n_n_0_1_1256_wf
def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def scatter_S100000x256_S200000x1_S200000x256_1_0_0_1 : ScatterDims S100000x256 S200000x1 S200000x256 where
  updateWindowDims := [1]
  insertedWindowDims := [0]
  scatterDimsToOperandDims := [0]
  indexVectorDim := 1
  wf := scatter_S100000x256_S200000x1_S200000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def scatter_S4096x256_S100000x1_S100000x256_1_0_0_1 : ScatterDims S4096x256 S100000x1 S100000x256 where
  updateWindowDims := [1]
  insertedWindowDims := [0]
  scatterDimsToOperandDims := [0]
  indexVectorDim := 1
  wf := scatter_S4096x256_S100000x1_S100000x256_1_0_0_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf

abbrev win0_0 : Pipeline.Window sig grid0 :=
  Pipeline.Window.ofSpec (Memref.whole main_v146) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v141) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v147) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v106) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v150) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v152) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v154) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v156) S512x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v158) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v159) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v160) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v141) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v161) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v159) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v164) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v166) S256x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v168) S512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v170) S512x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v172) S256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v173) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v174) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v141) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v175) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v173) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v178) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v180) S256x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v182) S512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v184) S512x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v186) S256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v187) S2000x256.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v188) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v141) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v189) S2000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v187) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v192) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v194) S256x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v196) S512.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v198) S512x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v200) S256.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v201) S2000x256.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v204) S1024x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S256x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg11) S256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg12) S256x768.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg13) S768.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v205) S1024x768.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S100000x9 : Shape := ⟨2, ![100000, 9]⟩
abbrev S200000x3 : Shape := ⟨2, ![200000, 3]⟩
abbrev S2x200000 : Shape := ⟨2, ![2, 200000]⟩
abbrev S100000 : Shape := ⟨1, ![100000]⟩
abbrev S9x119x256 : Shape := ⟨3, ![9, 119, 256]⟩
abbrev S3x22x256 : Shape := ⟨3, ![3, 22, 256]⟩
abbrev S4x256x512 : Shape := ⟨3, ![4, 256, 512]⟩
abbrev S4x512 : Shape := ⟨2, ![4, 512]⟩
abbrev S4x512x256 : Shape := ⟨3, ![4, 512, 256]⟩
abbrev S4x256 : Shape := ⟨2, ![4, 256]⟩
abbrev S256x256 : Shape := ⟨2, ![256, 256]⟩
abbrev S256 : Shape := ⟨1, ![256]⟩
abbrev S256x768 : Shape := ⟨2, ![256, 768]⟩
abbrev S768 : Shape := ⟨1, ![768]⟩
abbrev S_ : Shape := ⟨0, ![]⟩
abbrev S9x100000 : Shape := ⟨2, ![9, 100000]⟩
abbrev S9x100000x1 : Shape := ⟨3, ![9, 100000, 1]⟩
abbrev S9x100000x256 : Shape := ⟨3, ![9, 100000, 256]⟩
abbrev S100000x256 : Shape := ⟨2, ![100000, 256]⟩
abbrev S3x200000 : Shape := ⟨2, ![3, 200000]⟩
abbrev S3x200000x1 : Shape := ⟨3, ![3, 200000, 1]⟩
abbrev S3x200000x256 : Shape := ⟨3, ![3, 200000, 256]⟩
abbrev S200000x256 : Shape := ⟨2, ![200000, 256]⟩
abbrev S1x200000 : Shape := ⟨2, ![1, 200000]⟩
abbrev S200000 : Shape := ⟨1, ![200000]⟩
abbrev S200000x1 : Shape := ⟨2, ![200000, 1]⟩
abbrev S1x256x512 : Shape := ⟨3, ![1, 256, 512]⟩
abbrev S256x512 : Shape := ⟨2, ![256, 512]⟩
abbrev S100000x512 : Shape := ⟨2, ![100000, 512]⟩
abbrev S1x512 : Shape := ⟨2, ![1, 512]⟩
abbrev S512 : Shape := ⟨1, ![512]⟩
abbrev S1x512x256 : Shape := ⟨3, ![1, 512, 256]⟩
abbrev S512x256 : Shape := ⟨2, ![512, 256]⟩
abbrev S1x256 : Shape := ⟨2, ![1, 256]⟩
abbrev S4096x256 : Shape := ⟨2, ![4096, 256]⟩
abbrev S100000x1 : Shape := ⟨2, ![100000, 1]⟩
abbrev S4096x768 : Shape := ⟨2, ![4096, 768]⟩
abbrev S1x768 : Shape := ⟨2, ![1, 768]⟩
abbrev S4096 : Shape := ⟨1, ![4096]⟩
abbrev S4096x1 : Shape := ⟨2, ![4096, 1]⟩

abbrev nBuf : Space → Nat
  | .hbm => 227
  | .vmem => 0
  | .smem => 0
  | _ => 0

abbrev hbmTy0_0 (i : Nat) : BufTy := match i % 128 with
  | 0 => ⟨S100000x9, .i32⟩
  | 1 => ⟨S200000x3, .i32⟩
  | 2 => ⟨S2x200000, .i32⟩
  | 3 => ⟨S100000, .i32⟩
  | 4 => ⟨S9x119x256, .f32⟩
  | 5 => ⟨S3x22x256, .f32⟩
  | 6 => ⟨S4x256x512, .f32⟩
  | 7 => ⟨S4x512, .f32⟩
  | 8 => ⟨S4x512x256, .f32⟩
  | 9 => ⟨S4x256, .f32⟩
  | 10 => ⟨S256x256, .f32⟩
  | 11 => ⟨S256, .f32⟩
  | 12 => ⟨S256x768, .f32⟩
  | 13 => ⟨S768, .f32⟩
  | 14 => ⟨S_, .i32⟩
  | 15 => ⟨S100000x9, .i32⟩
  | 16 => ⟨S100000x9, .i1⟩
  | 17 => ⟨S_, .i32⟩
  | 18 => ⟨S100000x9, .i32⟩
  | 19 => ⟨S100000x9, .i32⟩
  | 20 => ⟨S100000x9, .i32⟩
  | 21 => ⟨S9x100000, .i32⟩
  | 22 => ⟨S9x100000x1, .i32⟩
  | 23 => ⟨S9x100000x256, .f32⟩
  | 24 => ⟨S_, .f32⟩
  | 25 => ⟨S100000x256, .f32⟩
  | 26 => ⟨S_, .i32⟩
  | 27 => ⟨S200000x3, .i32⟩
  | 28 => ⟨S200000x3, .i1⟩
  | 29 => ⟨S_, .i32⟩
  | 30 => ⟨S200000x3, .i32⟩
  | 31 => ⟨S200000x3, .i32⟩
  | 32 => ⟨S200000x3, .i32⟩
  | 33 => ⟨S3x200000, .i32⟩
  | 34 => ⟨S3x200000x1, .i32⟩
  | 35 => ⟨S3x200000x256, .f32⟩
  | 36 => ⟨S_, .f32⟩
  | 37 => ⟨S200000x256, .f32⟩
  | 38 => ⟨S1x200000, .i32⟩
  | 39 => ⟨S200000, .i32⟩
  | 40 => ⟨S1x200000, .i32⟩
  | 41 => ⟨S200000, .i32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x256, .f32⟩
  | 51 => ⟨S200000x256, .f32⟩
  | 52 => ⟨S_, .f32⟩
  | 53 => ⟨S200000x256, .f32⟩
  | 54 => ⟨S200000x256, .f32⟩
  | 55 => ⟨S_, .f32⟩
  | 56 => ⟨S100000x256, .f32⟩
  | 57 => ⟨S200000x1, .i32⟩
  | 58 => ⟨S100000x256, .f32⟩
  | 59 => ⟨S100000x256, .f32⟩
  | 60 => ⟨S1x256x512, .f32⟩
  | 61 => ⟨S256x512, .f32⟩
  | 62 => ⟨S100000x512, .f32⟩
  | 63 => ⟨S1x512, .f32⟩
  | 64 => ⟨S512, .f32⟩
  | 65 => ⟨S1x512, .f32⟩
  | 66 => ⟨S100000x512, .f32⟩
  | 67 => ⟨S100000x512, .f32⟩
  | 68 => ⟨S_, .f32⟩
  | 69 => ⟨S100000x512, .f32⟩
  | 70 => ⟨S100000x512, .f32⟩
  | 71 => ⟨S1x512x256, .f32⟩
  | 72 => ⟨S512x256, .f32⟩
  | 73 => ⟨S100000x256, .f32⟩
  | 74 => ⟨S1x256, .f32⟩
  | 75 => ⟨S256, .f32⟩
  | 76 => ⟨S1x256, .f32⟩
  | 77 => ⟨S100000x256, .f32⟩
  | 78 => ⟨S100000x256, .f32⟩
  | 79 => ⟨S_, .f32⟩
  | 80 => ⟨S100000x256, .f32⟩
  | 81 => ⟨S100000x256, .f32⟩
  | 82 => ⟨S_, .i32⟩
  | 83 => ⟨S200000, .i32⟩
  | 84 => ⟨S200000, .i1⟩
  | 85 => ⟨S_, .i32⟩
  | 86 => ⟨S200000, .i32⟩
  | 87 => ⟨S200000, .i32⟩
  | 88 => ⟨S200000, .i32⟩
  | 89 => ⟨S200000x1, .i32⟩
  | 90 => ⟨S200000x256, .f32⟩
  | 91 => ⟨S200000x256, .f32⟩
  | 92 => ⟨S_, .f32⟩
  | 93 => ⟨S200000x256, .f32⟩
  | 94 => ⟨S200000x256, .f32⟩
  | 95 => ⟨S_, .f32⟩
  | 96 => ⟨S100000x256, .f32⟩
  | 97 => ⟨S200000x1, .i32⟩
  | 98 => ⟨S100000x256, .f32⟩
  | 99 => ⟨S100000x256, .f32⟩
  | 100 => ⟨S1x256x512, .f32⟩
  | 101 => ⟨S256x512, .f32⟩
  | 102 => ⟨S100000x512, .f32⟩
  | 103 => ⟨S1x512, .f32⟩
  | 104 => ⟨S512, .f32⟩
  | 105 => ⟨S1x512, .f32⟩
  | 106 => ⟨S100000x512, .f32⟩
  | 107 => ⟨S100000x512, .f32⟩
  | 108 => ⟨S_, .f32⟩
  | 109 => ⟨S100000x512, .f32⟩
  | 110 => ⟨S100000x512, .f32⟩
  | 111 => ⟨S1x512x256, .f32⟩
  | 112 => ⟨S512x256, .f32⟩
  | 113 => ⟨S100000x256, .f32⟩
  | 114 => ⟨S1x256, .f32⟩
  | 115 => ⟨S256, .f32⟩
  | 116 => ⟨S1x256, .f32⟩
  | 117 => ⟨S100000x256, .f32⟩
  | 118 => ⟨S100000x256, .f32⟩
  | 119 => ⟨S_, .f32⟩
  | 120 => ⟨S100000x256, .f32⟩
  | 121 => ⟨S100000x256, .f32⟩
  | 122 => ⟨S_, .i32⟩
  | 123 => ⟨S200000, .i32⟩
  | 124 => ⟨S200000, .i1⟩
  | 125 => ⟨S_, .i32⟩
  | 126 => ⟨S200000, .i32⟩
  | 127 => ⟨S200000, .i32⟩
  | _ => ⟨S100000x9, .i32⟩

abbrev hbmTy0_1 (i : Nat) : BufTy := match i % 128 with
  | 0 => ⟨S200000, .i32⟩
  | 1 => ⟨S200000x1, .i32⟩
  | 2 => ⟨S200000x256, .f32⟩
  | 3 => ⟨S200000x256, .f32⟩
  | 4 => ⟨S_, .f32⟩
  | 5 => ⟨S200000x256, .f32⟩
  | 6 => ⟨S200000x256, .f32⟩
  | 7 => ⟨S_, .f32⟩
  | 8 => ⟨S100000x256, .f32⟩
  | 9 => ⟨S200000x1, .i32⟩
  | 10 => ⟨S100000x256, .f32⟩
  | 11 => ⟨S100000x256, .f32⟩
  | 12 => ⟨S1x256x512, .f32⟩
  | 13 => ⟨S256x512, .f32⟩
  | 14 => ⟨S100000x512, .f32⟩
  | 15 => ⟨S1x512, .f32⟩
  | 16 => ⟨S512, .f32⟩
  | 17 => ⟨S1x512, .f32⟩
  | 18 => ⟨S100000x512, .f32⟩
  | 19 => ⟨S100000x512, .f32⟩
  | 20 => ⟨S_, .f32⟩
  | 21 => ⟨S100000x512, .f32⟩
  | 22 => ⟨S100000x512, .f32⟩
  | 23 => ⟨S1x512x256, .f32⟩
  | 24 => ⟨S512x256, .f32⟩
  | 25 => ⟨S100000x256, .f32⟩
  | 26 => ⟨S1x256, .f32⟩
  | 27 => ⟨S256, .f32⟩
  | 28 => ⟨S1x256, .f32⟩
  | 29 => ⟨S100000x256, .f32⟩
  | 30 => ⟨S100000x256, .f32⟩
  | 31 => ⟨S_, .f32⟩
  | 32 => ⟨S100000x256, .f32⟩
  | 33 => ⟨S100000x256, .f32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S200000x256, .f32⟩
  | 43 => ⟨S200000x256, .f32⟩
  | 44 => ⟨S_, .f32⟩
  | 45 => ⟨S200000x256, .f32⟩
  | 46 => ⟨S200000x256, .f32⟩
  | 47 => ⟨S_, .f32⟩
  | 48 => ⟨S100000x256, .f32⟩
  | 49 => ⟨S200000x1, .i32⟩
  | 50 => ⟨S100000x256, .f32⟩
  | 51 => ⟨S100000x256, .f32⟩
  | 52 => ⟨S1x256x512, .f32⟩
  | 53 => ⟨S256x512, .f32⟩
  | 54 => ⟨S100000x512, .f32⟩
  | 55 => ⟨S1x512, .f32⟩
  | 56 => ⟨S512, .f32⟩
  | 57 => ⟨S1x512, .f32⟩
  | 58 => ⟨S100000x512, .f32⟩
  | 59 => ⟨S100000x512, .f32⟩
  | 60 => ⟨S_, .f32⟩
  | 61 => ⟨S100000x512, .f32⟩
  | 62 => ⟨S100000x512, .f32⟩
  | 63 => ⟨S1x512x256, .f32⟩
  | 64 => ⟨S512x256, .f32⟩
  | 65 => ⟨S100000x256, .f32⟩
  | 66 => ⟨S1x256, .f32⟩
  | 67 => ⟨S256, .f32⟩
  | 68 => ⟨S1x256, .f32⟩
  | 69 => ⟨S100000x256, .f32⟩
  | 70 => ⟨S100000x256, .f32⟩
  | 71 => ⟨S_, .f32⟩
  | 72 => ⟨S100000x256, .f32⟩
  | 73 => ⟨S100000x256, .f32⟩
  | 74 => ⟨S_, .f32⟩
  | 75 => ⟨S4096x256, .f32⟩
  | 76 => ⟨S100000x1, .i32⟩
  | 77 => ⟨S4096x256, .f32⟩
  | 78 => ⟨S4096x256, .f32⟩
  | 79 => ⟨S1x256, .f32⟩
  | 80 => ⟨S4096x256, .f32⟩
  | 81 => ⟨S4096x256, .f32⟩
  | 82 => ⟨S_, .f32⟩
  | 83 => ⟨S4096x256, .f32⟩
  | 84 => ⟨S4096x256, .f32⟩
  | 85 => ⟨S4096x768, .f32⟩
  | 86 => ⟨S1x768, .f32⟩
  | 87 => ⟨S4096x768, .f32⟩
  | 88 => ⟨S4096x768, .f32⟩
  | 89 => ⟨S4096x768, .f32⟩
  | 90 => ⟨S_, .f32⟩
  | 91 => ⟨S4096, .f32⟩
  | 92 => ⟨S4096x1, .f32⟩
  | 93 => ⟨S4096x1, .f32⟩
  | 94 => ⟨S_, .f32⟩
  | 95 => ⟨S4096x1, .f32⟩
  | 96 => ⟨S4096x1, .f32⟩
  | 97 => ⟨S4096x768, .f32⟩
  | 98 => ⟨S4096x768, .f32⟩
  | _ => ⟨S100000x9, .i32⟩

abbrev hbmTy (i : Nat) : BufTy := match i / 128 with
  | 0 => hbmTy0_0 i
  | 1 => hbmTy0_1 i
  | _ => ⟨S100000x9, .i32⟩

abbrev bufTy : (tb : Table) → Fin (tcTables nBuf tb) → BufTy
  | .hbm, ⟨i, _⟩ => hbmTy i
  | _, _ => ⟨S100000x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_c_1 : Ref sig .tc := ⟨.hbm, 26, rfl⟩
abbrev main_v9 : Ref sig .tc := ⟨.hbm, 27, rfl⟩
abbrev main_v10 : Ref sig .tc := ⟨.hbm, 28, rfl⟩
abbrev main_c_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call0_cst : Ref sig .tc := ⟨.hbm, 52, rfl⟩
abbrev main_call0_v0 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call1_cst : Ref sig .tc := ⟨.hbm, 68, rfl⟩
abbrev main_call1_v0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call2_cst : Ref sig .tc := ⟨.hbm, 79, rfl⟩
abbrev main_call2_v0 : Ref sig .tc := ⟨.hbm, 80, rfl⟩
abbrev main_v52 : Ref sig .tc := ⟨.hbm, 81, rfl⟩
abbrev main_c_7 : Ref sig .tc := ⟨.hbm, 82, rfl⟩
abbrev main_v53 : Ref sig .tc := ⟨.hbm, 83, rfl⟩
abbrev main_v54 : Ref sig .tc := ⟨.hbm, 84, rfl⟩
abbrev main_c_8 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call3_cst : Ref sig .tc := ⟨.hbm, 92, rfl⟩
abbrev main_call3_v0 : Ref sig .tc := ⟨.hbm, 93, rfl⟩
abbrev main_v61 : Ref sig .tc := ⟨.hbm, 94, rfl⟩
abbrev main_cst_9 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_call4_cst : Ref sig .tc := ⟨.hbm, 108, rfl⟩
abbrev main_call4_v0 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call5_cst : Ref sig .tc := ⟨.hbm, 119, rfl⟩
abbrev main_call5_v0 : Ref sig .tc := ⟨.hbm, 120, rfl⟩
abbrev main_v83 : Ref sig .tc := ⟨.hbm, 121, rfl⟩
abbrev main_c_10 : Ref sig .tc := ⟨.hbm, 122, rfl⟩
abbrev main_v84 : Ref sig .tc := ⟨.hbm, 123, rfl⟩
abbrev main_v85 : Ref sig .tc := ⟨.hbm, 124, rfl⟩
abbrev main_c_11 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_call6_cst : Ref sig .tc := ⟨.hbm, 132, rfl⟩
abbrev main_call6_v0 : Ref sig .tc := ⟨.hbm, 133, rfl⟩
abbrev main_v92 : Ref sig .tc := ⟨.hbm, 134, rfl⟩
abbrev main_cst_12 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_call7_cst : Ref sig .tc := ⟨.hbm, 148, rfl⟩
abbrev main_call7_v0 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_call8_cst : Ref sig .tc := ⟨.hbm, 159, rfl⟩
abbrev main_call8_v0 : Ref sig .tc := ⟨.hbm, 160, rfl⟩
abbrev main_v114 : Ref sig .tc := ⟨.hbm, 161, rfl⟩
abbrev main_c_13 : Ref sig .tc := ⟨.hbm, 162, rfl⟩
abbrev main_v115 : Ref sig .tc := ⟨.hbm, 163, rfl⟩
abbrev main_v116 : Ref sig .tc := ⟨.hbm, 164, rfl⟩
abbrev main_c_14 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_call9_cst : Ref sig .tc := ⟨.hbm, 172, rfl⟩
abbrev main_call9_v0 : Ref sig .tc := ⟨.hbm, 173, rfl⟩
abbrev main_v123 : Ref sig .tc := ⟨.hbm, 174, rfl⟩
abbrev main_cst_15 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_call10_cst : Ref sig .tc := ⟨.hbm, 188, rfl⟩
abbrev main_call10_v0 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_call11_cst : Ref sig .tc := ⟨.hbm, 199, rfl⟩
abbrev main_call11_v0 : Ref sig .tc := ⟨.hbm, 200, rfl⟩
abbrev main_v145 : Ref sig .tc := ⟨.hbm, 201, rfl⟩
abbrev main_cst_16 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_call12_cst : Ref sig .tc := ⟨.hbm, 210, rfl⟩
abbrev main_call12_v0 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_call13_v0 : Ref sig .tc := ⟨.hbm, 217, rfl⟩
abbrev main_call13_cst : Ref sig .tc := ⟨.hbm, 218, rfl⟩
abbrev main_call13_v1 : Ref sig .tc := ⟨.hbm, 219, rfl⟩
abbrev main_call13_v2 : Ref sig .tc := ⟨.hbm, 220, rfl⟩
abbrev main_v158 : Ref sig .tc := ⟨.hbm, 221, rfl⟩
abbrev main_cst_17 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩

abbrev nD : Nat := 1
abbrev τ : Topo := Topo.v7x

variable {F : FTy → Type} [FloatOps F]

class Facts₀ : Prop where
  bcast_S_S100000x9 : S_.BroadcastsInDim S100000x9 (![] : Fin 0 → Fin S100000x9.rank)
  transposes_S100000x9_S9x100000_1_0 : S100000x9.Transposes [1, 0] S9x100000
  bcast_S9x100000_S9x100000x1_0_1 : S9x100000.BroadcastsInDim S9x100000x1 (![0, 1] : Fin 2 → Fin S9x100000x1.rank)
  reducesTo_S9x100000x256_S100000x256_d0 : S9x100000x256.ReducesTo [0] S100000x256
  h_S_ : 0 < S_.numel
  bcast_S_S200000x3 : S_.BroadcastsInDim S200000x3 (![] : Fin 0 → Fin S200000x3.rank)
  transposes_S200000x3_S3x200000_1_0 : S200000x3.Transposes [1, 0] S3x200000
  bcast_S3x200000_S3x200000x1_0_1 : S3x200000.BroadcastsInDim S3x200000x1 (![0, 1] : Fin 2 → Fin S3x200000x1.rank)
  reducesTo_S3x200000x256_S200000x256_d0 : S3x200000x256.ReducesTo [0] S200000x256
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S_S200000x256 : S_.BroadcastsInDim S200000x256 (![] : Fin 0 → Fin S200000x256.rank)
  bcast_S_S100000x256 : S_.BroadcastsInDim S100000x256 (![] : Fin 0 → Fin S100000x256.rank)
  slices_S4x256x512_S1x256x512_0_0_0 : S4x256x512.Slices ![0, 0, 0] S1x256x512
  shapeCasts_S1x256x512_S256x512 : S1x256x512.ShapeCasts S256x512
  slices_S4x512_S1x512_0_0 : S4x512.Slices ![0, 0] S1x512
  shapeCasts_S1x512_S512 : S1x512.ShapeCasts S512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  slices_S4x512x256_S1x512x256_0_0_0 : S4x512x256.Slices ![0, 0, 0] S1x512x256
  shapeCasts_S1x512x256_S512x256 : S1x512x256.ShapeCasts S512x256
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S4x256x512_S1x256x512_1_0_0 : S4x256x512.Slices ![1, 0, 0] S1x256x512
  slices_S4x512_S1x512_1_0 : S4x512.Slices ![1, 0] S1x512
  slices_S4x512x256_S1x512x256_1_0_0 : S4x512x256.Slices ![1, 0, 0] S1x512x256
  slices_S4x256_S1x256_1_0 : S4x256.Slices ![1, 0] S1x256
  slices_S4x256x512_S1x256x512_2_0_0 : S4x256x512.Slices ![2, 0, 0] S1x256x512
  slices_S4x512_S1x512_2_0 : S4x512.Slices ![2, 0] S1x512
  slices_S4x512x256_S1x512x256_2_0_0 : S4x512x256.Slices ![2, 0, 0] S1x512x256
  slices_S4x256_S1x256_2_0 : S4x256.Slices ![2, 0] S1x256
  slices_S4x256x512_S1x256x512_3_0_0 : S4x256x512.Slices ![3, 0, 0] S1x256x512
  slices_S4x512_S1x512_3_0 : S4x512.Slices ![3, 0] S1x512
  slices_S4x512x256_S1x512x256_3_0_0 : S4x512x256.Slices ![3, 0, 0] S1x512x256
  slices_S4x256_S1x256_3_0 : S4x256.Slices ![3, 0] S1x256
  bcast_S_S4096x256 : S_.BroadcastsInDim S4096x256 (![] : Fin 0 → Fin S4096x256.rank)
  bcast_S100000_S100000x1_0 : S100000.BroadcastsInDim S100000x1 (![0] : Fin 1 → Fin S100000x1.rank)
  bcast_S1x256_S4096x256_0_1 : S1x256.BroadcastsInDim S4096x256 (![0, 1] : Fin 2 → Fin S4096x256.rank)
  bcast_S768_S1x768_1 : S768.BroadcastsInDim S1x768 (![1] : Fin 1 → Fin S1x768.rank)
  bcast_S1x768_S4096x768_0_1 : S1x768.BroadcastsInDim S4096x768 (![0, 1] : Fin 2 → Fin S4096x768.rank)
  reducesTo_S4096x768_S4096_d1 : S4096x768.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x768_0_1 : S4096x1.BroadcastsInDim S4096x768 (![0, 1] : Fin 2 → Fin S4096x768.rank)
  gather_S9x119x256_S9x100000x1_S9x100000x256_2_1_0_0_1_2_11256_wf : GatherDims.WF S9x119x256 S9x100000x1 S9x100000x256 [2] [1] [0] [1] [0] 2 ![1, 1, 256]
  gather_S3x22x256_S3x200000x1_S3x200000x256_2_1_0_0_1_2_11256_wf : GatherDims.WF S3x22x256 S3x200000x1 S3x200000x256 [2] [1] [0] [1] [0] 2 ![1, 1, 256]
  gather_S100000x256_S200000x1_S200000x256_1_0_n_n_0_1_1256_wf : GatherDims.WF S100000x256 S200000x1 S200000x256 [1] [0] [] [0] [] 1 ![1, 256]
  scatter_S100000x256_S200000x1_S200000x256_1_0_0_1_wf : ScatterDims.WF S100000x256 S200000x1 S200000x256 [1] [0] [0] 1
  dot_S100000x256_S256x512_S100000x512_1_0_0_1_n_n_wf : DotDims.WF S100000x256 S256x512 S100000x512 [1] [0] [0] [1] [] []
  dot_S100000x512_S512x256_S100000x256_1_0_0_1_n_n_wf : DotDims.WF S100000x512 S512x256 S100000x256 [1] [0] [0] [1] [] []
  scatter_S4096x256_S100000x1_S100000x256_1_0_0_1_wf : ScatterDims.WF S4096x256 S100000x1 S100000x256 [1] [0] [0] 1
  dot_S4096x256_S256x256_S4096x256_1_0_0_1_n_n_wf : DotDims.WF S4096x256 S256x256 S4096x256 [1] [0] [0] [1] [] []
  dot_S4096x256_S256x768_S4096x768_1_0_0_1_n_n_wf : DotDims.WF S4096x256 S256x768 S4096x768 [1] [0] [0] [1] [] []

variable [Facts₀]

def gather_S9x119x256_S9x100000x1_S9x100000x256_2_1_0_0_1_2_11256 : GatherDims S9x119x256 S9x100000x1 S9x100000x256 where
  offsetDims := [2]
  collapsedSliceDims := [1]
  operandBatchingDims := [0]
  startIndicesBatchingDims := [0]
  startIndexMap := [1]
  indexVectorDim := 2
  sliceSizes := ![1, 1, 256]
  wf := gather_S9x119x256_S9x100000x1_S9x100000x256_2_1_0_0_1_2_11256_wf
def gather_S3x22x256_S3x200000x1_S3x200000x256_2_1_0_0_1_2_11256 : GatherDims S3x22x256 S3x200000x1 S3x200000x256 where
  offsetDims := [2]
  collapsedSliceDims := [1]
  operandBatchingDims := [0]
  startIndicesBatchingDims := [0]
  startIndexMap := [1]
  indexVectorDim := 2
  sliceSizes := ![1, 1, 256]
  wf := gather_S3x22x256_S3x200000x1_S3x200000x256_2_1_0_0_1_2_11256_wf
def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def scatter_S100000x256_S200000x1_S200000x256_1_0_0_1 : ScatterDims S100000x256 S200000x1 S200000x256 where
  updateWindowDims := [1]
  insertedWindowDims := [0]
  scatterDimsToOperandDims := [0]
  indexVectorDim := 1
  wf := scatter_S100000x256_S200000x1_S200000x256_1_0_0_1_wf
def dot_S100000x256_S256x512_S100000x512_1_0_0_1_n_n : DotDims S100000x256 S256x512 S100000x512 where
  lhsContracting := [1]
  rhsContracting := [0]
  lhsNonContracting := [0]
  rhsNonContracting := [1]
  lhsBatch := []
  rhsBatch := []
  wf := dot_S100000x256_S256x512_S100000x512_1_0_0_1_n_n_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def scatter_S4096x256_S100000x1_S100000x256_1_0_0_1 : ScatterDims S4096x256 S100000x1 S100000x256 where
  updateWindowDims := [1]
  insertedWindowDims := [0]
  scatterDimsToOperandDims := [0]
  indexVectorDim := 1
  wf := scatter_S4096x256_S100000x1_S100000x256_1_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x768_S4096x768_1_0_0_1_n_n : DotDims S4096x256 S256x768 S4096x768 where
  lhsContracting := [1]
  rhsContracting := [0]
  lhsNonContracting := [0]
  rhsNonContracting := [1]
  lhsBatch := []
  rhsBatch := []
  wf := dot_S4096x256_S256x768_S4096x768_1_0_0_1_n_n_wf

class Facts : Prop extends Facts₀ where

variable [Facts]
-- ==== Proof.Spec.lean ====
/-
  The network both programs compute, as functions of arrays of extended reals, index by index.

  A message-passing layer is: gather the source node's row for every edge, add the edge embedding and clamp at
  zero (`msg`); sum the messages into their destination nodes; add the node's own row; then two affine maps with a
  clamp at zero after each (`upd`). The readout sums node rows per graph, applies two affine maps with one clamp
  between them, and divides every row by its Euclidean length, the length kept away from zero by a small
  constant (`pool`). The gathers and segment sums are the same host operations in both programs and are not
  opened here; what is stated here is the arithmetic a kernel region and the corresponding stretch of the
  reference must agree on.
-/
import Idealize.ShloMosaic.PureOps.Ideal
import Idealize.ShloMosaic.Lib.ValueIdx

noncomputable section

namespace Cert.Spec

open Idealize.ShloMosaic Idealize.ShloMosaic.ValueIdx

/-- A matrix of extended reals with `a` rows and `b` columns. -/
abbrev A2 (a b : Nat) : Type := (⟨2, ![a, b]⟩ : Shape).Idx → EReal
/-- A vector of extended reals of length `a`. -/
abbrev A1 (a : Nat) : Type := (⟨1, ![a]⟩ : Shape).Idx → EReal

/-- Entrywise `max (x + e) 0`: the message an edge carries. -/
def msg {a b : Nat} (xs e : A2 a b) : A2 a b := fun i => max (xs i + e i) 0

/-- Entrywise clamp at zero. -/
def relu {a b : Nat} (v : A2 a b) : A2 a b := fun i => max (v i) 0

/-- The affine map `v · W + b`: entry `(r, k)` is `Σ_j v[r, j] · W[j, k] + b[k]`. -/
def dense {n d h : Nat} (v : A2 n d) (W : A2 d h) (b : A1 h) : A2 n h :=
  fun i => (∑ j : Fin d, v (ix2 (i 0) j) * W (ix2 j (i 1))) + b (ix1 (i 1))

/-- A node update: `relu (dense (relu (dense (x + agg) W1 b1)) W2 b2)`. -/
def upd {n d h : Nat} (x agg : A2 n d) (W1 : A2 d h) (b1 : A1 h) (W2 : A2 h d) (b2 : A1 d) : A2 n d :=
  relu (dense (relu (dense (fun i => x i + agg i) W1 b1)) W2 b2)

/-- The readout before normalisation: `dense (relu (dense g W1 b1)) W2 b2`. -/
def head {n d o : Nat} (g : A2 n d) (W1 : A2 d d) (b1 : A1 d) (W2 : A2 d o) (b2 : A1 o) : A2 n o :=
  dense (relu (dense g W1 b1)) W2 b2

/-- The small constant the row length is kept above (the f32 nearest to 1e-12). -/
def eps : EReal := Ideal.ofBits .f32 0x2B8CBCCC#32

/-- Every row divided by `max (√(Σ_k o[r, k]²)) eps`. -/
def normalize {n o : Nat} (v : A2 n o) : A2 n o :=
  fun i => Ideal.div (v i) (max (Ideal.sqrt (∑ k : Fin o, v (ix2 (i 0) k) * v (ix2 (i 0) k))) eps)

/-- The readout: `normalize (head g W1 b1 W2 b2)`. -/
def pool {n d o : Nat} (g : A2 n d) (W1 : A2 d d) (b1 : A1 d) (W2 : A2 d o) (b2 : A1 o) : A2 n o :=
  normalize (head g W1 b1 W2 b2)

end Cert.Spec

end
-- ==== Proof.KOps.lean ====
/-
  The idealized kernel program's host stages as functions of arrays, and the network they compose to.
  Node and edge encodings are sums, feature by feature, of table rows selected by integer codes (a negative
  code counts from the table's end; the row read is clamped into the table). `take` reads a node row per
  edge and puts the fill value where the source index is outside the node range; `segsum` adds edge rows
  into their destination nodes; `gsum` adds node rows into their graphs. A layer is a node update of the
  aggregated messages; the network is four layers and the readout.
-/
import proofs.«422649_j18588618457330_1_alg».proof.Proof.Gen.KernelIdeal
import proofs.«422649_j18588618457330_1_alg».proof.Proof.Spec

set_option maxRecDepth 16384

noncomputable section

namespace Cert.KernelIdeal.Val

open Idealize.ShloMosaic Cert.KernelIdeal Cert.KernelIdeal.Facts₀ Cert.KernelIdeal.Facts

/-- The node encoding: the sum over the nine features, in order, of the table row each code selects. -/
def encN (a0 : IVec S100000x9 32) (a4 : FVec Ideal S9x119x256 .f32) : FVec Ideal S100000x256 .f32 :=
  (addf (F := Ideal) (addf (F := Ideal) (addf (F := Ideal) (addf (F := Ideal) (addf (F := Ideal) (addf (F := Ideal) (addf (F := Ideal) (addf (F := Ideal) (Host.gather gather_S119x256_S100000x1_S100000x256_1_0_n_n_0_1_1256
      (shapeCast S119x256 (extractStridedSlice S1x119x256 ![0, 0, 0] a4 slices_S9x119x256_S1x119x256_0_0_0) shapeCasts_S1x119x256_S119x256)
      (broadcastInDim S100000x1 ![0] bcast_S100000_S100000x1_0 (select (cmpi .slt (shapeCast S100000 (extractStridedSlice S100000x1 ![0, 0] a0 slices_S100000x9_S100000x1_0_0) shapeCasts_S100000x1_S100000) (broadcastInDim S100000 ![] bcast_S_S100000 (constantI S_ 32 0#32))) (addi (shapeCast S100000 (extractStridedSlice S100000x1 ![0, 0] a0 slices_S100000x9_S100000x1_0_0) shapeCasts_S100000x1_S100000) (broadcastInDim S100000 ![] bcast_S_S100000 (constantI S_ 32 119#32))) (shapeCast S100000 (extractStridedSlice S100000x1 ![0, 0] a0 slices_S100000x9_S100000x1_0_0) shapeCasts_S100000x1_S100000))))
    (Host.gather gather_S119x256_S100000x1_S100000x256_1_0_n_n_0_1_1256
      (shapeCast S119x256 (extractStridedSlice S1x119x256 ![1, 0, 0] a4 slices_S9x119x256_S1x119x256_1_0_0) shapeCasts_S1x119x256_S119x256)
      (broadcastInDim S100000x1 ![0] bcast_S100000_S100000x1_0 (select (cmpi .slt (shapeCast S100000 (extractStridedSlice S100000x1 ![0, 1] a0 slices_S100000x9_S100000x1_0_1) shapeCasts_S100000x1_S100000) (broadcastInDim S100000 ![] bcast_S_S100000 (constantI S_ 32 0#32))) (addi (shapeCast S100000 (extractStridedSlice S100000x1 ![0, 1] a0 slices_S100000x9_S100000x1_0_1) shapeCasts_S100000x1_S100000) (broadcastInDim S100000 ![] bcast_S_S100000 (constantI S_ 32 119#32))) (shapeCast S100000 (extractStridedSlice S100000x1 ![0, 1] a0 slices_S100000x9_S100000x1_0_1) shapeCasts_S100000x1_S100000)))))
    (Host.gather gather_S119x256_S100000x1_S100000x256_1_0_n_n_0_1_1256
      (shapeCast S119x256 (extractStridedSlice S1x119x256 ![2, 0, 0] a4 slices_S9x119x256_S1x119x256_2_0_0) shapeCasts_S1x119x256_S119x256)
      (broadcastInDim S100000x1 ![0] bcast_S100000_S100000x1_0 (select (cmpi .slt (shapeCast S100000 (extractStridedSlice S100000x1 ![0, 2] a0 slices_S100000x9_S100000x1_0_2) shapeCasts_S100000x1_S100000) (broadcastInDim S100000 ![] bcast_S_S100000 (constantI S_ 32 0#32))) (addi (shapeCast S100000 (extractStridedSlice S100000x1 ![0, 2] a0 slices_S100000x9_S100000x1_0_2) shapeCasts_S100000x1_S100000) (broadcastInDim S100000 ![] bcast_S_S100000 (constantI S_ 32 119#32))) (shapeCast S100000 (extractStridedSlice S100000x1 ![0, 2] a0 slices_S100000x9_S100000x1_0_2) shapeCasts_S100000x1_S100000)))))
    (Host.gather gather_S119x256_S100000x1_S100000x256_1_0_n_n_0_1_1256
      (shapeCast S119x256 (extractStridedSlice S1x119x256 ![3, 0, 0] a4 slices_S9x119x256_S1x119x256_3_0_0) shapeCasts_S1x119x256_S119x256)
      (broadcastInDim S100000x1 ![0] bcast_S100000_S100000x1_0 (select (cmpi .slt (shapeCast S100000 (extractStridedSlice S100000x1 ![0, 3] a0 slices_S100000x9_S100000x1_0_3) shapeCasts_S100000x1_S100000) (broadcastInDim S100000 ![] bcast_S_S100000 (constantI S_ 32 0#32))) (addi (shapeCast S100000 (extractStridedSlice S100000x1 ![0, 3] a0 slices_S100000x9_S100000x1_0_3) shapeCasts_S100000x1_S100000) (broadcastInDim S100000 ![] bcast_S_S100000 (constantI S_ 32 119#32))) (shapeCast S100000 (extractStridedSlice S100000x1 ![0, 3] a0 slices_S100000x9_S100000x1_0_3) shapeCasts_S100000x1_S100000)))))
    (Host.gather gather_S119x256_S100000x1_S100000x256_1_0_n_n_0_1_1256
      (shapeCast S119x256 (extractStridedSlice S1x119x256 ![4, 0, 0] a4 slices_S9x119x256_S1x119x256_4_0_0) shapeCasts_S1x119x256_S119x256)
      (broadcastInDim S100000x1 ![0] bcast_S100000_S100000x1_0 (select (cmpi .slt (shapeCast S100000 (extractStridedSlice S100000x1 ![0, 4] a0 slices_S100000x9_S100000x1_0_4) shapeCasts_S100000x1_S100000) (broadcastInDim S100000 ![] bcast_S_S100000 (constantI S_ 32 0#32))) (addi (shapeCast S100000 (extractStridedSlice S100000x1 ![0, 4] a0 slices_S100000x9_S100000x1_0_4) shapeCasts_S100000x1_S100000) (broadcastInDim S100000 ![] bcast_S_S100000 (constantI S_ 32 119#32))) (shapeCast S100000 (extractStridedSlice S100000x1 ![0, 4] a0 slices_S100000x9_S100000x1_0_4) shapeCasts_S100000x1_S100000)))))
    (Host.gather gather_S119x256_S100000x1_S100000x256_1_0_n_n_0_1_1256
      (shapeCast S119x256 (extractStridedSlice S1x119x256 ![5, 0, 0] a4 slices_S9x119x256_S1x119x256_5_0_0) shapeCasts_S1x119x256_S119x256)
      (broadcastInDim S100000x1 ![0] bcast_S100000_S100000x1_0 (select (cmpi .slt (shapeCast S100000 (extractStridedSlice S100000x1 ![0, 5] a0 slices_S100000x9_S100000x1_0_5) shapeCasts_S100000x1_S100000) (broadcastInDim S100000 ![] bcast_S_S100000 (constantI S_ 32 0#32))) (addi (shapeCast S100000 (extractStridedSlice S100000x1 ![0, 5] a0 slices_S100000x9_S100000x1_0_5) shapeCasts_S100000x1_S100000) (broadcastInDim S100000 ![] bcast_S_S100000 (constantI S_ 32 119#32))) (shapeCast S100000 (extractStridedSlice S100000x1 ![0, 5] a0 slices_S100000x9_S100000x1_0_5) shapeCasts_S100000x1_S100000)))))
    (Host.gather gather_S119x256_S100000x1_S100000x256_1_0_n_n_0_1_1256
      (shapeCast S119x256 (extractStridedSlice S1x119x256 ![6, 0, 0] a4 slices_S9x119x256_S1x119x256_6_0_0) shapeCasts_S1x119x256_S119x256)
      (broadcastInDim S100000x1 ![0] bcast_S100000_S100000x1_0 (select (cmpi .slt (shapeCast S100000 (extractStridedSlice S100000x1 ![0, 6] a0 slices_S100000x9_S100000x1_0_6) shapeCasts_S100000x1_S100000) (broadcastInDim S100000 ![] bcast_S_S100000 (constantI S_ 32 0#32))) (addi (shapeCast S100000 (extractStridedSlice S100000x1 ![0, 6] a0 slices_S100000x9_S100000x1_0_6) shapeCasts_S100000x1_S100000) (broadcastInDim S100000 ![] bcast_S_S100000 (constantI S_ 32 119#32))) (shapeCast S100000 (extractStridedSlice S100000x1 ![0, 6] a0 slices_S100000x9_S100000x1_0_6) shapeCasts_S100000x1_S100000)))))
    (Host.gather gather_S119x256_S100000x1_S100000x256_1_0_n_n_0_1_1256
      (shapeCast S119x256 (extractStridedSlice S1x119x256 ![7, 0, 0] a4 slices_S9x119x256_S1x119x256_7_0_0) shapeCasts_S1x119x256_S119x256)
      (broadcastInDim S100000x1 ![0] bcast_S100000_S100000x1_0 (select (cmpi .slt (shapeCast S100000 (extractStridedSlice S100000x1 ![0, 7] a0 slices_S100000x9_S100000x1_0_7) shapeCasts_S100000x1_S100000) (broadcastInDim S100000 ![] bcast_S_S100000 (constantI S_ 32 0#32))) (addi (shapeCast S100000 (extractStridedSlice S100000x1 ![0, 7] a0 slices_S100000x9_S100000x1_0_7) shapeCasts_S100000x1_S100000) (broadcastInDim S100000 ![] bcast_S_S100000 (constantI S_ 32 119#32))) (shapeCast S100000 (extractStridedSlice S100000x1 ![0, 7] a0 slices_S100000x9_S100000x1_0_7) shapeCasts_S100000x1_S100000)))))
    (Host.gather gather_S119x256_S100000x1_S100000x256_1_0_n_n_0_1_1256
      (shapeCast S119x256 (extractStridedSlice S1x119x256 ![8, 0, 0] a4 slices_S9x119x256_S1x119x256_8_0_0) shapeCasts_S1x119x256_S119x256)
      (broadcastInDim S100000x1 ![0] bcast_S100000_S100000x1_0 (select (cmpi .slt (shapeCast S100000 (extractStridedSlice S100000x1 ![0, 8] a0 slices_S100000x9_S100000x1_0_8) shapeCasts_S100000x1_S100000) (broadcastInDim S100000 ![] bcast_S_S100000 (constantI S_ 32 0#32))) (addi (shapeCast S100000 (extractStridedSlice S100000x1 ![0, 8] a0 slices_S100000x9_S100000x1_0_8) shapeCasts_S100000x1_S100000) (broadcastInDim S100000 ![] bcast_S_S100000 (constantI S_ 32 119#32))) (shapeCast S100000 (extractStridedSlice S100000x1 ![0, 8] a0 slices_S100000x9_S100000x1_0_8) shapeCasts_S100000x1_S100000)))))

/-- The edge encoding: the sum over the three features, in order, of the table row each code selects. -/
def encE (a1 : IVec S200000x3 32) (a5 : FVec Ideal S3x22x256 .f32) : FVec Ideal S200000x256 .f32 :=
  (addf (F := Ideal) (addf (F := Ideal) (Host.gather gather_S22x256_S200000x1_S200000x256_1_0_n_n_0_1_1256
      (shapeCast S22x256 (extractStridedSlice S1x22x256 ![0, 0, 0] a5 slices_S3x22x256_S1x22x256_0_0_0) shapeCasts_S1x22x256_S22x256)
      (broadcastInDim S200000x1 ![0] bcast_S200000_S200000x1_0 (select (cmpi .slt (shapeCast S200000 (extractStridedSlice S200000x1 ![0, 0] a1 slices_S200000x3_S200000x1_0_0) shapeCasts_S200000x1_S200000) (broadcastInDim S200000 ![] bcast_S_S200000 (constantI S_ 32 0#32))) (addi (shapeCast S200000 (extractStridedSlice S200000x1 ![0, 0] a1 slices_S200000x3_S200000x1_0_0) shapeCasts_S200000x1_S200000) (broadcastInDim S200000 ![] bcast_S_S200000 (constantI S_ 32 22#32))) (shapeCast S200000 (extractStridedSlice S200000x1 ![0, 0] a1 slices_S200000x3_S200000x1_0_0) shapeCasts_S200000x1_S200000))))
    (Host.gather gather_S22x256_S200000x1_S200000x256_1_0_n_n_0_1_1256
      (shapeCast S22x256 (extractStridedSlice S1x22x256 ![1, 0, 0] a5 slices_S3x22x256_S1x22x256_1_0_0) shapeCasts_S1x22x256_S22x256)
      (broadcastInDim S200000x1 ![0] bcast_S200000_S200000x1_0 (select (cmpi .slt (shapeCast S200000 (extractStridedSlice S200000x1 ![0, 1] a1 slices_S200000x3_S200000x1_0_1) shapeCasts_S200000x1_S200000) (broadcastInDim S200000 ![] bcast_S_S200000 (constantI S_ 32 0#32))) (addi (shapeCast S200000 (extractStridedSlice S200000x1 ![0, 1] a1 slices_S200000x3_S200000x1_0_1) shapeCasts_S200000x1_S200000) (broadcastInDim S200000 ![] bcast_S_S200000 (constantI S_ 32 22#32))) (shapeCast S200000 (extractStridedSlice S200000x1 ![0, 1] a1 slices_S200000x3_S200000x1_0_1) shapeCasts_S200000x1_S200000)))))
    (Host.gather gather_S22x256_S200000x1_S200000x256_1_0_n_n_0_1_1256
      (shapeCast S22x256 (extractStridedSlice S1x22x256 ![2, 0, 0] a5 slices_S3x22x256_S1x22x256_2_0_0) shapeCasts_S1x22x256_S22x256)
      (broadcastInDim S200000x1 ![0] bcast_S200000_S200000x1_0 (select (cmpi .slt (shapeCast S200000 (extractStridedSlice S200000x1 ![0, 2] a1 slices_S200000x3_S200000x1_0_2) shapeCasts_S200000x1_S200000) (broadcastInDim S200000 ![] bcast_S_S200000 (constantI S_ 32 0#32))) (addi (shapeCast S200000 (extractStridedSlice S200000x1 ![0, 2] a1 slices_S200000x3_S200000x1_0_2) shapeCasts_S200000x1_S200000) (broadcastInDim S200000 ![] bcast_S_S200000 (constantI S_ 32 22#32))) (shapeCast S200000 (extractStridedSlice S200000x1 ![0, 2] a1 slices_S200000x3_S200000x1_0_2) shapeCasts_S200000x1_S200000)))))

/-- The source node of every edge: row 0 of the edge list. -/
def srcOf (a2 : IVec S2x200000 32) : IVec S200000 32 :=
  shapeCast S200000 (extractStridedSlice S1x200000 ![0, 0] a2 slices_S2x200000_S1x200000_0_0) shapeCasts_S1x200000_S200000
/-- The destination node of every edge: row 1 of the edge list. -/
def dstOf (a2 : IVec S2x200000 32) : IVec S200000 32 :=
  shapeCast S200000 (extractStridedSlice S1x200000 ![1, 0] a2 slices_S2x200000_S1x200000_1_0) shapeCasts_S1x200000_S200000

/-- The start indices the take gathers at: a negative source index counts from the end. -/
def takeIdx (s : IVec S200000 32) : IVec S200000x1 32 :=
  broadcastInDim S200000x1 ![0] bcast_S200000_S200000x1_0
    (select (cmpi .slt s (broadcastInDim S200000 ![] bcast_S_S200000 (constantI S_ 32 0#32)))
      (addi s (broadcastInDim S200000 ![] bcast_S_S200000 (constantI S_ 32 100000#32))) s)
/-- Per edge, whether its start index lies in the node range `0 … 99999`. -/
def takeOk (s : IVec S200000 32) : IVec S200000 1 :=
  Host.reduce IntOp.andi
    (andi (cmpi .sge (takeIdx s) (broadcastInDim S200000x1 ![] bcast_S_S200000x1 (constantI S_ 32 0#32)))
      (cmpi .sle (takeIdx s) (broadcastInDim S200000x1 ![0, 1] bcast_S1x1_S200000x1_0_1 (broadcastInDim S1x1 ![1] bcast_S1_S1x1_1 (constantI S1 32 99999#32)))))
    (constantI S_ 1 1#1) reducesTo_S200000x1_S200000_d1 h_S_
/-- The node row of every edge's source, or the fill value where the source is out of range. -/
def take (x : FVec Ideal S100000x256 .f32) (s : IVec S200000 32) : FVec Ideal S200000x256 .f32 :=
  select (broadcastInDim S200000x256 ![0] bcast_S200000_S200000x256_0 (takeOk s))
    (Host.gather gather_S100000x256_S200000x1_S200000x256_1_0_n_n_0_1_1256 x (takeIdx s))
    (broadcastInDim S200000x256 ![] bcast_S_S200000x256 (constant (F := Ideal) S_ .f32 0x7FC00000#32))

/-- Every source index names a node: it lies in `0 … 99999` as a signed integer. -/
def SrcInRange (s : IVec S200000 32) : Prop := ∀ i : S200000.Idx, 0 ≤ (s i).toInt ∧ (s i).toInt < 100000

/-- Edge rows added into their destination nodes, from zero. -/
def segsum (d : IVec S200000 32) (u : FVec Ideal S200000x256 .f32) : FVec Ideal S100000x256 .f32 :=
  Host.scatterAdd scatter_S100000x256_S200000x1_S200000x256_1_0_0_1
    (broadcastInDim S100000x256 ![] bcast_S_S100000x256 (constant (F := Ideal) S_ .f32 0x00000000#32))
    (broadcastInDim S200000x1 ![0] bcast_S200000_S200000x1_0 d) u

/-- Node rows added into their graphs, from zero. -/
def gsum (a3 : IVec S100000 32) (x : FVec Ideal S100000x256 .f32) : FVec Ideal S4096x256 .f32 :=
  Host.scatterAdd scatter_S4096x256_S100000x1_S100000x256_1_0_0_1
    (broadcastInDim S4096x256 ![] bcast_S_S4096x256 (constant (F := Ideal) S_ .f32 0x00000000#32))
    (broadcastInDim S100000x1 ![0] bcast_S100000_S100000x1_0 a3) x

/-- Layer 0's first weight matrix: slab 0 of the stacked weights. -/
def w1At0 (a6 : FVec Ideal S4x256x512 .f32) : FVec Ideal S256x512 .f32 :=
  shapeCast S256x512 (extractStridedSlice S1x256x512 ![0, 0, 0] a6 slices_S4x256x512_S1x256x512_0_0_0) shapeCasts_S1x256x512_S256x512
/-- Layer 0's first bias row. -/
def b1At0 (a7 : FVec Ideal S4x512 .f32) : FVec Ideal S512 .f32 :=
  shapeCast S512 (extractStridedSlice S1x512 ![0, 0] a7 slices_S4x512_S1x512_0_0) shapeCasts_S1x512_S512
/-- Layer 0's second weight matrix. -/
def w2At0 (a8 : FVec Ideal S4x512x256 .f32) : FVec Ideal S512x256 .f32 :=
  shapeCast S512x256 (extractStridedSlice S1x512x256 ![0, 0, 0] a8 slices_S4x512x256_S1x512x256_0_0_0) shapeCasts_S1x512x256_S512x256
/-- Layer 0's second bias row. -/
def b2At0 (a9 : FVec Ideal S4x256 .f32) : FVec Ideal S256 .f32 :=
  shapeCast S256 (extractStridedSlice S1x256 ![0, 0] a9 slices_S4x256_S1x256_0_0) shapeCasts_S1x256_S256

/-- Layer 1's first weight matrix: slab 1 of the stacked weights. -/
def w1At1 (a6 : FVec Ideal S4x256x512 .f32) : FVec Ideal S256x512 .f32 :=
  shapeCast S256x512 (extractStridedSlice S1x256x512 ![1, 0, 0] a6 slices_S4x256x512_S1x256x512_1_0_0) shapeCasts_S1x256x512_S256x512
/-- Layer 1's first bias row. -/
def b1At1 (a7 : FVec Ideal S4x512 .f32) : FVec Ideal S512 .f32 :=
  shapeCast S512 (extractStridedSlice S1x512 ![1, 0] a7 slices_S4x512_S1x512_1_0) shapeCasts_S1x512_S512
/-- Layer 1's second weight matrix. -/
def w2At1 (a8 : FVec Ideal S4x512x256 .f32) : FVec Ideal S512x256 .f32 :=
  shapeCast S512x256 (extractStridedSlice S1x512x256 ![1, 0, 0] a8 slices_S4x512x256_S1x512x256_1_0_0) shapeCasts_S1x512x256_S512x256
/-- Layer 1's second bias row. -/
def b2At1 (a9 : FVec Ideal S4x256 .f32) : FVec Ideal S256 .f32 :=
  shapeCast S256 (extractStridedSlice S1x256 ![1, 0] a9 slices_S4x256_S1x256_1_0) shapeCasts_S1x256_S256

/-- Layer 2's first weight matrix: slab 2 of the stacked weights. -/
def w1At2 (a6 : FVec Ideal S4x256x512 .f32) : FVec Ideal S256x512 .f32 :=
  shapeCast S256x512 (extractStridedSlice S1x256x512 ![2, 0, 0] a6 slices_S4x256x512_S1x256x512_2_0_0) shapeCasts_S1x256x512_S256x512
/-- Layer 2's first bias row. -/
def b1At2 (a7 : FVec Ideal S4x512 .f32) : FVec Ideal S512 .f32 :=
  shapeCast S512 (extractStridedSlice S1x512 ![2, 0] a7 slices_S4x512_S1x512_2_0) shapeCasts_S1x512_S512
/-- Layer 2's second weight matrix. -/
def w2At2 (a8 : FVec Ideal S4x512x256 .f32) : FVec Ideal S512x256 .f32 :=
  shapeCast S512x256 (extractStridedSlice S1x512x256 ![2, 0, 0] a8 slices_S4x512x256_S1x512x256_2_0_0) shapeCasts_S1x512x256_S512x256
/-- Layer 2's second bias row. -/
def b2At2 (a9 : FVec Ideal S4x256 .f32) : FVec Ideal S256 .f32 :=
  shapeCast S256 (extractStridedSlice S1x256 ![2, 0] a9 slices_S4x256_S1x256_2_0) shapeCasts_S1x256_S256

/-- Layer 3's first weight matrix: slab 3 of the stacked weights. -/
def w1At3 (a6 : FVec Ideal S4x256x512 .f32) : FVec Ideal S256x512 .f32 :=
  shapeCast S256x512 (extractStridedSlice S1x256x512 ![3, 0, 0] a6 slices_S4x256x512_S1x256x512_3_0_0) shapeCasts_S1x256x512_S256x512
/-- Layer 3's first bias row. -/
def b1At3 (a7 : FVec Ideal S4x512 .f32) : FVec Ideal S512 .f32 :=
  shapeCast S512 (extractStridedSlice S1x512 ![3, 0] a7 slices_S4x512_S1x512_3_0) shapeCasts_S1x512_S512
/-- Layer 3's second weight matrix. -/
def w2At3 (a8 : FVec Ideal S4x512x256 .f32) : FVec Ideal S512x256 .f32 :=
  shapeCast S512x256 (extractStridedSlice S1x512x256 ![3, 0, 0] a8 slices_S4x512x256_S1x512x256_3_0_0) shapeCasts_S1x512x256_S512x256
/-- Layer 3's second bias row. -/
def b2At3 (a9 : FVec Ideal S4x256 .f32) : FVec Ideal S256 .f32 :=
  shapeCast S256 (extractStridedSlice S1x256 ![3, 0] a9 slices_S4x256_S1x256_3_0) shapeCasts_S1x256_S256

/-- One message-passing layer on the node array `x`. -/
def layer (w1 : FVec Ideal S256x512 .f32) (b1 : FVec Ideal S512 .f32) (w2 : FVec Ideal S512x256 .f32) (b2 : FVec Ideal S256 .f32)
    (e : FVec Ideal S200000x256 .f32) (s d : IVec S200000 32) (x : FVec Ideal S100000x256 .f32) : FVec Ideal S100000x256 .f32 :=
  Cert.Spec.upd (n := 100000) (d := 256) (h := 512) x (segsum d (Cert.Spec.msg (a := 200000) (b := 256) (take x s) e)) w1 b1 w2 b2

/-- The node array after layers `0 … 3`. -/
def nodes (a0 : IVec S100000x9 32) (a1 : IVec S200000x3 32) (a2 : IVec S2x200000 32)
    (a4 : FVec Ideal S9x119x256 .f32) (a5 : FVec Ideal S3x22x256 .f32) (a6 : FVec Ideal S4x256x512 .f32) (a7 : FVec Ideal S4x512 .f32)
    (a8 : FVec Ideal S4x512x256 .f32) (a9 : FVec Ideal S4x256 .f32) : FVec Ideal S100000x256 .f32 :=
  layer (w1At3 a6) (b1At3 a7) (w2At3 a8) (b2At3 a9) (encE a1 a5) (srcOf a2) (dstOf a2)
    (layer (w1At2 a6) (b1At2 a7) (w2At2 a8) (b2At2 a9) (encE a1 a5) (srcOf a2) (dstOf a2)
      (layer (w1At1 a6) (b1At1 a7) (w2At1 a8) (b2At1 a9) (encE a1 a5) (srcOf a2) (dstOf a2)
        (layer (w1At0 a6) (b1At0 a7) (w2At0 a8) (b2At0 a9) (encE a1 a5) (srcOf a2) (dstOf a2) (encN a0 a4))))

/-- The whole network: the readout of the pooled node array. -/
def net (a0 : IVec S100000x9 32) (a1 : IVec S200000x3 32) (a2 : IVec S2x200000 32) (a3 : IVec S100000 32)
    (a4 : FVec Ideal S9x119x256 .f32) (a5 : FVec Ideal S3x22x256 .f32) (a6 : FVec Ideal S4x256x512 .f32) (a7 : FVec Ideal S4x512 .f32)
    (a8 : FVec Ideal S4x512x256 .f32) (a9 : FVec Ideal S4x256 .f32) (a10 : FVec Ideal S256x256 .f32) (a11 : FVec Ideal S256 .f32)
    (a12 : FVec Ideal S256x768 .f32) (a13 : FVec Ideal S768 .f32) : FVec Ideal S4096x768 .f32 :=
  Cert.Spec.pool (n := 4096) (d := 256) (o := 768) (gsum a3 (nodes a0 a1 a2 a4 a5 a6 a7 a8 a9)) a10 a11 a12 a13

end Cert.KernelIdeal.Val

end
-- ==== Proof.KHost0.lean ====
/- What the first stretch of host operations leaves for the first region: the two encodings, the edge list's two rows, and the node rows taken at the edges' sources, each as its function of the program's inputs. -/
import proofs.«422649_j18588618457330_1_alg».proof.Proof.Gen.KernelIdeal.Frame
import proofs.«422649_j18588618457330_1_alg».proof.Proof.KOps
import Idealize.ShloMosaic.Lib.StableHlo.Run
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Cert.KernelIdeal Cert.KernelIdeal.Gen

/-! ## The two stretches read over any contents before them

Each stretch is a straight line of operations, so what a buffer holds after it is the composition of the operations
that lead to that buffer, applied to what the argument buffers held before. The contents before are kept a variable
`V`: the statements are about the operations alone. -/

section Reads

variable (V : Valuation τ sig (Elt Ideal))

/-- The take writes none of the node encoding, … -/
theorem take_keeps_nodes : StableHlo.after (hostOps0_1 (F := Ideal)) V (Proc.devRef .tc main_v106) = V (Proc.devRef .tc main_v106) :=
  StableHlo.after_of_forall_not_mem (b := Proc.devRef .tc main_v106) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
/-- … the edge encoding, … -/
theorem take_keeps_edges : StableHlo.after (hostOps0_1 (F := Ideal)) V (Proc.devRef .tc main_v141) = V (Proc.devRef .tc main_v141) :=
  StableHlo.after_of_forall_not_mem (b := Proc.devRef .tc main_v141) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
/-- … the sources, … -/
theorem take_keeps_src : StableHlo.after (hostOps0_1 (F := Ideal)) V (Proc.devRef .tc main_v143) = V (Proc.devRef .tc main_v143) :=
  StableHlo.after_of_forall_not_mem (b := Proc.devRef .tc main_v143) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
/-- … or the destinations. -/
theorem take_keeps_dst : StableHlo.after (hostOps0_1 (F := Ideal)) V (Proc.devRef .tc main_v145) = V (Proc.devRef .tc main_v145) :=
  StableHlo.after_of_forall_not_mem (b := Proc.devRef .tc main_v145) _ _ (List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- The take's result: the node row at each edge's (wrapped) source where that lies in the node range, the fill value
    elsewhere. The operations carry their values at the buffers' own types; the transports between a buffer's type and
    its value's are identities. -/
theorem take_read : StableHlo.after (hostOps0_1 (F := Ideal)) V (Proc.devRef .tc main_v146)
    = take (V (Proc.devRef .tc main_v106)) (V (Proc.devRef .tc main_v143)) := by
  unfold take takeOk takeIdx
  after_results_simp
  simp only [StableHlo.TRef.ofBuf, StableHlo.TRef.toBuf, cast_eq]

set_option maxHeartbeats 40000000 in
/-- Row 0 of the edge list, as a vector. -/
theorem src_read : StableHlo.after (hostOps0 (F := Ideal)) V (Proc.devRef .tc main_v143) = srcOf (V (Proc.devRef .tc main_arg2)) := by
  unfold srcOf
  after_results_simp
  rfl

set_option maxHeartbeats 40000000 in
/-- Row 1 of the edge list, as a vector. -/
theorem dst_read : StableHlo.after (hostOps0 (F := Ideal)) V (Proc.devRef .tc main_v145) = dstOf (V (Proc.devRef .tc main_arg2)) := by
  unfold dstOf
  after_results_simp
  rfl

set_option maxHeartbeats 40000000 in
/-- The edge encoding: the running sum over the three features of the gathered table rows. -/
theorem edges_read : StableHlo.after (hostOps0 (F := Ideal)) V (Proc.devRef .tc main_v141)
    = encE (V (Proc.devRef .tc main_arg1)) (V (Proc.devRef .tc main_arg5)) := by
  unfold encE
  after_results_simp
  rfl

set_option maxHeartbeats 40000000 in
/-- The node encoding: the running sum over the nine features of the gathered table rows. -/
theorem nodes_read : StableHlo.after (hostOps0 (F := Ideal)) V (Proc.devRef .tc main_v106)
    = encN (V (Proc.devRef .tc main_arg0)) (V (Proc.devRef .tc main_arg4)) := by
  unfold encN
  after_results_simp
  rfl

end Reads

/-! ## At the first region's entry

The contents there are the take's stretch run after the first stretch run from the launch memory; the first stretch's
results pass the take untouched. -/

variable (m : (ℓ : Loc nD τ sig) → Buf (Elt Ideal) ℓ) (ρ : Dev nD → PrngReg)

/-- The node encoding. -/
theorem W2_nodes (c : Dev nD) : W2 m ρ c (Proc.devRef .tc main_v106) = encN (m ((c : Thread nD τ).loc main_arg0)) (m ((c : Thread nD τ).loc main_arg4)) :=
  (take_keeps_nodes (W1 m ρ c)).trans (nodes_read (W0 m ρ c))
/-- The edge encoding. -/
theorem W2_edges (c : Dev nD) : W2 m ρ c (Proc.devRef .tc main_v141) = encE (m ((c : Thread nD τ).loc main_arg1)) (m ((c : Thread nD τ).loc main_arg5)) :=
  (take_keeps_edges (W1 m ρ c)).trans (edges_read (W0 m ρ c))
/-- The edges' sources. -/
theorem W2_src (c : Dev nD) : W2 m ρ c (Proc.devRef .tc main_v143) = srcOf (m ((c : Thread nD τ).loc main_arg2)) :=
  (take_keeps_src (W1 m ρ c)).trans (src_read (W0 m ρ c))
/-- The edges' destinations. -/
theorem W2_dst (c : Dev nD) : W2 m ρ c (Proc.devRef .tc main_v145) = dstOf (m ((c : Thread nD τ).loc main_arg2)) :=
  (take_keeps_dst (W1 m ρ c)).trans (dst_read (W0 m ρ c))
/-- The node rows at the edges' sources. -/
theorem W2_taken (c : Dev nD) : W2 m ρ c (Proc.devRef .tc main_v146) = take (W2 m ρ c (Proc.devRef .tc main_v106)) (W2 m ρ c (Proc.devRef .tc main_v143)) :=
  (take_read (W1 m ρ c)).trans (congrArg₂ take (take_keeps_nodes (W1 m ρ c)).symm (take_keeps_src (W1 m ρ c)).symm)

end Cert.KernelIdeal.Val

end
-- ==== Proof.KCarry.lean ====
/- A buffer that no host operation and no region writes between two segment boundaries holds at the later one
   what it held at the earlier one: one fact per boundary crossed, and their compositions. -/
import proofs.«422649_j18588618457330_1_alg».proof.Proof.Gen.KernelIdeal.Frame

set_option maxRecDepth 16384

noncomputable section

namespace Cert.KernelIdeal.Carry

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

theorem hop_main_arg6_1 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg6_2 (c : Dev nD) : W2 m ρ c (Proc.devRef .tc main_arg6) = W1 m ρ c (Proc.devRef .tc main_arg6) :=
  StableHlo.after_of_forall_not_mem (b := Proc.devRef .tc main_arg6) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg6_3 (c : Dev nD) : W3 m ρ c (Proc.devRef .tc main_arg6) = W2 m ρ c (Proc.devRef .tc main_arg6) :=
  W3_of_ne m ρ c main_arg6 (by decide)
theorem hop_main_arg6_4 (c : Dev nD) : W4 m ρ c (Proc.devRef .tc main_arg6) = W3 m ρ c (Proc.devRef .tc main_arg6) :=
  StableHlo.after_of_forall_not_mem (b := Proc.devRef .tc main_arg6) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg6_5 (c : Dev nD) : W5 m ρ c (Proc.devRef .tc main_arg6) = W4 m ρ c (Proc.devRef .tc main_arg6) :=
  W5_of_ne m ρ c main_arg6 (by decide)
theorem hop_main_arg6_6 (c : Dev nD) : W6 m ρ c (Proc.devRef .tc main_arg6) = W5 m ρ c (Proc.devRef .tc main_arg6) :=
  StableHlo.after_of_forall_not_mem (b := Proc.devRef .tc main_arg6) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg6_7 (c : Dev nD) : W7 m ρ c (Proc.devRef .tc main_arg6) = W6 m ρ c (Proc.devRef .tc main_arg6) :=
  W7_of_ne m ρ c main_arg6 (by decide)
theorem hop_main_arg6_8 (c : Dev nD) : W8 m ρ c (Proc.devRef .tc main_arg6) = W7 m ρ c (Proc.devRef .tc main_arg6) :=
  StableHlo.after_of_forall_not_mem (b := Proc.devRef .tc main_arg6) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg6_9 (c : Dev nD) : W9 m ρ c (Proc.devRef .tc main_arg6) = W8 m ρ c (Proc.devRef .tc main_arg6) :=
  W9_of_ne m ρ c main_arg6 (by decide)
theorem hop_main_arg6_10 (c : Dev nD) : W10 m ρ c (Proc.devRef .tc main_arg6) = W9 m ρ c (Proc.devRef .tc main_arg6) :=
  StableHlo.after_of_forall_not_mem (b := Proc.devRef .tc main_arg6) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg6_11 (c : Dev nD) : W11 m ρ c (Proc.devRef .tc main_arg6) = W10 m ρ c (Proc.devRef .tc main_arg6) :=
  W11_of_ne m ρ c main_arg6 (by decide)
theorem hop_main_arg6_12 (c : Dev nD) : W12 m ρ c (Proc.devRef .tc main_arg6) = W11 m ρ c (Proc.devRef .tc main_arg6) :=
  StableHlo.after_of_forall_not_mem (b := Proc.devRef .tc main_arg6) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg6_13 (c : Dev nD) : W13 m ρ c (Proc.devRef .tc main_arg6) = W12 m ρ c (Proc.devRef .tc main_arg6) :=
  W13_of_ne m ρ c main_arg6 (by decide)
theorem hop_main_arg6_14 (c : Dev nD) : W14 m ρ c (Proc.devRef .tc main_arg6) = W13 m ρ c (Proc.devRef .tc main_arg6) :=
  StableHlo.after_of_forall_not_mem (b := Proc.devRef .tc main_arg6) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg6_15 (c : Dev nD) : W15 m ρ c (Proc.devRef .tc main_arg6) = W14 m ρ c (Proc.devRef .tc main_arg6) :=
  W15_of_ne m ρ c main_arg6 (by decide)
theorem hop_main_arg7_1 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg7_2 (c : Dev nD) : W2 m ρ c (Proc.devRef .tc main_arg7) = W1 m ρ c (Proc.devRef .tc main_arg7) :=
  StableHlo.after_of_forall_not_mem (b := Proc.devRef .tc main_arg7) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg7_3 (c : Dev nD) : W3 m ρ c (Proc.devRef .tc main_arg7) = W2 m ρ c (Proc.devRef .tc main_arg7) :=
  W3_of_ne m ρ c main_arg7 (by decide)
theorem hop_main_arg7_4 (c : Dev nD) : W4 m ρ c (Proc.devRef .tc main_arg7) = W3 m ρ c (Proc.devRef .tc main_arg7) :=
  StableHlo.after_of_forall_not_mem (b := Proc.devRef .tc main_arg7) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg7_5 (c : Dev nD) : W5 m ρ c (Proc.devRef .tc main_arg7) = W4 m ρ c (Proc.devRef .tc main_arg7) :=
  W5_of_ne m ρ c main_arg7 (by decide)
theorem hop_main_arg7_6 (c : Dev nD) : W6 m ρ c (Proc.devRef .tc main_arg7) = W5 m ρ c (Proc.devRef .tc main_arg7) :=
  StableHlo.after_of_forall_not_mem (b := Proc.devRef .tc main_arg7) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg7_7 (c : Dev nD) : W7 m ρ c (Proc.devRef .tc main_arg7) = W6 m ρ c (Proc.devRef .tc main_arg7) :=
  W7_of_ne m ρ c main_arg7 (by decide)
theorem hop_main_arg7_8 (c : Dev nD) : W8 m ρ c (Proc.devRef .tc main_arg7) = W7 m ρ c (Proc.devRef .tc main_arg7) :=
  StableHlo.after_of_forall_not_mem (b := Proc.devRef .tc main_arg7) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg7_9 (c : Dev nD) : W9 m ρ c (Proc.devRef .tc main_arg7) = W8 m ρ c (Proc.devRef .tc main_arg7) :=
  W9_of_ne m ρ c main_arg7 (by decide)
theorem hop_main_arg7_10 (c : Dev nD) : W10 m ρ c (Proc.devRef .tc main_arg7) = W9 m ρ c (Proc.devRef .tc main_arg7) :=
  StableHlo.after_of_forall_not_mem (b := Proc.devRef .tc main_arg7) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg7_11 (c : Dev nD) : W11 m ρ c (Proc.devRef .tc main_arg7) = W10 m ρ c (Proc.devRef .tc main_arg7) :=
  W11_of_ne m ρ c main_arg7 (by decide)
theorem hop_main_arg7_12 (c : Dev nD) : W12 m ρ c (Proc.devRef .tc main_arg7) = W11 m ρ c (Proc.devRef .tc main_arg7) :=
  StableHlo.after_of_forall_not_mem (b := Proc.devRef .tc main_arg7) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg7_13 (c : Dev nD) : W13 m ρ c (Proc.devRef .tc main_arg7) = W12 m ρ c (Proc.devRef .tc main_arg7) :=
  W13_of_ne m ρ c main_arg7 (by decide)
theorem hop_main_arg7_14 (c : Dev nD) : W14 m ρ c (Proc.devRef .tc main_arg7) = W13 m ρ c (Proc.devRef .tc main_arg7) :=
  StableHlo.after_of_forall_not_mem (b := Proc.devRef .tc main_arg7) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg7_15 (c : Dev nD) : W15 m ρ c (Proc.devRef .tc main_arg7) = W14 m ρ c (Proc.devRef .tc main_arg7) :=
  W15_of_ne m ρ c main_arg7 (by decide)
theorem hop_main_arg8_1 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg8_2 (c : Dev nD) : W2 m ρ c (Proc.devRef .tc main_arg8) = W1 m ρ c (Proc.devRef .tc main_arg8) :=
  StableHlo.after_of_forall_not_mem (b := Proc.devRef .tc main_arg8) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg8_3 (c : Dev nD) : W3 m ρ c (Proc.devRef .tc main_arg8) = W2 m ρ c (Proc.devRef .tc main_arg8) :=
  W3_of_ne m ρ c main_arg8 (by decide)
theorem hop_main_arg8_4 (c : Dev nD) : W4 m ρ c (Proc.devRef .tc main_arg8) = W3 m ρ c (Proc.devRef .tc main_arg8) :=
  StableHlo.after_of_forall_not_mem (b := Proc.devRef .tc main_arg8) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg8_5 (c : Dev nD) : W5 m ρ c (Proc.devRef .tc main_arg8) = W4 m ρ c (Proc.devRef .tc main_arg8) :=
  W5_of_ne m ρ c main_arg8 (by decide)
theorem hop_main_arg8_6 (c : Dev nD) : W6 m ρ c (Proc.devRef .tc main_arg8) = W5 m ρ c (Proc.devRef .tc main_arg8) :=
  StableHlo.after_of_forall_not_mem (b := Proc.devRef .tc main_arg8) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg8_7 (c : Dev nD) : W7 m ρ c (Proc.devRef .tc main_arg8) = W6 m ρ c (Proc.devRef .tc main_arg8) :=
  W7_of_ne m ρ c main_arg8 (by decide)
theorem hop_main_arg8_8 (c : Dev nD) : W8 m ρ c (Proc.devRef .tc main_arg8) = W7 m ρ c (Proc.devRef .tc main_arg8) :=
  StableHlo.after_of_forall_not_mem (b := Proc.devRef .tc main_arg8) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg8_9 (c : Dev nD) : W9 m ρ c (Proc.devRef .tc main_arg8) = W8 m ρ c (Proc.devRef .tc main_arg8) :=
  W9_of_ne m ρ c main_arg8 (by decide)
theorem hop_main_arg8_10 (c : Dev nD) : W10 m ρ c (Proc.devRef .tc main_arg8) = W9 m ρ c (Proc.devRef .tc main_arg8) :=
  StableHlo.after_of_forall_not_mem (b := Proc.devRef .tc main_arg8) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg8_11 (c : Dev nD) : W11 m ρ c (Proc.devRef .tc main_arg8) = W10 m ρ c (Proc.devRef .tc main_arg8) :=
  W11_of_ne m ρ c main_arg8 (by decide)
theorem hop_main_arg8_12 (c : Dev nD) : W12 m ρ c (Proc.devRef .tc main_arg8) = W11 m ρ c (Proc.devRef .tc main_arg8) :=
  StableHlo.after_of_forall_not_mem (b := Proc.devRef .tc main_arg8) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg8_13 (c : Dev nD) : W13 m ρ c (Proc.devRef .tc main_arg8) = W12 m ρ c (Proc.devRef .tc main_arg8) :=
  W13_of_ne m ρ c main_arg8 (by decide)
theorem hop_main_arg8_14 (c : Dev nD) : W14 m ρ c (Proc.devRef .tc main_arg8) = W13 m ρ c (Proc.devRef .tc main_arg8) :=
  StableHlo.after_of_forall_not_mem (b := Proc.devRef .tc main_arg8) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg8_15 (c : Dev nD) : W15 m ρ c (Proc.devRef .tc main_arg8) = W14 m ρ c (Proc.devRef .tc main_arg8) :=
  W15_of_ne m ρ c main_arg8 (by decide)
theorem hop_main_arg9_1 (c : Dev nD) : W1 m ρ c (Proc.devRef .tc main_arg9) = W0 m ρ c (Proc.devRef .tc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg9_2 (c : Dev nD) : W2 m ρ c (Proc.devRef .tc main_arg9) = W1 m ρ c (Proc.devRef .tc main_arg9) :=
  StableHlo.after_of_forall_not_mem (b := Proc.devRef .tc main_arg9) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg9_3 (c : Dev nD) : W3 m ρ c (Proc.devRef .tc main_arg9) = W2 m ρ c (Proc.devRef .tc main_arg9) :=
  W3_of_ne m ρ c main_arg9 (by decide)
theorem hop_main_arg9_4 (c : Dev nD) : W4 m ρ c (Proc.devRef .tc main_arg9) = W3 m ρ c (Proc.devRef .tc main_arg9) :=
  StableHlo.after_of_forall_not_mem (b := Proc.devRef .tc main_arg9) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg9_5 (c : Dev nD) : W5 m ρ c (Proc.devRef .tc main_arg9) = W4 m ρ c (Proc.devRef .tc main_arg9) :=
  W5_of_ne m ρ c main_arg9 (by decide)
theorem hop_main_arg9_6 (c : Dev nD) : W6 m ρ c (Proc.devRef .tc main_arg9) = W5 m ρ c (Proc.devRef .tc main_arg9) :=
  StableHlo.after_of_forall_not_mem (b := Proc.devRef .tc main_arg9) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg9_7 (c : Dev nD) : W7 m ρ c (Proc.devRef .tc main_arg9) = W6 m ρ c (Proc.devRef .tc main_arg9) :=
  W7_of_ne m ρ c main_arg9 (by decide)
theorem hop_main_arg9_8 (c : Dev nD) : W8 m ρ c (Proc.devRef .tc main_arg9) = W7 m ρ c (Proc.devRef .tc main_arg9) :=
  StableHlo.after_of_forall_not_mem (b := Proc.devRef .tc main_arg9) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg9_9 (c : Dev nD) : W9 m ρ c (Proc.devRef .tc main_arg9) = W8 m ρ c (Proc.devRef .tc main_arg9) :=
  W9_of_ne m ρ c main_arg9 (by decide)
theorem hop_main_arg9_10 (c : Dev nD) : W10 m ρ c (Proc.devRef .tc main_arg9) = W9 m ρ c (Proc.devRef .tc main_arg9) :=
  StableHlo.after_of_forall_not_mem (b := Proc.devRef .tc main_arg9) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg9_11 (c : Dev nD) : W11 m ρ c (Proc.devRef .tc main_arg9) = W10 m ρ c (Proc.devRef .tc main_arg9) :=
  W11_of_ne m ρ c main_arg9 (by decide)
theorem hop_main_arg9_12 (c : Dev nD) : W12 m ρ c (Proc.devRef .tc main_arg9) = W11 m ρ c (Proc.devRef .tc main_arg9) :=
  StableHlo.after_of_forall_not_mem (b := Proc.devRef .tc main_arg9) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg9_13 (c : Dev nD) : W13 m ρ c (Proc.devRef .tc main_arg9) = W12 m ρ c (Proc.devRef .tc main_arg9) :=
  W13_of_ne m ρ c main_arg9 (by decide)
theorem hop_main_arg9_14 (c : Dev nD) : W14 m ρ c (Proc.devRef .tc main_arg9) = W13 m ρ c (Proc.devRef .tc main_arg9) :=
  StableHlo.after_of_forall_not_mem (b := Proc.devRef .tc main_arg9) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg9_15 (c : Dev nD) : W15 m ρ c (Proc.devRef .tc main_arg9) = W14 m ρ c (Proc.devRef .tc main_arg9) :=
  W15_of_ne m ρ c main_arg9 (by decide)
theorem hop_main_arg3_1 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg3_2 (c : Dev nD) : W2 m ρ c (Proc.devRef .tc main_arg3) = W1 m ρ c (Proc.devRef .tc main_arg3) :=
  StableHlo.after_of_forall_not_mem (b := Proc.devRef .tc main_arg3) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg3_3 (c : Dev nD) : W3 m ρ c (Proc.devRef .tc main_arg3) = W2 m ρ c (Proc.devRef .tc main_arg3) :=
  W3_of_ne m ρ c main_arg3 (by decide)
theorem hop_main_arg3_4 (c : Dev nD) : W4 m ρ c (Proc.devRef .tc main_arg3) = W3 m ρ c (Proc.devRef .tc main_arg3) :=
  StableHlo.after_of_forall_not_mem (b := Proc.devRef .tc main_arg3) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg3_5 (c : Dev nD) : W5 m ρ c (Proc.devRef .tc main_arg3) = W4 m ρ c (Proc.devRef .tc main_arg3) :=
  W5_of_ne m ρ c main_arg3 (by decide)
theorem hop_main_arg3_6 (c : Dev nD) : W6 m ρ c (Proc.devRef .tc main_arg3) = W5 m ρ c (Proc.devRef .tc main_arg3) :=
  StableHlo.after_of_forall_not_mem (b := Proc.devRef .tc main_arg3) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg3_7 (c : Dev nD) : W7 m ρ c (Proc.devRef .tc main_arg3) = W6 m ρ c (Proc.devRef .tc main_arg3) :=
  W7_of_ne m ρ c main_arg3 (by decide)
theorem hop_main_arg3_8 (c : Dev nD) : W8 m ρ c (Proc.devRef .tc main_arg3) = W7 m ρ c (Proc.devRef .tc main_arg3) :=
  StableHlo.after_of_forall_not_mem (b := Proc.devRef .tc main_arg3) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg3_9 (c : Dev nD) : W9 m ρ c (Proc.devRef .tc main_arg3) = W8 m ρ c (Proc.devRef .tc main_arg3) :=
  W9_of_ne m ρ c main_arg3 (by decide)
theorem hop_main_arg3_10 (c : Dev nD) : W10 m ρ c (Proc.devRef .tc main_arg3) = W9 m ρ c (Proc.devRef .tc main_arg3) :=
  StableHlo.after_of_forall_not_mem (b := Proc.devRef .tc main_arg3) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg3_11 (c : Dev nD) : W11 m ρ c (Proc.devRef .tc main_arg3) = W10 m ρ c (Proc.devRef .tc main_arg3) :=
  W11_of_ne m ρ c main_arg3 (by decide)
theorem hop_main_arg3_12 (c : Dev nD) : W12 m ρ c (Proc.devRef .tc main_arg3) = W11 m ρ c (Proc.devRef .tc main_arg3) :=
  StableHlo.after_of_forall_not_mem (b := Proc.devRef .tc main_arg3) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg3_13 (c : Dev nD) : W13 m ρ c (Proc.devRef .tc main_arg3) = W12 m ρ c (Proc.devRef .tc main_arg3) :=
  W13_of_ne m ρ c main_arg3 (by decide)
theorem hop_main_arg3_14 (c : Dev nD) : W14 m ρ c (Proc.devRef .tc main_arg3) = W13 m ρ c (Proc.devRef .tc main_arg3) :=
  StableHlo.after_of_forall_not_mem (b := Proc.devRef .tc main_arg3) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg3_15 (c : Dev nD) : W15 m ρ c (Proc.devRef .tc main_arg3) = W14 m ρ c (Proc.devRef .tc main_arg3) :=
  W15_of_ne m ρ c main_arg3 (by decide)
theorem hop_main_arg3_16 (c : Dev nD) : W16 m ρ c (Proc.devRef .tc main_arg3) = W15 m ρ c (Proc.devRef .tc main_arg3) :=
  StableHlo.after_of_forall_not_mem (b := Proc.devRef .tc main_arg3) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg3_17 (c : Dev nD) : W17 m ρ c (Proc.devRef .tc main_arg3) = W16 m ρ c (Proc.devRef .tc main_arg3) :=
  W17_of_ne m ρ c main_arg3 (by decide)
theorem hop_main_arg10_1 (c : Dev nD) : W1 m ρ c (Proc.devRef .tc main_arg10) = W0 m ρ c (Proc.devRef .tc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg10_2 (c : Dev nD) : W2 m ρ c (Proc.devRef .tc main_arg10) = W1 m ρ c (Proc.devRef .tc main_arg10) :=
  StableHlo.after_of_forall_not_mem (b := Proc.devRef .tc main_arg10) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg10_3 (c : Dev nD) : W3 m ρ c (Proc.devRef .tc main_arg10) = W2 m ρ c (Proc.devRef .tc main_arg10) :=
  W3_of_ne m ρ c main_arg10 (by decide)
theorem hop_main_arg10_4 (c : Dev nD) : W4 m ρ c (Proc.devRef .tc main_arg10) = W3 m ρ c (Proc.devRef .tc main_arg10) :=
  StableHlo.after_of_forall_not_mem (b := Proc.devRef .tc main_arg10) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg10_5 (c : Dev nD) : W5 m ρ c (Proc.devRef .tc main_arg10) = W4 m ρ c (Proc.devRef .tc main_arg10) :=
  W5_of_ne m ρ c main_arg10 (by decide)
theorem hop_main_arg10_6 (c : Dev nD) : W6 m ρ c (Proc.devRef .tc main_arg10) = W5 m ρ c (Proc.devRef .tc main_arg10) :=
  StableHlo.after_of_forall_not_mem (b := Proc.devRef .tc main_arg10) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg10_7 (c : Dev nD) : W7 m ρ c (Proc.devRef .tc main_arg10) = W6 m ρ c (Proc.devRef .tc main_arg10) :=
  W7_of_ne m ρ c main_arg10 (by decide)
theorem hop_main_arg10_8 (c : Dev nD) : W8 m ρ c (Proc.devRef .tc main_arg10) = W7 m ρ c (Proc.devRef .tc main_arg10) :=
  StableHlo.after_of_forall_not_mem (b := Proc.devRef .tc main_arg10) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg10_9 (c : Dev nD) : W9 m ρ c (Proc.devRef .tc main_arg10) = W8 m ρ c (Proc.devRef .tc main_arg10) :=
  W9_of_ne m ρ c main_arg10 (by decide)
theorem hop_main_arg10_10 (c : Dev nD) : W10 m ρ c (Proc.devRef .tc main_arg10) = W9 m ρ c (Proc.devRef .tc main_arg10) :=
  StableHlo.after_of_forall_not_mem (b := Proc.devRef .tc main_arg10) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg10_11 (c : Dev nD) : W11 m ρ c (Proc.devRef .tc main_arg10) = W10 m ρ c (Proc.devRef .tc main_arg10) :=
  W11_of_ne m ρ c main_arg10 (by decide)
theorem hop_main_arg10_12 (c : Dev nD) : W12 m ρ c (Proc.devRef .tc main_arg10) = W11 m ρ c (Proc.devRef .tc main_arg10) :=
  StableHlo.after_of_forall_not_mem (b := Proc.devRef .tc main_arg10) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg10_13 (c : Dev nD) : W13 m ρ c (Proc.devRef .tc main_arg10) = W12 m ρ c (Proc.devRef .tc main_arg10) :=
  W13_of_ne m ρ c main_arg10 (by decide)
theorem hop_main_arg10_14 (c : Dev nD) : W14 m ρ c (Proc.devRef .tc main_arg10) = W13 m ρ c (Proc.devRef .tc main_arg10) :=
  StableHlo.after_of_forall_not_mem (b := Proc.devRef .tc main_arg10) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg10_15 (c : Dev nD) : W15 m ρ c (Proc.devRef .tc main_arg10) = W14 m ρ c (Proc.devRef .tc main_arg10) :=
  W15_of_ne m ρ c main_arg10 (by decide)
theorem hop_main_arg10_16 (c : Dev nD) : W16 m ρ c (Proc.devRef .tc main_arg10) = W15 m ρ c (Proc.devRef .tc main_arg10) :=
  StableHlo.after_of_forall_not_mem (b := Proc.devRef .tc main_arg10) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg10_17 (c : Dev nD) : W17 m ρ c (Proc.devRef .tc main_arg10) = W16 m ρ c (Proc.devRef .tc main_arg10) :=
  W17_of_ne m ρ c main_arg10 (by decide)
theorem hop_main_arg10_18 (c : Dev nD) : W18 m ρ c (Proc.devRef .tc main_arg10) = W17 m ρ c (Proc.devRef .tc main_arg10) :=
  StableHlo.after_of_forall_not_mem (b := Proc.devRef .tc main_arg10) _ _ (List.forall_iff_forall_mem.mp (by
    simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg11_1 (c : Dev nD) : W1 m ρ c (Proc.devRef .tc main_arg11) = W0 m ρ c (Proc.devRef .tc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg11_2 (c : Dev nD) : W2 m ρ c (Proc.devRef .tc main_arg11) = W1 m ρ c (Proc.devRef .tc main_arg11) :=
  StableHlo.after_of_forall_not_mem (b := Proc.devRef .tc main_arg11) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg11_3 (c : Dev nD) : W3 m ρ c (Proc.devRef .tc main_arg11) = W2 m ρ c (Proc.devRef .tc main_arg11) :=
  W3_of_ne m ρ c main_arg11 (by decide)
theorem hop_main_arg11_4 (c : Dev nD) : W4 m ρ c (Proc.devRef .tc main_arg11) = W3 m ρ c (Proc.devRef .tc main_arg11) :=
  StableHlo.after_of_forall_not_mem (b := Proc.devRef .tc main_arg11) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg11_5 (c : Dev nD) : W5 m ρ c (Proc.devRef .tc main_arg11) = W4 m ρ c (Proc.devRef .tc main_arg11) :=
  W5_of_ne m ρ c main_arg11 (by decide)
theorem hop_main_arg11_6 (c : Dev nD) : W6 m ρ c (Proc.devRef .tc main_arg11) = W5 m ρ c (Proc.devRef .tc main_arg11) :=
  StableHlo.after_of_forall_not_mem (b := Proc.devRef .tc main_arg11) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg11_7 (c : Dev nD) : W7 m ρ c (Proc.devRef .tc main_arg11) = W6 m ρ c (Proc.devRef .tc main_arg11) :=
  W7_of_ne m ρ c main_arg11 (by decide)
theorem hop_main_arg11_8 (c : Dev nD) : W8 m ρ c (Proc.devRef .tc main_arg11) = W7 m ρ c (Proc.devRef .tc main_arg11) :=
  StableHlo.after_of_forall_not_mem (b := Proc.devRef .tc main_arg11) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg11_9 (c : Dev nD) : W9 m ρ c (Proc.devRef .tc main_arg11) = W8 m ρ c (Proc.devRef .tc main_arg11) :=
  W9_of_ne m ρ c main_arg11 (by decide)
theorem hop_main_arg11_10 (c : Dev nD) : W10 m ρ c (Proc.devRef .tc main_arg11) = W9 m ρ c (Proc.devRef .tc main_arg11) :=
  StableHlo.after_of_forall_not_mem (b := Proc.devRef .tc main_arg11) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg11_11 (c : Dev nD) : W11 m ρ c (Proc.devRef .tc main_arg11) = W10 m ρ c (Proc.devRef .tc main_arg11) :=
  W11_of_ne m ρ c main_arg11 (by decide)
theorem hop_main_arg11_12 (c : Dev nD) : W12 m ρ c (Proc.devRef .tc main_arg11) = W11 m ρ c (Proc.devRef .tc main_arg11) :=
  StableHlo.after_of_forall_not_mem (b := Proc.devRef .tc main_arg11) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg11_13 (c : Dev nD) : W13 m ρ c (Proc.devRef .tc main_arg11) = W12 m ρ c (Proc.devRef .tc main_arg11) :=
  W13_of_ne m ρ c main_arg11 (by decide)
theorem hop_main_arg11_14 (c : Dev nD) : W14 m ρ c (Proc.devRef .tc main_arg11) = W13 m ρ c (Proc.devRef .tc main_arg11) :=
  StableHlo.after_of_forall_not_mem (b := Proc.devRef .tc main_arg11) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg11_15 (c : Dev nD) : W15 m ρ c (Proc.devRef .tc main_arg11) = W14 m ρ c (Proc.devRef .tc main_arg11) :=
  W15_of_ne m ρ c main_arg11 (by decide)
theorem hop_main_arg11_16 (c : Dev nD) : W16 m ρ c (Proc.devRef .tc main_arg11) = W15 m ρ c (Proc.devRef .tc main_arg11) :=
  StableHlo.after_of_forall_not_mem (b := Proc.devRef .tc main_arg11) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg11_17 (c : Dev nD) : W17 m ρ c (Proc.devRef .tc main_arg11) = W16 m ρ c (Proc.devRef .tc main_arg11) :=
  W17_of_ne m ρ c main_arg11 (by decide)
theorem hop_main_arg11_18 (c : Dev nD) : W18 m ρ c (Proc.devRef .tc main_arg11) = W17 m ρ c (Proc.devRef .tc main_arg11) :=
  StableHlo.after_of_forall_not_mem (b := Proc.devRef .tc main_arg11) _ _ (List.forall_iff_forall_mem.mp (by
    simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg12_1 (c : Dev nD) : W1 m ρ c (Proc.devRef .tc main_arg12) = W0 m ρ c (Proc.devRef .tc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg12_2 (c : Dev nD) : W2 m ρ c (Proc.devRef .tc main_arg12) = W1 m ρ c (Proc.devRef .tc main_arg12) :=
  StableHlo.after_of_forall_not_mem (b := Proc.devRef .tc main_arg12) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg12_3 (c : Dev nD) : W3 m ρ c (Proc.devRef .tc main_arg12) = W2 m ρ c (Proc.devRef .tc main_arg12) :=
  W3_of_ne m ρ c main_arg12 (by decide)
theorem hop_main_arg12_4 (c : Dev nD) : W4 m ρ c (Proc.devRef .tc main_arg12) = W3 m ρ c (Proc.devRef .tc main_arg12) :=
  StableHlo.after_of_forall_not_mem (b := Proc.devRef .tc main_arg12) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg12_5 (c : Dev nD) : W5 m ρ c (Proc.devRef .tc main_arg12) = W4 m ρ c (Proc.devRef .tc main_arg12) :=
  W5_of_ne m ρ c main_arg12 (by decide)
theorem hop_main_arg12_6 (c : Dev nD) : W6 m ρ c (Proc.devRef .tc main_arg12) = W5 m ρ c (Proc.devRef .tc main_arg12) :=
  StableHlo.after_of_forall_not_mem (b := Proc.devRef .tc main_arg12) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg12_7 (c : Dev nD) : W7 m ρ c (Proc.devRef .tc main_arg12) = W6 m ρ c (Proc.devRef .tc main_arg12) :=
  W7_of_ne m ρ c main_arg12 (by decide)
theorem hop_main_arg12_8 (c : Dev nD) : W8 m ρ c (Proc.devRef .tc main_arg12) = W7 m ρ c (Proc.devRef .tc main_arg12) :=
  StableHlo.after_of_forall_not_mem (b := Proc.devRef .tc main_arg12) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg12_9 (c : Dev nD) : W9 m ρ c (Proc.devRef .tc main_arg12) = W8 m ρ c (Proc.devRef .tc main_arg12) :=
  W9_of_ne m ρ c main_arg12 (by decide)
theorem hop_main_arg12_10 (c : Dev nD) : W10 m ρ c (Proc.devRef .tc main_arg12) = W9 m ρ c (Proc.devRef .tc main_arg12) :=
  StableHlo.after_of_forall_not_mem (b := Proc.devRef .tc main_arg12) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg12_11 (c : Dev nD) : W11 m ρ c (Proc.devRef .tc main_arg12) = W10 m ρ c (Proc.devRef .tc main_arg12) :=
  W11_of_ne m ρ c main_arg12 (by decide)
theorem hop_main_arg12_12 (c : Dev nD) : W12 m ρ c (Proc.devRef .tc main_arg12) = W11 m ρ c (Proc.devRef .tc main_arg12) :=
  StableHlo.after_of_forall_not_mem (b := Proc.devRef .tc main_arg12) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg12_13 (c : Dev nD) : W13 m ρ c (Proc.devRef .tc main_arg12) = W12 m ρ c (Proc.devRef .tc main_arg12) :=
  W13_of_ne m ρ c main_arg12 (by decide)
theorem hop_main_arg12_14 (c : Dev nD) : W14 m ρ c (Proc.devRef .tc main_arg12) = W13 m ρ c (Proc.devRef .tc main_arg12) :=
  StableHlo.after_of_forall_not_mem (b := Proc.devRef .tc main_arg12) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg12_15 (c : Dev nD) : W15 m ρ c (Proc.devRef .tc main_arg12) = W14 m ρ c (Proc.devRef .tc main_arg12) :=
  W15_of_ne m ρ c main_arg12 (by decide)
theorem hop_main_arg12_16 (c : Dev nD) : W16 m ρ c (Proc.devRef .tc main_arg12) = W15 m ρ c (Proc.devRef .tc main_arg12) :=
  StableHlo.after_of_forall_not_mem (b := Proc.devRef .tc main_arg12) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg12_17 (c : Dev nD) : W17 m ρ c (Proc.devRef .tc main_arg12) = W16 m ρ c (Proc.devRef .tc main_arg12) :=
  W17_of_ne m ρ c main_arg12 (by decide)
theorem hop_main_arg12_18 (c : Dev nD) : W18 m ρ c (Proc.devRef .tc main_arg12) = W17 m ρ c (Proc.devRef .tc main_arg12) :=
  StableHlo.after_of_forall_not_mem (b := Proc.devRef .tc main_arg12) _ _ (List.forall_iff_forall_mem.mp (by
    simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg13_1 (c : Dev nD) : W1 m ρ c (Proc.devRef .tc main_arg13) = W0 m ρ c (Proc.devRef .tc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg13_2 (c : Dev nD) : W2 m ρ c (Proc.devRef .tc main_arg13) = W1 m ρ c (Proc.devRef .tc main_arg13) :=
  StableHlo.after_of_forall_not_mem (b := Proc.devRef .tc main_arg13) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg13_3 (c : Dev nD) : W3 m ρ c (Proc.devRef .tc main_arg13) = W2 m ρ c (Proc.devRef .tc main_arg13) :=
  W3_of_ne m ρ c main_arg13 (by decide)
theorem hop_main_arg13_4 (c : Dev nD) : W4 m ρ c (Proc.devRef .tc main_arg13) = W3 m ρ c (Proc.devRef .tc main_arg13) :=
  StableHlo.after_of_forall_not_mem (b := Proc.devRef .tc main_arg13) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg13_5 (c : Dev nD) : W5 m ρ c (Proc.devRef .tc main_arg13) = W4 m ρ c (Proc.devRef .tc main_arg13) :=
  W5_of_ne m ρ c main_arg13 (by decide)
theorem hop_main_arg13_6 (c : Dev nD) : W6 m ρ c (Proc.devRef .tc main_arg13) = W5 m ρ c (Proc.devRef .tc main_arg13) :=
  StableHlo.after_of_forall_not_mem (b := Proc.devRef .tc main_arg13) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg13_7 (c : Dev nD) : W7 m ρ c (Proc.devRef .tc main_arg13) = W6 m ρ c (Proc.devRef .tc main_arg13) :=
  W7_of_ne m ρ c main_arg13 (by decide)
theorem hop_main_arg13_8 (c : Dev nD) : W8 m ρ c (Proc.devRef .tc main_arg13) = W7 m ρ c (Proc.devRef .tc main_arg13) :=
  StableHlo.after_of_forall_not_mem (b := Proc.devRef .tc main_arg13) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg13_9 (c : Dev nD) : W9 m ρ c (Proc.devRef .tc main_arg13) = W8 m ρ c (Proc.devRef .tc main_arg13) :=
  W9_of_ne m ρ c main_arg13 (by decide)
theorem hop_main_arg13_10 (c : Dev nD) : W10 m ρ c (Proc.devRef .tc main_arg13) = W9 m ρ c (Proc.devRef .tc main_arg13) :=
  StableHlo.after_of_forall_not_mem (b := Proc.devRef .tc main_arg13) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg13_11 (c : Dev nD) : W11 m ρ c (Proc.devRef .tc main_arg13) = W10 m ρ c (Proc.devRef .tc main_arg13) :=
  W11_of_ne m ρ c main_arg13 (by decide)
theorem hop_main_arg13_12 (c : Dev nD) : W12 m ρ c (Proc.devRef .tc main_arg13) = W11 m ρ c (Proc.devRef .tc main_arg13) :=
  StableHlo.after_of_forall_not_mem (b := Proc.devRef .tc main_arg13) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg13_13 (c : Dev nD) : W13 m ρ c (Proc.devRef .tc main_arg13) = W12 m ρ c (Proc.devRef .tc main_arg13) :=
  W13_of_ne m ρ c main_arg13 (by decide)
theorem hop_main_arg13_14 (c : Dev nD) : W14 m ρ c (Proc.devRef .tc main_arg13) = W13 m ρ c (Proc.devRef .tc main_arg13) :=
  StableHlo.after_of_forall_not_mem (b := Proc.devRef .tc main_arg13) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg13_15 (c : Dev nD) : W15 m ρ c (Proc.devRef .tc main_arg13) = W14 m ρ c (Proc.devRef .tc main_arg13) :=
  W15_of_ne m ρ c main_arg13 (by decide)
theorem hop_main_arg13_16 (c : Dev nD) : W16 m ρ c (Proc.devRef .tc main_arg13) = W15 m ρ c (Proc.devRef .tc main_arg13) :=
  StableHlo.after_of_forall_not_mem (b := Proc.devRef .tc main_arg13) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_arg13_17 (c : Dev nD) : W17 m ρ c (Proc.devRef .tc main_arg13) = W16 m ρ c (Proc.devRef .tc main_arg13) :=
  W17_of_ne m ρ c main_arg13 (by decide)
theorem hop_main_arg13_18 (c : Dev nD) : W18 m ρ c (Proc.devRef .tc main_arg13) = W17 m ρ c (Proc.devRef .tc main_arg13) :=
  StableHlo.after_of_forall_not_mem (b := Proc.devRef .tc main_arg13) _ _ (List.forall_iff_forall_mem.mp (by
    simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v141_3 (c : Dev nD) : W3 m ρ c (Proc.devRef .tc main_v141) = W2 m ρ c (Proc.devRef .tc main_v141) :=
  (W3_arr m ρ c 1).trans (((dat0 (V2 m ρ) c).arrAt_in 1 rfl _).trans (A_eq0 (V2 m ρ) c 1))
theorem hop_main_v141_4 (c : Dev nD) : W4 m ρ c (Proc.devRef .tc main_v141) = W3 m ρ c (Proc.devRef .tc main_v141) :=
  StableHlo.after_of_forall_not_mem (b := Proc.devRef .tc main_v141) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v141_5 (c : Dev nD) : W5 m ρ c (Proc.devRef .tc main_v141) = W4 m ρ c (Proc.devRef .tc main_v141) :=
  W5_of_ne m ρ c main_v141 (by decide)
theorem hop_main_v141_6 (c : Dev nD) : W6 m ρ c (Proc.devRef .tc main_v141) = W5 m ρ c (Proc.devRef .tc main_v141) :=
  StableHlo.after_of_forall_not_mem (b := Proc.devRef .tc main_v141) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v141_7 (c : Dev nD) : W7 m ρ c (Proc.devRef .tc main_v141) = W6 m ρ c (Proc.devRef .tc main_v141) :=
  (W7_arr m ρ c 1).trans (((dat2 (V6 m ρ) c).arrAt_in 1 rfl _).trans (A_eq2 (V6 m ρ) c 1))
theorem hop_main_v141_8 (c : Dev nD) : W8 m ρ c (Proc.devRef .tc main_v141) = W7 m ρ c (Proc.devRef .tc main_v141) :=
  StableHlo.after_of_forall_not_mem (b := Proc.devRef .tc main_v141) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v141_9 (c : Dev nD) : W9 m ρ c (Proc.devRef .tc main_v141) = W8 m ρ c (Proc.devRef .tc main_v141) :=
  W9_of_ne m ρ c main_v141 (by decide)
theorem hop_main_v141_10 (c : Dev nD) : W10 m ρ c (Proc.devRef .tc main_v141) = W9 m ρ c (Proc.devRef .tc main_v141) :=
  StableHlo.after_of_forall_not_mem (b := Proc.devRef .tc main_v141) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v141_11 (c : Dev nD) : W11 m ρ c (Proc.devRef .tc main_v141) = W10 m ρ c (Proc.devRef .tc main_v141) :=
  (W11_arr m ρ c 1).trans (((dat4 (V10 m ρ) c).arrAt_in 1 rfl _).trans (A_eq4 (V10 m ρ) c 1))
theorem hop_main_v141_12 (c : Dev nD) : W12 m ρ c (Proc.devRef .tc main_v141) = W11 m ρ c (Proc.devRef .tc main_v141) :=
  StableHlo.after_of_forall_not_mem (b := Proc.devRef .tc main_v141) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v141_13 (c : Dev nD) : W13 m ρ c (Proc.devRef .tc main_v141) = W12 m ρ c (Proc.devRef .tc main_v141) :=
  W13_of_ne m ρ c main_v141 (by decide)
theorem hop_main_v141_14 (c : Dev nD) : W14 m ρ c (Proc.devRef .tc main_v141) = W13 m ρ c (Proc.devRef .tc main_v141) :=
  StableHlo.after_of_forall_not_mem (b := Proc.devRef .tc main_v141) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v143_3 (c : Dev nD) : W3 m ρ c (Proc.devRef .tc main_v143) = W2 m ρ c (Proc.devRef .tc main_v143) :=
  W3_of_ne m ρ c main_v143 (by decide)
theorem hop_main_v143_4 (c : Dev nD) : W4 m ρ c (Proc.devRef .tc main_v143) = W3 m ρ c (Proc.devRef .tc main_v143) :=
  StableHlo.after_of_forall_not_mem (b := Proc.devRef .tc main_v143) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v143_5 (c : Dev nD) : W5 m ρ c (Proc.devRef .tc main_v143) = W4 m ρ c (Proc.devRef .tc main_v143) :=
  W5_of_ne m ρ c main_v143 (by decide)
theorem hop_main_v143_6 (c : Dev nD) : W6 m ρ c (Proc.devRef .tc main_v143) = W5 m ρ c (Proc.devRef .tc main_v143) :=
  StableHlo.after_of_forall_not_mem (b := Proc.devRef .tc main_v143) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v143_7 (c : Dev nD) : W7 m ρ c (Proc.devRef .tc main_v143) = W6 m ρ c (Proc.devRef .tc main_v143) :=
  W7_of_ne m ρ c main_v143 (by decide)
theorem hop_main_v143_8 (c : Dev nD) : W8 m ρ c (Proc.devRef .tc main_v143) = W7 m ρ c (Proc.devRef .tc main_v143) :=
  StableHlo.after_of_forall_not_mem (b := Proc.devRef .tc main_v143) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v143_9 (c : Dev nD) : W9 m ρ c (Proc.devRef .tc main_v143) = W8 m ρ c (Proc.devRef .tc main_v143) :=
  W9_of_ne m ρ c main_v143 (by decide)
theorem hop_main_v143_10 (c : Dev nD) : W10 m ρ c (Proc.devRef .tc main_v143) = W9 m ρ c (Proc.devRef .tc main_v143) :=
  StableHlo.after_of_forall_not_mem (b := Proc.devRef .tc main_v143) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v143_11 (c : Dev nD) : W11 m ρ c (Proc.devRef .tc main_v143) = W10 m ρ c (Proc.devRef .tc main_v143) :=
  W11_of_ne m ρ c main_v143 (by decide)
theorem hop_main_v143_12 (c : Dev nD) : W12 m ρ c (Proc.devRef .tc main_v143) = W11 m ρ c (Proc.devRef .tc main_v143) :=
  StableHlo.after_of_forall_not_mem (b := Proc.devRef .tc main_v143) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v143_13 (c : Dev nD) : W13 m ρ c (Proc.devRef .tc main_v143) = W12 m ρ c (Proc.devRef .tc main_v143) :=
  W13_of_ne m ρ c main_v143 (by decide)
theorem hop_main_v145_3 (c : Dev nD) : W3 m ρ c (Proc.devRef .tc main_v145) = W2 m ρ c (Proc.devRef .tc main_v145) :=
  W3_of_ne m ρ c main_v145 (by decide)
theorem hop_main_v145_4 (c : Dev nD) : W4 m ρ c (Proc.devRef .tc main_v145) = W3 m ρ c (Proc.devRef .tc main_v145) :=
  StableHlo.after_of_forall_not_mem (b := Proc.devRef .tc main_v145) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v145_5 (c : Dev nD) : W5 m ρ c (Proc.devRef .tc main_v145) = W4 m ρ c (Proc.devRef .tc main_v145) :=
  W5_of_ne m ρ c main_v145 (by decide)
theorem hop_main_v145_6 (c : Dev nD) : W6 m ρ c (Proc.devRef .tc main_v145) = W5 m ρ c (Proc.devRef .tc main_v145) :=
  StableHlo.after_of_forall_not_mem (b := Proc.devRef .tc main_v145) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v145_7 (c : Dev nD) : W7 m ρ c (Proc.devRef .tc main_v145) = W6 m ρ c (Proc.devRef .tc main_v145) :=
  W7_of_ne m ρ c main_v145 (by decide)
theorem hop_main_v145_8 (c : Dev nD) : W8 m ρ c (Proc.devRef .tc main_v145) = W7 m ρ c (Proc.devRef .tc main_v145) :=
  StableHlo.after_of_forall_not_mem (b := Proc.devRef .tc main_v145) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v145_9 (c : Dev nD) : W9 m ρ c (Proc.devRef .tc main_v145) = W8 m ρ c (Proc.devRef .tc main_v145) :=
  W9_of_ne m ρ c main_v145 (by decide)
theorem hop_main_v145_10 (c : Dev nD) : W10 m ρ c (Proc.devRef .tc main_v145) = W9 m ρ c (Proc.devRef .tc main_v145) :=
  StableHlo.after_of_forall_not_mem (b := Proc.devRef .tc main_v145) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v145_11 (c : Dev nD) : W11 m ρ c (Proc.devRef .tc main_v145) = W10 m ρ c (Proc.devRef .tc main_v145) :=
  W11_of_ne m ρ c main_v145 (by decide)
theorem hop_main_v145_12 (c : Dev nD) : W12 m ρ c (Proc.devRef .tc main_v145) = W11 m ρ c (Proc.devRef .tc main_v145) :=
  StableHlo.after_of_forall_not_mem (b := Proc.devRef .tc main_v145) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v145_13 (c : Dev nD) : W13 m ρ c (Proc.devRef .tc main_v145) = W12 m ρ c (Proc.devRef .tc main_v145) :=
  W13_of_ne m ρ c main_v145 (by decide)
theorem hop_main_v145_14 (c : Dev nD) : W14 m ρ c (Proc.devRef .tc main_v145) = W13 m ρ c (Proc.devRef .tc main_v145) :=
  StableHlo.after_of_forall_not_mem (b := Proc.devRef .tc main_v145) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v145_15 (c : Dev nD) : W15 m ρ c (Proc.devRef .tc main_v145) = W14 m ρ c (Proc.devRef .tc main_v145) :=
  W15_of_ne m ρ c main_v145 (by decide)
theorem hop_main_v106_3 (c : Dev nD) : W3 m ρ c (Proc.devRef .tc main_v106) = W2 m ρ c (Proc.devRef .tc main_v106) :=
  W3_of_ne m ρ c main_v106 (by decide)
theorem hop_main_v106_4 (c : Dev nD) : W4 m ρ c (Proc.devRef .tc main_v106) = W3 m ρ c (Proc.devRef .tc main_v106) :=
  StableHlo.after_of_forall_not_mem (b := Proc.devRef .tc main_v106) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v159_6 (c : Dev nD) : W6 m ρ c (Proc.devRef .tc main_v159) = W5 m ρ c (Proc.devRef .tc main_v159) :=
  StableHlo.after_of_forall_not_mem (b := Proc.devRef .tc main_v159) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v159_7 (c : Dev nD) : W7 m ρ c (Proc.devRef .tc main_v159) = W6 m ρ c (Proc.devRef .tc main_v159) :=
  W7_of_ne m ρ c main_v159 (by decide)
theorem hop_main_v159_8 (c : Dev nD) : W8 m ρ c (Proc.devRef .tc main_v159) = W7 m ρ c (Proc.devRef .tc main_v159) :=
  StableHlo.after_of_forall_not_mem (b := Proc.devRef .tc main_v159) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v173_10 (c : Dev nD) : W10 m ρ c (Proc.devRef .tc main_v173) = W9 m ρ c (Proc.devRef .tc main_v173) :=
  StableHlo.after_of_forall_not_mem (b := Proc.devRef .tc main_v173) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v173_11 (c : Dev nD) : W11 m ρ c (Proc.devRef .tc main_v173) = W10 m ρ c (Proc.devRef .tc main_v173) :=
  W11_of_ne m ρ c main_v173 (by decide)
theorem hop_main_v173_12 (c : Dev nD) : W12 m ρ c (Proc.devRef .tc main_v173) = W11 m ρ c (Proc.devRef .tc main_v173) :=
  StableHlo.after_of_forall_not_mem (b := Proc.devRef .tc main_v173) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v187_14 (c : Dev nD) : W14 m ρ c (Proc.devRef .tc main_v187) = W13 m ρ c (Proc.devRef .tc main_v187) :=
  StableHlo.after_of_forall_not_mem (b := Proc.devRef .tc main_v187) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hop_main_v187_15 (c : Dev nD) : W15 m ρ c (Proc.devRef .tc main_v187) = W14 m ρ c (Proc.devRef .tc main_v187) :=
  W15_of_ne m ρ c main_v187 (by decide)
theorem hop_main_v187_16 (c : Dev nD) : W16 m ρ c (Proc.devRef .tc main_v187) = W15 m ρ c (Proc.devRef .tc main_v187) :=
  StableHlo.after_of_forall_not_mem (b := Proc.devRef .tc main_v187) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem at3_main_arg6 (c : Dev nD) : W3 m ρ c (Proc.devRef .tc main_arg6) = m ((c : Thread nD τ).loc main_arg6) :=
  (((hop_main_arg6_3 m ρ c).trans (hop_main_arg6_2 m ρ c)).trans (hop_main_arg6_1 m ρ c)).trans rfl
theorem at7_main_arg6 (c : Dev nD) : W7 m ρ c (Proc.devRef .tc main_arg6) = m ((c : Thread nD τ).loc main_arg6) :=
  (((((((hop_main_arg6_7 m ρ c).trans (hop_main_arg6_6 m ρ c)).trans (hop_main_arg6_5 m ρ c)).trans (hop_main_arg6_4 m ρ c)).trans (hop_main_arg6_3 m ρ c)).trans (hop_main_arg6_2 m ρ c)).trans (hop_main_arg6_1 m ρ c)).trans rfl
theorem at11_main_arg6 (c : Dev nD) : W11 m ρ c (Proc.devRef .tc main_arg6) = m ((c : Thread nD τ).loc main_arg6) :=
  (((((((((((hop_main_arg6_11 m ρ c).trans (hop_main_arg6_10 m ρ c)).trans (hop_main_arg6_9 m ρ c)).trans (hop_main_arg6_8 m ρ c)).trans (hop_main_arg6_7 m ρ c)).trans (hop_main_arg6_6 m ρ c)).trans (hop_main_arg6_5 m ρ c)).trans (hop_main_arg6_4 m ρ c)).trans (hop_main_arg6_3 m ρ c)).trans (hop_main_arg6_2 m ρ c)).trans (hop_main_arg6_1 m ρ c)).trans rfl
theorem at15_main_arg6 (c : Dev nD) : W15 m ρ c (Proc.devRef .tc main_arg6) = m ((c : Thread nD τ).loc main_arg6) :=
  (((((((((((((((hop_main_arg6_15 m ρ c).trans (hop_main_arg6_14 m ρ c)).trans (hop_main_arg6_13 m ρ c)).trans (hop_main_arg6_12 m ρ c)).trans (hop_main_arg6_11 m ρ c)).trans (hop_main_arg6_10 m ρ c)).trans (hop_main_arg6_9 m ρ c)).trans (hop_main_arg6_8 m ρ c)).trans (hop_main_arg6_7 m ρ c)).trans (hop_main_arg6_6 m ρ c)).trans (hop_main_arg6_5 m ρ c)).trans (hop_main_arg6_4 m ρ c)).trans (hop_main_arg6_3 m ρ c)).trans (hop_main_arg6_2 m ρ c)).trans (hop_main_arg6_1 m ρ c)).trans rfl
theorem at3_main_arg7 (c : Dev nD) : W3 m ρ c (Proc.devRef .tc main_arg7) = m ((c : Thread nD τ).loc main_arg7) :=
  (((hop_main_arg7_3 m ρ c).trans (hop_main_arg7_2 m ρ c)).trans (hop_main_arg7_1 m ρ c)).trans rfl
theorem at7_main_arg7 (c : Dev nD) : W7 m ρ c (Proc.devRef .tc main_arg7) = m ((c : Thread nD τ).loc main_arg7) :=
  (((((((hop_main_arg7_7 m ρ c).trans (hop_main_arg7_6 m ρ c)).trans (hop_main_arg7_5 m ρ c)).trans (hop_main_arg7_4 m ρ c)).trans (hop_main_arg7_3 m ρ c)).trans (hop_main_arg7_2 m ρ c)).trans (hop_main_arg7_1 m ρ c)).trans rfl
theorem at11_main_arg7 (c : Dev nD) : W11 m ρ c (Proc.devRef .tc main_arg7) = m ((c : Thread nD τ).loc main_arg7) :=
  (((((((((((hop_main_arg7_11 m ρ c).trans (hop_main_arg7_10 m ρ c)).trans (hop_main_arg7_9 m ρ c)).trans (hop_main_arg7_8 m ρ c)).trans (hop_main_arg7_7 m ρ c)).trans (hop_main_arg7_6 m ρ c)).trans (hop_main_arg7_5 m ρ c)).trans (hop_main_arg7_4 m ρ c)).trans (hop_main_arg7_3 m ρ c)).trans (hop_main_arg7_2 m ρ c)).trans (hop_main_arg7_1 m ρ c)).trans rfl
theorem at15_main_arg7 (c : Dev nD) : W15 m ρ c (Proc.devRef .tc main_arg7) = m ((c : Thread nD τ).loc main_arg7) :=
  (((((((((((((((hop_main_arg7_15 m ρ c).trans (hop_main_arg7_14 m ρ c)).trans (hop_main_arg7_13 m ρ c)).trans (hop_main_arg7_12 m ρ c)).trans (hop_main_arg7_11 m ρ c)).trans (hop_main_arg7_10 m ρ c)).trans (hop_main_arg7_9 m ρ c)).trans (hop_main_arg7_8 m ρ c)).trans (hop_main_arg7_7 m ρ c)).trans (hop_main_arg7_6 m ρ c)).trans (hop_main_arg7_5 m ρ c)).trans (hop_main_arg7_4 m ρ c)).trans (hop_main_arg7_3 m ρ c)).trans (hop_main_arg7_2 m ρ c)).trans (hop_main_arg7_1 m ρ c)).trans rfl
theorem at3_main_arg8 (c : Dev nD) : W3 m ρ c (Proc.devRef .tc main_arg8) = m ((c : Thread nD τ).loc main_arg8) :=
  (((hop_main_arg8_3 m ρ c).trans (hop_main_arg8_2 m ρ c)).trans (hop_main_arg8_1 m ρ c)).trans rfl
theorem at7_main_arg8 (c : Dev nD) : W7 m ρ c (Proc.devRef .tc main_arg8) = m ((c : Thread nD τ).loc main_arg8) :=
  (((((((hop_main_arg8_7 m ρ c).trans (hop_main_arg8_6 m ρ c)).trans (hop_main_arg8_5 m ρ c)).trans (hop_main_arg8_4 m ρ c)).trans (hop_main_arg8_3 m ρ c)).trans (hop_main_arg8_2 m ρ c)).trans (hop_main_arg8_1 m ρ c)).trans rfl
theorem at11_main_arg8 (c : Dev nD) : W11 m ρ c (Proc.devRef .tc main_arg8) = m ((c : Thread nD τ).loc main_arg8) :=
  (((((((((((hop_main_arg8_11 m ρ c).trans (hop_main_arg8_10 m ρ c)).trans (hop_main_arg8_9 m ρ c)).trans (hop_main_arg8_8 m ρ c)).trans (hop_main_arg8_7 m ρ c)).trans (hop_main_arg8_6 m ρ c)).trans (hop_main_arg8_5 m ρ c)).trans (hop_main_arg8_4 m ρ c)).trans (hop_main_arg8_3 m ρ c)).trans (hop_main_arg8_2 m ρ c)).trans (hop_main_arg8_1 m ρ c)).trans rfl
theorem at15_main_arg8 (c : Dev nD) : W15 m ρ c (Proc.devRef .tc main_arg8) = m ((c : Thread nD τ).loc main_arg8) :=
  (((((((((((((((hop_main_arg8_15 m ρ c).trans (hop_main_arg8_14 m ρ c)).trans (hop_main_arg8_13 m ρ c)).trans (hop_main_arg8_12 m ρ c)).trans (hop_main_arg8_11 m ρ c)).trans (hop_main_arg8_10 m ρ c)).trans (hop_main_arg8_9 m ρ c)).trans (hop_main_arg8_8 m ρ c)).trans (hop_main_arg8_7 m ρ c)).trans (hop_main_arg8_6 m ρ c)).trans (hop_main_arg8_5 m ρ c)).trans (hop_main_arg8_4 m ρ c)).trans (hop_main_arg8_3 m ρ c)).trans (hop_main_arg8_2 m ρ c)).trans (hop_main_arg8_1 m ρ c)).trans rfl
theorem at3_main_arg9 (c : Dev nD) : W3 m ρ c (Proc.devRef .tc main_arg9) = m ((c : Thread nD τ).loc main_arg9) :=
  (((hop_main_arg9_3 m ρ c).trans (hop_main_arg9_2 m ρ c)).trans (hop_main_arg9_1 m ρ c)).trans rfl
theorem at7_main_arg9 (c : Dev nD) : W7 m ρ c (Proc.devRef .tc main_arg9) = m ((c : Thread nD τ).loc main_arg9) :=
  (((((((hop_main_arg9_7 m ρ c).trans (hop_main_arg9_6 m ρ c)).trans (hop_main_arg9_5 m ρ c)).trans (hop_main_arg9_4 m ρ c)).trans (hop_main_arg9_3 m ρ c)).trans (hop_main_arg9_2 m ρ c)).trans (hop_main_arg9_1 m ρ c)).trans rfl
theorem at11_main_arg9 (c : Dev nD) : W11 m ρ c (Proc.devRef .tc main_arg9) = m ((c : Thread nD τ).loc main_arg9) :=
  (((((((((((hop_main_arg9_11 m ρ c).trans (hop_main_arg9_10 m ρ c)).trans (hop_main_arg9_9 m ρ c)).trans (hop_main_arg9_8 m ρ c)).trans (hop_main_arg9_7 m ρ c)).trans (hop_main_arg9_6 m ρ c)).trans (hop_main_arg9_5 m ρ c)).trans (hop_main_arg9_4 m ρ c)).trans (hop_main_arg9_3 m ρ c)).trans (hop_main_arg9_2 m ρ c)).trans (hop_main_arg9_1 m ρ c)).trans rfl
theorem at15_main_arg9 (c : Dev nD) : W15 m ρ c (Proc.devRef .tc main_arg9) = m ((c : Thread nD τ).loc main_arg9) :=
  (((((((((((((((hop_main_arg9_15 m ρ c).trans (hop_main_arg9_14 m ρ c)).trans (hop_main_arg9_13 m ρ c)).trans (hop_main_arg9_12 m ρ c)).trans (hop_main_arg9_11 m ρ c)).trans (hop_main_arg9_10 m ρ c)).trans (hop_main_arg9_9 m ρ c)).trans (hop_main_arg9_8 m ρ c)).trans (hop_main_arg9_7 m ρ c)).trans (hop_main_arg9_6 m ρ c)).trans (hop_main_arg9_5 m ρ c)).trans (hop_main_arg9_4 m ρ c)).trans (hop_main_arg9_3 m ρ c)).trans (hop_main_arg9_2 m ρ c)).trans (hop_main_arg9_1 m ρ c)).trans rfl
theorem at17_main_arg3 (c : Dev nD) : W17 m ρ c (Proc.devRef .tc main_arg3) = m ((c : Thread nD τ).loc main_arg3) :=
  (((((((((((((((((hop_main_arg3_17 m ρ c).trans (hop_main_arg3_16 m ρ c)).trans (hop_main_arg3_15 m ρ c)).trans (hop_main_arg3_14 m ρ c)).trans (hop_main_arg3_13 m ρ c)).trans (hop_main_arg3_12 m ρ c)).trans (hop_main_arg3_11 m ρ c)).trans (hop_main_arg3_10 m ρ c)).trans (hop_main_arg3_9 m ρ c)).trans (hop_main_arg3_8 m ρ c)).trans (hop_main_arg3_7 m ρ c)).trans (hop_main_arg3_6 m ρ c)).trans (hop_main_arg3_5 m ρ c)).trans (hop_main_arg3_4 m ρ c)).trans (hop_main_arg3_3 m ρ c)).trans (hop_main_arg3_2 m ρ c)).trans (hop_main_arg3_1 m ρ c)).trans rfl
theorem at18_main_arg10 (c : Dev nD) : W18 m ρ c (Proc.devRef .tc main_arg10) = m ((c : Thread nD τ).loc main_arg10) :=
  ((((((((((((((((((hop_main_arg10_18 m ρ c).trans (hop_main_arg10_17 m ρ c)).trans (hop_main_arg10_16 m ρ c)).trans (hop_main_arg10_15 m ρ c)).trans (hop_main_arg10_14 m ρ c)).trans (hop_main_arg10_13 m ρ c)).trans (hop_main_arg10_12 m ρ c)).trans (hop_main_arg10_11 m ρ c)).trans (hop_main_arg10_10 m ρ c)).trans (hop_main_arg10_9 m ρ c)).trans (hop_main_arg10_8 m ρ c)).trans (hop_main_arg10_7 m ρ c)).trans (hop_main_arg10_6 m ρ c)).trans (hop_main_arg10_5 m ρ c)).trans (hop_main_arg10_4 m ρ c)).trans (hop_main_arg10_3 m ρ c)).trans (hop_main_arg10_2 m ρ c)).trans (hop_main_arg10_1 m ρ c)).trans rfl
theorem at18_main_arg11 (c : Dev nD) : W18 m ρ c (Proc.devRef .tc main_arg11) = m ((c : Thread nD τ).loc main_arg11) :=
  ((((((((((((((((((hop_main_arg11_18 m ρ c).trans (hop_main_arg11_17 m ρ c)).trans (hop_main_arg11_16 m ρ c)).trans (hop_main_arg11_15 m ρ c)).trans (hop_main_arg11_14 m ρ c)).trans (hop_main_arg11_13 m ρ c)).trans (hop_main_arg11_12 m ρ c)).trans (hop_main_arg11_11 m ρ c)).trans (hop_main_arg11_10 m ρ c)).trans (hop_main_arg11_9 m ρ c)).trans (hop_main_arg11_8 m ρ c)).trans (hop_main_arg11_7 m ρ c)).trans (hop_main_arg11_6 m ρ c)).trans (hop_main_arg11_5 m ρ c)).trans (hop_main_arg11_4 m ρ c)).trans (hop_main_arg11_3 m ρ c)).trans (hop_main_arg11_2 m ρ c)).trans (hop_main_arg11_1 m ρ c)).trans rfl
theorem at18_main_arg12 (c : Dev nD) : W18 m ρ c (Proc.devRef .tc main_arg12) = m ((c : Thread nD τ).loc main_arg12) :=
  ((((((((((((((((((hop_main_arg12_18 m ρ c).trans (hop_main_arg12_17 m ρ c)).trans (hop_main_arg12_16 m ρ c)).trans (hop_main_arg12_15 m ρ c)).trans (hop_main_arg12_14 m ρ c)).trans (hop_main_arg12_13 m ρ c)).trans (hop_main_arg12_12 m ρ c)).trans (hop_main_arg12_11 m ρ c)).trans (hop_main_arg12_10 m ρ c)).trans (hop_main_arg12_9 m ρ c)).trans (hop_main_arg12_8 m ρ c)).trans (hop_main_arg12_7 m ρ c)).trans (hop_main_arg12_6 m ρ c)).trans (hop_main_arg12_5 m ρ c)).trans (hop_main_arg12_4 m ρ c)).trans (hop_main_arg12_3 m ρ c)).trans (hop_main_arg12_2 m ρ c)).trans (hop_main_arg12_1 m ρ c)).trans rfl
theorem at18_main_arg13 (c : Dev nD) : W18 m ρ c (Proc.devRef .tc main_arg13) = m ((c : Thread nD τ).loc main_arg13) :=
  ((((((((((((((((((hop_main_arg13_18 m ρ c).trans (hop_main_arg13_17 m ρ c)).trans (hop_main_arg13_16 m ρ c)).trans (hop_main_arg13_15 m ρ c)).trans (hop_main_arg13_14 m ρ c)).trans (hop_main_arg13_13 m ρ c)).trans (hop_main_arg13_12 m ρ c)).trans (hop_main_arg13_11 m ρ c)).trans (hop_main_arg13_10 m ρ c)).trans (hop_main_arg13_9 m ρ c)).trans (hop_main_arg13_8 m ρ c)).trans (hop_main_arg13_7 m ρ c)).trans (hop_main_arg13_6 m ρ c)).trans (hop_main_arg13_5 m ρ c)).trans (hop_main_arg13_4 m ρ c)).trans (hop_main_arg13_3 m ρ c)).trans (hop_main_arg13_2 m ρ c)).trans (hop_main_arg13_1 m ρ c)).trans rfl
theorem at6_main_v141 (c : Dev nD) : W6 m ρ c (Proc.devRef .tc main_v141) = W2 m ρ c (Proc.devRef .tc main_v141) :=
  (((hop_main_v141_6 m ρ c).trans (hop_main_v141_5 m ρ c)).trans (hop_main_v141_4 m ρ c)).trans (hop_main_v141_3 m ρ c)
theorem at10_main_v141 (c : Dev nD) : W10 m ρ c (Proc.devRef .tc main_v141) = W2 m ρ c (Proc.devRef .tc main_v141) :=
  (((((((hop_main_v141_10 m ρ c).trans (hop_main_v141_9 m ρ c)).trans (hop_main_v141_8 m ρ c)).trans (hop_main_v141_7 m ρ c)).trans (hop_main_v141_6 m ρ c)).trans (hop_main_v141_5 m ρ c)).trans (hop_main_v141_4 m ρ c)).trans (hop_main_v141_3 m ρ c)
theorem at14_main_v141 (c : Dev nD) : W14 m ρ c (Proc.devRef .tc main_v141) = W2 m ρ c (Proc.devRef .tc main_v141) :=
  (((((((((((hop_main_v141_14 m ρ c).trans (hop_main_v141_13 m ρ c)).trans (hop_main_v141_12 m ρ c)).trans (hop_main_v141_11 m ρ c)).trans (hop_main_v141_10 m ρ c)).trans (hop_main_v141_9 m ρ c)).trans (hop_main_v141_8 m ρ c)).trans (hop_main_v141_7 m ρ c)).trans (hop_main_v141_6 m ρ c)).trans (hop_main_v141_5 m ρ c)).trans (hop_main_v141_4 m ρ c)).trans (hop_main_v141_3 m ρ c)
theorem at5_main_v143 (c : Dev nD) : W5 m ρ c (Proc.devRef .tc main_v143) = W2 m ρ c (Proc.devRef .tc main_v143) :=
  ((hop_main_v143_5 m ρ c).trans (hop_main_v143_4 m ρ c)).trans (hop_main_v143_3 m ρ c)
theorem at9_main_v143 (c : Dev nD) : W9 m ρ c (Proc.devRef .tc main_v143) = W2 m ρ c (Proc.devRef .tc main_v143) :=
  ((((((hop_main_v143_9 m ρ c).trans (hop_main_v143_8 m ρ c)).trans (hop_main_v143_7 m ρ c)).trans (hop_main_v143_6 m ρ c)).trans (hop_main_v143_5 m ρ c)).trans (hop_main_v143_4 m ρ c)).trans (hop_main_v143_3 m ρ c)
theorem at13_main_v143 (c : Dev nD) : W13 m ρ c (Proc.devRef .tc main_v143) = W2 m ρ c (Proc.devRef .tc main_v143) :=
  ((((((((((hop_main_v143_13 m ρ c).trans (hop_main_v143_12 m ρ c)).trans (hop_main_v143_11 m ρ c)).trans (hop_main_v143_10 m ρ c)).trans (hop_main_v143_9 m ρ c)).trans (hop_main_v143_8 m ρ c)).trans (hop_main_v143_7 m ρ c)).trans (hop_main_v143_6 m ρ c)).trans (hop_main_v143_5 m ρ c)).trans (hop_main_v143_4 m ρ c)).trans (hop_main_v143_3 m ρ c)
theorem at3_main_v145 (c : Dev nD) : W3 m ρ c (Proc.devRef .tc main_v145) = W2 m ρ c (Proc.devRef .tc main_v145) :=
  hop_main_v145_3 m ρ c
theorem at7_main_v145 (c : Dev nD) : W7 m ρ c (Proc.devRef .tc main_v145) = W2 m ρ c (Proc.devRef .tc main_v145) :=
  ((((hop_main_v145_7 m ρ c).trans (hop_main_v145_6 m ρ c)).trans (hop_main_v145_5 m ρ c)).trans (hop_main_v145_4 m ρ c)).trans (hop_main_v145_3 m ρ c)
theorem at11_main_v145 (c : Dev nD) : W11 m ρ c (Proc.devRef .tc main_v145) = W2 m ρ c (Proc.devRef .tc main_v145) :=
  ((((((((hop_main_v145_11 m ρ c).trans (hop_main_v145_10 m ρ c)).trans (hop_main_v145_9 m ρ c)).trans (hop_main_v145_8 m ρ c)).trans (hop_main_v145_7 m ρ c)).trans (hop_main_v145_6 m ρ c)).trans (hop_main_v145_5 m ρ c)).trans (hop_main_v145_4 m ρ c)).trans (hop_main_v145_3 m ρ c)
theorem at15_main_v145 (c : Dev nD) : W15 m ρ c (Proc.devRef .tc main_v145) = W2 m ρ c (Proc.devRef .tc main_v145) :=
  ((((((((((((hop_main_v145_15 m ρ c).trans (hop_main_v145_14 m ρ c)).trans (hop_main_v145_13 m ρ c)).trans (hop_main_v145_12 m ρ c)).trans (hop_main_v145_11 m ρ c)).trans (hop_main_v145_10 m ρ c)).trans (hop_main_v145_9 m ρ c)).trans (hop_main_v145_8 m ρ c)).trans (hop_main_v145_7 m ρ c)).trans (hop_main_v145_6 m ρ c)).trans (hop_main_v145_5 m ρ c)).trans (hop_main_v145_4 m ρ c)).trans (hop_main_v145_3 m ρ c)
theorem at4_main_v106 (c : Dev nD) : W4 m ρ c (Proc.devRef .tc main_v106) = W2 m ρ c (Proc.devRef .tc main_v106) :=
  (hop_main_v106_4 m ρ c).trans (hop_main_v106_3 m ρ c)
theorem at8_main_v159 (c : Dev nD) : W8 m ρ c (Proc.devRef .tc main_v159) = W5 m ρ c (Proc.devRef .tc main_v159) :=
  ((hop_main_v159_8 m ρ c).trans (hop_main_v159_7 m ρ c)).trans (hop_main_v159_6 m ρ c)
theorem at12_main_v173 (c : Dev nD) : W12 m ρ c (Proc.devRef .tc main_v173) = W9 m ρ c (Proc.devRef .tc main_v173) :=
  ((hop_main_v173_12 m ρ c).trans (hop_main_v173_11 m ρ c)).trans (hop_main_v173_10 m ρ c)
theorem at16_main_v187 (c : Dev nD) : W16 m ρ c (Proc.devRef .tc main_v187) = W13 m ρ c (Proc.devRef .tc main_v187) :=
  ((hop_main_v187_16 m ρ c).trans (hop_main_v187_15 m ρ c)).trans (hop_main_v187_14 m ρ c)

end Cert.KernelIdeal.Carry

end
-- ==== Proof.KMsgPay.lean ====
/- The message body at the extended reals: what a point stores is `max (x + e) 0` entry by entry of its two loaded blocks. -/
import proofs.«422649_j18588618457330_1_alg».proof.Proof.Gen.KernelIdeal.Skeleton
import proofs.«422649_j18588618457330_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

/-- The message kernel's stored value is `Spec.msg` of its two loaded blocks. -/
theorem msg_payload (x0 x1 : Vec Ideal S2000x256 .f32) :
    k0_pay1 (F := Ideal) x0 x1 = Cert.Spec.msg (a := 2000) (b := 256) x0 x1 := by
  funext j
  -- the two casts keep the shape, so they are the identity
  have hcast0 : shapeCast S2000x256 x0 shapeCasts_S2000x256_S2000x256 = x0 := shapeCast_self x0 _
  have hcast1 : shapeCast S2000x256 x1 shapeCasts_S2000x256_S2000x256 = x1 := shapeCast_self x1 _
  unfold k0_pay1 Cert.Spec.msg
  rw [hcast0, hcast1, ValueIdx.maximumf_apply, ValueIdx.addf_apply, ValueIdx.broadcast_apply,
    Ideal.ofBits_def, Ideal.ofBits_zero_f32]

theorem k2_pay1_eq : @k2_pay1 Ideal _ = @k0_pay1 Ideal _ := rfl
theorem k4_pay1_eq : @k4_pay1 Ideal _ = @k0_pay1 Ideal _ := rfl
theorem k6_pay1_eq : @k6_pay1 Ideal _ = @k0_pay1 Ideal _ := rfl

end Cert.KernelIdeal.Val

end
-- ==== Proof.KMsgArr0.lean ====
/- A message region: the output's row blocks are row blocks of one whole-array function of the two input arrays, and they fill the array. -/
import proofs.«422649_j18588618457330_1_alg».proof.Proof.Gen.KernelIdeal.Frame
import proofs.«422649_j18588618457330_1_alg».proof.Proof.Spec
import proofs.«422649_j18588618457330_1_alg».proof.Proof.KMsgPay
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

/-- The block index of each of the three windows at grid point `t` is `(t, 0)`: block `t` is the 2000 rows from
    `2000 · t` on, all 256 columns. Decided over the grid's points. -/
theorem arrAt_msg0.blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What grid point `t` writes back is row block `t` of `Cert.Spec.msg` of the two input arrays: the body's stored
    value is `msg` of its two loaded blocks (`msg_payload`), `msg` is entrywise, and the three windows' blocks at `t`
    sit at the same rows and columns of their arrays. -/
theorem arrAt_msg0.flushed_block (V : (c : Dev nD) → (b : Ref sig .tc) → Buf (Elt Ideal) ((c : Thread nD τ).loc b))
    (c : Dev nD) (t : Fin cfg0.N) :
    (dat0 (F := Ideal) V c).flushed 2 t
      = ((cfg0.win 2).blk t).view.read (Elt Ideal)
          (Cert.Spec.msg (a := 200000) (b := 256) (V c main_v146) (V c main_v141)) := by
  have origin : (![0, 0] : Fin 2 → Nat) = fun _ => 0 := funext fun a => by fin_cases a <;> rfl
  show (cfg0.win 2).cut (grid0.coords t) ((dat0 (F := Ideal) V c).after 2 t) = _
  rw [after0_2]
  unfold out0_2
  rw [View.canon_unit_zero origin]
  simp only [View.ld_unit_zero (S := S2000x256) origin]
  rw [msg_payload]
  obtain ⟨a0, a1, b0, b1, o0, o1⟩ := arrAt_msg0.blockIndex t
  funext j
  have same0 : ((cfg0.win 0).blk t).view.emb j = ((cfg0.win 2).blk t).view.emb j := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * (j 1).val = win0_2.index t (1 : Fin 2) * 256 + 1 * (j 1).val; omega
  have same1 : ((cfg0.win 1).blk t).view.emb j = ((cfg0.win 2).blk t).view.emb j := by
    funext a; apply Fin.ext
    match a with
    | ⟨0, _⟩ => show win0_1.index t (0 : Fin 2) * 2000 + 1 * (j 0).val = win0_2.index t (0 : Fin 2) * 2000 + 1 * (j 0).val; omega
    | ⟨1, _⟩ => show win0_1.index t (1 : Fin 2) * 256 + 1 * (j 1).val = win0_2.index t (1 : Fin 2) * 256 + 1 * (j 1).val; omega
  -- so each input block's entry at `j` is its array's entry where the output block's entry `j` sits
  have entry0 : iblk0 V c 0 t j = V c main_v146 (((cfg0.win 2).blk t).view.emb j) := by
    show V c main_v146 (((cfg0.win 0).blk t).view.emb j) = _
    rw [same0]
  have entry1 : iblk0 V c 1 t j = V c main_v141 (((cfg0.win 2).blk t).view.emb j) := by
    show V c main_v141 (((cfg0.win 1).blk t).view.emb j) = _
    rw [same1]
  show Cert.Spec.msg (a := 2000) (b := 256) (iblk0 V c 0 t) (iblk0 V c 1 t) j
      = Cert.Spec.msg (a := 200000) (b := 256) (V c main_v146) (V c main_v141) (((cfg0.win 2).blk t).view.emb j)
  simp only [Cert.Spec.msg]
  rw [entry0, entry1]

/-- An index of the output array is in grid point `t`'s block iff each coordinate is in the block's range on its axis. -/
theorem arrAt_msg0.mem_block (t : Fin cfg0.N) (i : S200000x256.Idx) :
    i ∈ ((cfg0.win 2).blk t).view.set
      ↔ ∀ a : Fin 2, win0_2.index t a * S2000x256.size a ≤ (i a).val
          ∧ (i a).val < win0_2.index t a * S2000x256.size a + S2000x256.size a := by
  show i ∈ ((View.whole main_v147).slice (win0_2.rect t)).set ↔ _
  rw [View.set_slice_whole, Rect.mem_set_unit]
  exact Iff.rfl

/-- The blocks fill the array: row `r` lies in the block of grid point `r / 2000`, which is written back. -/
theorem arrAt_msg0.covered (i : S200000x256.Idx) :
    ∃ t : Fin cfg0.N, (cfg0.win 2).flush t = true ∧ i ∈ ((cfg0.win 2).blk t).view.set := by
  have rows : (i 0).val < 200000 := (i 0).isLt
  have cols : (i 1).val < 256 := (i 1).isLt
  have points : cfg0.N = 100 := N_0
  let t : Fin cfg0.N := ⟨(i 0).val / 2000, by omega⟩
  obtain ⟨_, _, _, _, o0, o1⟩ := arrAt_msg0.blockIndex t
  have ht : t.val = (i 0).val / 2000 := rfl
  refine ⟨t, flush0_2 t, ?_⟩
  rw [arrAt_msg0.mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- After the region the output array holds `Cert.Spec.msg` of the arrays the region found, whatever they were. -/
theorem arrAt_msg0 (V : (c : Dev nD) → (b : Ref sig .tc) → Buf (Elt Ideal) ((c : Thread nD τ).loc b)) (c : Dev nD) :
    (dat0 (F := Ideal) V c).arrAt 2 cfg0.N = Cert.Spec.msg (a := 200000) (b := 256) (V c main_v146) (V c main_v141) :=
  (dat0 (F := Ideal) V c).arrAt_eq_of_cover 2 _ (fun t _ => arrAt_msg0.flushed_block V c t) arrAt_msg0.covered

end Cert.KernelIdeal.Val

end
-- ==== Proof.KUpdPay.lean ====
/- The node-update body at the extended reals: the two matrix products read as sums over the contracted axis, the
   bias rows broadcast, the clamps at zero; format changes are the identity. -/
import proofs.«422649_j18588618457330_1_alg».proof.Proof.Gen.KernelIdeal.Skeleton
import proofs.«422649_j18588618457330_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.SL.Sem
open Idealize.ShloMosaic.Pipeline (Dat Cfg Window)
open Idealize.ShloMosaic.ValueIdx
open Cert.KernelIdeal Cert.KernelIdeal.Gen
open scoped BigOperators

/-! ### The first product's operand indices: rows of the left operand, columns of the right, the contracted
    coordinate on the left operand's axis 1 and the right operand's axis 0 -/

theorem lhs_in_0 (j : S2000x512.Idx) (k : dot_S2000x256_S256x512_S2000x512_1_0_0_1_n_n.contr.Idx) :
    (dot_S2000x256_S256x512_S2000x512_1_0_0_1_n_n.lhsIdx j k 0 : ℕ) = j 0 := by
  unfold DotDims.lhsIdx
  rw [dif_neg (by decide), dif_pos (by decide)]
  rfl
theorem lhs_in_1 (j : S2000x512.Idx) (k : dot_S2000x256_S256x512_S2000x512_1_0_0_1_n_n.contr.Idx) :
    (dot_S2000x256_S256x512_S2000x512_1_0_0_1_n_n.lhsIdx j k 1 : ℕ) = k ⟨0, by decide⟩ :=
  dot_S2000x256_S256x512_S2000x512_1_0_0_1_n_n.lhsIdx_val_of_single (cl := 1) rfl j k
theorem rhs_in_0 (j : S2000x512.Idx) (k : dot_S2000x256_S256x512_S2000x512_1_0_0_1_n_n.contr.Idx) :
    (dot_S2000x256_S256x512_S2000x512_1_0_0_1_n_n.rhsIdx j k 0 : ℕ) = k ⟨0, by decide⟩ :=
  dot_S2000x256_S256x512_S2000x512_1_0_0_1_n_n.rhsIdx_val_of_single (cr := 0) rfl j k
theorem rhs_in_1 (j : S2000x512.Idx) (k : dot_S2000x256_S256x512_S2000x512_1_0_0_1_n_n.contr.Idx) :
    (dot_S2000x256_S256x512_S2000x512_1_0_0_1_n_n.rhsIdx j k 1 : ℕ) = j 1 := by
  unfold DotDims.rhsIdx
  rw [dif_neg (by decide), dif_pos (by decide)]
  rfl

/-- The first product into the zero accumulator, at row `p` and column `q`: the sum over the 256 contracted
    coordinates of the left operand's row entry times the right operand's column entry. -/
theorem matmul_in_apply (A : FVec Ideal S2000x256 .bf16) (B : FVec Ideal S256x512 .bf16) (p : Fin 2000) (q : Fin 512) :
    matmul dot_S2000x256_S256x512_S2000x512_1_0_0_1_n_n none A B (constant (F := Ideal) S2000x512 .f32 0x00000000#32) (ix2 p q)
      = ∑ c : Fin 256, A (ix2 p c) * B (ix2 c q) := by
  show FloatOps.matmul dot_S2000x256_S256x512_S2000x512_1_0_0_1_n_n none A B _ (ix2 p q) = _
  rw [Ideal.matmul_constant_zero_apply,
    ← Equiv.sum_comp (contrEquiv1 dot_S2000x256_S256x512_S2000x512_1_0_0_1_n_n 256 rfl rfl).symm]
  refine Finset.sum_congr rfl fun c _ => ?_
  have hc := contrEquiv1_symm_val dot_S2000x256_S256x512_S2000x512_1_0_0_1_n_n 256 rfl rfl c
  have hl : dot_S2000x256_S256x512_S2000x512_1_0_0_1_n_n.lhsIdx (ix2 p q) ((contrEquiv1 dot_S2000x256_S256x512_S2000x512_1_0_0_1_n_n 256 rfl rfl).symm c) = ix2 p c := by
    funext ax; apply Fin.ext
    match ax with
    | ⟨0, _⟩ => exact lhs_in_0 _ _
    | ⟨1, _⟩ => exact (lhs_in_1 _ _).trans hc
  have hr : dot_S2000x256_S256x512_S2000x512_1_0_0_1_n_n.rhsIdx (ix2 p q) ((contrEquiv1 dot_S2000x256_S256x512_S2000x512_1_0_0_1_n_n 256 rfl rfl).symm c) = ix2 c q := by
    funext ax; apply Fin.ext
    match ax with
    | ⟨0, _⟩ => exact (rhs_in_0 _ _).trans hc
    | ⟨1, _⟩ => exact rhs_in_1 _ _
  rw [hl, hr]

/-! ### The second product's operand indices, the same way -/

theorem lhs_out_0 (j : S2000x256.Idx) (k : dot_S2000x512_S512x256_S2000x256_1_0_0_1_n_n.contr.Idx) :
    (dot_S2000x512_S512x256_S2000x256_1_0_0_1_n_n.lhsIdx j k 0 : ℕ) = j 0 := by
  unfold DotDims.lhsIdx
  rw [dif_neg (by decide), dif_pos (by decide)]
  rfl
theorem lhs_out_1 (j : S2000x256.Idx) (k : dot_S2000x512_S512x256_S2000x256_1_0_0_1_n_n.contr.Idx) :
    (dot_S2000x512_S512x256_S2000x256_1_0_0_1_n_n.lhsIdx j k 1 : ℕ) = k ⟨0, by decide⟩ :=
  dot_S2000x512_S512x256_S2000x256_1_0_0_1_n_n.lhsIdx_val_of_single (cl := 1) rfl j k
theorem rhs_out_0 (j : S2000x256.Idx) (k : dot_S2000x512_S512x256_S2000x256_1_0_0_1_n_n.contr.Idx) :
    (dot_S2000x512_S512x256_S2000x256_1_0_0_1_n_n.rhsIdx j k 0 : ℕ) = k ⟨0, by decide⟩ :=
  dot_S2000x512_S512x256_S2000x256_1_0_0_1_n_n.rhsIdx_val_of_single (cr := 0) rfl j k
theorem rhs_out_1 (j : S2000x256.Idx) (k : dot_S2000x512_S512x256_S2000x256_1_0_0_1_n_n.contr.Idx) :
    (dot_S2000x512_S512x256_S2000x256_1_0_0_1_n_n.rhsIdx j k 1 : ℕ) = j 1 := by
  unfold DotDims.rhsIdx
  rw [dif_neg (by decide), dif_pos (by decide)]
  rfl

/-- The second product into the zero accumulator, at row `p` and column `q`: the sum over the 512 contracted
    coordinates. -/
theorem matmul_out_apply (A : FVec Ideal S2000x512 .bf16) (B : FVec Ideal S512x256 .bf16) (p : Fin 2000) (q : Fin 256) :
    matmul dot_S2000x512_S512x256_S2000x256_1_0_0_1_n_n none A B (constant (F := Ideal) S2000x256 .f32 0x00000000#32) (ix2 p q)
      = ∑ c : Fin 512, A (ix2 p c) * B (ix2 c q) := by
  show FloatOps.matmul dot_S2000x512_S512x256_S2000x256_1_0_0_1_n_n none A B _ (ix2 p q) = _
  rw [Ideal.matmul_constant_zero_apply,
    ← Equiv.sum_comp (contrEquiv1 dot_S2000x512_S512x256_S2000x256_1_0_0_1_n_n 512 rfl rfl).symm]
  refine Finset.sum_congr rfl fun c _ => ?_
  have hc := contrEquiv1_symm_val dot_S2000x512_S512x256_S2000x256_1_0_0_1_n_n 512 rfl rfl c
  have hl : dot_S2000x512_S512x256_S2000x256_1_0_0_1_n_n.lhsIdx (ix2 p q) ((contrEquiv1 dot_S2000x512_S512x256_S2000x256_1_0_0_1_n_n 512 rfl rfl).symm c) = ix2 p c := by
    funext ax; apply Fin.ext
    match ax with
    | ⟨0, _⟩ => exact lhs_out_0 _ _
    | ⟨1, _⟩ => exact (lhs_out_1 _ _).trans hc
  have hr : dot_S2000x512_S512x256_S2000x256_1_0_0_1_n_n.rhsIdx (ix2 p q) ((contrEquiv1 dot_S2000x512_S512x256_S2000x256_1_0_0_1_n_n 512 rfl rfl).symm c) = ix2 c q := by
    funext ax; apply Fin.ext
    match ax with
    | ⟨0, _⟩ => exact (rhs_out_0 _ _).trans hc
    | ⟨1, _⟩ => exact rhs_out_1 _ _
  rw [hl, hr]

/-! ### A bias vector laid out as one row and repeated down the rows -/

/-- A length-`a` vector viewed as a `1 × a` row and broadcast to `n × a` reads, at `(p, q)`, its entry `q`. -/
theorem bias_row_apply {α : Type} {n a : ℕ} (b : (⟨1, ![a]⟩ : Shape).Idx → α)
    (h1 : (⟨1, ![a]⟩ : Shape).ShapeCasts ⟨2, ![1, a]⟩) (h2 : (⟨2, ![1, a]⟩ : Shape).Broadcasts ⟨2, ![n, a]⟩)
    (p : Fin n) (q : Fin a) :
    broadcastTo ⟨2, ![n, a]⟩ (shapeCast ⟨2, ![1, a]⟩ b h1) h2 (ix2 p q) = b (ix1 q) :=
  (broadcastTo_1b_ab_apply _ h2 p q).trans (shapeCast_a_1a_apply b h1 0 q)

/-- The zero word of the clamp is the extended real `0`. -/
theorem zero_word : (Scalar.ofBits (F := Ideal) .f32 0x00000000#32 : Ideal .f32) = 0 := Ideal.ofBits_zero_f32

/-! ### The two affine layers with their clamps, index by index -/

/-- The first layer: product, bias row, clamp at zero is `relu (dense x w b)`. -/
theorem layer_in_apply (x : FVec Ideal S2000x256 .f32) (w : FVec Ideal S256x512 .f32) (b : FVec Ideal S512 .f32)
    (p : Fin 2000) (q : Fin 512) :
    maximumf
        (addf
          (matmul dot_S2000x256_S256x512_S2000x512_1_0_0_1_n_n none (truncf .bf16 x bitsLt_bf16_f32)
            (truncf .bf16 w bitsLt_bf16_f32) (constant (F := Ideal) S2000x512 .f32 0x00000000#32))
          (broadcastTo S2000x512 (shapeCast S1x512 b shapeCasts_S512_S1x512) broadcasts_S1x512_S2000x512))
        (broadcast S2000x512 (Scalar.ofBits (F := Ideal) .f32 0x00000000#32)) (ix2 p q)
      = Cert.Spec.relu (Cert.Spec.dense (n := 2000) (d := 256) (h := 512) x w b) (ix2 p q) := by
  rw [maximumf_apply, addf_apply, broadcast_apply, zero_word, matmul_in_apply,
    bias_row_apply b shapeCasts_S512_S1x512 broadcasts_S1x512_S2000x512 p q]
  rfl

/-- The second layer likewise. -/
theorem layer_out_apply (x : FVec Ideal S2000x512 .f32) (w : FVec Ideal S512x256 .f32) (b : FVec Ideal S256 .f32)
    (p : Fin 2000) (q : Fin 256) :
    maximumf
        (addf
          (matmul dot_S2000x512_S512x256_S2000x256_1_0_0_1_n_n none (truncf .bf16 x bitsLt_bf16_f32)
            (truncf .bf16 w bitsLt_bf16_f32) (constant (F := Ideal) S2000x256 .f32 0x00000000#32))
          (broadcastTo S2000x256 (shapeCast S1x256 b shapeCasts_S256_S1x256) broadcasts_S1x256_S2000x256))
        (broadcast S2000x256 (Scalar.ofBits (F := Ideal) .f32 0x00000000#32)) (ix2 p q)
      = Cert.Spec.relu (Cert.Spec.dense (n := 2000) (d := 512) (h := 256) x w b) (ix2 p q) := by
  rw [maximumf_apply, addf_apply, broadcast_apply, zero_word, matmul_out_apply,
    bias_row_apply b shapeCasts_S256_S1x256 broadcasts_S1x256_S2000x256 p q]
  rfl

/-- The node-update kernel's stored value is `Spec.upd` of its six loaded blocks. -/
theorem upd_payload (x0 x1 : Vec Ideal S2000x256 .f32) (w1 : Vec Ideal S256x512 .f32) (b1 : Vec Ideal S512 .f32)
    (w2 : Vec Ideal S512x256 .f32) (b2 : Vec Ideal S256 .f32) :
    k1_pay1 (F := Ideal) x0 x1 w1 b1 w2 b2 = Cert.Spec.upd (n := 2000) (d := 256) (h := 512) x0 x1 w1 b1 w2 b2 := by
  funext j
  obtain ⟨p, q, rfl⟩ : ∃ (p : Fin 2000) (q : Fin 256), j = ix2 p q := ⟨j 0, j 1, eq_ix2 j⟩
  unfold k1_pay1
  simp only [shapeCast_self]
  rw [layer_out_apply]
  unfold Cert.Spec.upd
  refine congrArg (fun v => Cert.Spec.relu (Cert.Spec.dense (n := 2000) (d := 512) (h := 256) v w2 b2) (ix2 p q)) ?_
  funext i
  obtain ⟨r, c, rfl⟩ : ∃ (r : Fin 2000) (c : Fin 512), i = ix2 r c := ⟨i 0, i 1, eq_ix2 i⟩
  exact layer_in_apply (addf x0 x1) w1 b1 r c

theorem k3_pay1_eq : @k3_pay1 Ideal _ = @k1_pay1 Ideal _ := rfl
theorem k5_pay1_eq : @k5_pay1 Ideal _ = @k1_pay1 Ideal _ := rfl
theorem k7_pay1_eq : @k7_pay1 Ideal _ = @k1_pay1 Ideal _ := rfl

end Cert.KernelIdeal.Val

end
-- ==== Proof.KUpdArr1.lean ====
/- A node-update region: a row of the update depends only on the same row of the two node arrays, so the output's row blocks are row blocks of one whole-array function, and they fill the array. -/
import proofs.«422649_j18588618457330_1_alg».proof.Proof.Gen.KernelIdeal.Frame
import proofs.«422649_j18588618457330_1_alg».proof.Proof.Spec
import proofs.«422649_j18588618457330_1_alg».proof.Proof.KUpdPay
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-- Zero offsets on two axes, however spelt. -/
private theorem zero_offsets2 : (![0, 0] : Fin 2 → Nat) = fun _ => 0 := funext fun a => by fin_cases a <;> rfl
/-- Zero offsets on one axis. -/
private theorem zero_offsets1 : (![0] : Fin 1 → Nat) = fun _ => 0 := funext fun a => by fin_cases a <;> rfl

/-- The printed index maps, decided over the grid: the two node windows and the output move down the rows with the point,
    one block of rows per point, and stay at column block 0; the weight and bias windows stay at block 0. -/
private theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row `r` of block `t` is a row of the array. -/
private theorem row_lt (t : Fin cfg1.N) (r : Fin 2000) : t.val * 2000 + r.val < 100000 := by
  have ht : t.val < 50 := Nat.lt_of_lt_of_eq t.isLt N_1
  have hr := r.isLt
  omega

/-- A row of the update depends only on the same row of the two node arrays: the update of the rows `e r` of `X` and `A`
    is the rows `e r` of the update of `X` and `A`. -/
private theorem upd_rows {n N d h : Nat} (e : Fin n → Fin N) (X A : Cert.Spec.A2 N d) (W1 : Cert.Spec.A2 d h) (b1 : Cert.Spec.A1 h)
    (W2 : Cert.Spec.A2 h d) (b2 : Cert.Spec.A1 d) :
    Cert.Spec.upd (fun i : (⟨2, ![n, d]⟩ : Shape).Idx => X (ix2 (e (i 0)) (i 1))) (fun i : (⟨2, ![n, d]⟩ : Shape).Idx => A (ix2 (e (i 0)) (i 1))) W1 b1 W2 b2
      = fun i : (⟨2, ![n, d]⟩ : Shape).Idx => Cert.Spec.upd X A W1 b1 W2 b2 (ix2 (e (i 0)) (i 1)) := by
  funext i
  simp only [Cert.Spec.upd, Cert.Spec.relu, Cert.Spec.dense]
  rfl

section Blocks

variable (V : (c : Dev nD) → (b : Ref sig .tc) → Buf (Elt Ideal) ((c : Thread nD τ).loc b))

/-- Block `t` of the first node array is its rows `2000 t … 2000 t + 1999`, every column. -/
private theorem node_block (c : Dev nD) (t : Fin cfg1.N) :
    @Eq (Vec Ideal S2000x256 .f32) (iblk1 (F := Ideal) V c 0 t)
      (fun i => (V c main_v106 : S100000x256.Idx → EReal) (ix2 (⟨t.val * 2000 + (i 0).val, row_lt t (i 0)⟩ : Fin 100000) (i 1))) := by
  obtain ⟨e0, e1, -⟩ := block_indices t
  funext j
  unfold iblk1
  rw [View.read_apply]
  show V c main_v106 _ = V c main_v106 _
  congr 1
  funext a
  apply Fin.ext
  match a with
  | ⟨0, _⟩ => show win1_0.index t (0 : Fin 2) * 2000 + 1 * (j 0).val = t.val * 2000 + (j 0).val; rw [e0]; omega
  | ⟨1, _⟩ => show win1_0.index t (1 : Fin 2) * 256 + 1 * (j 1).val = (j 1).val; rw [e1]; omega

/-- Block `t` of the second node array is the same rows of it. -/
private theorem agg_block (c : Dev nD) (t : Fin cfg1.N) :
    @Eq (Vec Ideal S2000x256 .f32) (iblk1 (F := Ideal) V c 1 t)
      (fun i => (V c main_v150 : S100000x256.Idx → EReal) (ix2 (⟨t.val * 2000 + (i 0).val, row_lt t (i 0)⟩ : Fin 100000) (i 1))) := by
  obtain ⟨-, -, e0, e1, -⟩ := block_indices t
  funext j
  unfold iblk1
  rw [View.read_apply]
  show V c main_v150 _ = V c main_v150 _
  congr 1
  funext a
  apply Fin.ext
  match a with
  | ⟨0, _⟩ => show win1_1.index t (0 : Fin 2) * 2000 + 1 * (j 0).val = t.val * 2000 + (j 0).val; rw [e0]; omega
  | ⟨1, _⟩ => show win1_1.index t (1 : Fin 2) * 256 + 1 * (j 1).val = (j 1).val; rw [e1]; omega

/-- The first weight window's one block is the whole matrix, at every point. -/
private theorem w1_block (c : Dev nD) (t : Fin cfg1.N) :
    @Eq (Vec Ideal S256x512 .f32) (iblk1 (F := Ideal) V c 2 t)
      (V c main_v152) := by
  obtain ⟨-, -, -, -, e0, e1, -⟩ := block_indices t
  funext j
  unfold iblk1
  rw [View.read_apply]
  show V c main_v152 _ = V c main_v152 _
  congr 1
  funext a
  apply Fin.ext
  match a with
  | ⟨0, _⟩ => show win1_2.index t (0 : Fin 2) * 256 + 1 * (j 0).val = (j 0).val; rw [e0]; omega
  | ⟨1, _⟩ => show win1_2.index t (1 : Fin 2) * 512 + 1 * (j 1).val = (j 1).val; rw [e1]; omega

/-- The first bias window's one block is the whole vector. -/
private theorem b1_block (c : Dev nD) (t : Fin cfg1.N) :
    @Eq (Vec Ideal S512 .f32) (iblk1 (F := Ideal) V c 3 t)
      (V c main_v154) := by
  obtain ⟨-, -, -, -, -, -, e0, -⟩ := block_indices t
  funext j
  unfold iblk1
  rw [View.read_apply]
  show V c main_v154 _ = V c main_v154 _
  congr 1
  funext a
  apply Fin.ext
  match a with
  | ⟨0, _⟩ => show win1_3.index t (0 : Fin 1) * 512 + 1 * (j 0).val = (j 0).val; rw [e0]; omega

/-- The second weight window's one block is the whole matrix. -/
private theorem w2_block (c : Dev nD) (t : Fin cfg1.N) :
    @Eq (Vec Ideal S512x256 .f32) (iblk1 (F := Ideal) V c 4 t)
      (V c main_v156) := by
  obtain ⟨-, -, -, -, -, -, -, e0, e1, -⟩ := block_indices t
  funext j
  unfold iblk1
  rw [View.read_apply]
  show V c main_v156 _ = V c main_v156 _
  congr 1
  funext a
  apply Fin.ext
  match a with
  | ⟨0, _⟩ => show win1_4.index t (0 : Fin 2) * 512 + 1 * (j 0).val = (j 0).val; rw [e0]; omega
  | ⟨1, _⟩ => show win1_4.index t (1 : Fin 2) * 256 + 1 * (j 1).val = (j 1).val; rw [e1]; omega

/-- The second bias window's one block is the whole vector. -/
private theorem b2_block (c : Dev nD) (t : Fin cfg1.N) :
    @Eq (Vec Ideal S256 .f32) (iblk1 (F := Ideal) V c 5 t)
      (V c main_v158) := by
  obtain ⟨-, -, -, -, -, -, -, -, -, e0, -⟩ := block_indices t
  funext j
  unfold iblk1
  rw [View.read_apply]
  show V c main_v158 _ = V c main_v158 _
  congr 1
  funext a
  apply Fin.ext
  match a with
  | ⟨0, _⟩ => show win1_5.index t (0 : Fin 1) * 256 + 1 * (j 0).val = (j 0).val; rw [e0]; omega

/-- What point `t` writes back is block `t` of the update of the whole arrays: the body computes the update of the
    blocks it loaded, which are rows `2000 t …` of the node arrays and all of the weights, and a row of the update is a
    function of the same row of the node arrays. -/
private theorem written_block (c : Dev nD) (t : Fin cfg1.N) :
    (dat1 (F := Ideal) V c).flushed 6 t = ((cfg1.win 6).blk t).view.read (Elt Ideal)
      (Cert.Spec.upd (n := 100000) (d := 256) (h := 512) (V c main_v106) (V c main_v150) (V c main_v152) (V c main_v154) (V c main_v156) (V c main_v158)) := by
  show (cfg1.win 6).cut (grid1.coords t) ((dat1 V c).after 6 t) = _
  rw [after1_6]
  unfold out1_6
  rw [View.canon_unit_zero zero_offsets2]
  simp only [View.ld_unit_zero (S := S2000x256) zero_offsets2, View.ld_unit_zero (S := S256x512) zero_offsets2,
    View.ld_unit_zero (S := S512) zero_offsets1, View.ld_unit_zero (S := S512x256) zero_offsets2,
    View.ld_unit_zero (S := S256) zero_offsets1]
  rw [upd_payload, node_block V c t, agg_block V c t, w1_block V c t, b1_block V c t, w2_block V c t, b2_block V c t]
  rw [upd_rows (fun r : Fin 2000 => (⟨t.val * 2000 + r.val, row_lt t r⟩ : Fin 100000))]
  obtain ⟨-, -, -, -, -, -, -, -, -, -, e0, e1⟩ := block_indices t
  funext j
  rw [View.read_apply]
  show Cert.Spec.upd (n := 100000) (d := 256) (h := 512) (V c main_v106) (V c main_v150) (V c main_v152) (V c main_v154) (V c main_v156) (V c main_v158) _
    = Cert.Spec.upd (n := 100000) (d := 256) (h := 512) (V c main_v106) (V c main_v150) (V c main_v152) (V c main_v154) (V c main_v156) (V c main_v158) _
  congr 1
  funext a
  apply Fin.ext
  match a with
  | ⟨0, _⟩ => show t.val * 2000 + (j 0).val = win1_6.index t (0 : Fin 2) * 2000 + 1 * (j 0).val; rw [e0]; omega
  | ⟨1, _⟩ => show (j 1).val = win1_6.index t (1 : Fin 2) * 256 + 1 * (j 1).val; rw [e1]; omega

/-- An index of the array is in point `t`'s block iff each coordinate is in the block's range on its axis. -/
private theorem mem_block (t : Fin cfg1.N) (i : S100000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v159).slice (win1_6.rect t)).set ↔ _
  rw [View.set_slice_whole, Rect.mem_set_unit]
  exact Iff.rfl

/-- The blocks fill the array: row `r` lies in the block of point `r / 2000`, and every point writes back. -/
private theorem blocks_cover (i : S100000x256.Idx) :
    ∃ t : Fin cfg1.N, (cfg1.win 6).flush t = true ∧ i ∈ ((cfg1.win 6).blk t).view.set := by
  have hi0 : (i 0).val < 100000 := (i 0).isLt
  have hi1 : (i 1).val < 256 := (i 1).isLt
  have hN : cfg1.N = 50 := N_1
  have hq : (i 0).val / 2000 < cfg1.N := by rw [hN]; omega
  obtain ⟨-, -, -, -, -, -, -, -, -, -, e0, e1⟩ := block_indices ⟨(i 0).val / 2000, hq⟩
  refine ⟨⟨(i 0).val / 2000, hq⟩, flush1_6 _, ?_⟩
  rw [mem_block]
  intro a
  match a with
  | ⟨0, _⟩ =>
    show win1_6.index ⟨(i 0).val / 2000, hq⟩ (0 : Fin 2) * 2000 ≤ (i 0).val ∧ (i 0).val < win1_6.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win1_6.index ⟨(i 0).val / 2000, hq⟩ (1 : Fin 2) * 256 ≤ (i 1).val ∧ (i 1).val < win1_6.index ⟨(i 0).val / 2000, hq⟩ (1 : Fin 2) * 256 + 256
    rw [e1]
    omega

end Blocks

/-- After the region the output array holds `Cert.Spec.upd` of the arrays the region found, whatever they were. -/
theorem arrAt_upd1 (V : (c : Dev nD) → (b : Ref sig .tc) → Buf (Elt Ideal) ((c : Thread nD τ).loc b)) (c : Dev nD) :
    (dat1 (F := Ideal) V c).arrAt 6 cfg1.N = Cert.Spec.upd (n := 100000) (d := 256) (h := 512) (V c main_v106) (V c main_v150) (V c main_v152) (V c main_v154) (V c main_v156) (V c main_v158) :=
  (dat1 (F := Ideal) V c).arrAt_eq_of_cover 6
    (Cert.Spec.upd (n := 100000) (d := 256) (h := 512) (V c main_v106) (V c main_v150) (V c main_v152) (V c main_v154) (V c main_v156) (V c main_v158))
    (fun t _ => written_block V c t) blocks_cover

end Cert.KernelIdeal.Val

end
-- ==== Proof.KLayer0.lean ====
/- Layer 0 of the idealized kernel program, boundary to boundary: the node array its update region leaves is one layer of the network applied to the node array it found, with the edge encoding and the edge list's rows as the first stretch left them. -/
import proofs.«422649_j18588618457330_1_alg».proof.Proof.Gen.KernelIdeal.Frame
import proofs.«422649_j18588618457330_1_alg».proof.Proof.KOps
import proofs.«422649_j18588618457330_1_alg».proof.Proof.KHost0
import proofs.«422649_j18588618457330_1_alg».proof.Proof.KCarry
import proofs.«422649_j18588618457330_1_alg».proof.Proof.KMsgArr0
import proofs.«422649_j18588618457330_1_alg».proof.Proof.KUpdArr1
import Idealize.ShloMosaic.Lib.StableHlo.Run
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The update region leaves, in its output array, the node update of the six arrays it found. -/
theorem layer0_value.updated (c : Dev nD) :
    W5 m ρ c (Proc.devRef .tc main_v159)
      = Cert.Spec.upd (n := 100000) (d := 256) (h := 512) (W4 m ρ c (Proc.devRef .tc main_v106)) (W4 m ρ c (Proc.devRef .tc main_v150))
          (W4 m ρ c (Proc.devRef .tc main_v152)) (W4 m ρ c (Proc.devRef .tc main_v154)) (W4 m ρ c (Proc.devRef .tc main_v156)) (W4 m ρ c (Proc.devRef .tc main_v158)) :=
  (W5_arr m ρ c 6).trans (arrAt_upd1 (V4 m ρ) c)

/-- The message region leaves, in its output array, the messages of the two arrays it found. -/
theorem layer0_value.messages (c : Dev nD) :
    W3 m ρ c (Proc.devRef .tc main_v147)
      = Cert.Spec.msg (a := 200000) (b := 256) (W2 m ρ c (Proc.devRef .tc main_v146)) (W2 m ρ c (Proc.devRef .tc main_v141)) :=
  (W3_arr m ρ c 2).trans (arrAt_msg0 (V2 m ρ) c)

/-- The host stretch between the two regions adds the messages into their destination nodes, from zero. -/
theorem layer0_value.aggregated (c : Dev nD) :
    W4 m ρ c (Proc.devRef .tc main_v150) = segsum (W3 m ρ c (Proc.devRef .tc main_v145)) (W3 m ρ c (Proc.devRef .tc main_v147)) := by
  unfold segsum
  show StableHlo.after hostOps1 _ (Proc.devRef .tc main_v150) = _
  after_results <;> rfl

/-- The same stretch cuts the layer's first weight matrix out of the stacked weights … -/
theorem layer0_value.weight1 (c : Dev nD) :
    W4 m ρ c (Proc.devRef .tc main_v152) = w1At0 (W3 m ρ c (Proc.devRef .tc main_arg6)) := by
  unfold w1At0
  show StableHlo.after hostOps1 _ (Proc.devRef .tc main_v152) = _
  after_results <;> rfl

/-- … its first bias row … -/
theorem layer0_value.bias1 (c : Dev nD) :
    W4 m ρ c (Proc.devRef .tc main_v154) = b1At0 (W3 m ρ c (Proc.devRef .tc main_arg7)) := by
  unfold b1At0
  show StableHlo.after hostOps1 _ (Proc.devRef .tc main_v154) = _
  after_results <;> rfl

/-- … its second weight matrix … -/
theorem layer0_value.weight2 (c : Dev nD) :
    W4 m ρ c (Proc.devRef .tc main_v156) = w2At0 (W3 m ρ c (Proc.devRef .tc main_arg8)) := by
  unfold w2At0
  show StableHlo.after hostOps1 _ (Proc.devRef .tc main_v156) = _
  after_results <;> rfl

/-- … and its second bias row. -/
theorem layer0_value.bias2 (c : Dev nD) :
    W4 m ρ c (Proc.devRef .tc main_v158) = b2At0 (W3 m ρ c (Proc.devRef .tc main_arg9)) := by
  unfold b2At0
  show StableHlo.after hostOps1 _ (Proc.devRef .tc main_v158) = _
  after_results <;> rfl

/-- The node array after layer 0. -/
theorem layer0_value (c : Dev nD) :
    W5 m ρ c (Proc.devRef .tc main_v159) = layer (w1At0 (m ((c : Thread nD τ).loc main_arg6))) (b1At0 (m ((c : Thread nD τ).loc main_arg7))) (w2At0 (m ((c : Thread nD τ).loc main_arg8))) (b2At0 (m ((c : Thread nD τ).loc main_arg9)))
      (W2 m ρ c (Proc.devRef .tc main_v141)) (W2 m ρ c (Proc.devRef .tc main_v143)) (W2 m ρ c (Proc.devRef .tc main_v145)) (W2 m ρ c (Proc.devRef .tc main_v106)) := by
  unfold layer
  rw [layer0_value.updated, layer0_value.aggregated, layer0_value.weight1, layer0_value.bias1, layer0_value.weight2,
    layer0_value.bias2, layer0_value.messages, W2_taken,
    Carry.at4_main_v106, Carry.at3_main_v145, Carry.at3_main_arg6, Carry.at3_main_arg7,
    Carry.at3_main_arg8, Carry.at3_main_arg9]

end Cert.KernelIdeal.Val

end
-- ==== Proof.KMsgArr2.lean ====
/- A message region: the output's row blocks are row blocks of one whole-array function of the two input arrays, and they fill the array. -/
import proofs.«422649_j18588618457330_1_alg».proof.Proof.Gen.KernelIdeal.Frame
import proofs.«422649_j18588618457330_1_alg».proof.Proof.Spec
import proofs.«422649_j18588618457330_1_alg».proof.Proof.KMsgPay
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

/-- The block index of each of the three windows at grid point `t` is `(t, 0)`: block `t` is the 2000 rows from
    `2000 · t` on, all 256 columns. Decided over the grid's points. -/
theorem arrAt_msg2.blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What grid point `t` writes back is row block `t` of `Cert.Spec.msg` of the two input arrays: the body's stored
    value is `msg` of its two loaded blocks (`msg_payload`), `msg` is entrywise, and the three windows' blocks at `t`
    sit at the same rows and columns of their arrays. -/
theorem arrAt_msg2.flushed_block (V : (c : Dev nD) → (b : Ref sig .tc) → Buf (Elt Ideal) ((c : Thread nD τ).loc b))
    (c : Dev nD) (t : Fin cfg2.N) :
    (dat2 (F := Ideal) V c).flushed 2 t
      = ((cfg2.win 2).blk t).view.read (Elt Ideal)
          (Cert.Spec.msg (a := 200000) (b := 256) (V c main_v160) (V c main_v141)) := by
  have origin : (![0, 0] : Fin 2 → Nat) = fun _ => 0 := funext fun a => by fin_cases a <;> rfl
  show (cfg2.win 2).cut (grid2.coords t) ((dat2 (F := Ideal) V c).after 2 t) = _
  rw [after2_2]
  unfold out2_2
  rw [View.canon_unit_zero origin]
  simp only [View.ld_unit_zero (S := S2000x256) origin]
  rw [k2_pay1_eq, msg_payload]
  obtain ⟨a0, a1, b0, b1, o0, o1⟩ := arrAt_msg2.blockIndex t
  funext j
  have same0 : ((cfg2.win 0).blk t).view.emb j = ((cfg2.win 2).blk t).view.emb j := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 256 + 1 * (j 1).val = win2_2.index t (1 : Fin 2) * 256 + 1 * (j 1).val; omega
  have same1 : ((cfg2.win 1).blk t).view.emb j = ((cfg2.win 2).blk t).view.emb j := by
    funext a; apply Fin.ext
    match a with
    | ⟨0, _⟩ => show win2_1.index t (0 : Fin 2) * 2000 + 1 * (j 0).val = win2_2.index t (0 : Fin 2) * 2000 + 1 * (j 0).val; omega
    | ⟨1, _⟩ => show win2_1.index t (1 : Fin 2) * 256 + 1 * (j 1).val = win2_2.index t (1 : Fin 2) * 256 + 1 * (j 1).val; omega
  -- so each input block's entry at `j` is its array's entry where the output block's entry `j` sits
  have entry0 : iblk2 V c 0 t j = V c main_v160 (((cfg2.win 2).blk t).view.emb j) := by
    show V c main_v160 (((cfg2.win 0).blk t).view.emb j) = _
    rw [same0]
  have entry1 : iblk2 V c 1 t j = V c main_v141 (((cfg2.win 2).blk t).view.emb j) := by
    show V c main_v141 (((cfg2.win 1).blk t).view.emb j) = _
    rw [same1]
  show Cert.Spec.msg (a := 2000) (b := 256) (iblk2 V c 0 t) (iblk2 V c 1 t) j
      = Cert.Spec.msg (a := 200000) (b := 256) (V c main_v160) (V c main_v141) (((cfg2.win 2).blk t).view.emb j)
  simp only [Cert.Spec.msg]
  rw [entry0, entry1]

/-- An index of the output array is in grid point `t`'s block iff each coordinate is in the block's range on its axis. -/
theorem arrAt_msg2.mem_block (t : Fin cfg2.N) (i : S200000x256.Idx) :
    i ∈ ((cfg2.win 2).blk t).view.set
      ↔ ∀ a : Fin 2, win2_2.index t a * S2000x256.size a ≤ (i a).val
          ∧ (i a).val < win2_2.index t a * S2000x256.size a + S2000x256.size a := by
  show i ∈ ((View.whole main_v161).slice (win2_2.rect t)).set ↔ _
  rw [View.set_slice_whole, Rect.mem_set_unit]
  exact Iff.rfl

/-- The blocks fill the array: row `r` lies in the block of grid point `r / 2000`, which is written back. -/
theorem arrAt_msg2.covered (i : S200000x256.Idx) :
    ∃ t : Fin cfg2.N, (cfg2.win 2).flush t = true ∧ i ∈ ((cfg2.win 2).blk t).view.set := by
  have rows : (i 0).val < 200000 := (i 0).isLt
  have cols : (i 1).val < 256 := (i 1).isLt
  have points : cfg2.N = 100 := N_2
  let t : Fin cfg2.N := ⟨(i 0).val / 2000, by omega⟩
  obtain ⟨_, _, _, _, o0, o1⟩ := arrAt_msg2.blockIndex t
  have ht : t.val = (i 0).val / 2000 := rfl
  refine ⟨t, flush2_2 t, ?_⟩
  rw [arrAt_msg2.mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 256 ≤ (i 1).val ∧ (i 1).val < win2_2.index t (1 : Fin 2) * 256 + 256; omega

/-- After the region the output array holds `Cert.Spec.msg` of the arrays the region found, whatever they were. -/
theorem arrAt_msg2 (V : (c : Dev nD) → (b : Ref sig .tc) → Buf (Elt Ideal) ((c : Thread nD τ).loc b)) (c : Dev nD) :
    (dat2 (F := Ideal) V c).arrAt 2 cfg2.N = Cert.Spec.msg (a := 200000) (b := 256) (V c main_v160) (V c main_v141) :=
  (dat2 (F := Ideal) V c).arrAt_eq_of_cover 2 _ (fun t _ => arrAt_msg2.flushed_block V c t) arrAt_msg2.covered

end Cert.KernelIdeal.Val

end
-- ==== Proof.KUpdArr3.lean ====
/- A node-update region: a row of the update depends only on the same row of the two node arrays, so the output's row blocks are row blocks of one whole-array function, and they fill the array. -/
import proofs.«422649_j18588618457330_1_alg».proof.Proof.Gen.KernelIdeal.Frame
import proofs.«422649_j18588618457330_1_alg».proof.Proof.Spec
import proofs.«422649_j18588618457330_1_alg».proof.Proof.KUpdPay
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-- Zero offsets on two axes, however spelt. -/
private theorem zero_offsets2 : (![0, 0] : Fin 2 → Nat) = fun _ => 0 := funext fun a => by fin_cases a <;> rfl
/-- Zero offsets on one axis. -/
private theorem zero_offsets1 : (![0] : Fin 1 → Nat) = fun _ => 0 := funext fun a => by fin_cases a <;> rfl

/-- The printed index maps, decided over the grid: the two node windows and the output move down the rows with the point,
    one block of rows per point, and stay at column block 0; the weight and bias windows stay at block 0. -/
private theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- Row `r` of block `t` is a row of the array. -/
private theorem row_lt (t : Fin cfg3.N) (r : Fin 2000) : t.val * 2000 + r.val < 100000 := by
  have ht : t.val < 50 := Nat.lt_of_lt_of_eq t.isLt N_3
  have hr := r.isLt
  omega

/-- A row of the update depends only on the same row of the two node arrays: the update of the rows `e r` of `X` and `A`
    is the rows `e r` of the update of `X` and `A`. -/
private theorem upd_rows {n N d h : Nat} (e : Fin n → Fin N) (X A : Cert.Spec.A2 N d) (W1 : Cert.Spec.A2 d h) (b1 : Cert.Spec.A1 h)
    (W2 : Cert.Spec.A2 h d) (b2 : Cert.Spec.A1 d) :
    Cert.Spec.upd (fun i : (⟨2, ![n, d]⟩ : Shape).Idx => X (ix2 (e (i 0)) (i 1))) (fun i : (⟨2, ![n, d]⟩ : Shape).Idx => A (ix2 (e (i 0)) (i 1))) W1 b1 W2 b2
      = fun i : (⟨2, ![n, d]⟩ : Shape).Idx => Cert.Spec.upd X A W1 b1 W2 b2 (ix2 (e (i 0)) (i 1)) := by
  funext i
  simp only [Cert.Spec.upd, Cert.Spec.relu, Cert.Spec.dense]
  rfl

section Blocks

variable (V : (c : Dev nD) → (b : Ref sig .tc) → Buf (Elt Ideal) ((c : Thread nD τ).loc b))

/-- Block `t` of the first node array is its rows `2000 t … 2000 t + 1999`, every column. -/
private theorem node_block (c : Dev nD) (t : Fin cfg3.N) :
    @Eq (Vec Ideal S2000x256 .f32) (iblk3 (F := Ideal) V c 0 t)
      (fun i => (V c main_v159 : S100000x256.Idx → EReal) (ix2 (⟨t.val * 2000 + (i 0).val, row_lt t (i 0)⟩ : Fin 100000) (i 1))) := by
  obtain ⟨e0, e1, -⟩ := block_indices t
  funext j
  unfold iblk3
  rw [View.read_apply]
  show V c main_v159 _ = V c main_v159 _
  congr 1
  funext a
  apply Fin.ext
  match a with
  | ⟨0, _⟩ => show win3_0.index t (0 : Fin 2) * 2000 + 1 * (j 0).val = t.val * 2000 + (j 0).val; rw [e0]; omega
  | ⟨1, _⟩ => show win3_0.index t (1 : Fin 2) * 256 + 1 * (j 1).val = (j 1).val; rw [e1]; omega

/-- Block `t` of the second node array is the same rows of it. -/
private theorem agg_block (c : Dev nD) (t : Fin cfg3.N) :
    @Eq (Vec Ideal S2000x256 .f32) (iblk3 (F := Ideal) V c 1 t)
      (fun i => (V c main_v164 : S100000x256.Idx → EReal) (ix2 (⟨t.val * 2000 + (i 0).val, row_lt t (i 0)⟩ : Fin 100000) (i 1))) := by
  obtain ⟨-, -, e0, e1, -⟩ := block_indices t
  funext j
  unfold iblk3
  rw [View.read_apply]
  show V c main_v164 _ = V c main_v164 _
  congr 1
  funext a
  apply Fin.ext
  match a with
  | ⟨0, _⟩ => show win3_1.index t (0 : Fin 2) * 2000 + 1 * (j 0).val = t.val * 2000 + (j 0).val; rw [e0]; omega
  | ⟨1, _⟩ => show win3_1.index t (1 : Fin 2) * 256 + 1 * (j 1).val = (j 1).val; rw [e1]; omega

/-- The first weight window's one block is the whole matrix, at every point. -/
private theorem w1_block (c : Dev nD) (t : Fin cfg3.N) :
    @Eq (Vec Ideal S256x512 .f32) (iblk3 (F := Ideal) V c 2 t)
      (V c main_v166) := by
  obtain ⟨-, -, -, -, e0, e1, -⟩ := block_indices t
  funext j
  unfold iblk3
  rw [View.read_apply]
  show V c main_v166 _ = V c main_v166 _
  congr 1
  funext a
  apply Fin.ext
  match a with
  | ⟨0, _⟩ => show win3_2.index t (0 : Fin 2) * 256 + 1 * (j 0).val = (j 0).val; rw [e0]; omega
  | ⟨1, _⟩ => show win3_2.index t (1 : Fin 2) * 512 + 1 * (j 1).val = (j 1).val; rw [e1]; omega

/-- The first bias window's one block is the whole vector. -/
private theorem b1_block (c : Dev nD) (t : Fin cfg3.N) :
    @Eq (Vec Ideal S512 .f32) (iblk3 (F := Ideal) V c 3 t)
      (V c main_v168) := by
  obtain ⟨-, -, -, -, -, -, e0, -⟩ := block_indices t
  funext j
  unfold iblk3
  rw [View.read_apply]
  show V c main_v168 _ = V c main_v168 _
  congr 1
  funext a
  apply Fin.ext
  match a with
  | ⟨0, _⟩ => show win3_3.index t (0 : Fin 1) * 512 + 1 * (j 0).val = (j 0).val; rw [e0]; omega

/-- The second weight window's one block is the whole matrix. -/
private theorem w2_block (c : Dev nD) (t : Fin cfg3.N) :
    @Eq (Vec Ideal S512x256 .f32) (iblk3 (F := Ideal) V c 4 t)
      (V c main_v170) := by
  obtain ⟨-, -, -, -, -, -, -, e0, e1, -⟩ := block_indices t
  funext j
  unfold iblk3
  rw [View.read_apply]
  show V c main_v170 _ = V c main_v170 _
  congr 1
  funext a
  apply Fin.ext
  match a with
  | ⟨0, _⟩ => show win3_4.index t (0 : Fin 2) * 512 + 1 * (j 0).val = (j 0).val; rw [e0]; omega
  | ⟨1, _⟩ => show win3_4.index t (1 : Fin 2) * 256 + 1 * (j 1).val = (j 1).val; rw [e1]; omega

/-- The second bias window's one block is the whole vector. -/
private theorem b2_block (c : Dev nD) (t : Fin cfg3.N) :
    @Eq (Vec Ideal S256 .f32) (iblk3 (F := Ideal) V c 5 t)
      (V c main_v172) := by
  obtain ⟨-, -, -, -, -, -, -, -, -, e0, -⟩ := block_indices t
  funext j
  unfold iblk3
  rw [View.read_apply]
  show V c main_v172 _ = V c main_v172 _
  congr 1
  funext a
  apply Fin.ext
  match a with
  | ⟨0, _⟩ => show win3_5.index t (0 : Fin 1) * 256 + 1 * (j 0).val = (j 0).val; rw [e0]; omega

/-- What point `t` writes back is block `t` of the update of the whole arrays: the body computes the update of the
    blocks it loaded, which are rows `2000 t …` of the node arrays and all of the weights, and a row of the update is a
    function of the same row of the node arrays. -/
private theorem written_block (c : Dev nD) (t : Fin cfg3.N) :
    (dat3 (F := Ideal) V c).flushed 6 t = ((cfg3.win 6).blk t).view.read (Elt Ideal)
      (Cert.Spec.upd (n := 100000) (d := 256) (h := 512) (V c main_v159) (V c main_v164) (V c main_v166) (V c main_v168) (V c main_v170) (V c main_v172)) := by
  show (cfg3.win 6).cut (grid3.coords t) ((dat3 V c).after 6 t) = _
  rw [after3_6]
  unfold out3_6
  rw [View.canon_unit_zero zero_offsets2]
  simp only [View.ld_unit_zero (S := S2000x256) zero_offsets2, View.ld_unit_zero (S := S256x512) zero_offsets2,
    View.ld_unit_zero (S := S512) zero_offsets1, View.ld_unit_zero (S := S512x256) zero_offsets2,
    View.ld_unit_zero (S := S256) zero_offsets1]
  rw [k3_pay1_eq, upd_payload, node_block V c t, agg_block V c t, w1_block V c t, b1_block V c t, w2_block V c t, b2_block V c t]
  rw [upd_rows (fun r : Fin 2000 => (⟨t.val * 2000 + r.val, row_lt t r⟩ : Fin 100000))]
  obtain ⟨-, -, -, -, -, -, -, -, -, -, e0, e1⟩ := block_indices t
  funext j
  rw [View.read_apply]
  show Cert.Spec.upd (n := 100000) (d := 256) (h := 512) (V c main_v159) (V c main_v164) (V c main_v166) (V c main_v168) (V c main_v170) (V c main_v172) _
    = Cert.Spec.upd (n := 100000) (d := 256) (h := 512) (V c main_v159) (V c main_v164) (V c main_v166) (V c main_v168) (V c main_v170) (V c main_v172) _
  congr 1
  funext a
  apply Fin.ext
  match a with
  | ⟨0, _⟩ => show t.val * 2000 + (j 0).val = win3_6.index t (0 : Fin 2) * 2000 + 1 * (j 0).val; rw [e0]; omega
  | ⟨1, _⟩ => show (j 1).val = win3_6.index t (1 : Fin 2) * 256 + 1 * (j 1).val; rw [e1]; omega

/-- An index of the array is in point `t`'s block iff each coordinate is in the block's range on its axis. -/
private theorem mem_block (t : Fin cfg3.N) (i : S100000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v173).slice (win3_6.rect t)).set ↔ _
  rw [View.set_slice_whole, Rect.mem_set_unit]
  exact Iff.rfl

/-- The blocks fill the array: row `r` lies in the block of point `r / 2000`, and every point writes back. -/
private theorem blocks_cover (i : S100000x256.Idx) :
    ∃ t : Fin cfg3.N, (cfg3.win 6).flush t = true ∧ i ∈ ((cfg3.win 6).blk t).view.set := by
  have hi0 : (i 0).val < 100000 := (i 0).isLt
  have hi1 : (i 1).val < 256 := (i 1).isLt
  have hN : cfg3.N = 50 := N_3
  have hq : (i 0).val / 2000 < cfg3.N := by rw [hN]; omega
  obtain ⟨-, -, -, -, -, -, -, -, -, -, e0, e1⟩ := block_indices ⟨(i 0).val / 2000, hq⟩
  refine ⟨⟨(i 0).val / 2000, hq⟩, flush3_6 _, ?_⟩
  rw [mem_block]
  intro a
  match a with
  | ⟨0, _⟩ =>
    show win3_6.index ⟨(i 0).val / 2000, hq⟩ (0 : Fin 2) * 2000 ≤ (i 0).val ∧ (i 0).val < win3_6.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win3_6.index ⟨(i 0).val / 2000, hq⟩ (1 : Fin 2) * 256 ≤ (i 1).val ∧ (i 1).val < win3_6.index ⟨(i 0).val / 2000, hq⟩ (1 : Fin 2) * 256 + 256
    rw [e1]
    omega

end Blocks

/-- After the region the output array holds `Cert.Spec.upd` of the arrays the region found, whatever they were. -/
theorem arrAt_upd3 (V : (c : Dev nD) → (b : Ref sig .tc) → Buf (Elt Ideal) ((c : Thread nD τ).loc b)) (c : Dev nD) :
    (dat3 (F := Ideal) V c).arrAt 6 cfg3.N = Cert.Spec.upd (n := 100000) (d := 256) (h := 512) (V c main_v159) (V c main_v164) (V c main_v166) (V c main_v168) (V c main_v170) (V c main_v172) :=
  (dat3 (F := Ideal) V c).arrAt_eq_of_cover 6
    (Cert.Spec.upd (n := 100000) (d := 256) (h := 512) (V c main_v159) (V c main_v164) (V c main_v166) (V c main_v168) (V c main_v170) (V c main_v172))
    (fun t _ => written_block V c t) blocks_cover

end Cert.KernelIdeal.Val

end
-- ==== Proof.KLayer1.lean ====
/- Layer 1 of the idealized kernel program, boundary to boundary: the node array its update region leaves is one layer of the network applied to the node array it found, with the edge encoding and the edge list's rows as the first stretch left them. -/
import proofs.«422649_j18588618457330_1_alg».proof.Proof.Gen.KernelIdeal.Frame
import proofs.«422649_j18588618457330_1_alg».proof.Proof.KOps
import proofs.«422649_j18588618457330_1_alg».proof.Proof.KCarry
import proofs.«422649_j18588618457330_1_alg».proof.Proof.KMsgArr2
import proofs.«422649_j18588618457330_1_alg».proof.Proof.KUpdArr3
import Idealize.ShloMosaic.Lib.StableHlo.Run
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The update region's output array is the update of the arrays the region found. -/
private theorem updated_nodes (c : Dev nD) :
    W9 m ρ c (Proc.devRef .tc main_v173) = Cert.Spec.upd (n := 100000) (d := 256) (h := 512)
      (W8 m ρ c (Proc.devRef .tc main_v159)) (W8 m ρ c (Proc.devRef .tc main_v164)) (W8 m ρ c (Proc.devRef .tc main_v166))
      (W8 m ρ c (Proc.devRef .tc main_v168)) (W8 m ρ c (Proc.devRef .tc main_v170)) (W8 m ρ c (Proc.devRef .tc main_v172)) :=
  (W9_arr m ρ c 6).trans (arrAt_upd3 (V8 m ρ) c)

/-- The stretch before the update region adds the messages into their destination nodes, from zero. -/
private theorem aggregated (c : Dev nD) :
    W8 m ρ c (Proc.devRef .tc main_v164) = segsum (W7 m ρ c (Proc.devRef .tc main_v145)) (W7 m ρ c (Proc.devRef .tc main_v161)) := by
  unfold segsum
  show StableHlo.after hostOps3 (W7 m ρ c) (Proc.devRef .tc main_v164) = _
  after_results <;> rfl

/-- It slices the layer's first weight matrix out of the stacked weights … -/
private theorem w1_sliced (c : Dev nD) :
    W8 m ρ c (Proc.devRef .tc main_v166) = w1At1 (W7 m ρ c (Proc.devRef .tc main_arg6)) := by
  unfold w1At1
  show StableHlo.after hostOps3 (W7 m ρ c) (Proc.devRef .tc main_v166) = _
  after_results
  rfl

/-- … its first bias row … -/
private theorem b1_sliced (c : Dev nD) :
    W8 m ρ c (Proc.devRef .tc main_v168) = b1At1 (W7 m ρ c (Proc.devRef .tc main_arg7)) := by
  unfold b1At1
  show StableHlo.after hostOps3 (W7 m ρ c) (Proc.devRef .tc main_v168) = _
  after_results
  rfl

/-- … its second weight matrix … -/
private theorem w2_sliced (c : Dev nD) :
    W8 m ρ c (Proc.devRef .tc main_v170) = w2At1 (W7 m ρ c (Proc.devRef .tc main_arg8)) := by
  unfold w2At1
  show StableHlo.after hostOps3 (W7 m ρ c) (Proc.devRef .tc main_v170) = _
  after_results
  rfl

/-- … and its second bias row. -/
private theorem b2_sliced (c : Dev nD) :
    W8 m ρ c (Proc.devRef .tc main_v172) = b2At1 (W7 m ρ c (Proc.devRef .tc main_arg9)) := by
  unfold b2At1
  show StableHlo.after hostOps3 (W7 m ρ c) (Proc.devRef .tc main_v172) = _
  after_results
  rfl

/-- The message region's output array is the messages of the arrays the region found. -/
private theorem messages (c : Dev nD) :
    W7 m ρ c (Proc.devRef .tc main_v161) = Cert.Spec.msg (a := 200000) (b := 256)
      (W6 m ρ c (Proc.devRef .tc main_v160)) (W6 m ρ c (Proc.devRef .tc main_v141)) :=
  (W7_arr m ρ c 2).trans (arrAt_msg2 (V6 m ρ) c)

/-- The stretch before the message region reads every edge's source row of the node array. -/
private theorem source_rows (c : Dev nD) :
    W6 m ρ c (Proc.devRef .tc main_v160) = take (W5 m ρ c (Proc.devRef .tc main_v159)) (W5 m ρ c (Proc.devRef .tc main_v143)) := by
  unfold take takeOk takeIdx
  show StableHlo.after hostOps2 (W5 m ρ c) (Proc.devRef .tc main_v160) = _
  after_results_simp
  simp only [StableHlo.TRef.toBuf, StableHlo.TRef.ofBuf, cast_cast, cast_eq] <;> rfl

/-- The node array after layer 1. -/
theorem layer1_value (c : Dev nD) :
    W9 m ρ c (Proc.devRef .tc main_v173) = layer (w1At1 (m ((c : Thread nD τ).loc main_arg6))) (b1At1 (m ((c : Thread nD τ).loc main_arg7))) (w2At1 (m ((c : Thread nD τ).loc main_arg8))) (b2At1 (m ((c : Thread nD τ).loc main_arg9)))
      (W2 m ρ c (Proc.devRef .tc main_v141)) (W2 m ρ c (Proc.devRef .tc main_v143)) (W2 m ρ c (Proc.devRef .tc main_v145)) (W5 m ρ c (Proc.devRef .tc main_v159)) := by
  unfold layer
  rw [updated_nodes m ρ c, aggregated m ρ c, w1_sliced m ρ c, b1_sliced m ρ c, w2_sliced m ρ c, b2_sliced m ρ c,
    messages m ρ c, source_rows m ρ c,
    Carry.at8_main_v159 m ρ c, Carry.at7_main_v145 m ρ c, Carry.at7_main_arg6 m ρ c, Carry.at7_main_arg7 m ρ c,
    Carry.at7_main_arg8 m ρ c, Carry.at7_main_arg9 m ρ c, Carry.at6_main_v141 m ρ c, Carry.at5_main_v143 m ρ c]

end Cert.KernelIdeal.Val

end
-- ==== Proof.KMsgArr4.lean ====
/- A message region: the output's row blocks are row blocks of one whole-array function of the two input arrays, and they fill the array. -/
import proofs.«422649_j18588618457330_1_alg».proof.Proof.Gen.KernelIdeal.Frame
import proofs.«422649_j18588618457330_1_alg».proof.Proof.Spec
import proofs.«422649_j18588618457330_1_alg».proof.Proof.KMsgPay
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

/-- The block index of each of the three windows at grid point `t` is `(t, 0)`: block `t` is the 2000 rows from
    `2000 · t` on, all 256 columns. Decided over the grid's points. -/
theorem arrAt_msg4.blockIndex : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What grid point `t` writes back is row block `t` of `Cert.Spec.msg` of the two input arrays: the body's stored
    value is `msg` of its two loaded blocks (`msg_payload`), `msg` is entrywise, and the three windows' blocks at `t`
    sit at the same rows and columns of their arrays. -/
theorem arrAt_msg4.flushed_block (V : (c : Dev nD) → (b : Ref sig .tc) → Buf (Elt Ideal) ((c : Thread nD τ).loc b))
    (c : Dev nD) (t : Fin cfg4.N) :
    (dat4 (F := Ideal) V c).flushed 2 t
      = ((cfg4.win 2).blk t).view.read (Elt Ideal)
          (Cert.Spec.msg (a := 200000) (b := 256) (V c main_v174) (V c main_v141)) := by
  have origin : (![0, 0] : Fin 2 → Nat) = fun _ => 0 := funext fun a => by fin_cases a <;> rfl
  show (cfg4.win 2).cut (grid4.coords t) ((dat4 (F := Ideal) V c).after 2 t) = _
  rw [after4_2]
  unfold out4_2
  rw [View.canon_unit_zero origin]
  simp only [View.ld_unit_zero (S := S2000x256) origin]
  rw [k4_pay1_eq, msg_payload]
  obtain ⟨a0, a1, b0, b1, o0, o1⟩ := arrAt_msg4.blockIndex t
  funext j
  have same0 : ((cfg4.win 0).blk t).view.emb j = ((cfg4.win 2).blk t).view.emb j := by
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 256 + 1 * (j 1).val = win4_2.index t (1 : Fin 2) * 256 + 1 * (j 1).val; omega
  have same1 : ((cfg4.win 1).blk t).view.emb j = ((cfg4.win 2).blk t).view.emb j := by
    funext a; apply Fin.ext
    match a with
    | ⟨0, _⟩ => show win4_1.index t (0 : Fin 2) * 2000 + 1 * (j 0).val = win4_2.index t (0 : Fin 2) * 2000 + 1 * (j 0).val; omega
    | ⟨1, _⟩ => show win4_1.index t (1 : Fin 2) * 256 + 1 * (j 1).val = win4_2.index t (1 : Fin 2) * 256 + 1 * (j 1).val; omega
  -- so each input block's entry at `j` is its array's entry where the output block's entry `j` sits
  have entry0 : iblk4 V c 0 t j = V c main_v174 (((cfg4.win 2).blk t).view.emb j) := by
    show V c main_v174 (((cfg4.win 0).blk t).view.emb j) = _
    rw [same0]
  have entry1 : iblk4 V c 1 t j = V c main_v141 (((cfg4.win 2).blk t).view.emb j) := by
    show V c main_v141 (((cfg4.win 1).blk t).view.emb j) = _
    rw [same1]
  show Cert.Spec.msg (a := 2000) (b := 256) (iblk4 V c 0 t) (iblk4 V c 1 t) j
      = Cert.Spec.msg (a := 200000) (b := 256) (V c main_v174) (V c main_v141) (((cfg4.win 2).blk t).view.emb j)
  simp only [Cert.Spec.msg]
  rw [entry0, entry1]

/-- An index of the output array is in grid point `t`'s block iff each coordinate is in the block's range on its axis. -/
theorem arrAt_msg4.mem_block (t : Fin cfg4.N) (i : S200000x256.Idx) :
    i ∈ ((cfg4.win 2).blk t).view.set
      ↔ ∀ a : Fin 2, win4_2.index t a * S2000x256.size a ≤ (i a).val
          ∧ (i a).val < win4_2.index t a * S2000x256.size a + S2000x256.size a := by
  show i ∈ ((View.whole main_v175).slice (win4_2.rect t)).set ↔ _
  rw [View.set_slice_whole, Rect.mem_set_unit]
  exact Iff.rfl

/-- The blocks fill the array: row `r` lies in the block of grid point `r / 2000`, which is written back. -/
theorem arrAt_msg4.covered (i : S200000x256.Idx) :
    ∃ t : Fin cfg4.N, (cfg4.win 2).flush t = true ∧ i ∈ ((cfg4.win 2).blk t).view.set := by
  have rows : (i 0).val < 200000 := (i 0).isLt
  have cols : (i 1).val < 256 := (i 1).isLt
  have points : cfg4.N = 100 := N_4
  let t : Fin cfg4.N := ⟨(i 0).val / 2000, by omega⟩
  obtain ⟨_, _, _, _, o0, o1⟩ := arrAt_msg4.blockIndex t
  have ht : t.val = (i 0).val / 2000 := rfl
  refine ⟨t, flush4_2 t, ?_⟩
  rw [arrAt_msg4.mem_block]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 256 ≤ (i 1).val ∧ (i 1).val < win4_2.index t (1 : Fin 2) * 256 + 256; omega

/-- After the region the output array holds `Cert.Spec.msg` of the arrays the region found, whatever they were. -/
theorem arrAt_msg4 (V : (c : Dev nD) → (b : Ref sig .tc) → Buf (Elt Ideal) ((c : Thread nD τ).loc b)) (c : Dev nD) :
    (dat4 (F := Ideal) V c).arrAt 2 cfg4.N = Cert.Spec.msg (a := 200000) (b := 256) (V c main_v174) (V c main_v141) :=
  (dat4 (F := Ideal) V c).arrAt_eq_of_cover 2 _ (fun t _ => arrAt_msg4.flushed_block V c t) arrAt_msg4.covered

end Cert.KernelIdeal.Val

end
-- ==== Proof.KUpdArr5.lean ====
/- A node-update region: a row of the update depends only on the same row of the two node arrays, so the output's row blocks are row blocks of one whole-array function, and they fill the array. -/
import proofs.«422649_j18588618457330_1_alg».proof.Proof.Gen.KernelIdeal.Frame
import proofs.«422649_j18588618457330_1_alg».proof.Proof.Spec
import proofs.«422649_j18588618457330_1_alg».proof.Proof.KUpdPay
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-- Zero offsets on two axes, however spelt. -/
private theorem zero_offsets2 : (![0, 0] : Fin 2 → Nat) = fun _ => 0 := funext fun a => by fin_cases a <;> rfl
/-- Zero offsets on one axis. -/
private theorem zero_offsets1 : (![0] : Fin 1 → Nat) = fun _ => 0 := funext fun a => by fin_cases a <;> rfl

/-- The printed index maps, decided over the grid: the two node windows and the output move down the rows with the point,
    one block of rows per point, and stay at column block 0; the weight and bias windows stay at block 0. -/
private theorem block_indices : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = 0 ∧ win5_4.index t (1 : Fin 2) = 0
    ∧ win5_5.index t (0 : Fin 1) = 0
    ∧ win5_6.index t (0 : Fin 2) = t.val ∧ win5_6.index t (1 : Fin 2) = 0 :=
  (by decide +kernel : ∀ t : Fin grid5.N, _)

/-- Row `r` of block `t` is a row of the array. -/
private theorem row_lt (t : Fin cfg5.N) (r : Fin 2000) : t.val * 2000 + r.val < 100000 := by
  have ht : t.val < 50 := Nat.lt_of_lt_of_eq t.isLt N_5
  have hr := r.isLt
  omega

/-- A row of the update depends only on the same row of the two node arrays: the update of the rows `e r` of `X` and `A`
    is the rows `e r` of the update of `X` and `A`. -/
private theorem upd_rows {n N d h : Nat} (e : Fin n → Fin N) (X A : Cert.Spec.A2 N d) (W1 : Cert.Spec.A2 d h) (b1 : Cert.Spec.A1 h)
    (W2 : Cert.Spec.A2 h d) (b2 : Cert.Spec.A1 d) :
    Cert.Spec.upd (fun i : (⟨2, ![n, d]⟩ : Shape).Idx => X (ix2 (e (i 0)) (i 1))) (fun i : (⟨2, ![n, d]⟩ : Shape).Idx => A (ix2 (e (i 0)) (i 1))) W1 b1 W2 b2
      = fun i : (⟨2, ![n, d]⟩ : Shape).Idx => Cert.Spec.upd X A W1 b1 W2 b2 (ix2 (e (i 0)) (i 1)) := by
  funext i
  simp only [Cert.Spec.upd, Cert.Spec.relu, Cert.Spec.dense]
  rfl

section Blocks

variable (V : (c : Dev nD) → (b : Ref sig .tc) → Buf (Elt Ideal) ((c : Thread nD τ).loc b))

/-- Block `t` of the first node array is its rows `2000 t … 2000 t + 1999`, every column. -/
private theorem node_block (c : Dev nD) (t : Fin cfg5.N) :
    @Eq (Vec Ideal S2000x256 .f32) (iblk5 (F := Ideal) V c 0 t)
      (fun i => (V c main_v173 : S100000x256.Idx → EReal) (ix2 (⟨t.val * 2000 + (i 0).val, row_lt t (i 0)⟩ : Fin 100000) (i 1))) := by
  obtain ⟨e0, e1, -⟩ := block_indices t
  funext j
  unfold iblk5
  rw [View.read_apply]
  show V c main_v173 _ = V c main_v173 _
  congr 1
  funext a
  apply Fin.ext
  match a with
  | ⟨0, _⟩ => show win5_0.index t (0 : Fin 2) * 2000 + 1 * (j 0).val = t.val * 2000 + (j 0).val; rw [e0]; omega
  | ⟨1, _⟩ => show win5_0.index t (1 : Fin 2) * 256 + 1 * (j 1).val = (j 1).val; rw [e1]; omega

/-- Block `t` of the second node array is the same rows of it. -/
private theorem agg_block (c : Dev nD) (t : Fin cfg5.N) :
    @Eq (Vec Ideal S2000x256 .f32) (iblk5 (F := Ideal) V c 1 t)
      (fun i => (V c main_v178 : S100000x256.Idx → EReal) (ix2 (⟨t.val * 2000 + (i 0).val, row_lt t (i 0)⟩ : Fin 100000) (i 1))) := by
  obtain ⟨-, -, e0, e1, -⟩ := block_indices t
  funext j
  unfold iblk5
  rw [View.read_apply]
  show V c main_v178 _ = V c main_v178 _
  congr 1
  funext a
  apply Fin.ext
  match a with
  | ⟨0, _⟩ => show win5_1.index t (0 : Fin 2) * 2000 + 1 * (j 0).val = t.val * 2000 + (j 0).val; rw [e0]; omega
  | ⟨1, _⟩ => show win5_1.index t (1 : Fin 2) * 256 + 1 * (j 1).val = (j 1).val; rw [e1]; omega

/-- The first weight window's one block is the whole matrix, at every point. -/
private theorem w1_block (c : Dev nD) (t : Fin cfg5.N) :
    @Eq (Vec Ideal S256x512 .f32) (iblk5 (F := Ideal) V c 2 t)
      (V c main_v180) := by
  obtain ⟨-, -, -, -, e0, e1, -⟩ := block_indices t
  funext j
  unfold iblk5
  rw [View.read_apply]
  show V c main_v180 _ = V c main_v180 _
  congr 1
  funext a
  apply Fin.ext
  match a with
  | ⟨0, _⟩ => show win5_2.index t (0 : Fin 2) * 256 + 1 * (j 0).val = (j 0).val; rw [e0]; omega
  | ⟨1, _⟩ => show win5_2.index t (1 : Fin 2) * 512 + 1 * (j 1).val = (j 1).val; rw [e1]; omega

/-- The first bias window's one block is the whole vector. -/
private theorem b1_block (c : Dev nD) (t : Fin cfg5.N) :
    @Eq (Vec Ideal S512 .f32) (iblk5 (F := Ideal) V c 3 t)
      (V c main_v182) := by
  obtain ⟨-, -, -, -, -, -, e0, -⟩ := block_indices t
  funext j
  unfold iblk5
  rw [View.read_apply]
  show V c main_v182 _ = V c main_v182 _
  congr 1
  funext a
  apply Fin.ext
  match a with
  | ⟨0, _⟩ => show win5_3.index t (0 : Fin 1) * 512 + 1 * (j 0).val = (j 0).val; rw [e0]; omega

/-- The second weight window's one block is the whole matrix. -/
private theorem w2_block (c : Dev nD) (t : Fin cfg5.N) :
    @Eq (Vec Ideal S512x256 .f32) (iblk5 (F := Ideal) V c 4 t)
      (V c main_v184) := by
  obtain ⟨-, -, -, -, -, -, -, e0, e1, -⟩ := block_indices t
  funext j
  unfold iblk5
  rw [View.read_apply]
  show V c main_v184 _ = V c main_v184 _
  congr 1
  funext a
  apply Fin.ext
  match a with
  | ⟨0, _⟩ => show win5_4.index t (0 : Fin 2) * 512 + 1 * (j 0).val = (j 0).val; rw [e0]; omega
  | ⟨1, _⟩ => show win5_4.index t (1 : Fin 2) * 256 + 1 * (j 1).val = (j 1).val; rw [e1]; omega

/-- The second bias window's one block is the whole vector. -/
private theorem b2_block (c : Dev nD) (t : Fin cfg5.N) :
    @Eq (Vec Ideal S256 .f32) (iblk5 (F := Ideal) V c 5 t)
      (V c main_v186) := by
  obtain ⟨-, -, -, -, -, -, -, -, -, e0, -⟩ := block_indices t
  funext j
  unfold iblk5
  rw [View.read_apply]
  show V c main_v186 _ = V c main_v186 _
  congr 1
  funext a
  apply Fin.ext
  match a with
  | ⟨0, _⟩ => show win5_5.index t (0 : Fin 1) * 256 + 1 * (j 0).val = (j 0).val; rw [e0]; omega

/-- What point `t` writes back is block `t` of the update of the whole arrays: the body computes the update of the
    blocks it loaded, which are rows `2000 t …` of the node arrays and all of the weights, and a row of the update is a
    function of the same row of the node arrays. -/
private theorem written_block (c : Dev nD) (t : Fin cfg5.N) :
    (dat5 (F := Ideal) V c).flushed 6 t = ((cfg5.win 6).blk t).view.read (Elt Ideal)
      (Cert.Spec.upd (n := 100000) (d := 256) (h := 512) (V c main_v173) (V c main_v178) (V c main_v180) (V c main_v182) (V c main_v184) (V c main_v186)) := by
  show (cfg5.win 6).cut (grid5.coords t) ((dat5 V c).after 6 t) = _
  rw [after5_6]
  unfold out5_6
  rw [View.canon_unit_zero zero_offsets2]
  simp only [View.ld_unit_zero (S := S2000x256) zero_offsets2, View.ld_unit_zero (S := S256x512) zero_offsets2,
    View.ld_unit_zero (S := S512) zero_offsets1, View.ld_unit_zero (S := S512x256) zero_offsets2,
    View.ld_unit_zero (S := S256) zero_offsets1]
  rw [k5_pay1_eq, upd_payload, node_block V c t, agg_block V c t, w1_block V c t, b1_block V c t, w2_block V c t, b2_block V c t]
  rw [upd_rows (fun r : Fin 2000 => (⟨t.val * 2000 + r.val, row_lt t r⟩ : Fin 100000))]
  obtain ⟨-, -, -, -, -, -, -, -, -, -, e0, e1⟩ := block_indices t
  funext j
  rw [View.read_apply]
  show Cert.Spec.upd (n := 100000) (d := 256) (h := 512) (V c main_v173) (V c main_v178) (V c main_v180) (V c main_v182) (V c main_v184) (V c main_v186) _
    = Cert.Spec.upd (n := 100000) (d := 256) (h := 512) (V c main_v173) (V c main_v178) (V c main_v180) (V c main_v182) (V c main_v184) (V c main_v186) _
  congr 1
  funext a
  apply Fin.ext
  match a with
  | ⟨0, _⟩ => show t.val * 2000 + (j 0).val = win5_6.index t (0 : Fin 2) * 2000 + 1 * (j 0).val; rw [e0]; omega
  | ⟨1, _⟩ => show (j 1).val = win5_6.index t (1 : Fin 2) * 256 + 1 * (j 1).val; rw [e1]; omega

/-- An index of the array is in point `t`'s block iff each coordinate is in the block's range on its axis. -/
private theorem mem_block (t : Fin cfg5.N) (i : S100000x256.Idx) :
    i ∈ ((cfg5.win 6).blk t).view.set ↔ ∀ a : Fin 2, win5_6.index t a * S2000x256.size a ≤ (i a).val ∧ (i a).val < win5_6.index t a * S2000x256.size a + S2000x256.size a := by
  show i ∈ ((View.whole main_v187).slice (win5_6.rect t)).set ↔ _
  rw [View.set_slice_whole, Rect.mem_set_unit]
  exact Iff.rfl

/-- The blocks fill the array: row `r` lies in the block of point `r / 2000`, and every point writes back. -/
private theorem blocks_cover (i : S100000x256.Idx) :
    ∃ t : Fin cfg5.N, (cfg5.win 6).flush t = true ∧ i ∈ ((cfg5.win 6).blk t).view.set := by
  have hi0 : (i 0).val < 100000 := (i 0).isLt
  have hi1 : (i 1).val < 256 := (i 1).isLt
  have hN : cfg5.N = 50 := N_5
  have hq : (i 0).val / 2000 < cfg5.N := by rw [hN]; omega
  obtain ⟨-, -, -, -, -, -, -, -, -, -, e0, e1⟩ := block_indices ⟨(i 0).val / 2000, hq⟩
  refine ⟨⟨(i 0).val / 2000, hq⟩, flush5_6 _, ?_⟩
  rw [mem_block]
  intro a
  match a with
  | ⟨0, _⟩ =>
    show win5_6.index ⟨(i 0).val / 2000, hq⟩ (0 : Fin 2) * 2000 ≤ (i 0).val ∧ (i 0).val < win5_6.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win5_6.index ⟨(i 0).val / 2000, hq⟩ (1 : Fin 2) * 256 ≤ (i 1).val ∧ (i 1).val < win5_6.index ⟨(i 0).val / 2000, hq⟩ (1 : Fin 2) * 256 + 256
    rw [e1]
    omega

end Blocks

/-- After the region the output array holds `Cert.Spec.upd` of the arrays the region found, whatever they were. -/
theorem arrAt_upd5 (V : (c : Dev nD) → (b : Ref sig .tc) → Buf (Elt Ideal) ((c : Thread nD τ).loc b)) (c : Dev nD) :
    (dat5 (F := Ideal) V c).arrAt 6 cfg5.N = Cert.Spec.upd (n := 100000) (d := 256) (h := 512) (V c main_v173) (V c main_v178) (V c main_v180) (V c main_v182) (V c main_v184) (V c main_v186) :=
  (dat5 (F := Ideal) V c).arrAt_eq_of_cover 6
    (Cert.Spec.upd (n := 100000) (d := 256) (h := 512) (V c main_v173) (V c main_v178) (V c main_v180) (V c main_v182) (V c main_v184) (V c main_v186))
    (fun t _ => written_block V c t) blocks_cover

end Cert.KernelIdeal.Val

end
-- ==== Proof.KLayer2.lean ====
/- Layer 2 of the idealized kernel program, boundary to boundary: the node array its update region leaves is one layer of the network applied to the node array it found, with the edge encoding and the edge list's rows as the first stretch left them. -/
import proofs.«422649_j18588618457330_1_alg».proof.Proof.Gen.KernelIdeal.Frame
import proofs.«422649_j18588618457330_1_alg».proof.Proof.KOps
import proofs.«422649_j18588618457330_1_alg».proof.Proof.KCarry
import proofs.«422649_j18588618457330_1_alg».proof.Proof.KMsgArr4
import proofs.«422649_j18588618457330_1_alg».proof.Proof.KUpdArr5
import Idealize.ShloMosaic.Lib.StableHlo.Run
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- A value moved to the buffer type of a typed reference and back is the value. -/
private theorem ofBuf_toBuf_of {T : BufTy} (r : Ref sig .tc) (h h' : r.ty = T) (od od' : r.space ≠ .host) (us us' : r.isScoped = false)
    (v : T.Contents (Elt Ideal)) :
    (StableHlo.TRef.of r h od us).ofBuf ((StableHlo.TRef.of r h' od' us').toBuf v) = v := by
  subst h; rfl

/-- The source row of the edge list, read at its literal type, is the buffer's contents. -/
private theorem ofBuf_main_v143 (h : (main_v143 : Ref sig .tc).ty = ⟨S200000, .i32⟩) (od : (main_v143 : Ref sig .tc).space ≠ .host)
    (us : (main_v143 : Ref sig .tc).isScoped = false) (u : (main_v143 : Ref sig .tc).ty.Contents (Elt Ideal)) :
    (StableHlo.TRef.of main_v143 h od us).ofBuf u = u := rfl

/-- The node array, read at its literal type, is the buffer's contents. -/
private theorem ofBuf_main_v173 (h : (main_v173 : Ref sig .tc).ty = ⟨S100000x256, .f32⟩) (od : (main_v173 : Ref sig .tc).space ≠ .host)
    (us : (main_v173 : Ref sig .tc).isScoped = false) (u : (main_v173 : Ref sig .tc).ty.Contents (Elt Ideal)) :
    (StableHlo.TRef.of main_v173 h od us).ofBuf u = u := rfl

/-- A value of the gathered rows' literal type is what its buffer holds. -/
private theorem toBuf_main_v174 (h : (main_v174 : Ref sig .tc).ty = ⟨S200000x256, .f32⟩) (od : (main_v174 : Ref sig .tc).space ≠ .host)
    (us : (main_v174 : Ref sig .tc).isScoped = false) (v : (⟨S200000x256, .f32⟩ : BufTy).Contents (Elt Ideal)) :
    (StableHlo.TRef.of main_v174 h od us).toBuf v = v := rfl

/-- Entering the update region, the aggregate is the segment sum of the messages by destination. -/
private theorem agg_at12 (c : Dev nD) :
    W12 m ρ c (Proc.devRef .tc main_v178)
      = segsum (W11 m ρ c (Proc.devRef .tc main_v145)) (W11 m ρ c (Proc.devRef .tc main_v175)) := by
  unfold segsum
  show StableHlo.after hostOps5 _ (Proc.devRef .tc main_v178) = _
  after_results

/-- Entering the update region, the first weight matrix is slab 2 of the stacked weights. -/
private theorem w1_at12 (c : Dev nD) :
    W12 m ρ c (Proc.devRef .tc main_v180) = w1At2 (W11 m ρ c (Proc.devRef .tc main_arg6)) := by
  unfold w1At2
  show StableHlo.after hostOps5 _ (Proc.devRef .tc main_v180) = _
  after_results
  rfl

/-- Entering the update region, the first bias row is row 2 of the stacked biases. -/
private theorem b1_at12 (c : Dev nD) :
    W12 m ρ c (Proc.devRef .tc main_v182) = b1At2 (W11 m ρ c (Proc.devRef .tc main_arg7)) := by
  unfold b1At2
  show StableHlo.after hostOps5 _ (Proc.devRef .tc main_v182) = _
  after_results
  rfl

/-- Entering the update region, the second weight matrix is slab 2 of the stacked weights. -/
private theorem w2_at12 (c : Dev nD) :
    W12 m ρ c (Proc.devRef .tc main_v184) = w2At2 (W11 m ρ c (Proc.devRef .tc main_arg8)) := by
  unfold w2At2
  show StableHlo.after hostOps5 _ (Proc.devRef .tc main_v184) = _
  after_results
  rfl

/-- Entering the update region, the second bias row is row 2 of the stacked biases. -/
private theorem b2_at12 (c : Dev nD) :
    W12 m ρ c (Proc.devRef .tc main_v186) = b2At2 (W11 m ρ c (Proc.devRef .tc main_arg9)) := by
  unfold b2At2
  show StableHlo.after hostOps5 _ (Proc.devRef .tc main_v186) = _
  after_results
  rfl

/-- Entering the message region, the gathered rows are the take of the node array by source. -/
private theorem take_at10 (c : Dev nD) :
    W10 m ρ c (Proc.devRef .tc main_v174)
      = take (W9 m ρ c (Proc.devRef .tc main_v173)) (W9 m ρ c (Proc.devRef .tc main_v143)) := by
  unfold take takeOk takeIdx
  show StableHlo.after hostOps4 _ (Proc.devRef .tc main_v174) = _
  after_results_simp
  simp only [ofBuf_toBuf_of, ofBuf_main_v143, ofBuf_main_v173, toBuf_main_v174]

/-- The message region leaves the entrywise message of the arrays it found. -/
private theorem msg_at11 (c : Dev nD) :
    W11 m ρ c (Proc.devRef .tc main_v175)
      = Cert.Spec.msg (a := 200000) (b := 256) (W10 m ρ c (Proc.devRef .tc main_v174)) (W10 m ρ c (Proc.devRef .tc main_v141)) :=
  (W11_arr m ρ c 2).trans (arrAt_msg4 (V10 m ρ) c)

/-- The update region leaves the node update of the arrays it found. -/
private theorem upd_at13 (c : Dev nD) :
    W13 m ρ c (Proc.devRef .tc main_v187)
      = Cert.Spec.upd (n := 100000) (d := 256) (h := 512) (W12 m ρ c (Proc.devRef .tc main_v173)) (W12 m ρ c (Proc.devRef .tc main_v178))
          (W12 m ρ c (Proc.devRef .tc main_v180)) (W12 m ρ c (Proc.devRef .tc main_v182)) (W12 m ρ c (Proc.devRef .tc main_v184)) (W12 m ρ c (Proc.devRef .tc main_v186)) :=
  (W13_arr m ρ c 6).trans (arrAt_upd5 (V12 m ρ) c)

/-- The node array after layer 2. -/
theorem layer2_value (c : Dev nD) :
    W13 m ρ c (Proc.devRef .tc main_v187) = layer (w1At2 (m ((c : Thread nD τ).loc main_arg6))) (b1At2 (m ((c : Thread nD τ).loc main_arg7))) (w2At2 (m ((c : Thread nD τ).loc main_arg8))) (b2At2 (m ((c : Thread nD τ).loc main_arg9)))
      (W2 m ρ c (Proc.devRef .tc main_v141)) (W2 m ρ c (Proc.devRef .tc main_v143)) (W2 m ρ c (Proc.devRef .tc main_v145)) (W9 m ρ c (Proc.devRef .tc main_v173)) := by
  unfold layer
  rw [upd_at13, agg_at12, w1_at12, b1_at12, w2_at12, b2_at12, msg_at11, take_at10,
    Carry.at12_main_v173, Carry.at11_main_arg6, Carry.at11_main_arg7, Carry.at11_main_arg8, Carry.at11_main_arg9,
    Carry.at11_main_v145, Carry.at10_main_v141, Carry.at9_main_v143]

end Cert.KernelIdeal.Val

end
-- ==== Proof.KMsgArr6.lean ====
/- A message region: the output's row blocks are row blocks of one whole-array function of the two input arrays, and they fill the array. -/
import proofs.«422649_j18588618457330_1_alg».proof.Proof.Gen.KernelIdeal.Frame
import proofs.«422649_j18588618457330_1_alg».proof.Proof.Spec
import proofs.«422649_j18588618457330_1_alg».proof.Proof.KMsgPay
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

/-- The block index of each of the three windows at grid point `t` is `(t, 0)`: block `t` is the 2000 rows from
    `2000 · t` on, all 256 columns. Decided over the grid's points. -/
theorem arrAt_msg6.blockIndex : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What grid point `t` writes back is row block `t` of `Cert.Spec.msg` of the two input arrays: the body's stored
    value is `msg` of its two loaded blocks (`msg_payload`), `msg` is entrywise, and the three windows' blocks at `t`
    sit at the same rows and columns of their arrays. -/
theorem arrAt_msg6.flushed_block (V : (c : Dev nD) → (b : Ref sig .tc) → Buf (Elt Ideal) ((c : Thread nD τ).loc b))
    (c : Dev nD) (t : Fin cfg6.N) :
    (dat6 (F := Ideal) V c).flushed 2 t
      = ((cfg6.win 2).blk t).view.read (Elt Ideal)
          (Cert.Spec.msg (a := 200000) (b := 256) (V c main_v188) (V c main_v141)) := by
  have origin : (![0, 0] : Fin 2 → Nat) = fun _ => 0 := funext fun a => by fin_cases a <;> rfl
  show (cfg6.win 2).cut (grid6.coords t) ((dat6 (F := Ideal) V c).after 2 t) = _
  rw [after6_2]
  unfold out6_2
  rw [View.canon_unit_zero origin]
  simp only [View.ld_unit_zero (S := S2000x256) origin]
  rw [k6_pay1_eq, msg_payload]
  obtain ⟨a0, a1, b0, b1, o0, o1⟩ := arrAt_msg6.blockIndex t
  funext j
  have same0 : ((cfg6.win 0).blk t).view.emb j = ((cfg6.win 2).blk t).view.emb j := by
    funext a; apply Fin.ext
    match a with
    | ⟨0, _⟩ => show win6_0.index t (0 : Fin 2) * 2000 + 1 * (j 0).val = win6_2.index t (0 : Fin 2) * 2000 + 1 * (j 0).val; omega
    | ⟨1, _⟩ => show win6_0.index t (1 : Fin 2) * 256 + 1 * (j 1).val = win6_2.index t (1 : Fin 2) * 256 + 1 * (j 1).val; omega
  have same1 : ((cfg6.win 1).blk t).view.emb j = ((cfg6.win 2).blk t).view.emb j := by
    funext a; apply Fin.ext
    match a with
    | ⟨0, _⟩ => show win6_1.index t (0 : Fin 2) * 2000 + 1 * (j 0).val = win6_2.index t (0 : Fin 2) * 2000 + 1 * (j 0).val; omega
    | ⟨1, _⟩ => show win6_1.index t (1 : Fin 2) * 256 + 1 * (j 1).val = win6_2.index t (1 : Fin 2) * 256 + 1 * (j 1).val; omega
  -- so each input block's entry at `j` is its array's entry where the output block's entry `j` sits
  have entry0 : iblk6 V c 0 t j = V c main_v188 (((cfg6.win 2).blk t).view.emb j) := by
    show V c main_v188 (((cfg6.win 0).blk t).view.emb j) = _
    rw [same0]
  have entry1 : iblk6 V c 1 t j = V c main_v141 (((cfg6.win 2).blk t).view.emb j) := by
    show V c main_v141 (((cfg6.win 1).blk t).view.emb j) = _
    rw [same1]
  show Cert.Spec.msg (a := 2000) (b := 256) (iblk6 V c 0 t) (iblk6 V c 1 t) j
      = Cert.Spec.msg (a := 200000) (b := 256) (V c main_v188) (V c main_v141) (((cfg6.win 2).blk t).view.emb j)
  simp only [Cert.Spec.msg]
  rw [entry0, entry1]

/-- An index of the output array is in grid point `t`'s block iff each coordinate is in the block's range on its axis. -/
theorem arrAt_msg6.mem_block (t : Fin cfg6.N) (i : S200000x256.Idx) :
    i ∈ ((cfg6.win 2).blk t).view.set
      ↔ ∀ a : Fin 2, win6_2.index t a * S2000x256.size a ≤ (i a).val
          ∧ (i a).val < win6_2.index t a * S2000x256.size a + S2000x256.size a := by
  show i ∈ ((View.whole main_v189).slice (win6_2.rect t)).set ↔ _
  rw [View.set_slice_whole, Rect.mem_set_unit]
  exact Iff.rfl

/-- The blocks fill the array: row `r` lies in the block of grid point `r / 2000`, which is written back. -/
theorem arrAt_msg6.covered (i : S200000x256.Idx) :
    ∃ t : Fin cfg6.N, (cfg6.win 2).flush t = true ∧ i ∈ ((cfg6.win 2).blk t).view.set := by
  have rows : (i 0).val < 200000 := (i 0).isLt
  have cols : (i 1).val < 256 := (i 1).isLt
  have points : cfg6.N = 100 := N_6
  let t : Fin cfg6.N := ⟨(i 0).val / 2000, by omega⟩
  obtain ⟨_, _, _, _, o0, o1⟩ := arrAt_msg6.blockIndex t
  have ht : t.val = (i 0).val / 2000 := rfl
  refine ⟨t, flush6_2 t, ?_⟩
  rw [arrAt_msg6.mem_block]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 256 ≤ (i 1).val ∧ (i 1).val < win6_2.index t (1 : Fin 2) * 256 + 256; omega

/-- After the region the output array holds `Cert.Spec.msg` of the arrays the region found, whatever they were. -/
theorem arrAt_msg6 (V : (c : Dev nD) → (b : Ref sig .tc) → Buf (Elt Ideal) ((c : Thread nD τ).loc b)) (c : Dev nD) :
    (dat6 (F := Ideal) V c).arrAt 2 cfg6.N = Cert.Spec.msg (a := 200000) (b := 256) (V c main_v188) (V c main_v141) :=
  (dat6 (F := Ideal) V c).arrAt_eq_of_cover 2 _ (fun t _ => arrAt_msg6.flushed_block V c t) arrAt_msg6.covered

end Cert.KernelIdeal.Val

end
-- ==== Proof.KUpdArr7.lean ====
/- A node-update region: a row of the update depends only on the same row of the two node arrays, so the output's row blocks are row blocks of one whole-array function, and they fill the array. -/
import proofs.«422649_j18588618457330_1_alg».proof.Proof.Gen.KernelIdeal.Frame
import proofs.«422649_j18588618457330_1_alg».proof.Proof.Spec
import proofs.«422649_j18588618457330_1_alg».proof.Proof.KUpdPay
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-- Zero offsets on two axes, however spelt. -/
private theorem zero_offsets2 : (![0, 0] : Fin 2 → Nat) = fun _ => 0 := funext fun a => by fin_cases a <;> rfl
/-- Zero offsets on one axis. -/
private theorem zero_offsets1 : (![0] : Fin 1 → Nat) = fun _ => 0 := funext fun a => by fin_cases a <;> rfl

/-- The printed index maps, decided over the grid: the two node windows and the output move down the rows with the point,
    one block of rows per point, and stay at column block 0; the weight and bias windows stay at block 0. -/
private theorem block_indices : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 1) = 0
    ∧ win7_4.index t (0 : Fin 2) = 0 ∧ win7_4.index t (1 : Fin 2) = 0
    ∧ win7_5.index t (0 : Fin 1) = 0
    ∧ win7_6.index t (0 : Fin 2) = t.val ∧ win7_6.index t (1 : Fin 2) = 0 :=
  (by decide +kernel : ∀ t : Fin grid7.N, _)

/-- Row `r` of block `t` is a row of the array. -/
private theorem row_lt (t : Fin cfg7.N) (r : Fin 2000) : t.val * 2000 + r.val < 100000 := by
  have ht : t.val < 50 := Nat.lt_of_lt_of_eq t.isLt N_7
  have hr := r.isLt
  omega

/-- A row of the update depends only on the same row of the two node arrays: the update of the rows `e r` of `X` and `A`
    is the rows `e r` of the update of `X` and `A`. -/
private theorem upd_rows {n N d h : Nat} (e : Fin n → Fin N) (X A : Cert.Spec.A2 N d) (W1 : Cert.Spec.A2 d h) (b1 : Cert.Spec.A1 h)
    (W2 : Cert.Spec.A2 h d) (b2 : Cert.Spec.A1 d) :
    Cert.Spec.upd (fun i : (⟨2, ![n, d]⟩ : Shape).Idx => X (ix2 (e (i 0)) (i 1))) (fun i : (⟨2, ![n, d]⟩ : Shape).Idx => A (ix2 (e (i 0)) (i 1))) W1 b1 W2 b2
      = fun i : (⟨2, ![n, d]⟩ : Shape).Idx => Cert.Spec.upd X A W1 b1 W2 b2 (ix2 (e (i 0)) (i 1)) := by
  funext i
  simp only [Cert.Spec.upd, Cert.Spec.relu, Cert.Spec.dense]
  rfl

section Blocks

variable (V : (c : Dev nD) → (b : Ref sig .tc) → Buf (Elt Ideal) ((c : Thread nD τ).loc b))

/-- Block `t` of the first node array is its rows `2000 t … 2000 t + 1999`, every column. -/
private theorem node_block (c : Dev nD) (t : Fin cfg7.N) :
    @Eq (Vec Ideal S2000x256 .f32) (iblk7 (F := Ideal) V c 0 t)
      (fun i => (V c main_v187 : S100000x256.Idx → EReal) (ix2 (⟨t.val * 2000 + (i 0).val, row_lt t (i 0)⟩ : Fin 100000) (i 1))) := by
  obtain ⟨e0, e1, -⟩ := block_indices t
  funext j
  unfold iblk7
  rw [View.read_apply]
  show V c main_v187 _ = V c main_v187 _
  congr 1
  funext a
  apply Fin.ext
  match a with
  | ⟨0, _⟩ => show win7_0.index t (0 : Fin 2) * 2000 + 1 * (j 0).val = t.val * 2000 + (j 0).val; rw [e0]; omega
  | ⟨1, _⟩ => show win7_0.index t (1 : Fin 2) * 256 + 1 * (j 1).val = (j 1).val; rw [e1]; omega

/-- Block `t` of the second node array is the same rows of it. -/
private theorem agg_block (c : Dev nD) (t : Fin cfg7.N) :
    @Eq (Vec Ideal S2000x256 .f32) (iblk7 (F := Ideal) V c 1 t)
      (fun i => (V c main_v192 : S100000x256.Idx → EReal) (ix2 (⟨t.val * 2000 + (i 0).val, row_lt t (i 0)⟩ : Fin 100000) (i 1))) := by
  obtain ⟨-, -, e0, e1, -⟩ := block_indices t
  funext j
  unfold iblk7
  rw [View.read_apply]
  show V c main_v192 _ = V c main_v192 _
  congr 1
  funext a
  apply Fin.ext
  match a with
  | ⟨0, _⟩ => show win7_1.index t (0 : Fin 2) * 2000 + 1 * (j 0).val = t.val * 2000 + (j 0).val; rw [e0]; omega
  | ⟨1, _⟩ => show win7_1.index t (1 : Fin 2) * 256 + 1 * (j 1).val = (j 1).val; rw [e1]; omega

/-- The first weight window's one block is the whole matrix, at every point. -/
private theorem w1_block (c : Dev nD) (t : Fin cfg7.N) :
    @Eq (Vec Ideal S256x512 .f32) (iblk7 (F := Ideal) V c 2 t)
      (V c main_v194) := by
  obtain ⟨-, -, -, -, e0, e1, -⟩ := block_indices t
  funext j
  unfold iblk7
  rw [View.read_apply]
  show V c main_v194 _ = V c main_v194 _
  congr 1
  funext a
  apply Fin.ext
  match a with
  | ⟨0, _⟩ => show win7_2.index t (0 : Fin 2) * 256 + 1 * (j 0).val = (j 0).val; rw [e0]; omega
  | ⟨1, _⟩ => show win7_2.index t (1 : Fin 2) * 512 + 1 * (j 1).val = (j 1).val; rw [e1]; omega

/-- The first bias window's one block is the whole vector. -/
private theorem b1_block (c : Dev nD) (t : Fin cfg7.N) :
    @Eq (Vec Ideal S512 .f32) (iblk7 (F := Ideal) V c 3 t)
      (V c main_v196) := by
  obtain ⟨-, -, -, -, -, -, e0, -⟩ := block_indices t
  funext j
  unfold iblk7
  rw [View.read_apply]
  show V c main_v196 _ = V c main_v196 _
  congr 1
  funext a
  apply Fin.ext
  match a with
  | ⟨0, _⟩ => show win7_3.index t (0 : Fin 1) * 512 + 1 * (j 0).val = (j 0).val; rw [e0]; omega

/-- The second weight window's one block is the whole matrix. -/
private theorem w2_block (c : Dev nD) (t : Fin cfg7.N) :
    @Eq (Vec Ideal S512x256 .f32) (iblk7 (F := Ideal) V c 4 t)
      (V c main_v198) := by
  obtain ⟨-, -, -, -, -, -, -, e0, e1, -⟩ := block_indices t
  funext j
  unfold iblk7
  rw [View.read_apply]
  show V c main_v198 _ = V c main_v198 _
  congr 1
  funext a
  apply Fin.ext
  match a with
  | ⟨0, _⟩ => show win7_4.index t (0 : Fin 2) * 512 + 1 * (j 0).val = (j 0).val; rw [e0]; omega
  | ⟨1, _⟩ => show win7_4.index t (1 : Fin 2) * 256 + 1 * (j 1).val = (j 1).val; rw [e1]; omega

/-- The second bias window's one block is the whole vector. -/
private theorem b2_block (c : Dev nD) (t : Fin cfg7.N) :
    @Eq (Vec Ideal S256 .f32) (iblk7 (F := Ideal) V c 5 t)
      (V c main_v200) := by
  obtain ⟨-, -, -, -, -, -, -, -, -, e0, -⟩ := block_indices t
  funext j
  unfold iblk7
  rw [View.read_apply]
  show V c main_v200 _ = V c main_v200 _
  congr 1
  funext a
  apply Fin.ext
  match a with
  | ⟨0, _⟩ => show win7_5.index t (0 : Fin 1) * 256 + 1 * (j 0).val = (j 0).val; rw [e0]; omega

/-- What point `t` writes back is block `t` of the update of the whole arrays: the body computes the update of the
    blocks it loaded, which are rows `2000 t …` of the node arrays and all of the weights, and a row of the update is a
    function of the same row of the node arrays. -/
private theorem written_block (c : Dev nD) (t : Fin cfg7.N) :
    (dat7 (F := Ideal) V c).flushed 6 t = ((cfg7.win 6).blk t).view.read (Elt Ideal)
      (Cert.Spec.upd (n := 100000) (d := 256) (h := 512) (V c main_v187) (V c main_v192) (V c main_v194) (V c main_v196) (V c main_v198) (V c main_v200)) := by
  show (cfg7.win 6).cut (grid7.coords t) ((dat7 V c).after 6 t) = _
  rw [after7_6]
  unfold out7_6
  rw [View.canon_unit_zero zero_offsets2]
  simp only [View.ld_unit_zero (S := S2000x256) zero_offsets2, View.ld_unit_zero (S := S256x512) zero_offsets2,
    View.ld_unit_zero (S := S512) zero_offsets1, View.ld_unit_zero (S := S512x256) zero_offsets2,
    View.ld_unit_zero (S := S256) zero_offsets1]
  rw [k7_pay1_eq, upd_payload, node_block V c t, agg_block V c t, w1_block V c t, b1_block V c t, w2_block V c t, b2_block V c t]
  rw [upd_rows (fun r : Fin 2000 => (⟨t.val * 2000 + r.val, row_lt t r⟩ : Fin 100000))]
  obtain ⟨-, -, -, -, -, -, -, -, -, -, e0, e1⟩ := block_indices t
  funext j
  rw [View.read_apply]
  show Cert.Spec.upd (n := 100000) (d := 256) (h := 512) (V c main_v187) (V c main_v192) (V c main_v194) (V c main_v196) (V c main_v198) (V c main_v200) _
    = Cert.Spec.upd (n := 100000) (d := 256) (h := 512) (V c main_v187) (V c main_v192) (V c main_v194) (V c main_v196) (V c main_v198) (V c main_v200) _
  congr 1
  funext a
  apply Fin.ext
  match a with
  | ⟨0, _⟩ => show t.val * 2000 + (j 0).val = win7_6.index t (0 : Fin 2) * 2000 + 1 * (j 0).val; rw [e0]; omega
  | ⟨1, _⟩ => show (j 1).val = win7_6.index t (1 : Fin 2) * 256 + 1 * (j 1).val; rw [e1]; omega

/-- An index of the array is in point `t`'s block iff each coordinate is in the block's range on its axis. -/
private theorem mem_block (t : Fin cfg7.N) (i : S100000x256.Idx) :
    i ∈ ((cfg7.win 6).blk t).view.set ↔ ∀ a : Fin 2, win7_6.index t a * S2000x256.size a ≤ (i a).val ∧ (i a).val < win7_6.index t a * S2000x256.size a + S2000x256.size a := by
  show i ∈ ((View.whole main_v201).slice (win7_6.rect t)).set ↔ _
  rw [View.set_slice_whole, Rect.mem_set_unit]
  exact Iff.rfl

/-- The blocks fill the array: row `r` lies in the block of point `r / 2000`, and every point writes back. -/
private theorem blocks_cover (i : S100000x256.Idx) :
    ∃ t : Fin cfg7.N, (cfg7.win 6).flush t = true ∧ i ∈ ((cfg7.win 6).blk t).view.set := by
  have hi0 : (i 0).val < 100000 := (i 0).isLt
  have hi1 : (i 1).val < 256 := (i 1).isLt
  have hN : cfg7.N = 50 := N_7
  have hq : (i 0).val / 2000 < cfg7.N := by rw [hN]; omega
  obtain ⟨-, -, -, -, -, -, -, -, -, -, e0, e1⟩ := block_indices ⟨(i 0).val / 2000, hq⟩
  refine ⟨⟨(i 0).val / 2000, hq⟩, flush7_6 _, ?_⟩
  rw [mem_block]
  intro a
  match a with
  | ⟨0, _⟩ =>
    show win7_6.index ⟨(i 0).val / 2000, hq⟩ (0 : Fin 2) * 2000 ≤ (i 0).val ∧ (i 0).val < win7_6.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win7_6.index ⟨(i 0).val / 2000, hq⟩ (1 : Fin 2) * 256 ≤ (i 1).val ∧ (i 1).val < win7_6.index ⟨(i 0).val / 2000, hq⟩ (1 : Fin 2) * 256 + 256
    rw [e1]
    omega

end Blocks

/-- After the region the output array holds `Cert.Spec.upd` of the arrays the region found, whatever they were. -/
theorem arrAt_upd7 (V : (c : Dev nD) → (b : Ref sig .tc) → Buf (Elt Ideal) ((c : Thread nD τ).loc b)) (c : Dev nD) :
    (dat7 (F := Ideal) V c).arrAt 6 cfg7.N = Cert.Spec.upd (n := 100000) (d := 256) (h := 512) (V c main_v187) (V c main_v192) (V c main_v194) (V c main_v196) (V c main_v198) (V c main_v200) :=
  (dat7 (F := Ideal) V c).arrAt_eq_of_cover 6
    (Cert.Spec.upd (n := 100000) (d := 256) (h := 512) (V c main_v187) (V c main_v192) (V c main_v194) (V c main_v196) (V c main_v198) (V c main_v200))
    (fun t _ => written_block V c t) blocks_cover

end Cert.KernelIdeal.Val

end
-- ==== Proof.KLayer3.lean ====
/- Layer 3 of the idealized kernel program, boundary to boundary: the node array its update region leaves is one layer of the network applied to the node array it found, with the edge encoding and the edge list's rows as the first stretch left them. -/
import proofs.«422649_j18588618457330_1_alg».proof.Proof.Gen.KernelIdeal.Frame
import proofs.«422649_j18588618457330_1_alg».proof.Proof.KOps
import proofs.«422649_j18588618457330_1_alg».proof.Proof.KCarry
import proofs.«422649_j18588618457330_1_alg».proof.Proof.KMsgArr6
import proofs.«422649_j18588618457330_1_alg».proof.Proof.KUpdArr7
import Idealize.ShloMosaic.Lib.StableHlo.Run
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Cert.KernelIdeal Cert.KernelIdeal.Gen

/-! ## The two host stretches of layer 3, from any contents

Each stretch is a straight line of host operations; what one of its result buffers holds afterwards is the
composition of the operations that lead to it, applied to what the stretch found in the buffers it reads. -/

/-- Contents carried to a typed reference's own buffer type and back are the contents they were. -/
theorem layer3_ofBuf_toBuf {sig : RefSig} {Val : EltTy → Type} {T : BufTy} (x : StableHlo.TRef sig T)
    (v : T.Contents Val) : x.ofBuf (x.toBuf v) = v := by
  unfold StableHlo.TRef.ofBuf StableHlo.TRef.toBuf
  rw [cast_cast, cast_eq]

/-- The stretch before the message region: the rows it hands that region are `take` of the node array and of the
    source column it found. The three remaining transports are along equations that hold by computation: the node
    array's, the source column's and the result's buffer types are the literal ones. -/
theorem layer3_take_from (V : Valuation τ sig (Elt Ideal)) :
    StableHlo.after (hostOps6 (F := Ideal)) V (Proc.devRef .tc main_v188)
      = take (V (Proc.devRef .tc main_v187)) (V (Proc.devRef .tc main_v143)) := by
  after_results_simp
  simp only [layer3_ofBuf_toBuf]
  have hs : (StableHlo.TRef.of main_v143 : StableHlo.TRef sig ⟨S200000, .i32⟩).ofBuf
      (V (Proc.devRef .tc main_v143)) = V (Proc.devRef .tc main_v143) := rfl
  have hx : (StableHlo.TRef.of main_v187 : StableHlo.TRef sig ⟨S100000x256, .f32⟩).ofBuf
      (V (Proc.devRef .tc main_v187)) = V (Proc.devRef .tc main_v187) := rfl
  have hy : ∀ v : FVec Ideal S200000x256 .f32,
      (StableHlo.TRef.of main_v188 : StableHlo.TRef sig ⟨S200000x256, .f32⟩).toBuf (Val := Elt Ideal) v = v :=
    fun _ => rfl
  rw [hs, hx, hy]
  generalize V (Proc.devRef .tc main_v187) = x
  generalize V (Proc.devRef .tc main_v143) = s
  rfl

/-- The stretch before the update region: the aggregate is the segment sum, along the destination column it found,
    of the message array it found. -/
theorem layer3_segsum_from (V : Valuation τ sig (Elt Ideal)) :
    StableHlo.after (hostOps7 (F := Ideal)) V (Proc.devRef .tc main_v192)
      = segsum (V (Proc.devRef .tc main_v145)) (V (Proc.devRef .tc main_v189)) := by
  unfold segsum
  after_results

/-- The same stretch: the first weight matrix it hands on is slab 3 of the stacked first weights (the reshape's
    transport is along the equation of the two element types, which holds by computation). -/
theorem layer3_w1_from (V : Valuation τ sig (Elt Ideal)) :
    StableHlo.after (hostOps7 (F := Ideal)) V (Proc.devRef .tc main_v194) = w1At3 (V (Proc.devRef .tc main_arg6)) := by
  unfold w1At3
  after_results
  rfl

/-- The same stretch: the first bias row is row 3 of the stacked first biases. -/
theorem layer3_b1_from (V : Valuation τ sig (Elt Ideal)) :
    StableHlo.after (hostOps7 (F := Ideal)) V (Proc.devRef .tc main_v196) = b1At3 (V (Proc.devRef .tc main_arg7)) := by
  unfold b1At3
  after_results
  rfl

/-- The same stretch: the second weight matrix is slab 3 of the stacked second weights. -/
theorem layer3_w2_from (V : Valuation τ sig (Elt Ideal)) :
    StableHlo.after (hostOps7 (F := Ideal)) V (Proc.devRef .tc main_v198) = w2At3 (V (Proc.devRef .tc main_arg8)) := by
  unfold w2At3
  after_results
  rfl

/-- The same stretch: the second bias row is row 3 of the stacked second biases. -/
theorem layer3_b2_from (V : Valuation τ sig (Elt Ideal)) :
    StableHlo.after (hostOps7 (F := Ideal)) V (Proc.devRef .tc main_v200) = b2At3 (V (Proc.devRef .tc main_arg9)) := by
  unfold b2At3
  after_results
  rfl

/-! ## Layer 3 along the run -/

variable (m : (ℓ : Loc nD τ sig) → Buf (Elt Ideal) ℓ) (ρ : Dev nD → PrngReg)

/-- What the update region leaves in the node array: the node update of the buffers it found. -/
theorem layer3_updated (c : Dev nD) :
    W17 m ρ c (Proc.devRef .tc main_v201)
      = Cert.Spec.upd (n := 100000) (d := 256) (h := 512)
          (W16 m ρ c (Proc.devRef .tc main_v187)) (W16 m ρ c (Proc.devRef .tc main_v192))
          (W16 m ρ c (Proc.devRef .tc main_v194)) (W16 m ρ c (Proc.devRef .tc main_v196))
          (W16 m ρ c (Proc.devRef .tc main_v198)) (W16 m ρ c (Proc.devRef .tc main_v200)) :=
  (W17_arr m ρ c 6).trans (arrAt_upd7 (V16 m ρ) c)

/-- What the message region leaves in the message array: the messages of the rows and the edge encoding it found. -/
theorem layer3_messages (c : Dev nD) :
    W15 m ρ c (Proc.devRef .tc main_v189)
      = Cert.Spec.msg (a := 200000) (b := 256)
          (W14 m ρ c (Proc.devRef .tc main_v188)) (W14 m ρ c (Proc.devRef .tc main_v141)) :=
  (W15_arr m ρ c 2).trans (arrAt_msg6 (V14 m ρ) c)

/-- The node array after layer 3. -/
theorem layer3_value (c : Dev nD) :
    W17 m ρ c (Proc.devRef .tc main_v201) = layer (w1At3 (m ((c : Thread nD τ).loc main_arg6))) (b1At3 (m ((c : Thread nD τ).loc main_arg7))) (w2At3 (m ((c : Thread nD τ).loc main_arg8))) (b2At3 (m ((c : Thread nD τ).loc main_arg9)))
      (W2 m ρ c (Proc.devRef .tc main_v141)) (W2 m ρ c (Proc.devRef .tc main_v143)) (W2 m ρ c (Proc.devRef .tc main_v145)) (W13 m ρ c (Proc.devRef .tc main_v187)) := by
  -- the update region's result, over the buffers at its entry
  have hupd := layer3_updated m ρ c
  -- the entry of the update region is the second stretch run from the message region's exit
  have hagg : W16 m ρ c (Proc.devRef .tc main_v192)
      = segsum (W15 m ρ c (Proc.devRef .tc main_v145)) (W15 m ρ c (Proc.devRef .tc main_v189)) :=
    layer3_segsum_from (W15 m ρ c)
  have hw1 : W16 m ρ c (Proc.devRef .tc main_v194) = w1At3 (W15 m ρ c (Proc.devRef .tc main_arg6)) :=
    layer3_w1_from (W15 m ρ c)
  have hb1 : W16 m ρ c (Proc.devRef .tc main_v196) = b1At3 (W15 m ρ c (Proc.devRef .tc main_arg7)) :=
    layer3_b1_from (W15 m ρ c)
  have hw2 : W16 m ρ c (Proc.devRef .tc main_v198) = w2At3 (W15 m ρ c (Proc.devRef .tc main_arg8)) :=
    layer3_w2_from (W15 m ρ c)
  have hb2 : W16 m ρ c (Proc.devRef .tc main_v200) = b2At3 (W15 m ρ c (Proc.devRef .tc main_arg9)) :=
    layer3_b2_from (W15 m ρ c)
  -- the entry of the message region is the first stretch run from the previous layer's exit
  have htake : W14 m ρ c (Proc.devRef .tc main_v188)
      = take (W13 m ρ c (Proc.devRef .tc main_v187)) (W13 m ρ c (Proc.devRef .tc main_v143)) :=
    layer3_take_from (W13 m ρ c)
  unfold layer
  rw [hupd, hagg, hw1, hb1, hw2, hb2, layer3_messages m ρ c, htake,
    Cert.KernelIdeal.Carry.at16_main_v187 m ρ c, Cert.KernelIdeal.Carry.at15_main_v145 m ρ c,
    Cert.KernelIdeal.Carry.at15_main_arg6 m ρ c, Cert.KernelIdeal.Carry.at15_main_arg7 m ρ c,
    Cert.KernelIdeal.Carry.at15_main_arg8 m ρ c, Cert.KernelIdeal.Carry.at15_main_arg9 m ρ c,
    Cert.KernelIdeal.Carry.at14_main_v141 m ρ c, Cert.KernelIdeal.Carry.at13_main_v143 m ρ c]

end Cert.KernelIdeal.Val

end
-- ==== Proof.KPoolPay.lean ====
/- The readout body at the extended reals: two matrix products as sums, one clamp between them, the row's sum of
   squares, its root kept above a small constant, the quotient. -/
import proofs.«422649_j18588618457330_1_alg».proof.Proof.Gen.KernelIdeal.Skeleton
import proofs.«422649_j18588618457330_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen
open Idealize.ShloMosaic.ValueIdx

/-! ## The two matrix products read at an entry -/

/-- The left operand's row coordinate at an output entry is the entry's row. -/
theorem pool_lhs1_0 (i : S1024x256.Idx) (c : dot_S1024x256_S256x256_S1024x256_1_0_0_1_n_n.contr.Idx) :
    (dot_S1024x256_S256x256_S1024x256_1_0_0_1_n_n.lhsIdx i c 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl

/-- The left operand's column coordinate is the summation position. -/
theorem pool_lhs1_1 (i : S1024x256.Idx) (c : dot_S1024x256_S256x256_S1024x256_1_0_0_1_n_n.contr.Idx) :
    (dot_S1024x256_S256x256_S1024x256_1_0_0_1_n_n.lhsIdx i c 1).val = (c ⟨0, by decide⟩).val :=
  dot_S1024x256_S256x256_S1024x256_1_0_0_1_n_n.lhsIdx_val_of_single rfl i c

/-- The right operand's row coordinate is the summation position. -/
theorem pool_rhs1_0 (i : S1024x256.Idx) (c : dot_S1024x256_S256x256_S1024x256_1_0_0_1_n_n.contr.Idx) :
    (dot_S1024x256_S256x256_S1024x256_1_0_0_1_n_n.rhsIdx i c 0).val = (c ⟨0, by decide⟩).val :=
  dot_S1024x256_S256x256_S1024x256_1_0_0_1_n_n.rhsIdx_val_of_single rfl i c

/-- The right operand's column coordinate at an output entry is the entry's column. -/
theorem pool_rhs1_1 (i : S1024x256.Idx) (c : dot_S1024x256_S256x256_S1024x256_1_0_0_1_n_n.contr.Idx) :
    (dot_S1024x256_S256x256_S1024x256_1_0_0_1_n_n.rhsIdx i c 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- The product into a zero accumulator, entry `(p, q)`: `Σ_k A[p, k] · B[k, q]`. -/
theorem pool_mm1_apply (A : FVec Ideal S1024x256 .bf16) (B : FVec Ideal S256x256 .bf16) (p : Fin 1024) (q : Fin 256) :
    matmul dot_S1024x256_S256x256_S1024x256_1_0_0_1_n_n none A B (constant (F := Ideal) S1024x256 .f32 0x00000000#32) (ix2 p q)
      = ∑ k : Fin 256, A (ix2 p k) * B (ix2 k q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k :=
    funext fun a => Fin.ext (by
      match a with
      | ⟨0, _⟩ => exact pool_lhs1_0 _ _
      | ⟨1, _⟩ => exact (pool_lhs1_1 _ _).trans hk)
  have er : dot_S1024x256_S256x256_S1024x256_1_0_0_1_n_n.rhsIdx (ix2 p q) ((contrEquiv1 dot_S1024x256_S256x256_S1024x256_1_0_0_1_n_n 256 rfl rfl).symm k) = ix2 k q :=
    funext fun a => Fin.ext (by
      match a with
      | ⟨0, _⟩ => exact (pool_rhs1_0 _ _).trans hk
      | ⟨1, _⟩ => exact pool_rhs1_1 _ _)
  rw [el, er]

/-- The left operand's row coordinate at an output entry is the entry's row. -/
theorem pool_lhs2_0 (i : S1024x768.Idx) (c : dot_S1024x256_S256x768_S1024x768_1_0_0_1_n_n.contr.Idx) :
    (dot_S1024x256_S256x768_S1024x768_1_0_0_1_n_n.lhsIdx i c 0).val = (i 0).val := by
  unfold DotDims.lhsIdx
  rw [dif_neg (show ¬(0 : Fin S1024x256.rank) ∈ dot_S1024x256_S256x768_S1024x768_1_0_0_1_n_n.lhsBatch by decide),
    dif_pos (show (0 : Fin S1024x256.rank) ∈ dot_S1024x256_S256x768_S1024x768_1_0_0_1_n_n.lhsNonContracting by decide)]
  rfl

/-- The left operand's column coordinate is the summation position. -/
theorem pool_lhs2_1 (i : S1024x768.Idx) (c : dot_S1024x256_S256x768_S1024x768_1_0_0_1_n_n.contr.Idx) :
    (dot_S1024x256_S256x768_S1024x768_1_0_0_1_n_n.lhsIdx i c 1).val = (c ⟨0, by decide⟩).val :=
  dot_S1024x256_S256x768_S1024x768_1_0_0_1_n_n.lhsIdx_val_of_single rfl i c

/-- The right operand's row coordinate is the summation position. -/
theorem pool_rhs2_0 (i : S1024x768.Idx) (c : dot_S1024x256_S256x768_S1024x768_1_0_0_1_n_n.contr.Idx) :
    (dot_S1024x256_S256x768_S1024x768_1_0_0_1_n_n.rhsIdx i c 0).val = (c ⟨0, by decide⟩).val :=
  dot_S1024x256_S256x768_S1024x768_1_0_0_1_n_n.rhsIdx_val_of_single rfl i c

/-- The right operand's column coordinate at an output entry is the entry's column. -/
theorem pool_rhs2_1 (i : S1024x768.Idx) (c : dot_S1024x256_S256x768_S1024x768_1_0_0_1_n_n.contr.Idx) :
    (dot_S1024x256_S256x768_S1024x768_1_0_0_1_n_n.rhsIdx i c 1).val = (i 1).val := by
  unfold DotDims.rhsIdx
  rw [dif_neg (show ¬(1 : Fin S256x768.rank) ∈ dot_S1024x256_S256x768_S1024x768_1_0_0_1_n_n.rhsBatch by decide),
    dif_pos (show (1 : Fin S256x768.rank) ∈ dot_S1024x256_S256x768_S1024x768_1_0_0_1_n_n.rhsNonContracting by decide)]
  rfl

/-- The product into a zero accumulator, entry `(p, q)`: `Σ_k A[p, k] · B[k, q]`. -/
theorem pool_mm2_apply (A : FVec Ideal S1024x256 .bf16) (B : FVec Ideal S256x768 .bf16) (p : Fin 1024) (q : Fin 768) :
    matmul dot_S1024x256_S256x768_S1024x768_1_0_0_1_n_n none A B (constant (F := Ideal) S1024x768 .f32 0x00000000#32) (ix2 p q)
      = ∑ k : Fin 256, A (ix2 p k) * B (ix2 k q) := by
  simp only [matmul]
  rw [Ideal.matmul_constant_zero_apply, ← Equiv.sum_comp (contrEquiv1 dot_S1024x256_S256x768_S1024x768_1_0_0_1_n_n 256 rfl rfl).symm]
  refine Finset.sum_congr rfl fun k _ => ?_
  have hk := contrEquiv1_symm_val dot_S1024x256_S256x768_S1024x768_1_0_0_1_n_n 256 rfl rfl k
  have el : dot_S1024x256_S256x768_S1024x768_1_0_0_1_n_n.lhsIdx (ix2 p q) ((contrEquiv1 dot_S1024x256_S256x768_S1024x768_1_0_0_1_n_n 256 rfl rfl).symm k) = ix2 p k :=
    funext fun a => Fin.ext (by
      match a with
      | ⟨0, _⟩ => exact pool_lhs2_0 _ _
      | ⟨1, _⟩ => exact (pool_lhs2_1 _ _).trans hk)
  have er : dot_S1024x256_S256x768_S1024x768_1_0_0_1_n_n.rhsIdx (ix2 p q) ((contrEquiv1 dot_S1024x256_S256x768_S1024x768_1_0_0_1_n_n 256 rfl rfl).symm k) = ix2 k q :=
    funext fun a => Fin.ext (by
      match a with
      | ⟨0, _⟩ => exact (pool_rhs2_0 _ _).trans hk
      | ⟨1, _⟩ => exact pool_rhs2_1 _ _)
  rw [el, er]

/-! ## A bias laid as a row, a row sum, a column repeated across a row -/

/-- A vector laid as one row and repeated down `a` rows reads, at `(p, q)`, the vector at `q`. -/
theorem pool_row_apply {a b : ℕ} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) := by
  rw [broadcastTo_1b_ab_apply, shapeCast_a_1a_apply]

/-- A vector laid as one column reads, at `(p, u)`, the vector at `p`, whatever the unit coordinate `u`. -/
theorem pool_col_apply {a : ℕ} (v : (⟨1, ![a]⟩ : Shape).Idx → EReal) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- One column repeated across `b` columns reads, at `(p, q)`, the column at `p`. -/
theorem pool_colrep_apply {a b : ℕ} (v : (⟨2, ![a, 1]⟩ : Shape).Idx → EReal) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The sum along a row of a 1024 by 768 matrix, started from the zero word: `Σ_k v[p, k]`. -/
theorem pool_rowsum_apply (v : FVec Ideal S1024x768 .f32) (h : S1024x768.Reduces [1] S1024) (hφ : FKind.Formats .f32)
    (hacc : (0x00000000#32 : BitVec 32) = 0x00000000#32) (p : Fin 1024) :
    multiReduction (F := Ideal) .add [1] S1024 v 0x00000000#32 h hφ hacc (ix1 p) = ∑ k : Fin 768, v (ix2 p k) := by
  refine (Ideal.multiReduction_add_single v 0x00000000#32 h hφ hacc (ix1 p)).trans ?_
  refine Finset.sum_congr rfl fun k _ => congrArg v ?_
  funext a
  apply Fin.ext
  match a with
  | ⟨0, _⟩ => rfl
  | ⟨1, _⟩ => rfl

/-- A root taken entry by entry. -/
theorem pool_sqrt_apply {s : Shape} (v : FVec Ideal s .f32) (i : s.Idx) : sqrt v i = Ideal.sqrt (v i) := rfl

/-! ## The three stretches of the body, each as a function of its operands -/

/-- The first affine map and the clamp after it, as the body spells them: `relu (dense g W1 b1)`. -/
theorem pool_hidden_eq (g : FVec Ideal S1024x256 .f32) (w1 : FVec Ideal S256x256 .f32) (b1 : FVec Ideal S256 .f32)
    (hs : S1024x256.ShapeCasts S1024x256) (hb : FTy.bits .bf16 < FTy.bits .f32)
    (h1 : S256.ShapeCasts S1x256) (h2 : S1x256.Broadcasts S1024x256) :
    maximumf (addf (matmul dot_S1024x256_S256x256_S1024x256_1_0_0_1_n_n none (truncf .bf16 (shapeCast S1024x256 g hs) hb) (truncf .bf16 w1 hb)
          (constant (F := Ideal) S1024x256 .f32 0x00000000#32))
        (broadcastTo S1024x256 (shapeCast S1x256 b1 h1) h2)) (broadcast S1024x256 (Scalar.ofBits (F := Ideal) .f32 0x00000000#32))
      = Cert.Spec.relu (Cert.Spec.dense (n := 1024) (d := 256) (h := 256) g w1 b1) := by
  funext j
  obtain ⟨p, q, rfl⟩ : ∃ (p : Fin 1024) (q : Fin 256), j = ix2 p q := ⟨j 0, j 1, eq_ix2 j⟩
  rw [maximumf_apply, addf_apply, pool_mm1_apply, pool_row_apply, broadcast_apply, shapeCast_self]
  simp only [truncf_apply, Ideal.ofBits_def, Ideal.ofBits_zero_f32]
  rfl

/-- The second affine map, as the body spells it: `dense x W2 b2`. -/
theorem pool_out_eq (x : FVec Ideal S1024x256 .f32) (w2 : FVec Ideal S256x768 .f32) (b2 : FVec Ideal S768 .f32)
    (hb : FTy.bits .bf16 < FTy.bits .f32) (h1 : S768.ShapeCasts S1x768) (h2 : S1x768.Broadcasts S1024x768) :
    addf (matmul dot_S1024x256_S256x768_S1024x768_1_0_0_1_n_n none (truncf .bf16 x hb) (truncf .bf16 w2 hb)
          (constant (F := Ideal) S1024x768 .f32 0x00000000#32))
        (broadcastTo S1024x768 (shapeCast S1x768 b2 h1) h2)
      = Cert.Spec.dense (n := 1024) (d := 256) (h := 768) x w2 b2 := by
  funext j
  obtain ⟨p, q, rfl⟩ : ∃ (p : Fin 1024) (q : Fin 768), j = ix2 p q := ⟨j 0, j 1, eq_ix2 j⟩
  rw [addf_apply, pool_mm2_apply, pool_row_apply]
  simp only [truncf_apply]
  rfl

/-- The division of every row by its length kept above the small constant, as the body spells it: `normalize v`. -/
theorem pool_norm_eq (v : FVec Ideal S1024x768 .f32) (h : S1024x768.Reduces [1] S1024) (hφ : FKind.Formats .f32)
    (hacc : (0x00000000#32 : BitVec 32) = 0x00000000#32) (hc : S1024.ShapeCasts S1024x1) (hr : S1024x1.Broadcasts S1024x768) :
    divf v (broadcastTo S1024x768
        (maximumf (sqrt (shapeCast S1024x1 (multiReduction (F := Ideal) .add [1] S1024 (mulf v v) 0x00000000#32 h hφ hacc) hc))
          (broadcast S1024x1 (Scalar.ofBits (F := Ideal) .f32 0x2B8CBCCC#32))) hr)
      = Cert.Spec.normalize (n := 1024) (o := 768) v := by
  funext j
  obtain ⟨p, q, rfl⟩ : ∃ (p : Fin 1024) (q : Fin 768), j = ix2 p q := ⟨j 0, j 1, eq_ix2 j⟩
  rw [divf_apply, pool_colrep_apply, maximumf_apply, broadcast_apply, pool_sqrt_apply, pool_col_apply, pool_rowsum_apply]
  simp only [mulf_apply, Ideal.ofBits_def]
  rfl

/-! ## The body -/

/-- The body's stored value over operands typed as arrays of extended reals. -/
theorem pool_payload_aux (g : FVec Ideal S1024x256 .f32) (w1 : FVec Ideal S256x256 .f32) (b1 : FVec Ideal S256 .f32)
    (w2 : FVec Ideal S256x768 .f32) (b2 : FVec Ideal S768 .f32) :
    k8_pay1 (F := Ideal) g w1 b1 w2 b2 = Cert.Spec.pool (n := 1024) (d := 256) (o := 768) g w1 b1 w2 b2 := by
  unfold k8_pay1
  dsimp only
  rw [pool_hidden_eq, pool_out_eq, pool_norm_eq]
  rfl

/-- The readout kernel's stored value is `Spec.pool` of its five loaded blocks. -/
theorem pool_payload (g : Vec Ideal S1024x256 .f32) (w1 : Vec Ideal S256x256 .f32) (b1 : Vec Ideal S256 .f32)
    (w2 : Vec Ideal S256x768 .f32) (b2 : Vec Ideal S768 .f32) :
    k8_pay1 (F := Ideal) g w1 b1 w2 b2 = Cert.Spec.pool (n := 1024) (d := 256) (o := 768) g w1 b1 w2 b2 :=
  pool_payload_aux g w1 b1 w2 b2

end Cert.KernelIdeal.Val

end
-- ==== Proof.KPoolArr8.lean ====
/- Region 8: a row of the readout depends only on the same row of the pooled array, so the output's row blocks are row blocks of one whole-array function, and they fill the array. -/
import proofs.«422649_j18588618457330_1_alg».proof.Proof.Gen.KernelIdeal.Frame
import proofs.«422649_j18588618457330_1_alg».proof.Proof.Spec
import proofs.«422649_j18588618457330_1_alg».proof.Proof.KPoolPay
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-! ## A row of the readout is a function of the same row of its first argument -/

/-- An affine map works row by row: if row `r` of `v` is row `r'` of `v'`, row `r` of `v · W + b` is row `r'` of `v' · W + b`. -/
theorem dense_row {n n' d h : Nat} (v : Cert.Spec.A2 n d) (v' : Cert.Spec.A2 n' d) (W : Cert.Spec.A2 d h) (b : Cert.Spec.A1 h)
    (r : Fin n) (r' : Fin n') (hv : ∀ q : Fin d, v (ix2 r q) = v' (ix2 r' q)) (k : Fin h) :
    Cert.Spec.dense v W b (ix2 r k) = Cert.Spec.dense v' W b (ix2 r' k) := by
  show (∑ j : Fin d, v (ix2 r j) * W (ix2 j k)) + b (ix1 k) = (∑ j : Fin d, v' (ix2 r' j) * W (ix2 j k)) + b (ix1 k)
  simp only [hv]

/-- The clamp at zero is entrywise, so it keeps rows apart too. -/
theorem relu_row {n n' d : Nat} (v : Cert.Spec.A2 n d) (v' : Cert.Spec.A2 n' d)
    (r : Fin n) (r' : Fin n') (hv : ∀ q : Fin d, v (ix2 r q) = v' (ix2 r' q)) (k : Fin d) :
    Cert.Spec.relu v (ix2 r k) = Cert.Spec.relu v' (ix2 r' k) := by
  show max (v (ix2 r k)) 0 = max (v' (ix2 r' k)) 0
  rw [hv]

/-- Dividing a row by its own length looks at that row alone. -/
theorem normalize_row {n n' o : Nat} (v : Cert.Spec.A2 n o) (v' : Cert.Spec.A2 n' o)
    (r : Fin n) (r' : Fin n') (hv : ∀ q : Fin o, v (ix2 r q) = v' (ix2 r' q)) (k : Fin o) :
    Cert.Spec.normalize v (ix2 r k) = Cert.Spec.normalize v' (ix2 r' k) := by
  show Ideal.div (v (ix2 r k)) (max (Ideal.sqrt (∑ k' : Fin o, v (ix2 r k') * v (ix2 r k'))) Cert.Spec.eps)
    = Ideal.div (v' (ix2 r' k)) (max (Ideal.sqrt (∑ k' : Fin o, v' (ix2 r' k') * v' (ix2 r' k'))) Cert.Spec.eps)
  simp only [hv]

/-- So the readout does: if row `r` of `g` is row `r'` of `G`, row `r` of `pool g` is row `r'` of `pool G`, the weights and biases being the same. -/
theorem pool_row {n n' d o : Nat} (g : Cert.Spec.A2 n d) (G : Cert.Spec.A2 n' d) (W1 : Cert.Spec.A2 d d) (b1 : Cert.Spec.A1 d)
    (W2 : Cert.Spec.A2 d o) (b2 : Cert.Spec.A1 o) (r : Fin n) (r' : Fin n') (hg : ∀ q : Fin d, g (ix2 r q) = G (ix2 r' q)) (k : Fin o) :
    Cert.Spec.pool g W1 b1 W2 b2 (ix2 r k) = Cert.Spec.pool G W1 b1 W2 b2 (ix2 r' k) := by
  unfold Cert.Spec.pool Cert.Spec.head
  exact normalize_row _ _ r r' (dense_row _ _ W2 b2 r r' (relu_row _ _ r r' (dense_row g G W1 b1 r r' hg))) k

/-! ## The windows of region 8 over its four points -/

section Region8

variable (V : (c : Dev nD) → (b : Ref sig .tc) → Buf (Elt Ideal) ((c : Thread nD τ).loc b))

theorem off2_zero : (![0, 0] : Fin 2 → Nat) = fun _ => 0 := funext fun a => by fin_cases a <;> rfl
theorem off1_zero : (![0] : Fin 1 → Nat) = fun _ => 0 := funext fun a => by fin_cases a <;> rfl

/-- The windows' index maps, decided over the four points: the pooled array and the output move down one row block per
    point and stay in column block 0; the weights and biases stay at block 0 throughout. -/
theorem index_at_point8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 1) = 0
    ∧ win8_3.index t (0 : Fin 2) = 0 ∧ win8_3.index t (1 : Fin 2) = 0
    ∧ win8_4.index t (0 : Fin 1) = 0
    ∧ win8_5.index t (0 : Fin 2) = t.val ∧ win8_5.index t (1 : Fin 2) = 0 :=
  (by decide +kernel : ∀ t : Fin grid8.N, _)

/-- Block `t` of the pooled array is its rows `1024·t … 1024·t + 1023`, every column. -/
theorem pooled_block_apply (c : Dev nD) (t : Fin cfg8.N) (p : Fin 1024) (q : Fin 256) (hp : 1024 * t.val + p.val < 4096) :
    (iblk8 (F := Ideal) V c 0 t : Vec Ideal S1024x256 .f32) (ix2 p q)
      = (V c main_v204 : S4096x256.Idx → Elt Ideal .f32) (ix2 ⟨1024 * t.val + p.val, hp⟩ q) := by
  obtain ⟨e0, e1, -⟩ := index_at_point8 t
  unfold iblk8
  rw [View.read_apply]
  show V c main_v204 _ = V c main_v204 _
  congr 1
  funext a; apply Fin.ext
  match a with
  | ⟨0, _⟩ => show win8_0.index t (0 : Fin 2) * 1024 + 1 * p.val = 1024 * t.val + p.val; rw [e0]; omega
  | ⟨1, _⟩ => show win8_0.index t (1 : Fin 2) * 256 + 1 * q.val = q.val; rw [e1]; omega

/-- The first weight matrix's window is the whole matrix at every point. -/
theorem weight1_block_eq (c : Dev nD) (t : Fin cfg8.N) :
    (iblk8 (F := Ideal) V c 1 t : Vec Ideal S256x256 .f32) = (V c main_arg10 : S256x256.Idx → Elt Ideal .f32) := by
  obtain ⟨-, -, e0, e1, -⟩ := index_at_point8 t
  funext y
  unfold iblk8
  rw [View.read_apply]
  show V c main_arg10 _ = V c main_arg10 y
  congr 1
  funext a; apply Fin.ext
  match a with
  | ⟨0, _⟩ => show win8_1.index t (0 : Fin 2) * 256 + 1 * (y 0).val = (y 0).val; rw [e0]; omega
  | ⟨1, _⟩ => show win8_1.index t (1 : Fin 2) * 256 + 1 * (y 1).val = (y 1).val; rw [e1]; omega

/-- The first bias's window is the whole vector at every point. -/
theorem bias1_block_eq (c : Dev nD) (t : Fin cfg8.N) :
    (iblk8 (F := Ideal) V c 2 t : Vec Ideal S256 .f32) = (V c main_arg11 : S256.Idx → Elt Ideal .f32) := by
  obtain ⟨-, -, -, -, e0, -⟩ := index_at_point8 t
  funext y
  unfold iblk8
  rw [View.read_apply]
  show V c main_arg11 _ = V c main_arg11 y
  congr 1
  funext a; apply Fin.ext
  match a with
  | ⟨0, _⟩ => show win8_2.index t (0 : Fin 1) * 256 + 1 * (y 0).val = (y 0).val; rw [e0]; omega

/-- The second weight matrix's window is the whole matrix at every point. -/
theorem weight2_block_eq (c : Dev nD) (t : Fin cfg8.N) :
    (iblk8 (F := Ideal) V c 3 t : Vec Ideal S256x768 .f32) = (V c main_arg12 : S256x768.Idx → Elt Ideal .f32) := by
  obtain ⟨-, -, -, -, -, e0, e1, -⟩ := index_at_point8 t
  funext y
  unfold iblk8
  rw [View.read_apply]
  show V c main_arg12 _ = V c main_arg12 y
  congr 1
  funext a; apply Fin.ext
  match a with
  | ⟨0, _⟩ => show win8_3.index t (0 : Fin 2) * 256 + 1 * (y 0).val = (y 0).val; rw [e0]; omega
  | ⟨1, _⟩ => show win8_3.index t (1 : Fin 2) * 768 + 1 * (y 1).val = (y 1).val; rw [e1]; omega

/-- The second bias's window is the whole vector at every point. -/
theorem bias2_block_eq (c : Dev nD) (t : Fin cfg8.N) :
    (iblk8 (F := Ideal) V c 4 t : Vec Ideal S768 .f32) = (V c main_arg13 : S768.Idx → Elt Ideal .f32) := by
  obtain ⟨-, -, -, -, -, -, -, e0, -⟩ := index_at_point8 t
  funext y
  unfold iblk8
  rw [View.read_apply]
  show V c main_arg13 _ = V c main_arg13 y
  congr 1
  funext a; apply Fin.ext
  match a with
  | ⟨0, _⟩ => show win8_4.index t (0 : Fin 1) * 768 + 1 * (y 0).val = (y 0).val; rw [e0]; omega

/-! ## What each point writes back, and the array they fill -/

/-- Point `t` writes back block `t` of the readout of the whole pooled array: its body computes the readout of block
    `t` of the pooled array, which is rows `1024·t …` of the array, and the readout keeps rows apart. -/
theorem flushed8_pool (c : Dev nD) (t : Fin cfg8.N) :
    (dat8 (F := Ideal) V c).flushed 5 t
      = ((cfg8.win 5).blk t).view.read (Elt Ideal)
          (Cert.Spec.pool (n := 4096) (d := 256) (o := 768) (V c main_v204) (V c main_arg10) (V c main_arg11) (V c main_arg12) (V c main_arg13)) := by
  show (cfg8.win 5).cut (grid8.coords t) ((dat8 V c).after 5 t) = _
  rw [after8_5]
  unfold out8_5
  rw [View.canon_unit_zero off2_zero]
  simp only [View.ld_unit_zero (S := S1024x256) off2_zero, View.ld_unit_zero (S := S256x256) off2_zero,
    View.ld_unit_zero (S := S256) off1_zero, View.ld_unit_zero (S := S256x768) off2_zero, View.ld_unit_zero (S := S768) off1_zero]
  rw [pool_payload, weight1_block_eq, bias1_block_eq, weight2_block_eq, bias2_block_eq]
  obtain ⟨-, -, -, -, -, -, -, -, e0, e1⟩ := index_at_point8 t
  have ht : t.val < 4 := lt_of_lt_of_eq t.isLt (show cfg8.N = 4 from N_8)
  funext j
  obtain ⟨p, q, rfl⟩ : ∃ (p : Fin 1024) (q : Fin 768), j = ix2 p q := ⟨j 0, j 1, eq_ix2 j⟩
  have hp : 1024 * t.val + p.val < 4096 := by have := p.isLt; omega
  have hemb : ((cfg8.win 5).blk t).view.emb (ix2 p q) = ix2 (⟨1024 * t.val + p.val, hp⟩ : Fin 4096) q := by
    funext a; apply Fin.ext
    match a with
    | ⟨0, _⟩ => show win8_5.index t (0 : Fin 2) * 1024 + 1 * p.val = 1024 * t.val + p.val; rw [e0]; omega
    | ⟨1, _⟩ => show win8_5.index t (1 : Fin 2) * 768 + 1 * q.val = q.val; rw [e1]; omega
  rw [View.read_apply, hemb]
  exact pool_row _ _ _ _ _ _ p ⟨1024 * t.val + p.val, hp⟩ (fun q' => pooled_block_apply V c t p q' hp) q

/-- An index of the output array is in point `t`'s block iff each coordinate is in the block's range on its axis. -/
theorem mem_output_block8 (t : Fin cfg8.N) (i : S4096x768.Idx) :
    i ∈ ((cfg8.win 5).blk t).view.set
      ↔ ∀ a : Fin 2, win8_5.index t a * S1024x768.size a ≤ (i a).val ∧ (i a).val < win8_5.index t a * S1024x768.size a + S1024x768.size a := by
  show i ∈ ((View.whole main_v205).slice (win8_5.rect t)).set ↔ _
  rw [View.set_slice_whole, Rect.mem_set_unit]
  exact Iff.rfl

/-- Row `r` of the output lies in the block of point `r / 1024`, and every point writes back: the blocks fill the array. -/
theorem output_blocks_cover8 (i : S4096x768.Idx) :
    ∃ t : Fin cfg8.N, (cfg8.win 5).flush t = true ∧ i ∈ ((cfg8.win 5).blk t).view.set := by
  have hi0 : (i 0).val < 4096 := (i 0).isLt
  have hi1 : (i 1).val < 768 := (i 1).isLt
  obtain ⟨t, ht⟩ : ∃ t : Fin cfg8.N, t.val = (i 0).val / 1024 := ⟨⟨(i 0).val / 1024, by rw [show cfg8.N = 4 from N_8]; omega⟩, rfl⟩
  obtain ⟨-, -, -, -, -, -, -, -, e0, e1⟩ := index_at_point8 t
  refine ⟨t, flush8_5 t, ?_⟩
  rw [mem_output_block8]
  intro a
  match a with
  | ⟨0, _⟩ => show win8_5.index t (0 : Fin 2) * 1024 ≤ (i 0).val ∧ (i 0).val < win8_5.index t (0 : Fin 2) * 1024 + 1024; rw [e0, ht]; omega
  | ⟨1, _⟩ => show win8_5.index t (1 : Fin 2) * 768 ≤ (i 1).val ∧ (i 1).val < win8_5.index t (1 : Fin 2) * 768 + 768; rw [e1]; omega

end Region8

/-- After region 8 the output array holds `Cert.Spec.pool` of the arrays the region found, whatever they were. -/
theorem arrAt_pool8 (V : (c : Dev nD) → (b : Ref sig .tc) → Buf (Elt Ideal) ((c : Thread nD τ).loc b)) (c : Dev nD) :
    (dat8 (F := Ideal) V c).arrAt 5 cfg8.N = Cert.Spec.pool (n := 4096) (d := 256) (o := 768) (V c main_v204) (V c main_arg10) (V c main_arg11) (V c main_arg12) (V c main_arg13) :=
  (dat8 (F := Ideal) V c).arrAt_eq_of_cover 5 _ (fun t _ => flushed8_pool V c t) output_blocks_cover8

end Cert.KernelIdeal.Val

end
-- ==== Proof.KReadout.lean ====
/- The readout of the idealized kernel program: the result is the pooled, normalised head of the node array the last layer left. -/
import proofs.«422649_j18588618457330_1_alg».proof.Proof.Gen.KernelIdeal.Frame
import proofs.«422649_j18588618457330_1_alg».proof.Proof.KOps
import proofs.«422649_j18588618457330_1_alg».proof.Proof.KCarry
import proofs.«422649_j18588618457330_1_alg».proof.Proof.KPoolArr8
import Idealize.ShloMosaic.Lib.StableHlo.Run
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The pooled array region 8 finds: the host's zero array with every node row the last layer left added into its graph. -/
theorem pooled_at_entry (c : Dev nD) :
    (W18 m ρ c (Proc.devRef .tc main_v204) : S4096x256.Idx → Elt Ideal .f32)
      = gsum (W17 m ρ c (Proc.devRef .tc main_arg3)) (W17 m ρ c (Proc.devRef .tc main_v201)) := by
  unfold gsum
  show StableHlo.after hostOps8 (W17 m ρ c) (Proc.devRef .tc main_v204) = _
  after_results

/-- The result array. -/
theorem readout_value (c : Dev nD) :
    W19 m ρ c (Proc.devRef .tc main_v205) = Cert.Spec.pool (n := 4096) (d := 256) (o := 768) (gsum (m ((c : Thread nD τ).loc main_arg3)) (W17 m ρ c (Proc.devRef .tc main_v201))) (m ((c : Thread nD τ).loc main_arg10)) (m ((c : Thread nD τ).loc main_arg11)) (m ((c : Thread nD τ).loc main_arg12)) (m ((c : Thread nD τ).loc main_arg13)) := by
  have e204 : V18 m ρ c main_v204 = gsum (m ((c : Thread nD τ).loc main_arg3)) (W17 m ρ c (Proc.devRef .tc main_v201)) :=
    (pooled_at_entry m ρ c).trans (by rw [Cert.KernelIdeal.Carry.at17_main_arg3 m ρ c])
  have e10 : V18 m ρ c main_arg10 = m ((c : Thread nD τ).loc main_arg10) := Cert.KernelIdeal.Carry.at18_main_arg10 m ρ c
  have e11 : V18 m ρ c main_arg11 = m ((c : Thread nD τ).loc main_arg11) := Cert.KernelIdeal.Carry.at18_main_arg11 m ρ c
  have e12 : V18 m ρ c main_arg12 = m ((c : Thread nD τ).loc main_arg12) := Cert.KernelIdeal.Carry.at18_main_arg12 m ρ c
  have e13 : V18 m ρ c main_arg13 = m ((c : Thread nD τ).loc main_arg13) := Cert.KernelIdeal.Carry.at18_main_arg13 m ρ c
  refine (W19_arr m ρ c 5).trans ?_
  rw [arrAt_pool8 (V18 m ρ) c, e204, e10, e11, e12, e13]

end Cert.KernelIdeal.Val

end
-- ==== Proof.KValue.lean ====
/- The idealized kernel program's result as the network of its inputs: the first stretch's stages, four layers and the readout, chained. -/
import proofs.«422649_j18588618457330_1_alg».proof.Proof.Gen.KernelIdeal.Frame
import proofs.«422649_j18588618457330_1_alg».proof.Proof.KOps
import proofs.«422649_j18588618457330_1_alg».proof.Proof.KHost0
import proofs.«422649_j18588618457330_1_alg».proof.Proof.KLayer0
import proofs.«422649_j18588618457330_1_alg».proof.Proof.KLayer1
import proofs.«422649_j18588618457330_1_alg».proof.Proof.KLayer2
import proofs.«422649_j18588618457330_1_alg».proof.Proof.KLayer3
import proofs.«422649_j18588618457330_1_alg».proof.Proof.KReadout
import Idealize.ShloMosaic.Lib.StableHlo.Run
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The result array is the network of the fourteen inputs. -/
theorem kernel_value (c : Dev nD) :
    W19 m ρ c (Proc.devRef .tc main_v205) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [readout_value m ρ c, layer3_value m ρ c, layer2_value m ρ c, layer1_value m ρ c, layer0_value m ρ c,
    W2_nodes m ρ c, W2_edges m ρ c, W2_src m ρ c, W2_dst m ρ c]
  rfl

end Cert.KernelIdeal.Val

end
-- ==== Proof.KPre.lean ====
/- The precondition's last conjunct, read back: every source index of the edge list names a node. -/
import proofs.«422649_j18588618457330_1_alg».proof.Defs
import proofs.«422649_j18588618457330_1_alg».proof.Proof.Gen.Pre_finite_inputs
import proofs.«422649_j18588618457330_1_alg».proof.Proof.KOps
import Idealize.ShloMosaic.Lib.ValueIdx
import Idealize.ShloMosaic.Lib.StableHlo.Predicate
import Idealize.ShloMosaic.Lib.ReduceAll

set_option maxRecDepth 16384

noncomputable section

namespace Cert.KernelIdeal.Val

open Idealize.ShloMosaic Idealize.SL.Sem Cert.KernelIdeal
open Idealize.ShloMosaic.ValueIdx

/-- The last stretch of the predicate, when it is 1: every entry of `v` is at least 0 and every entry of row 0 of the
    edge list is below 100000, both read signed. -/
theorem pre_last_conjunct (a2 : IVec Cert.Pre_finite_inputs.S2x200000 32) (rest : IVec Cert.Pre_finite_inputs.S_ 1)
    (v : IVec Cert.Pre_finite_inputs.S200000 32)
    (sl : Cert.Pre_finite_inputs.S2x200000.Slices ![0, 0] Cert.Pre_finite_inputs.S1x200000)
    (sc : Cert.Pre_finite_inputs.S1x200000.ShapeCasts Cert.Pre_finite_inputs.S200000)
    (e : Cert.Pre_finite_inputs.fn_part3 (F := Ideal) a2 rest v (constantI Cert.Pre_finite_inputs.S_ 32 0#32) ix0 = 1#1)
    (i : Cert.Pre_finite_inputs.S200000.Idx) :
    0 ≤ (v i).toInt
      ∧ (shapeCast Cert.Pre_finite_inputs.S200000 (extractStridedSlice Cert.Pre_finite_inputs.S1x200000 ![0, 0] a2 sl) sc i).toInt < 100000 := by
  haveI : Subsingleton Cert.Pre_finite_inputs.S_.Idx := ⟨fun a b => funext fun d => d.elim0⟩
  unfold Cert.Pre_finite_inputs.fn_part3 at e
  dsimp only at e
  have e2 := (IntOp.andi_eq_one.1 e).2
  have e3 := Host.reduce_andi_all _ _ _ _ _ e2 i
  obtain ⟨g1, g2⟩ := IntOp.andi_eq_one.1 e3
  have k1 := IntOp.cmpi_sge.1 g1
  have k2 := IntOp.cmpi_slt.1 g2
  change (0#32 : BitVec 32).toInt ≤ (v i).toInt at k1
  change _ < (100000#32 : BitVec 32).toInt at k2
  rw [show (0#32 : BitVec 32).toInt = 0 from by decide] at k1
  rw [show (100000#32 : BitVec 32).toInt = 100000 from by decide] at k2
  exact ⟨k1, k2⟩

/-- Under the precondition every source index lies in the node range. -/
theorem src_in_range (m : (ℓ : Loc nD τ sig) → Buf (Elt Ideal) ℓ) (hpre : Cert.Pre_KernelIdeal m) (c : Dev nD) :
    SrcInRange (srcOf (m ((c.tc : Thread nD τ).loc main_arg2))) := by
  intro i
  have e := congrFun (hpre c) ix0
  unfold Cert.Pre_finite_inputs.fn Cert.Pre_finite_inputs.fn_part1 Cert.Pre_finite_inputs.fn_part2 at e
  dsimp only at e
  unfold srcOf
  exact pre_last_conjunct _ _ _ _ _ e i

end Cert.KernelIdeal.Val

end
-- ==== Proof.RStages.lean ====
/- The reference program's stages, layer by layer: each layer's node array is one node update of the
   aggregated messages of the node array before it, and the result is the readout of the pooled last one. The
   gathers and segment sums are kept as the host operations they are. -/
import proofs.«422649_j18588618457330_1_alg».proof.Proof.Gen.ReferenceIdeal.Read
import proofs.«422649_j18588618457330_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.ReferenceIdeal.Val

open Idealize.ShloMosaic Cert.ReferenceIdeal Cert.ReferenceIdeal.Read Cert.ReferenceIdeal.Facts₀ Cert.ReferenceIdeal.Facts

/-- The node row of every edge's source: the row gather at the wrapped source indices. -/
def takeR (x : (⟨S100000x256, .f32⟩ : BufTy).Contents (Elt Ideal)) (x2 : (⟨S2x200000, .i32⟩ : BufTy).Contents (Elt Ideal)) : (⟨S200000x256, .f32⟩ : BufTy).Contents (Elt Ideal) :=
  Host.gather gather_S100000x256_S200000x1_S200000x256_1_0_n_n_0_1_1256 x (val_main_v27 (F := Ideal) x2)

/-- Edge rows added into their destination nodes, from zero. -/
def segsumR (x2 : (⟨S2x200000, .i32⟩ : BufTy).Contents (Elt Ideal)) (u : (⟨S200000x256, .f32⟩ : BufTy).Contents (Elt Ideal)) : (⟨S100000x256, .f32⟩ : BufTy).Contents (Elt Ideal) :=
  Host.scatterAdd (F := Ideal) (φ := .f32) scatter_S100000x256_S200000x1_S200000x256_1_0_0_1 (val_main_v31 (F := Ideal)) (val_main_v32 (F := Ideal) x2) u

/-- Node rows added into their graphs, from zero. -/
def gsumR (x3 : (⟨S100000, .i32⟩ : BufTy).Contents (Elt Ideal)) (x : (⟨S100000x256, .f32⟩ : BufTy).Contents (Elt Ideal)) : (⟨S4096x256, .f32⟩ : BufTy).Contents (Elt Ideal) :=
  Host.scatterAdd (F := Ideal) (φ := .f32) scatter_S4096x256_S100000x1_S100000x256_1_0_0_1 (val_main_v146 (F := Ideal)) (val_main_v147 (F := Ideal) x3) x

/-- One message-passing layer on the node array `x`. -/
def layerR (w1 : (⟨S256x512, .f32⟩ : BufTy).Contents (Elt Ideal)) (b1 : (⟨S512, .f32⟩ : BufTy).Contents (Elt Ideal)) (w2 : (⟨S512x256, .f32⟩ : BufTy).Contents (Elt Ideal)) (b2 : (⟨S256, .f32⟩ : BufTy).Contents (Elt Ideal))
    (e : (⟨S200000x256, .f32⟩ : BufTy).Contents (Elt Ideal)) (x2 : (⟨S2x200000, .i32⟩ : BufTy).Contents (Elt Ideal)) (x : (⟨S100000x256, .f32⟩ : BufTy).Contents (Elt Ideal)) : (⟨S100000x256, .f32⟩ : BufTy).Contents (Elt Ideal) :=
  Cert.Spec.upd (n := 100000) (d := 256) (h := 512) x (segsumR x2 (Cert.Spec.msg (a := 200000) (b := 256) (takeR x x2) e)) w1 b1 w2 b2

/-! ### Products, bias rows and clamps, index by index

Each host product has one contracted axis: its entry at row `p` and column `q` is the sum over the contracted
coordinate of the left operand's row entry times the right operand's column entry. A bias vector is laid along one
row and repeated down the rows. A clamp is the maximum with an array of zeros. -/

open Idealize.ShloMosaic.ValueIdx
open scoped BigOperators

/-- A length-`a` vector laid along a `1 × a` row and repeated down `n` rows reads, at `(p, q)`, its entry `q`. -/
theorem bias_rows_apply {α : Type} {n a : ℕ} (b : (⟨1, ![a]⟩ : Shape).Idx → α)
    (h1 : (⟨1, ![a]⟩ : Shape).BroadcastsInDim ⟨2, ![1, a]⟩ ![1])
    (h2 : (⟨2, ![1, a]⟩ : Shape).BroadcastsInDim ⟨2, ![n, a]⟩ ![0, 1]) (p : Fin n) (q : Fin a) :
    broadcastInDim ⟨2, ![n, a]⟩ ![0, 1] h2 (broadcastInDim ⟨2, ![1, a]⟩ ![1] h1 b) (ix2 p q) = b (ix1 q) := by
  refine (broadcastInDim_apply ![0, 1] h2 _ (ix2 p q) (ix2 (0 : Fin 1) q) fun ax => ?_).trans
    (broadcastInDim_apply ![1] h1 b (ix2 (0 : Fin 1) q) (ix1 q) fun ax => ?_)
  · match ax with
    | ⟨0, _⟩ =>
      show (0 : ℕ) = if (1 : ℕ) = 1 then 0 else p.val
      rw [if_pos rfl]
    | ⟨1, _⟩ =>
      show q.val = if a = 1 then 0 else q.val
      split
      · have := q.isLt; omega
      · rfl
  · match ax with
    | ⟨0, _⟩ =>
      show q.val = if a = 1 then 0 else q.val
      split
      · have := q.isLt; omega
      · rfl

/-- The hidden layer's product, a `100000 × 256` by a `256 × 512` matrix, at `(p, q)`. -/
theorem dot_hidden_apply (A : FVec Ideal S100000x256 .f32) (B : FVec Ideal S256x512 .f32) (p : Fin 100000) (q : Fin 512) :
    Host.dotGeneral dot_S100000x256_S256x512_S100000x512_1_0_0_1_n_n none A B (ix2 p q)
      = ∑ c : Fin 256, A (ix2 p c) * B (ix2 c q) := by
  show FloatOps.dotGeneral dot_S100000x256_S256x512_S100000x512_1_0_0_1_n_n none _ A B (ix2 p q) = _
  rw [Ideal.dotGeneral_apply, ← Equiv.sum_comp (contrEquiv1 dot_S100000x256_S256x512_S100000x512_1_0_0_1_n_n 256 rfl rfl).symm]
  refine Finset.sum_congr rfl fun c _ => ?_
  have hc := contrEquiv1_symm_val dot_S100000x256_S256x512_S100000x512_1_0_0_1_n_n 256 rfl rfl c
  have hl : dot_S100000x256_S256x512_S100000x512_1_0_0_1_n_n.lhsIdx (ix2 p q) ((contrEquiv1 dot_S100000x256_S256x512_S100000x512_1_0_0_1_n_n 256 rfl rfl).symm c) = ix2 p c := by
    funext ax; apply Fin.ext
    match ax with
    | ⟨0, _⟩ => exact lhs_main_v37_0 _ _
    | ⟨1, _⟩ => exact (lhs_main_v37_1 _ _).trans hc
  have hr : dot_S100000x256_S256x512_S100000x512_1_0_0_1_n_n.rhsIdx (ix2 p q) ((contrEquiv1 dot_S100000x256_S256x512_S100000x512_1_0_0_1_n_n 256 rfl rfl).symm c) = ix2 c q := by
    funext ax; apply Fin.ext
    match ax with
    | ⟨0, _⟩ => exact (rhs_main_v37_0 _ _).trans hc
    | ⟨1, _⟩ => exact rhs_main_v37_1 _ _
  rw [hl, hr]

/-- The output layer's product, a `100000 × 512` by a `512 × 256` matrix, at `(p, q)`. -/
theorem dot_out_apply (A : FVec Ideal S100000x512 .f32) (B : FVec Ideal S512x256 .f32) (p : Fin 100000) (q : Fin 256) :
    Host.dotGeneral dot_S100000x512_S512x256_S100000x256_1_0_0_1_n_n none A B (ix2 p q)
      = ∑ c : Fin 512, A (ix2 p c) * B (ix2 c q) := by
  show FloatOps.dotGeneral dot_S100000x512_S512x256_S100000x256_1_0_0_1_n_n none _ A B (ix2 p q) = _
  rw [Ideal.dotGeneral_apply, ← Equiv.sum_comp (contrEquiv1 dot_S100000x512_S512x256_S100000x256_1_0_0_1_n_n 512 rfl rfl).symm]
  refine Finset.sum_congr rfl fun c _ => ?_
  have hc := contrEquiv1_symm_val dot_S100000x512_S512x256_S100000x256_1_0_0_1_n_n 512 rfl rfl c
  have hl : dot_S100000x512_S512x256_S100000x256_1_0_0_1_n_n.lhsIdx (ix2 p q) ((contrEquiv1 dot_S100000x512_S512x256_S100000x256_1_0_0_1_n_n 512 rfl rfl).symm c) = ix2 p c := by
    funext ax; apply Fin.ext
    match ax with
    | ⟨0, _⟩ => exact lhs_main_v46_0 _ _
    | ⟨1, _⟩ => exact (lhs_main_v46_1 _ _).trans hc
  have hr : dot_S100000x512_S512x256_S100000x256_1_0_0_1_n_n.rhsIdx (ix2 p q) ((contrEquiv1 dot_S100000x512_S512x256_S100000x256_1_0_0_1_n_n 512 rfl rfl).symm c) = ix2 c q := by
    funext ax; apply Fin.ext
    match ax with
    | ⟨0, _⟩ => exact (rhs_main_v46_0 _ _).trans hc
    | ⟨1, _⟩ => exact rhs_main_v46_1 _ _
  rw [hl, hr]

/-- The readout's first product, a `4096 × 256` by a `256 × 256` matrix, at `(p, q)`. -/
theorem dot_pool_hidden_apply (A : FVec Ideal S4096x256 .f32) (B : FVec Ideal S256x256 .f32) (p : Fin 4096) (q : Fin 256) :
    Host.dotGeneral dot_S4096x256_S256x256_S4096x256_1_0_0_1_n_n none A B (ix2 p q)
      = ∑ c : Fin 256, A (ix2 p c) * B (ix2 c q) := by
  show FloatOps.dotGeneral dot_S4096x256_S256x256_S4096x256_1_0_0_1_n_n none _ A B (ix2 p q) = _
  rw [Ideal.dotGeneral_apply, ← Equiv.sum_comp (contrEquiv1 dot_S4096x256_S256x256_S4096x256_1_0_0_1_n_n 256 rfl rfl).symm]
  refine Finset.sum_congr rfl fun c _ => ?_
  have hc := contrEquiv1_symm_val dot_S4096x256_S256x256_S4096x256_1_0_0_1_n_n 256 rfl rfl c
  have hl : dot_S4096x256_S256x256_S4096x256_1_0_0_1_n_n.lhsIdx (ix2 p q) ((contrEquiv1 dot_S4096x256_S256x256_S4096x256_1_0_0_1_n_n 256 rfl rfl).symm c) = ix2 p c := by
    funext ax; apply Fin.ext
    match ax with
    | ⟨0, _⟩ => exact lhs_main_v149_0 _ _
    | ⟨1, _⟩ => exact (lhs_main_v149_1 _ _).trans hc
  have hr : dot_S4096x256_S256x256_S4096x256_1_0_0_1_n_n.rhsIdx (ix2 p q) ((contrEquiv1 dot_S4096x256_S256x256_S4096x256_1_0_0_1_n_n 256 rfl rfl).symm c) = ix2 c q := by
    funext ax; apply Fin.ext
    match ax with
    | ⟨0, _⟩ => exact (rhs_main_v149_0 _ _).trans hc
    | ⟨1, _⟩ => exact rhs_main_v149_1 _ _
  rw [hl, hr]

/-- The readout's second product, a `4096 × 256` by a `256 × 768` matrix, at `(p, q)`. -/
theorem dot_pool_out_apply (A : FVec Ideal S4096x256 .f32) (B : FVec Ideal S256x768 .f32) (p : Fin 4096) (q : Fin 768) :
    Host.dotGeneral dot_S4096x256_S256x768_S4096x768_1_0_0_1_n_n none A B (ix2 p q)
      = ∑ c : Fin 256, A (ix2 p c) * B (ix2 c q) := by
  show FloatOps.dotGeneral dot_S4096x256_S256x768_S4096x768_1_0_0_1_n_n none _ A B (ix2 p q) = _
  rw [Ideal.dotGeneral_apply, ← Equiv.sum_comp (contrEquiv1 dot_S4096x256_S256x768_S4096x768_1_0_0_1_n_n 256 rfl rfl).symm]
  refine Finset.sum_congr rfl fun c _ => ?_
  have hc := contrEquiv1_symm_val dot_S4096x256_S256x768_S4096x768_1_0_0_1_n_n 256 rfl rfl c
  have hl : dot_S4096x256_S256x768_S4096x768_1_0_0_1_n_n.lhsIdx (ix2 p q) ((contrEquiv1 dot_S4096x256_S256x768_S4096x768_1_0_0_1_n_n 256 rfl rfl).symm c) = ix2 p c := by
    funext ax; apply Fin.ext
    match ax with
    | ⟨0, _⟩ => exact lhs_main_v154_0 _ _
    | ⟨1, _⟩ => exact (lhs_main_v154_1 _ _).trans hc
  have hr : dot_S4096x256_S256x768_S4096x768_1_0_0_1_n_n.rhsIdx (ix2 p q) ((contrEquiv1 dot_S4096x256_S256x768_S4096x768_1_0_0_1_n_n 256 rfl rfl).symm c) = ix2 c q := by
    funext ax; apply Fin.ext
    match ax with
    | ⟨0, _⟩ => exact (rhs_main_v154_0 _ _).trans hc
    | ⟨1, _⟩ => exact rhs_main_v154_1 _ _
  rw [hl, hr]

/-- The hidden layer's product plus its bias rows is the affine map `dense`. -/
theorem dense_hidden (A : FVec Ideal S100000x256 .f32) (W : FVec Ideal S256x512 .f32) (b : FVec Ideal S512 .f32) :
    addf (F := Ideal) (Host.dotGeneral dot_S100000x256_S256x512_S100000x512_1_0_0_1_n_n none A W)
        (broadcastInDim S100000x512 ![0, 1] bcast_S1x512_S100000x512_0_1 (broadcastInDim S1x512 ![1] bcast_S512_S1x512_1 b))
      = Cert.Spec.dense (n := 100000) (d := 256) (h := 512) A W b := by
  funext i
  obtain ⟨p, q, rfl⟩ : ∃ (p : Fin 100000) (q : Fin 512), i = ix2 p q := ⟨i 0, i 1, eq_ix2 i⟩
  rw [addf_apply, dot_hidden_apply, bias_rows_apply b bcast_S512_S1x512_1 bcast_S1x512_S100000x512_0_1 p q]
  rfl

/-- The output layer's product plus its bias rows is the affine map `dense`. -/
theorem dense_out (A : FVec Ideal S100000x512 .f32) (W : FVec Ideal S512x256 .f32) (b : FVec Ideal S256 .f32) :
    addf (F := Ideal) (Host.dotGeneral dot_S100000x512_S512x256_S100000x256_1_0_0_1_n_n none A W)
        (broadcastInDim S100000x256 ![0, 1] bcast_S1x256_S100000x256_0_1 (broadcastInDim S1x256 ![1] bcast_S256_S1x256_1 b))
      = Cert.Spec.dense (n := 100000) (d := 512) (h := 256) A W b := by
  funext i
  obtain ⟨p, q, rfl⟩ : ∃ (p : Fin 100000) (q : Fin 256), i = ix2 p q := ⟨i 0, i 1, eq_ix2 i⟩
  rw [addf_apply, dot_out_apply, bias_rows_apply b bcast_S256_S1x256_1 bcast_S1x256_S100000x256_0_1 p q]
  rfl

/-- The readout's first product plus its bias rows is the affine map `dense`. -/
theorem dense_pool_hidden (A : FVec Ideal S4096x256 .f32) (W : FVec Ideal S256x256 .f32) (b : FVec Ideal S256 .f32) :
    addf (F := Ideal) (Host.dotGeneral dot_S4096x256_S256x256_S4096x256_1_0_0_1_n_n none A W)
        (broadcastInDim S4096x256 ![0, 1] bcast_S1x256_S4096x256_0_1 (broadcastInDim S1x256 ![1] bcast_S256_S1x256_1 b))
      = Cert.Spec.dense (n := 4096) (d := 256) (h := 256) A W b := by
  funext i
  obtain ⟨p, q, rfl⟩ : ∃ (p : Fin 4096) (q : Fin 256), i = ix2 p q := ⟨i 0, i 1, eq_ix2 i⟩
  rw [addf_apply, dot_pool_hidden_apply, bias_rows_apply b bcast_S256_S1x256_1 bcast_S1x256_S4096x256_0_1 p q]
  rfl

/-- The readout's second product plus its bias rows is the affine map `dense`. -/
theorem dense_pool_out (A : FVec Ideal S4096x256 .f32) (W : FVec Ideal S256x768 .f32) (b : FVec Ideal S768 .f32) :
    addf (F := Ideal) (Host.dotGeneral dot_S4096x256_S256x768_S4096x768_1_0_0_1_n_n none A W)
        (broadcastInDim S4096x768 ![0, 1] bcast_S1x768_S4096x768_0_1 (broadcastInDim S1x768 ![1] bcast_S768_S1x768_1 b))
      = Cert.Spec.dense (n := 4096) (d := 256) (h := 768) A W b := by
  funext i
  obtain ⟨p, q, rfl⟩ : ∃ (p : Fin 4096) (q : Fin 768), i = ix2 p q := ⟨i 0, i 1, eq_ix2 i⟩
  rw [addf_apply, dot_pool_out_apply, bias_rows_apply b bcast_S768_S1x768_1 bcast_S1x768_S4096x768_0_1 p q]
  rfl

/-- The maximum with an array of zeros is the clamp at zero. -/
theorem relu_stage {a b : ℕ} (v z : FVec Ideal ⟨2, ![a, b]⟩ .f32) (hz : ∀ i, z i = 0) :
    maximumf (F := Ideal) v z = Cert.Spec.relu (a := a) (b := b) v := by
  funext i
  rw [maximumf_apply, hz]
  rfl

/-- The gathered rows plus the edge rows, clamped at zero, are the messages. -/
theorem msg_stage (g e z : FVec Ideal S200000x256 .f32) (hz : ∀ i, z i = 0) :
    maximumf (F := Ideal) (addf (F := Ideal) g e) z = Cert.Spec.msg (a := 200000) (b := 256) g e := by
  funext i
  rw [maximumf_apply, addf_apply, hz]
  rfl

/-- The node rows plus the aggregated messages, through the two affine maps with a clamp after each, are the node
    update. -/
theorem upd_stage (x agg : FVec Ideal S100000x256 .f32) (w1 : FVec Ideal S256x512 .f32) (b1 : FVec Ideal S512 .f32)
    (w2 : FVec Ideal S512x256 .f32) (b2 : FVec Ideal S256 .f32)
    (zh : FVec Ideal S100000x512 .f32) (zo : FVec Ideal S100000x256 .f32)
    (hzh : ∀ i, zh i = 0) (hzo : ∀ i, zo i = 0) :
    maximumf (F := Ideal)
        (addf (F := Ideal)
          (Host.dotGeneral dot_S100000x512_S512x256_S100000x256_1_0_0_1_n_n none
            (maximumf (F := Ideal)
              (addf (F := Ideal)
                (Host.dotGeneral dot_S100000x256_S256x512_S100000x512_1_0_0_1_n_n none (addf (F := Ideal) x agg) w1)
                (broadcastInDim S100000x512 ![0, 1] bcast_S1x512_S100000x512_0_1 (broadcastInDim S1x512 ![1] bcast_S512_S1x512_1 b1)))
              zh)
            w2)
          (broadcastInDim S100000x256 ![0, 1] bcast_S1x256_S100000x256_0_1 (broadcastInDim S1x256 ![1] bcast_S256_S1x256_1 b2)))
        zo
      = Cert.Spec.upd (n := 100000) (d := 256) (h := 512) x agg w1 b1 w2 b2 := by
  rw [dense_hidden, relu_stage _ zh hzh, dense_out, relu_stage _ zo hzo]
  rfl

/-! ### The arrays of zeros the clamps compare with -/

theorem zero_call0 (i : S200000x256.Idx) : (val_main_call0_v0 (F := Ideal) i : EReal) = 0 := by
  rw [val_main_call0_v0_apply, val_main_call0_cst_apply]; exact Ideal.ofBits_zero_f32
theorem zero_call1 (i : S100000x512.Idx) : (val_main_call1_v0 (F := Ideal) i : EReal) = 0 := by
  rw [val_main_call1_v0_apply, val_main_call1_cst_apply]; exact Ideal.ofBits_zero_f32
theorem zero_call2 (i : S100000x256.Idx) : (val_main_call2_v0 (F := Ideal) i : EReal) = 0 := by
  rw [val_main_call2_v0_apply, val_main_call2_cst_apply]; exact Ideal.ofBits_zero_f32
theorem zero_call3 (i : S200000x256.Idx) : (val_main_call3_v0 (F := Ideal) i : EReal) = 0 := by
  rw [val_main_call3_v0_apply, val_main_call3_cst_apply]; exact Ideal.ofBits_zero_f32
theorem zero_call4 (i : S100000x512.Idx) : (val_main_call4_v0 (F := Ideal) i : EReal) = 0 := by
  rw [val_main_call4_v0_apply, val_main_call4_cst_apply]; exact Ideal.ofBits_zero_f32
theorem zero_call5 (i : S100000x256.Idx) : (val_main_call5_v0 (F := Ideal) i : EReal) = 0 := by
  rw [val_main_call5_v0_apply, val_main_call5_cst_apply]; exact Ideal.ofBits_zero_f32
theorem zero_call6 (i : S200000x256.Idx) : (val_main_call6_v0 (F := Ideal) i : EReal) = 0 := by
  rw [val_main_call6_v0_apply, val_main_call6_cst_apply]; exact Ideal.ofBits_zero_f32
theorem zero_call7 (i : S100000x512.Idx) : (val_main_call7_v0 (F := Ideal) i : EReal) = 0 := by
  rw [val_main_call7_v0_apply, val_main_call7_cst_apply]; exact Ideal.ofBits_zero_f32
theorem zero_call8 (i : S100000x256.Idx) : (val_main_call8_v0 (F := Ideal) i : EReal) = 0 := by
  rw [val_main_call8_v0_apply, val_main_call8_cst_apply]; exact Ideal.ofBits_zero_f32
theorem zero_call9 (i : S200000x256.Idx) : (val_main_call9_v0 (F := Ideal) i : EReal) = 0 := by
  rw [val_main_call9_v0_apply, val_main_call9_cst_apply]; exact Ideal.ofBits_zero_f32
theorem zero_call10 (i : S100000x512.Idx) : (val_main_call10_v0 (F := Ideal) i : EReal) = 0 := by
  rw [val_main_call10_v0_apply, val_main_call10_cst_apply]; exact Ideal.ofBits_zero_f32
theorem zero_call11 (i : S100000x256.Idx) : (val_main_call11_v0 (F := Ideal) i : EReal) = 0 := by
  rw [val_main_call11_v0_apply, val_main_call11_cst_apply]; exact Ideal.ofBits_zero_f32
theorem zero_call12 (i : S4096x256.Idx) : (val_main_call12_v0 (F := Ideal) i : EReal) = 0 := by
  rw [val_main_call12_v0_apply, val_main_call12_cst_apply]; exact Ideal.ofBits_zero_f32

variable (x0 : (⟨S100000x9, .i32⟩ : BufTy).Contents (Elt Ideal)) (x1 : (⟨S200000x3, .i32⟩ : BufTy).Contents (Elt Ideal)) (x2 : (⟨S2x200000, .i32⟩ : BufTy).Contents (Elt Ideal)) (x3 : (⟨S100000, .i32⟩ : BufTy).Contents (Elt Ideal)) (x4 : (⟨S9x119x256, .f32⟩ : BufTy).Contents (Elt Ideal)) (x5 : (⟨S3x22x256, .f32⟩ : BufTy).Contents (Elt Ideal)) (x6 : (⟨S4x256x512, .f32⟩ : BufTy).Contents (Elt Ideal)) (x7 : (⟨S4x512, .f32⟩ : BufTy).Contents (Elt Ideal)) (x8 : (⟨S4x512x256, .f32⟩ : BufTy).Contents (Elt Ideal)) (x9 : (⟨S4x256, .f32⟩ : BufTy).Contents (Elt Ideal)) (x10 : (⟨S256x256, .f32⟩ : BufTy).Contents (Elt Ideal)) (x11 : (⟨S256, .f32⟩ : BufTy).Contents (Elt Ideal)) (x12 : (⟨S256x768, .f32⟩ : BufTy).Contents (Elt Ideal)) (x13 : (⟨S768, .f32⟩ : BufTy).Contents (Elt Ideal))

/-! ### The index, zero and column stages that later layers recompute -/

/-- Layer 1's source indices are wrapped the same way as layer 0's. -/
theorem src_idx_1 : val_main_v58 (F := Ideal) x2 = val_main_v27 (F := Ideal) x2 := by
  unfold val_main_v58 val_main_v57 val_main_v54 val_main_v56 val_main_v53 val_main_v55 val_main_c_7 val_main_c_8
    val_main_v27 val_main_v26 val_main_v23 val_main_v25 val_main_v22 val_main_v24 val_main_c_4 val_main_c_5
  rfl
/-- Layer 1's segment sum starts from the same zeros as layer 0's. -/
theorem zero_rows_1 : val_main_v62 (F := Ideal) = val_main_v31 (F := Ideal) := by
  unfold val_main_v62 val_main_cst_9 val_main_v31 val_main_cst_6
  rfl
/-- Layer 1's destination column is layer 0's. -/
theorem dst_col_1 : val_main_v63 (F := Ideal) x2 = val_main_v32 (F := Ideal) x2 := by
  unfold val_main_v63 val_main_v32
  rfl
/-- Layer 2's source indices are wrapped the same way as layer 0's. -/
theorem src_idx_2 : val_main_v89 (F := Ideal) x2 = val_main_v27 (F := Ideal) x2 := by
  unfold val_main_v89 val_main_v88 val_main_v85 val_main_v87 val_main_v84 val_main_v86 val_main_c_10 val_main_c_11
    val_main_v27 val_main_v26 val_main_v23 val_main_v25 val_main_v22 val_main_v24 val_main_c_4 val_main_c_5
  rfl
/-- Layer 2's segment sum starts from the same zeros as layer 0's. -/
theorem zero_rows_2 : val_main_v93 (F := Ideal) = val_main_v31 (F := Ideal) := by
  unfold val_main_v93 val_main_cst_12 val_main_v31 val_main_cst_6
  rfl
/-- Layer 2's destination column is layer 0's. -/
theorem dst_col_2 : val_main_v94 (F := Ideal) x2 = val_main_v32 (F := Ideal) x2 := by
  unfold val_main_v94 val_main_v32
  rfl
/-- Layer 3's source indices are wrapped the same way as layer 0's. -/
theorem src_idx_3 : val_main_v120 (F := Ideal) x2 = val_main_v27 (F := Ideal) x2 := by
  unfold val_main_v120 val_main_v119 val_main_v116 val_main_v118 val_main_v115 val_main_v117 val_main_c_13 val_main_c_14
    val_main_v27 val_main_v26 val_main_v23 val_main_v25 val_main_v22 val_main_v24 val_main_c_4 val_main_c_5
  rfl
/-- Layer 3's segment sum starts from the same zeros as layer 0's. -/
theorem zero_rows_3 : val_main_v124 (F := Ideal) = val_main_v31 (F := Ideal) := by
  unfold val_main_v124 val_main_cst_15 val_main_v31 val_main_cst_6
  rfl
/-- Layer 3's destination column is layer 0's. -/
theorem dst_col_3 : val_main_v125 (F := Ideal) x2 = val_main_v32 (F := Ideal) x2 := by
  unfold val_main_v125 val_main_v32
  rfl

/-! ### The four layers -/

theorem layer0R : val_main_v52 (F := Ideal) x0 x1 x2 x4 x5 x6 x7 x8 x9 =
    layerR (val_main_v36 (F := Ideal) x6) (val_main_v39 (F := Ideal) x7) (val_main_v45 (F := Ideal) x8) (val_main_v48 (F := Ideal) x9)
      (val_main_v17 (F := Ideal) x1 x5) x2 (val_main_v8 (F := Ideal) x0 x4) := by
  unfold val_main_v52 val_main_v51 val_main_v50 val_main_v49 val_main_v46 val_main_v43 val_main_v42 val_main_v41
    val_main_v40 val_main_v37 val_main_v34 val_main_v33 val_main_v30 val_main_v29 val_main_v28
  unfold layerR segsumR takeR
  rw [msg_stage _ _ _ zero_call0]
  exact upd_stage _ _ _ _ _ _ _ _ zero_call1 zero_call2
theorem layer1R : val_main_v83 (F := Ideal) x0 x1 x2 x4 x5 x6 x7 x8 x9 =
    layerR (val_main_v67 (F := Ideal) x6) (val_main_v70 (F := Ideal) x7) (val_main_v76 (F := Ideal) x8) (val_main_v79 (F := Ideal) x9)
      (val_main_v17 (F := Ideal) x1 x5) x2 (val_main_v52 (F := Ideal) x0 x1 x2 x4 x5 x6 x7 x8 x9) := by
  unfold val_main_v83 val_main_v82 val_main_v81 val_main_v80 val_main_v77 val_main_v74 val_main_v73 val_main_v72
    val_main_v71 val_main_v68 val_main_v65 val_main_v64 val_main_v61 val_main_v60 val_main_v59
  unfold layerR segsumR takeR
  rw [src_idx_1, zero_rows_1, dst_col_1, msg_stage _ _ _ zero_call3]
  exact upd_stage _ _ _ _ _ _ _ _ zero_call4 zero_call5
theorem layer2R : val_main_v114 (F := Ideal) x0 x1 x2 x4 x5 x6 x7 x8 x9 =
    layerR (val_main_v98 (F := Ideal) x6) (val_main_v101 (F := Ideal) x7) (val_main_v107 (F := Ideal) x8) (val_main_v110 (F := Ideal) x9)
      (val_main_v17 (F := Ideal) x1 x5) x2 (val_main_v83 (F := Ideal) x0 x1 x2 x4 x5 x6 x7 x8 x9) := by
  unfold val_main_v114 val_main_v113 val_main_v112 val_main_v111 val_main_v108 val_main_v105 val_main_v104 val_main_v103
    val_main_v102 val_main_v99 val_main_v96 val_main_v95 val_main_v92 val_main_v91 val_main_v90
  unfold layerR segsumR takeR
  rw [src_idx_2, zero_rows_2, dst_col_2, msg_stage _ _ _ zero_call6]
  exact upd_stage _ _ _ _ _ _ _ _ zero_call7 zero_call8
theorem layer3R : val_main_v145 (F := Ideal) x0 x1 x2 x4 x5 x6 x7 x8 x9 =
    layerR (val_main_v129 (F := Ideal) x6) (val_main_v132 (F := Ideal) x7) (val_main_v138 (F := Ideal) x8) (val_main_v141 (F := Ideal) x9)
      (val_main_v17 (F := Ideal) x1 x5) x2 (val_main_v114 (F := Ideal) x0 x1 x2 x4 x5 x6 x7 x8 x9) := by
  unfold val_main_v145 val_main_v144 val_main_v143 val_main_v142 val_main_v139 val_main_v136 val_main_v135 val_main_v134
    val_main_v133 val_main_v130 val_main_v127 val_main_v126 val_main_v123 val_main_v122 val_main_v121
  unfold layerR segsumR takeR
  rw [src_idx_3, zero_rows_3, dst_col_3, msg_stage _ _ _ zero_call9]
  exact upd_stage _ _ _ _ _ _ _ _ zero_call10 zero_call11
/-! ### The readout -/

/-- The two affine maps of the readout, before the rows are normalised. -/
theorem head_stage : val_main_v157 (F := Ideal) x0 x1 x2 x3 x4 x5 x6 x7 x8 x9 x10 x11 x12 x13 =
    Cert.Spec.head (n := 4096) (d := 256) (o := 768) (gsumR x3 (val_main_v145 (F := Ideal) x0 x1 x2 x4 x5 x6 x7 x8 x9)) x10 x11 x12 x13 := by
  unfold val_main_v157 val_main_v156 val_main_v155 val_main_v154 val_main_v153 val_main_v152 val_main_v151 val_main_v150
    val_main_v149 val_main_v148
  unfold gsumR
  rw [dense_pool_hidden, relu_stage _ _ zero_call12, dense_pool_out]
  rfl

theorem readoutR : val_main_v162 (F := Ideal) x0 x1 x2 x3 x4 x5 x6 x7 x8 x9 x10 x11 x12 x13 =
    Cert.Spec.pool (n := 4096) (d := 256) (o := 768) (gsumR x3 (val_main_v145 (F := Ideal) x0 x1 x2 x4 x5 x6 x7 x8 x9)) x10 x11 x12 x13 := by
  funext i
  obtain ⟨p, q, rfl⟩ : ∃ (p : Fin 4096) (q : Fin 768), i = ix2 p q := ⟨i 0, i 1, eq_ix2 i⟩
  rw [val_main_v162_apply, val_main_v161_apply, val_main_v160_apply, val_main_v158_apply, val_main_call13_v2_apply,
    val_main_call13_v1_apply, val_main_v159_apply, val_main_cst_17_apply, val_main_call13_cst_apply]
  simp only [val_main_call13_v0_apply]
  rw [head_stage]
  have hrow : ∀ k : Fin 768, idx_main_call13_v1 (idx_main_call13_v2 (idx_main_v161 (ix2 p q))) k = ix2 p k := fun k =>
    funext fun a => Fin.ext (by match a with | ⟨0, _⟩ => rfl | ⟨1, _⟩ => rfl)
  simp only [hrow, Ideal.hostDivf_def, Ideal.maximumf_def, Ideal.hostUnary_sqrt_def, Ideal.mulf_def, Ideal.ofBits_def,
    Ideal.ofBits_zero_f32, zero_add]
  rfl

end Cert.ReferenceIdeal.Val

end
-- ==== Proof.KTake.lean ====
/- With every source index a node index, the take is the plain row gather: the range test holds on every edge, so the fill value is never chosen. -/
import proofs.«422649_j18588618457330_1_alg».proof.Proof.KOps
import Idealize.ShloMosaic.Lib.ValueIdx
import Idealize.ShloMosaic.Lib.StableHlo.Predicate
import Idealize.ShloMosaic.Lib.ReduceAll
import Idealize.ShloMosaic.Lib.Pipeline.Value

set_option maxRecDepth 16384

noncomputable section

namespace Cert.KernelIdeal.Val

open Idealize.ShloMosaic Cert.KernelIdeal Cert.KernelIdeal.Facts₀ Cert.KernelIdeal.Facts
open Idealize.ShloMosaic.ValueIdx

/-- A left fold by `and`, from 1, over one-bit words that are all 1 is 1. -/
theorem take_foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact take_foldl_andi_one f hf l

/-- An and-reduction, from 1, of an array of one-bit words that is 1 everywhere is 1 everywhere. -/
theorem take_reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact take_foldl_andi_one x hx _

/-- In range nothing wraps: the start index of edge `p` is its source index. -/
theorem takeIdx_apply (s : IVec S200000 32) (h : SrcInRange s) (p : Fin 200000) (u : Fin 1) :
    takeIdx s (ix2 p u) = s (ix1 p) := by
  unfold takeIdx
  refine (broadcastInDim_apply _ _ _ (ix2 p u) (ix1 p) (fun a => ?_)).trans ?_
  · match a with
    | ⟨0, _⟩ => rfl
  · show Scalar.select (IntOp.cmpi .slt (s (ix1 p)) 0#32) (IntOp.addi (s (ix1 p)) 100000#32) (s (ix1 p)) = s (ix1 p)
    have h0 : ¬ IntOp.cmpi .slt (s (ix1 p)) 0#32 = 1#1 := by
      rw [IntOp.cmpi_slt, show (0#32 : BitVec 32).toInt = 0 from by decide]
      exact not_lt.mpr (h (ix1 p)).1
    rw [eq_zero_of_ne_one h0, select_zero]

/-- In range the test `0 ≤ index ≤ 99999` holds on every edge. -/
theorem takeOk_eq_one (s : IVec S200000 32) (h : SrcInRange s) (k : S200000.Idx) : takeOk s k = 1#1 := by
  unfold takeOk
  refine take_reduce_andi_one _ _ _ _ (fun i => ?_) rfl k
  obtain ⟨p, u, rfl⟩ : ∃ (p : Fin 200000) (u : Fin 1), i = ix2 p u := ⟨i 0, i 1, eq_ix2 i⟩
  show IntOp.andi (IntOp.cmpi .sge (takeIdx s (ix2 p u)) 0#32) (IntOp.cmpi .sle (takeIdx s (ix2 p u)) 99999#32) = 1#1
  rw [takeIdx_apply s h, IntOp.andi_eq_one, IntOp.cmpi_sge, IntOp.cmpi_sle,
    show (0#32 : BitVec 32).toInt = 0 from by decide, show (99999#32 : BitVec 32).toInt = 99999 from by decide]
  have := h (ix1 p)
  omega

/-- In range, the take is the gather at the same start indices. -/
theorem take_eq_gather (x : FVec Ideal S100000x256 .f32) (s : IVec S200000 32) (h : SrcInRange s) :
    take x s = Host.gather gather_S100000x256_S200000x1_S200000x256_1_0_n_n_0_1_1256 x (takeIdx s) := by
  funext j
  unfold take
  rw [select_apply]
  have hc : broadcastInDim S200000x256 ![0] bcast_S200000_S200000x256_0 (takeOk s) j = 1#1 := by
    unfold broadcastInDim
    exact takeOk_eq_one s h _
  rw [hc, select_one]

end Cert.KernelIdeal.Val

end
-- ==== Proof.Bridge.lean ====
/- The two programs' stage functions agree: the weight slabs and edge-list rows (the same slices),
   the segment sums (the same scatter), and, where every source index names a node, the take. -/
import proofs.«422649_j18588618457330_1_alg».proof.Proof.KOps
import proofs.«422649_j18588618457330_1_alg».proof.Proof.KTake
import proofs.«422649_j18588618457330_1_alg».proof.Proof.RStages
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.Bridge

open Idealize.ShloMosaic

/-- The start indices of the take are the reference's: row 0 of the edge list, a negative entry moved up by
    the node count, as a column. -/
theorem takeIdx_eq (a2 : IVec Cert.KernelIdeal.S2x200000 32) :
    Cert.KernelIdeal.Val.takeIdx (Cert.KernelIdeal.Val.srcOf a2) = Cert.ReferenceIdeal.Read.val_main_v27 (F := Ideal) a2 := by
  unfold Cert.KernelIdeal.Val.takeIdx Cert.KernelIdeal.Val.srcOf Cert.ReferenceIdeal.Read.val_main_v27 Cert.ReferenceIdeal.Read.val_main_v26 Cert.ReferenceIdeal.Read.val_main_v25 Cert.ReferenceIdeal.Read.val_main_v24 Cert.ReferenceIdeal.Read.val_main_c_5 Cert.ReferenceIdeal.Read.val_main_v23 Cert.ReferenceIdeal.Read.val_main_v22 Cert.ReferenceIdeal.Read.val_main_c_4 Cert.ReferenceIdeal.Read.val_main_v19 Cert.ReferenceIdeal.Read.val_main_v18
  rfl
/-- The row gather at those start indices is the reference's: the two programs' gather records are the same
    literal record (offset axis 1, collapsed axis 0, one row of 256 per index). -/
theorem gather_takeIdx_eq (x : FVec Ideal Cert.KernelIdeal.S100000x256 .f32) (a2 : IVec Cert.KernelIdeal.S2x200000 32) :
    Host.gather Cert.KernelIdeal.gather_S100000x256_S200000x1_S200000x256_1_0_n_n_0_1_1256 x (Cert.KernelIdeal.Val.takeIdx (Cert.KernelIdeal.Val.srcOf a2)) = Cert.ReferenceIdeal.Val.takeR x a2 := by
  rw [takeIdx_eq a2]
  unfold Cert.ReferenceIdeal.Val.takeR
  rfl
/-- In range, the kernel's take is the reference's gather. -/
theorem take_eq (x : FVec Ideal Cert.KernelIdeal.S100000x256 .f32) (a2 : IVec Cert.KernelIdeal.S2x200000 32) (h : Cert.KernelIdeal.Val.SrcInRange (Cert.KernelIdeal.Val.srcOf a2)) :
    Cert.KernelIdeal.Val.take x (Cert.KernelIdeal.Val.srcOf a2) = Cert.ReferenceIdeal.Val.takeR x a2 :=
  (Cert.KernelIdeal.Val.take_eq_gather x (Cert.KernelIdeal.Val.srcOf a2) h).trans (gather_takeIdx_eq x a2)
/-- The segment sums over the edges agree. -/
theorem segsum_eq (a2 : IVec Cert.KernelIdeal.S2x200000 32) (u : FVec Ideal Cert.KernelIdeal.S200000x256 .f32) :
    Cert.KernelIdeal.Val.segsum (Cert.KernelIdeal.Val.dstOf a2) u = Cert.ReferenceIdeal.Val.segsumR a2 u := by
  unfold Cert.KernelIdeal.Val.segsum Cert.KernelIdeal.Val.dstOf Cert.ReferenceIdeal.Val.segsumR Cert.ReferenceIdeal.Read.val_main_v31 Cert.ReferenceIdeal.Read.val_main_cst_6 Cert.ReferenceIdeal.Read.val_main_v32 Cert.ReferenceIdeal.Read.val_main_v21 Cert.ReferenceIdeal.Read.val_main_v20
  rfl
/-- The segment sums over the nodes agree. -/
theorem gsum_eq (a3 : IVec Cert.KernelIdeal.S100000 32) (x : FVec Ideal Cert.KernelIdeal.S100000x256 .f32) :
    Cert.KernelIdeal.Val.gsum a3 x = Cert.ReferenceIdeal.Val.gsumR a3 x := by
  unfold Cert.KernelIdeal.Val.gsum Cert.ReferenceIdeal.Val.gsumR Cert.ReferenceIdeal.Read.val_main_v146 Cert.ReferenceIdeal.Read.val_main_cst_16 Cert.ReferenceIdeal.Read.val_main_v147
  rfl
theorem w1At0_eq (a6 : FVec Ideal Cert.KernelIdeal.S4x256x512 .f32) : Cert.KernelIdeal.Val.w1At0 a6 = Cert.ReferenceIdeal.Read.val_main_v36 (F := Ideal) a6 := by
  unfold Cert.KernelIdeal.Val.w1At0 Cert.ReferenceIdeal.Read.val_main_v36 Cert.ReferenceIdeal.Read.val_main_v35
  rfl
theorem b1At0_eq (a7 : FVec Ideal Cert.KernelIdeal.S4x512 .f32) : Cert.KernelIdeal.Val.b1At0 a7 = Cert.ReferenceIdeal.Read.val_main_v39 (F := Ideal) a7 := by
  unfold Cert.KernelIdeal.Val.b1At0 Cert.ReferenceIdeal.Read.val_main_v39 Cert.ReferenceIdeal.Read.val_main_v38
  rfl
theorem w2At0_eq (a8 : FVec Ideal Cert.KernelIdeal.S4x512x256 .f32) : Cert.KernelIdeal.Val.w2At0 a8 = Cert.ReferenceIdeal.Read.val_main_v45 (F := Ideal) a8 := by
  unfold Cert.KernelIdeal.Val.w2At0 Cert.ReferenceIdeal.Read.val_main_v45 Cert.ReferenceIdeal.Read.val_main_v44
  rfl
theorem b2At0_eq (a9 : FVec Ideal Cert.KernelIdeal.S4x256 .f32) : Cert.KernelIdeal.Val.b2At0 a9 = Cert.ReferenceIdeal.Read.val_main_v48 (F := Ideal) a9 := by
  unfold Cert.KernelIdeal.Val.b2At0 Cert.ReferenceIdeal.Read.val_main_v48 Cert.ReferenceIdeal.Read.val_main_v47
  rfl
theorem w1At1_eq (a6 : FVec Ideal Cert.KernelIdeal.S4x256x512 .f32) : Cert.KernelIdeal.Val.w1At1 a6 = Cert.ReferenceIdeal.Read.val_main_v67 (F := Ideal) a6 := by
  unfold Cert.KernelIdeal.Val.w1At1 Cert.ReferenceIdeal.Read.val_main_v67 Cert.ReferenceIdeal.Read.val_main_v66
  rfl
theorem b1At1_eq (a7 : FVec Ideal Cert.KernelIdeal.S4x512 .f32) : Cert.KernelIdeal.Val.b1At1 a7 = Cert.ReferenceIdeal.Read.val_main_v70 (F := Ideal) a7 := by
  unfold Cert.KernelIdeal.Val.b1At1 Cert.ReferenceIdeal.Read.val_main_v70 Cert.ReferenceIdeal.Read.val_main_v69
  rfl
theorem w2At1_eq (a8 : FVec Ideal Cert.KernelIdeal.S4x512x256 .f32) : Cert.KernelIdeal.Val.w2At1 a8 = Cert.ReferenceIdeal.Read.val_main_v76 (F := Ideal) a8 := by
  unfold Cert.KernelIdeal.Val.w2At1 Cert.ReferenceIdeal.Read.val_main_v76 Cert.ReferenceIdeal.Read.val_main_v75
  rfl
theorem b2At1_eq (a9 : FVec Ideal Cert.KernelIdeal.S4x256 .f32) : Cert.KernelIdeal.Val.b2At1 a9 = Cert.ReferenceIdeal.Read.val_main_v79 (F := Ideal) a9 := by
  unfold Cert.KernelIdeal.Val.b2At1 Cert.ReferenceIdeal.Read.val_main_v79 Cert.ReferenceIdeal.Read.val_main_v78
  rfl
theorem w1At2_eq (a6 : FVec Ideal Cert.KernelIdeal.S4x256x512 .f32) : Cert.KernelIdeal.Val.w1At2 a6 = Cert.ReferenceIdeal.Read.val_main_v98 (F := Ideal) a6 := by
  unfold Cert.KernelIdeal.Val.w1At2 Cert.ReferenceIdeal.Read.val_main_v98 Cert.ReferenceIdeal.Read.val_main_v97
  rfl
theorem b1At2_eq (a7 : FVec Ideal Cert.KernelIdeal.S4x512 .f32) : Cert.KernelIdeal.Val.b1At2 a7 = Cert.ReferenceIdeal.Read.val_main_v101 (F := Ideal) a7 := by
  unfold Cert.KernelIdeal.Val.b1At2 Cert.ReferenceIdeal.Read.val_main_v101 Cert.ReferenceIdeal.Read.val_main_v100
  rfl
theorem w2At2_eq (a8 : FVec Ideal Cert.KernelIdeal.S4x512x256 .f32) : Cert.KernelIdeal.Val.w2At2 a8 = Cert.ReferenceIdeal.Read.val_main_v107 (F := Ideal) a8 := by
  unfold Cert.KernelIdeal.Val.w2At2 Cert.ReferenceIdeal.Read.val_main_v107 Cert.ReferenceIdeal.Read.val_main_v106
  rfl
theorem b2At2_eq (a9 : FVec Ideal Cert.KernelIdeal.S4x256 .f32) : Cert.KernelIdeal.Val.b2At2 a9 = Cert.ReferenceIdeal.Read.val_main_v110 (F := Ideal) a9 := by
  unfold Cert.KernelIdeal.Val.b2At2 Cert.ReferenceIdeal.Read.val_main_v110 Cert.ReferenceIdeal.Read.val_main_v109
  rfl
theorem w1At3_eq (a6 : FVec Ideal Cert.KernelIdeal.S4x256x512 .f32) : Cert.KernelIdeal.Val.w1At3 a6 = Cert.ReferenceIdeal.Read.val_main_v129 (F := Ideal) a6 := by
  unfold Cert.KernelIdeal.Val.w1At3 Cert.ReferenceIdeal.Read.val_main_v129 Cert.ReferenceIdeal.Read.val_main_v128
  rfl
theorem b1At3_eq (a7 : FVec Ideal Cert.KernelIdeal.S4x512 .f32) : Cert.KernelIdeal.Val.b1At3 a7 = Cert.ReferenceIdeal.Read.val_main_v132 (F := Ideal) a7 := by
  unfold Cert.KernelIdeal.Val.b1At3 Cert.ReferenceIdeal.Read.val_main_v132 Cert.ReferenceIdeal.Read.val_main_v131
  rfl
theorem w2At3_eq (a8 : FVec Ideal Cert.KernelIdeal.S4x512x256 .f32) : Cert.KernelIdeal.Val.w2At3 a8 = Cert.ReferenceIdeal.Read.val_main_v138 (F := Ideal) a8 := by
  unfold Cert.KernelIdeal.Val.w2At3 Cert.ReferenceIdeal.Read.val_main_v138 Cert.ReferenceIdeal.Read.val_main_v137
  rfl
theorem b2At3_eq (a9 : FVec Ideal Cert.KernelIdeal.S4x256 .f32) : Cert.KernelIdeal.Val.b2At3 a9 = Cert.ReferenceIdeal.Read.val_main_v141 (F := Ideal) a9 := by
  unfold Cert.KernelIdeal.Val.b2At3 Cert.ReferenceIdeal.Read.val_main_v141 Cert.ReferenceIdeal.Read.val_main_v140
  rfl

end Cert.Bridge

end
-- ==== Proof.GatherRows.lean ====
/-
  A gather of table rows, read at an index.

  A table `[V, D]` gathered at a column `[N, 1]` of start indices, the table's row axis collapsed and start-indexed and
  its column axis the result's one offset axis, is the `[N, D]` array whose entry `(n, c)` is the table's entry `(r, c)`,
  `r` being start index `n` read as a signed integer and clamped into `0 … V − 1`. The same over a stack: tables
  `[B, V, D]` gathered at start indices `[B, N, 1]`, batched over the leading axis, are the `[B, N, D]` array whose entry
  `(f, n, c)` is table `f`'s entry `(r, c)`, `r` the clamped start index `(f, n)`. Both are stated through one function
  of the start word (`rowAt`, `slabRowAt`), so that two programs reaching the same word reach the same entry.
-/
import Idealize.ShloMosaic.Lib.ValueIdx
import Idealize.ShloMosaic.Lib.ValueLayout

noncomputable section

namespace Cert.GatherRows

open Idealize.ShloMosaic Idealize.ShloMosaic.ValueIdx

variable {α : Type}

/-! ## The entry a start word selects -/

/-- Entry `(r, c)` of a table, `r` the word `w` read signed and clamped into `0 … V − 1`. -/
def rowAt {V D wd : Nat} (hV : 0 < V) (x : (⟨2, ![V, D]⟩ : Shape).Idx → α) (w : BitVec wd) (c : Fin D) : α :=
  x (ix2 ⟨min w.toInt.toNat (V - 1), by omega⟩ c)

/-- Entry `(f, r, c)` of a stack of tables, `r` the word `w` read signed and clamped into `0 … V − 1`. -/
def slabRowAt {B V D wd : Nat} (hV : 0 < V) (x : (⟨3, ![B, V, D]⟩ : Shape).Idx → α) (f : Fin B) (w : BitVec wd)
    (c : Fin D) : α :=
  x (ix3 f ⟨min w.toInt.toNat (V - 1), by omega⟩ c)

/-! ## One table: rows gathered at a column of start indices -/

/-- The dimension numbers: offset axis 1 of the result, the table's axis 0 collapsed and start-indexed, the index
    vector on axis 1 of the start indices, slices of one row. -/
abbrev rowDims (V D N : Nat)
    (wf : GatherDims.WF ⟨2, ![V, D]⟩ ⟨2, ![N, 1]⟩ ⟨2, ![N, D]⟩ [1] [0] [] [0] [] 1 ![1, D]) :
    GatherDims ⟨2, ![V, D]⟩ ⟨2, ![N, 1]⟩ ⟨2, ![N, D]⟩ where
  offsetDims := [1]
  collapsedSliceDims := [0]
  operandBatchingDims := []
  startIndicesBatchingDims := []
  startIndexMap := [0]
  indexVectorDim := 1
  sliceSizes := ![1, D]
  wf := wf

/-- On the table's row axis the operand index is the clamped start index. -/
theorem rowDims_axis0 {V D N w : Nat}
    (wf : GatherDims.WF ⟨2, ![V, D]⟩ ⟨2, ![N, 1]⟩ ⟨2, ![N, D]⟩ [1] [0] [] [0] [] 1 ![1, D])
    (idx : IVec ⟨2, ![N, 1]⟩ w) (n : Fin N) (c : Fin D) :
    ((rowDims V D N wf).operandIdx (ix2 n c) idx (0 : Fin 2)).val
      = min (idx (ix2 n (0 : Fin 1))).toInt.toNat (V - 1) := by
  show (rowDims V D N wf).start (ix2 n c) idx (0 : Fin 2) + (rowDims V D N wf).batchCoord (ix2 n c) (0 : Fin 2)
    + (rowDims V D N wf).offCoord (ix2 n c) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims V D N wf).startIndexMap from List.mem_singleton.mpr rfl)]
  have hsi : (rowDims V D N wf).siIdx (ix2 n c) ⟨List.idxOf (0 : Fin 2) (rowDims V D N wf).startIndexMap,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

/-- On the table's column axis the operand index is the result's column. -/
theorem rowDims_axis1 {V D N w : Nat}
    (wf : GatherDims.WF ⟨2, ![V, D]⟩ ⟨2, ![N, 1]⟩ ⟨2, ![N, D]⟩ [1] [0] [] [0] [] 1 ![1, D])
    (idx : IVec ⟨2, ![N, 1]⟩ w) (n : Fin N) (c : Fin D) :
    ((rowDims V D N wf).operandIdx (ix2 n c) idx (1 : Fin 2)).val = c.val := by
  show (rowDims V D N wf).start (ix2 n c) idx (1 : Fin 2) + (rowDims V D N wf).batchCoord (ix2 n c) (1 : Fin 2)
    + (rowDims V D N wf).offCoord (ix2 n c) (1 : Fin 2) = _
  rw [GatherDims.batchCoord_eq_zero _ _ _ List.not_mem_nil]
  unfold GatherDims.start
  rw [dif_neg (show ¬ (1 : Fin 2) ∈ ([0] : List (Fin 2)) by decide)]
  unfold GatherDims.offCoord
  rw [dif_pos ((GatherDims.mem_sKept _ _).2 ⟨(show ¬ (1 : Fin 2) ∈ ([0] : List (Fin 2)) by decide), List.not_mem_nil⟩)]
  simp only [Nat.add_zero, Nat.zero_add]
  rfl

/-- THE ROW GATHER READ AT `(n, c)`: the table's entry at the row start index `n` selects, column `c`. -/
theorem gather_rows_apply {V D N w : Nat} (hV : 0 < V)
    (wf : GatherDims.WF ⟨2, ![V, D]⟩ ⟨2, ![N, 1]⟩ ⟨2, ![N, D]⟩ [1] [0] [] [0] [] 1 ![1, D])
    (x : (⟨2, ![V, D]⟩ : Shape).Idx → α) (idx : IVec ⟨2, ![N, 1]⟩ w) (n : Fin N) (c : Fin D) :
    Host.gather (rowDims V D N wf) x idx (ix2 n c) = rowAt hV x (idx (ix2 n (0 : Fin 1))) c := by
  unfold Host.gather rowAt
  refine congrArg x (funext fun a => Fin.ext ?_)
  match a with
  | ⟨0, _⟩ => exact rowDims_axis0 wf idx n c
  | ⟨1, _⟩ => exact rowDims_axis1 wf idx n c

/-! ## A stack of tables: rows gathered table by table -/

/-- The dimension numbers: offset axis 2 of the result, the tables' row axis 1 collapsed and start-indexed, the stack
    axis 0 a batching axis of both operands, the index vector on axis 2 of the start indices, slices of one row. -/
abbrev slabDims (B V D N : Nat)
    (wf : GatherDims.WF ⟨3, ![B, V, D]⟩ ⟨3, ![B, N, 1]⟩ ⟨3, ![B, N, D]⟩ [2] [1] [0] [1] [0] 2 ![1, 1, D]) :
    GatherDims ⟨3, ![B, V, D]⟩ ⟨3, ![B, N, 1]⟩ ⟨3, ![B, N, D]⟩ where
  offsetDims := [2]
  collapsedSliceDims := [1]
  operandBatchingDims := [0]
  startIndicesBatchingDims := [0]
  startIndexMap := [1]
  indexVectorDim := 2
  sliceSizes := ![1, 1, D]
  wf := wf

/-- On the stack axis the operand index is the result's table. -/
theorem slabDims_axis0 {B V D N w : Nat}
    (wf : GatherDims.WF ⟨3, ![B, V, D]⟩ ⟨3, ![B, N, 1]⟩ ⟨3, ![B, N, D]⟩ [2] [1] [0] [1] [0] 2 ![1, 1, D])
    (idx : IVec ⟨3, ![B, N, 1]⟩ w) (f : Fin B) (n : Fin N) (c : Fin D) :
    ((slabDims B V D N wf).operandIdx (ix3 f n c) idx (0 : Fin 3)).val = f.val := by
  have hob : (0 : Fin 3) ∈ (slabDims B V D N wf).operandBatchingDims := List.mem_singleton.mpr rfl
  show (slabDims B V D N wf).start (ix3 f n c) idx (0 : Fin 3) + (slabDims B V D N wf).batchCoord (ix3 f n c) (0 : Fin 3)
    + (slabDims B V D N wf).offCoord (ix3 f n c) (0 : Fin 3) = _
  rw [GatherDims.start_batching _ _ _ _ hob,
    GatherDims.offCoord_eq_zero _ _ _ (fun h => ((GatherDims.mem_sKept _ _).mp h).2 hob)]
  simp only [Nat.add_zero, Nat.zero_add]
  unfold GatherDims.batchCoord
  rw [dif_pos hob]
  rfl

/-- On the tables' row axis the operand index is the clamped start index. -/
theorem slabDims_axis1 {B V D N w : Nat}
    (wf : GatherDims.WF ⟨3, ![B, V, D]⟩ ⟨3, ![B, N, 1]⟩ ⟨3, ![B, N, D]⟩ [2] [1] [0] [1] [0] 2 ![1, 1, D])
    (idx : IVec ⟨3, ![B, N, 1]⟩ w) (f : Fin B) (n : Fin N) (c : Fin D) :
    ((slabDims B V D N wf).operandIdx (ix3 f n c) idx (1 : Fin 3)).val
      = min (idx (ix3 f n (0 : Fin 1))).toInt.toNat (V - 1) := by
  show (slabDims B V D N wf).start (ix3 f n c) idx (1 : Fin 3) + (slabDims B V D N wf).batchCoord (ix3 f n c) (1 : Fin 3)
    + (slabDims B V D N wf).offCoord (ix3 f n c) (1 : Fin 3) = _
  rw [GatherDims.batchCoord_eq_zero _ _ _ (show ¬ (1 : Fin 3) ∈ ([0] : List (Fin 3)) by decide),
    GatherDims.offCoord_eq_zero _ _ _ (fun h => ((GatherDims.mem_sKept _ _).mp h).1 (List.mem_singleton.mpr rfl))]
  simp only [Nat.add_zero]
  unfold GatherDims.start
  rw [dif_pos (show (1 : Fin 3) ∈ (slabDims B V D N wf).startIndexMap from List.mem_singleton.mpr rfl)]
  have hsi : (slabDims B V D N wf).siIdx (ix3 f n c) ⟨List.idxOf (1 : Fin 3) (slabDims B V D N wf).startIndexMap,
      List.idxOf_lt_length_iff.2 (List.mem_singleton.mpr rfl)⟩ = ix3 f n (0 : Fin 1) := by
    funext b; refine Fin.ext ?_
    match b with
    | ⟨0, _⟩ => rfl
    | ⟨1, _⟩ => rfl
    | ⟨2, _⟩ => rfl
  rw [hsi]
  rfl

/-- On the tables' column axis the operand index is the result's column. -/
theorem slabDims_axis2 {B V D N w : Nat}
    (wf : GatherDims.WF ⟨3, ![B, V, D]⟩ ⟨3, ![B, N, 1]⟩ ⟨3, ![B, N, D]⟩ [2] [1] [0] [1] [0] 2 ![1, 1, D])
    (idx : IVec ⟨3, ![B, N, 1]⟩ w) (f : Fin B) (n : Fin N) (c : Fin D) :
    ((slabDims B V D N wf).operandIdx (ix3 f n c) idx (2 : Fin 3)).val = c.val := by
  show (slabDims B V D N wf).start (ix3 f n c) idx (2 : Fin 3) + (slabDims B V D N wf).batchCoord (ix3 f n c) (2 : Fin 3)
    + (slabDims B V D N wf).offCoord (ix3 f n c) (2 : Fin 3) = _
  rw [GatherDims.batchCoord_eq_zero _ _ _ (show ¬ (2 : Fin 3) ∈ ([0] : List (Fin 3)) by decide)]
  unfold GatherDims.start
  rw [dif_neg (show ¬ (2 : Fin 3) ∈ ([1] : List (Fin 3)) by decide)]
  unfold GatherDims.offCoord
  rw [dif_pos ((GatherDims.mem_sKept _ _).2 ⟨(show ¬ (2 : Fin 3) ∈ ([1] : List (Fin 3)) by decide),
    (show ¬ (2 : Fin 3) ∈ ([0] : List (Fin 3)) by decide)⟩)]
  simp only [Nat.add_zero, Nat.zero_add]
  rfl

/-- THE BATCHED ROW GATHER READ AT `(f, n, c)`: table `f`'s entry at the row start index `(f, n)` selects, column `c`. -/
theorem gather_slabs_apply {B V D N w : Nat} (hV : 0 < V)
    (wf : GatherDims.WF ⟨3, ![B, V, D]⟩ ⟨3, ![B, N, 1]⟩ ⟨3, ![B, N, D]⟩ [2] [1] [0] [1] [0] 2 ![1, 1, D])
    (x : (⟨3, ![B, V, D]⟩ : Shape).Idx → α) (idx : IVec ⟨3, ![B, N, 1]⟩ w) (f : Fin B) (n : Fin N) (c : Fin D) :
    Host.gather (slabDims B V D N wf) x idx (ix3 f n c) = slabRowAt hV x f (idx (ix3 f n (0 : Fin 1))) c := by
  unfold Host.gather slabRowAt
  refine congrArg x (funext fun a => Fin.ext ?_)
  match a with
  | ⟨0, _⟩ => exact slabDims_axis0 wf idx f n c
  | ⟨1, _⟩ => exact slabDims_axis1 wf idx f n c
  | ⟨2, _⟩ => exact slabDims_axis2 wf idx f n c

/-! ## The layout steps around a per-table gather -/

/-- Slab `f` of a stack of tables, cut out and its unit axis dropped, is a table whose entry `(v, c)` is the stack's
    entry `(f, v, c)`. -/
theorem slab_apply {B V D : Nat} (o : Nat) (x : (⟨3, ![B, V, D]⟩ : Shape).Idx → α)
    (hs : (⟨3, ![B, V, D]⟩ : Shape).Slices ![o, 0, 0] ⟨3, ![1, V, D]⟩)
    (hc : (⟨3, ![1, V, D]⟩ : Shape).ShapeCasts ⟨2, ![V, D]⟩) (f : Fin B) (hf : f.val = o) (v : Fin V) (c : Fin D) :
    shapeCast ⟨2, ![V, D]⟩ (extractStridedSlice ⟨3, ![1, V, D]⟩ ![o, 0, 0] x hs) hc (ix2 v c) = x (ix3 f v c) := by
  refine (shapeCast_1ab_ab_apply _ hc v c).trans ?_
  exact extractStridedSlice_apply _ x hs _ _ (fun a => by
    match a with
    | ⟨0, _⟩ => show f.val = o + 0; omega
    | ⟨1, _⟩ => exact (Nat.zero_add _).symm
    | ⟨2, _⟩ => exact (Nat.zero_add _).symm)

/-- The entry a start word selects in slab `f` is the entry it selects in the stack at table `f`. -/
theorem rowAt_slab {B V D wd : Nat} (hV : 0 < V) (o : Nat) (x : (⟨3, ![B, V, D]⟩ : Shape).Idx → α)
    (hs : (⟨3, ![B, V, D]⟩ : Shape).Slices ![o, 0, 0] ⟨3, ![1, V, D]⟩)
    (hc : (⟨3, ![1, V, D]⟩ : Shape).ShapeCasts ⟨2, ![V, D]⟩) (f : Fin B) (hf : f.val = o) (w : BitVec wd) (c : Fin D) :
    rowAt hV (shapeCast ⟨2, ![V, D]⟩ (extractStridedSlice ⟨3, ![1, V, D]⟩ ![o, 0, 0] x hs) hc) w c
      = slabRowAt hV x f w c := by
  unfold rowAt slabRowAt
  exact slab_apply o x hs hc f hf _ c

/-- Column `f` of a matrix, cut out and its unit axis dropped, is the vector whose entry `n` is the matrix's `(n, f)`. -/
theorem column_apply {N B : Nat} (o : Nat) (x : (⟨2, ![N, B]⟩ : Shape).Idx → α)
    (hs : (⟨2, ![N, B]⟩ : Shape).Slices ![0, o] ⟨2, ![N, 1]⟩)
    (hc : (⟨2, ![N, 1]⟩ : Shape).ShapeCasts ⟨1, ![N]⟩) (f : Fin B) (hf : f.val = o) (n : Fin N) :
    shapeCast ⟨1, ![N]⟩ (extractStridedSlice ⟨2, ![N, 1]⟩ ![0, o] x hs) hc (ix1 n) = x (ix2 n f) := by
  refine (shapeCast_apply _ hc (ix1 n) (ix2 n (0 : Fin 1)) ?_).trans
    (slice2_axis1_apply o x hs n (0 : Fin 1) f (by show f.val = o + 0; omega))
  rw [Shape.rowMajor_val_two, Shape.rowMajor_val_one]
  show n.val * 1 + 0 = n.val
  omega

/-- A vector laid as a one-column matrix reads, at `(n, 0)`, the vector at `n`. -/
theorem asColumn_apply {N : Nat} (v : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h v (ix2 n u) = v (ix1 n) := by
  refine broadcastInDim_apply _ h v _ _ (fun a => ?_)
  match a with
  | ⟨0, _⟩ =>
    show n.val = if N = 1 then 0 else n.val
    split
    · omega
    · rfl

/-- A splat integer constant laid over a vector reads the constant everywhere. -/
theorem splat_apply {N wd : Nat} (b : BitVec wd) (h : (⟨0, ![]⟩ : Shape).BroadcastsInDim ⟨1, ![N]⟩ ![])
    (i : (⟨1, ![N]⟩ : Shape).Idx) :
    broadcastInDim ⟨1, ![N]⟩ ![] h (constantI ⟨0, ![]⟩ wd b) i = b :=
  broadcastInDim_apply _ h _ i (fun a => a.elim0) (fun a => a.elim0)

/-- A code wrapped once from the table's end: `x + V` when `x` is negative as a signed integer, else `x`. -/
def wrap (V x : BitVec 32) : BitVec 32 := Scalar.select (IntOp.cmpi .slt x 0#32) (IntOp.addi x V) x

/-- The vector of wrapped codes at `n` is the wrapped code `n`. -/
theorem wrapped_apply {N : Nat} (V : BitVec 32) (col : IVec ⟨1, ![N]⟩ 32)
    (h0 : (⟨0, ![]⟩ : Shape).BroadcastsInDim ⟨1, ![N]⟩ ![]) (i : (⟨1, ![N]⟩ : Shape).Idx) :
    select (cmpi .slt col (broadcastInDim ⟨1, ![N]⟩ ![] h0 (constantI ⟨0, ![]⟩ 32 0#32)))
      (addi col (broadcastInDim ⟨1, ![N]⟩ ![] h0 (constantI ⟨0, ![]⟩ 32 V))) col i = wrap V (col i) := by
  show Scalar.select (IntOp.cmpi .slt (col i) (broadcastInDim ⟨1, ![N]⟩ ![] h0 (constantI ⟨0, ![]⟩ 32 0#32) i))
    (IntOp.addi (col i) (broadcastInDim ⟨1, ![N]⟩ ![] h0 (constantI ⟨0, ![]⟩ 32 V) i)) (col i) = _
  rw [splat_apply, splat_apply]
  rfl

/-- ONE FEATURE OF A PER-TABLE ENCODING READ AT `(n, c)`: slab `f` of the stack of tables gathered at column `f` of the
    codes, each code wrapped once, is the stack's entry the wrapped code `(n, f)` selects in table `f`. -/
theorem feature_apply {B V D N : Nat} (hV : 0 < V) (Vw : BitVec 32) (o : Nat)
    (wf : GatherDims.WF ⟨2, ![V, D]⟩ ⟨2, ![N, 1]⟩ ⟨2, ![N, D]⟩ [1] [0] [] [0] [] 1 ![1, D])
    (tbl : (⟨3, ![B, V, D]⟩ : Shape).Idx → α) (codes : IVec ⟨2, ![N, B]⟩ 32)
    (hs3 : (⟨3, ![B, V, D]⟩ : Shape).Slices ![o, 0, 0] ⟨3, ![1, V, D]⟩)
    (hc3 : (⟨3, ![1, V, D]⟩ : Shape).ShapeCasts ⟨2, ![V, D]⟩)
    (hs2 : (⟨2, ![N, B]⟩ : Shape).Slices ![0, o] ⟨2, ![N, 1]⟩)
    (hc2 : (⟨2, ![N, 1]⟩ : Shape).ShapeCasts ⟨1, ![N]⟩)
    (hb0 : (⟨0, ![]⟩ : Shape).BroadcastsInDim ⟨1, ![N]⟩ ![])
    (hb1 : (⟨1, ![N]⟩ : Shape).BroadcastsInDim ⟨2, ![N, 1]⟩ ![0])
    (f : Fin B) (hf : f.val = o) (n : Fin N) (c : Fin D) :
    Host.gather (rowDims V D N wf)
      (shapeCast ⟨2, ![V, D]⟩ (extractStridedSlice ⟨3, ![1, V, D]⟩ ![o, 0, 0] tbl hs3) hc3)
      (broadcastInDim ⟨2, ![N, 1]⟩ ![0] hb1
        (select (cmpi .slt (shapeCast ⟨1, ![N]⟩ (extractStridedSlice ⟨2, ![N, 1]⟩ ![0, o] codes hs2) hc2)
            (broadcastInDim ⟨1, ![N]⟩ ![] hb0 (constantI ⟨0, ![]⟩ 32 0#32)))
          (addi (shapeCast ⟨1, ![N]⟩ (extractStridedSlice ⟨2, ![N, 1]⟩ ![0, o] codes hs2) hc2)
            (broadcastInDim ⟨1, ![N]⟩ ![] hb0 (constantI ⟨0, ![]⟩ 32 Vw)))
          (shapeCast ⟨1, ![N]⟩ (extractStridedSlice ⟨2, ![N, 1]⟩ ![0, o] codes hs2) hc2)))
      (ix2 n c)
    = slabRowAt hV tbl f (wrap Vw (codes (ix2 n f))) c := by
  rw [gather_rows_apply hV wf, asColumn_apply, wrapped_apply, column_apply o codes hs2 hc2 f hf n]
  exact rowAt_slab hV o tbl hs3 hc3 f hf _ c

end Cert.GatherRows

end
-- ==== Proof.BridgeEnc.lean ====
/- The two programs' encodings agree: a left-to-right sum of nine (or three) row gathers, one per feature from
   that feature's table, against one gather batched over the features and summed over its leading axis from zero.
   Entry by entry both are the sum over the features of the table entry at the wrapped, clamped code. -/
import proofs.«422649_j18588618457330_1_alg».proof.Proof.KOps
import proofs.«422649_j18588618457330_1_alg».proof.Proof.Gen.ReferenceIdeal.Read
import proofs.«422649_j18588618457330_1_alg».proof.Proof.GatherRows
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.Bridge

open Idealize.ShloMosaic Idealize.ShloMosaic.ValueIdx Cert.GatherRows

/-- A node table has a row. -/
theorem h119 : 0 < 119 := by decide
/-- An edge table has a row. -/
theorem h22 : 0 < 22 := by decide

/-! ## The kernel program's side: one gather per feature, added left to right -/

section KernelSide
open Cert.KernelIdeal Cert.KernelIdeal.Facts₀

/-- The kernel program's node gather is the row gather of a `[119, 256]` table at `[100000, 1]` start indices. -/
theorem recN_eq : gather_S119x256_S100000x1_S100000x256_1_0_n_n_0_1_1256
    = rowDims 119 256 100000 gather_S119x256_S100000x1_S100000x256_1_0_n_n_0_1_1256_wf := rfl

/-- One feature of the kernel program's node encoding at `(n, d)`: the entry of table `f` the wrapped code `(n, f)`
    selects. -/
theorem featN (a0 : IVec S100000x9 32) (a4 : FVec Ideal S9x119x256 .f32) (o : Nat)
    (hs3 : S9x119x256.Slices ![o, 0, 0] S1x119x256) (hs2 : S100000x9.Slices ![0, o] S100000x1)
    (f : Fin 9) (hf : f.val = o) (n : Fin 100000) (d : Fin 256) :
    Host.gather gather_S119x256_S100000x1_S100000x256_1_0_n_n_0_1_1256
      (shapeCast S119x256 (extractStridedSlice S1x119x256 ![o, 0, 0] a4 hs3) shapeCasts_S1x119x256_S119x256)
      (broadcastInDim S100000x1 ![0] bcast_S100000_S100000x1_0
        (select (cmpi .slt (shapeCast S100000 (extractStridedSlice S100000x1 ![0, o] a0 hs2) shapeCasts_S100000x1_S100000)
            (broadcastInDim S100000 ![] bcast_S_S100000 (constantI S_ 32 0#32)))
          (addi (shapeCast S100000 (extractStridedSlice S100000x1 ![0, o] a0 hs2) shapeCasts_S100000x1_S100000)
            (broadcastInDim S100000 ![] bcast_S_S100000 (constantI S_ 32 119#32)))
          (shapeCast S100000 (extractStridedSlice S100000x1 ![0, o] a0 hs2) shapeCasts_S100000x1_S100000)))
      (ix2 n d)
    = slabRowAt h119 a4 f (wrap 119#32 (a0 (ix2 n f))) d := by
  rw [recN_eq]
  exact feature_apply h119 119#32 o _ a4 a0 hs3 _ hs2 _ _ _ f hf n d

/-- The kernel program's node encoding at `(n, d)`: the nine features' entries added left to right. -/
theorem encN_apply (a0 : IVec S100000x9 32) (a4 : FVec Ideal S9x119x256 .f32) (n : Fin 100000) (d : Fin 256) :
    Cert.KernelIdeal.Val.encN a0 a4 (ix2 n d)
      = slabRowAt h119 a4 (0 : Fin 9) (wrap 119#32 (a0 (ix2 n (0 : Fin 9)))) d
        + slabRowAt h119 a4 (1 : Fin 9) (wrap 119#32 (a0 (ix2 n (1 : Fin 9)))) d
        + slabRowAt h119 a4 (2 : Fin 9) (wrap 119#32 (a0 (ix2 n (2 : Fin 9)))) d
        + slabRowAt h119 a4 (3 : Fin 9) (wrap 119#32 (a0 (ix2 n (3 : Fin 9)))) d
        + slabRowAt h119 a4 (4 : Fin 9) (wrap 119#32 (a0 (ix2 n (4 : Fin 9)))) d
        + slabRowAt h119 a4 (5 : Fin 9) (wrap 119#32 (a0 (ix2 n (5 : Fin 9)))) d
        + slabRowAt h119 a4 (6 : Fin 9) (wrap 119#32 (a0 (ix2 n (6 : Fin 9)))) d
        + slabRowAt h119 a4 (7 : Fin 9) (wrap 119#32 (a0 (ix2 n (7 : Fin 9)))) d
        + slabRowAt h119 a4 (8 : Fin 9) (wrap 119#32 (a0 (ix2 n (8 : Fin 9)))) d := by
  unfold Cert.KernelIdeal.Val.encN
  simp only [addf_apply]
  rw [featN a0 a4 0 _ _ (0 : Fin 9) rfl n d, featN a0 a4 1 _ _ (1 : Fin 9) rfl n d,
    featN a0 a4 2 _ _ (2 : Fin 9) rfl n d, featN a0 a4 3 _ _ (3 : Fin 9) rfl n d,
    featN a0 a4 4 _ _ (4 : Fin 9) rfl n d, featN a0 a4 5 _ _ (5 : Fin 9) rfl n d,
    featN a0 a4 6 _ _ (6 : Fin 9) rfl n d, featN a0 a4 7 _ _ (7 : Fin 9) rfl n d,
    featN a0 a4 8 _ _ (8 : Fin 9) rfl n d]

/-- The kernel program's edge gather is the row gather of a `[22, 256]` table at `[200000, 1]` start indices. -/
theorem recE_eq : gather_S22x256_S200000x1_S200000x256_1_0_n_n_0_1_1256
    = rowDims 22 256 200000 gather_S22x256_S200000x1_S200000x256_1_0_n_n_0_1_1256_wf := rfl

/-- One feature of the kernel program's edge encoding at `(n, d)`: the entry of table `f` the wrapped code `(n, f)`
    selects. -/
theorem featE (a1 : IVec S200000x3 32) (a5 : FVec Ideal S3x22x256 .f32) (o : Nat)
    (hs3 : S3x22x256.Slices ![o, 0, 0] S1x22x256) (hs2 : S200000x3.Slices ![0, o] S200000x1)
    (f : Fin 3) (hf : f.val = o) (n : Fin 200000) (d : Fin 256) :
    Host.gather gather_S22x256_S200000x1_S200000x256_1_0_n_n_0_1_1256
      (shapeCast S22x256 (extractStridedSlice S1x22x256 ![o, 0, 0] a5 hs3) shapeCasts_S1x22x256_S22x256)
      (broadcastInDim S200000x1 ![0] bcast_S200000_S200000x1_0
        (select (cmpi .slt (shapeCast S200000 (extractStridedSlice S200000x1 ![0, o] a1 hs2) shapeCasts_S200000x1_S200000)
            (broadcastInDim S200000 ![] bcast_S_S200000 (constantI S_ 32 0#32)))
          (addi (shapeCast S200000 (extractStridedSlice S200000x1 ![0, o] a1 hs2) shapeCasts_S200000x1_S200000)
            (broadcastInDim S200000 ![] bcast_S_S200000 (constantI S_ 32 22#32)))
          (shapeCast S200000 (extractStridedSlice S200000x1 ![0, o] a1 hs2) shapeCasts_S200000x1_S200000)))
      (ix2 n d)
    = slabRowAt h22 a5 f (wrap 22#32 (a1 (ix2 n f))) d := by
  rw [recE_eq]
  exact feature_apply h22 22#32 o _ a5 a1 hs3 _ hs2 _ _ _ f hf n d

/-- The kernel program's edge encoding at `(n, d)`: the three features' entries added left to right. -/
theorem encE_apply (a1 : IVec S200000x3 32) (a5 : FVec Ideal S3x22x256 .f32) (n : Fin 200000) (d : Fin 256) :
    Cert.KernelIdeal.Val.encE a1 a5 (ix2 n d)
      = slabRowAt h22 a5 (0 : Fin 3) (wrap 22#32 (a1 (ix2 n (0 : Fin 3)))) d
        + slabRowAt h22 a5 (1 : Fin 3) (wrap 22#32 (a1 (ix2 n (1 : Fin 3)))) d
        + slabRowAt h22 a5 (2 : Fin 3) (wrap 22#32 (a1 (ix2 n (2 : Fin 3)))) d := by
  unfold Cert.KernelIdeal.Val.encE
  simp only [addf_apply]
  rw [featE a1 a5 0 _ _ (0 : Fin 3) rfl n d, featE a1 a5 1 _ _ (1 : Fin 3) rfl n d,
    featE a1 a5 2 _ _ (2 : Fin 3) rfl n d]

end KernelSide

/-! ## The reference's side: one batched gather, summed over the features from zero -/

section ReferenceSide

/-- The reference's node gather is the batched row gather of nine `[119, 256]` tables at `[9, 100000, 1]` start indices. -/
theorem recRN_eq : Cert.ReferenceIdeal.gather_S9x119x256_S9x100000x1_S9x100000x256_2_1_0_0_1_2_11256
    = slabDims 9 119 256 100000
        Cert.ReferenceIdeal.Facts₀.gather_S9x119x256_S9x100000x1_S9x100000x256_2_1_0_0_1_2_11256_wf := rfl

/-- The reference's node start index `(f, n)` is the wrapped code `(n, f)`: the codes are wrapped as a whole, transposed
    and given a unit axis. -/
theorem startRN (a0 : IVec Cert.ReferenceIdeal.S100000x9 32) (f : Fin 9) (n : Fin 100000) :
    Cert.ReferenceIdeal.Read.val_main_v6 (F := Ideal) a0 (ix3 f n (0 : Fin 1)) = wrap 119#32 (a0 (ix2 n f)) := by
  have hi : Cert.ReferenceIdeal.Read.idx_main_v5 (Cert.ReferenceIdeal.Read.idx_main_v6 (ix3 f n (0 : Fin 1))) = ix2 n f :=
    funext fun a => Fin.ext (by match a with | ⟨0, _⟩ => rfl | ⟨1, _⟩ => rfl)
  rw [Cert.ReferenceIdeal.Read.val_main_v6_apply, Cert.ReferenceIdeal.Read.val_main_v5_apply, hi,
    Cert.ReferenceIdeal.Read.val_main_v4_apply, Cert.ReferenceIdeal.Read.val_main_v1_apply,
    Cert.ReferenceIdeal.Read.val_main_v3_apply, Cert.ReferenceIdeal.Read.val_main_v0_apply,
    Cert.ReferenceIdeal.Read.val_main_v2_apply, Cert.ReferenceIdeal.Read.val_main_c_apply,
    Cert.ReferenceIdeal.Read.val_main_c_0_apply]
  rfl

/-- The reference's node encoding at `(n, d)`: the sum, from zero, over the nine features of the entries the wrapped codes
    select. -/
theorem refN_apply (a0 : IVec Cert.KernelIdeal.S100000x9 32) (a4 : FVec Ideal Cert.KernelIdeal.S9x119x256 .f32)
    (n : Fin 100000) (d : Fin 256) :
    Cert.ReferenceIdeal.Read.val_main_v8 (F := Ideal) a0 a4 (ix2 n d)
      = ∑ f : Fin 9, slabRowAt h119 a4 f (wrap 119#32 (a0 (ix2 n f))) d := by
  rw [Cert.ReferenceIdeal.Read.val_main_v8_apply]
  have hz : Cert.ReferenceIdeal.Read.val_main_cst (F := Ideal) (Shape.Idx.first Cert.ReferenceIdeal.Gen.h_S_) = (0 : EReal) :=
    Ideal.ofBits_zero_f32
  rw [hz, zero_add]
  refine Finset.sum_congr rfl fun f _ => ?_
  have hi : Cert.ReferenceIdeal.Read.idx_main_v8 (ix2 n d) f = ix3 f n d :=
    funext fun a => Fin.ext (by match a with | ⟨0, _⟩ => rfl | ⟨1, _⟩ => rfl | ⟨2, _⟩ => rfl)
  rw [hi]
  unfold Cert.ReferenceIdeal.Read.val_main_v7
  rw [recRN_eq, gather_slabs_apply h119, startRN]

/-- The reference's edge gather is the batched row gather of three `[22, 256]` tables at `[3, 200000, 1]` start indices. -/
theorem recRE_eq : Cert.ReferenceIdeal.gather_S3x22x256_S3x200000x1_S3x200000x256_2_1_0_0_1_2_11256
    = slabDims 3 22 256 200000
        Cert.ReferenceIdeal.Facts₀.gather_S3x22x256_S3x200000x1_S3x200000x256_2_1_0_0_1_2_11256_wf := rfl

/-- The reference's edge start index `(f, n)` is the wrapped code `(n, f)`: the codes are wrapped as a whole, transposed
    and given a unit axis. -/
theorem startRE (a1 : IVec Cert.ReferenceIdeal.S200000x3 32) (f : Fin 3) (n : Fin 200000) :
    Cert.ReferenceIdeal.Read.val_main_v15 (F := Ideal) a1 (ix3 f n (0 : Fin 1)) = wrap 22#32 (a1 (ix2 n f)) := by
  have hi : Cert.ReferenceIdeal.Read.idx_main_v14 (Cert.ReferenceIdeal.Read.idx_main_v15 (ix3 f n (0 : Fin 1))) = ix2 n f :=
    funext fun a => Fin.ext (by match a with | ⟨0, _⟩ => rfl | ⟨1, _⟩ => rfl)
  rw [Cert.ReferenceIdeal.Read.val_main_v15_apply, Cert.ReferenceIdeal.Read.val_main_v14_apply, hi,
    Cert.ReferenceIdeal.Read.val_main_v13_apply, Cert.ReferenceIdeal.Read.val_main_v10_apply,
    Cert.ReferenceIdeal.Read.val_main_v12_apply, Cert.ReferenceIdeal.Read.val_main_v9_apply,
    Cert.ReferenceIdeal.Read.val_main_v11_apply, Cert.ReferenceIdeal.Read.val_main_c_1_apply,
    Cert.ReferenceIdeal.Read.val_main_c_2_apply]
  rfl

/-- The reference's edge encoding at `(n, d)`: the sum, from zero, over the three features of the entries the wrapped codes
    select. -/
theorem refE_apply (a1 : IVec Cert.KernelIdeal.S200000x3 32) (a5 : FVec Ideal Cert.KernelIdeal.S3x22x256 .f32)
    (n : Fin 200000) (d : Fin 256) :
    Cert.ReferenceIdeal.Read.val_main_v17 (F := Ideal) a1 a5 (ix2 n d)
      = ∑ f : Fin 3, slabRowAt h22 a5 f (wrap 22#32 (a1 (ix2 n f))) d := by
  rw [Cert.ReferenceIdeal.Read.val_main_v17_apply]
  have hz : Cert.ReferenceIdeal.Read.val_main_cst_3 (F := Ideal) (Shape.Idx.first Cert.ReferenceIdeal.Gen.h_S_) = (0 : EReal) :=
    Ideal.ofBits_zero_f32
  rw [hz, zero_add]
  refine Finset.sum_congr rfl fun f _ => ?_
  have hi : Cert.ReferenceIdeal.Read.idx_main_v17 (ix2 n d) f = ix3 f n d :=
    funext fun a => Fin.ext (by match a with | ⟨0, _⟩ => rfl | ⟨1, _⟩ => rfl | ⟨2, _⟩ => rfl)
  rw [hi]
  unfold Cert.ReferenceIdeal.Read.val_main_v16
  rw [recRE_eq, gather_slabs_apply h22, startRE]

end ReferenceSide

/-! ## The two sides agree -/

/-- The node encodings agree. -/
theorem encN_eq (a0 : IVec Cert.KernelIdeal.S100000x9 32) (a4 : FVec Ideal Cert.KernelIdeal.S9x119x256 .f32) :
    Cert.KernelIdeal.Val.encN a0 a4 = Cert.ReferenceIdeal.Read.val_main_v8 (F := Ideal) a0 a4 := by
  funext j
  obtain ⟨n, d, rfl⟩ : ∃ (n : Fin 100000) (d : Fin 256), j = ix2 n d := ⟨j 0, j 1, eq_ix2 j⟩
  rw [encN_apply, refN_apply, Fin.sum_univ_castSucc, Fin.sum_univ_eight]
  rfl
/-- The edge encodings agree. -/
theorem encE_eq (a1 : IVec Cert.KernelIdeal.S200000x3 32) (a5 : FVec Ideal Cert.KernelIdeal.S3x22x256 .f32) :
    Cert.KernelIdeal.Val.encE a1 a5 = Cert.ReferenceIdeal.Read.val_main_v17 (F := Ideal) a1 a5 := by
  funext j
  obtain ⟨n, d, rfl⟩ : ∃ (n : Fin 200000) (d : Fin 256), j = ix2 n d := ⟨j 0, j 1, eq_ix2 j⟩
  rw [encE_apply, refE_apply, Fin.sum_univ_three]

end Cert.Bridge

end
-- ==== Proof.NetEq.lean ====
/- The two programs compute one network. Read stage by stage, each is the readout of four message-passing layers
   over the same encodings, weight slabs and edge-list rows; the stages agree one by one, the take only where
   every source index names a node. -/
import proofs.«422649_j18588618457330_1_alg».proof.Proof.KOps
import proofs.«422649_j18588618457330_1_alg».proof.Proof.RStages
import proofs.«422649_j18588618457330_1_alg».proof.Proof.Bridge
import proofs.«422649_j18588618457330_1_alg».proof.Proof.BridgeEnc

set_option maxRecDepth 16384

noncomputable section

namespace Cert.Bridge

open Idealize.ShloMosaic

/-- One layer of the kernel program is one layer of the reference, given the same node array, edge encoding,
    weights, and an edge list whose sources are node indices. -/
theorem layer_eq (w1 : FVec Ideal Cert.KernelIdeal.S256x512 .f32) (b1 : FVec Ideal Cert.KernelIdeal.S512 .f32) (w2 : FVec Ideal Cert.KernelIdeal.S512x256 .f32) (b2 : FVec Ideal Cert.KernelIdeal.S256 .f32)
    (e : FVec Ideal Cert.KernelIdeal.S200000x256 .f32) (a2 : IVec Cert.KernelIdeal.S2x200000 32) (x : FVec Ideal Cert.KernelIdeal.S100000x256 .f32)
    (h : Cert.KernelIdeal.Val.SrcInRange (Cert.KernelIdeal.Val.srcOf a2)) :
    Cert.KernelIdeal.Val.layer w1 b1 w2 b2 e (Cert.KernelIdeal.Val.srcOf a2) (Cert.KernelIdeal.Val.dstOf a2) x = Cert.ReferenceIdeal.Val.layerR w1 b1 w2 b2 e a2 x := by
  unfold Cert.KernelIdeal.Val.layer Cert.ReferenceIdeal.Val.layerR
  rw [take_eq x a2 h, segsum_eq]

/-- The kernel program's network is the reference's last stage. -/
theorem net_eq (a0 : IVec Cert.KernelIdeal.S100000x9 32) (a1 : IVec Cert.KernelIdeal.S200000x3 32) (a2 : IVec Cert.KernelIdeal.S2x200000 32) (a3 : IVec Cert.KernelIdeal.S100000 32) (a4 : FVec Ideal Cert.KernelIdeal.S9x119x256 .f32) (a5 : FVec Ideal Cert.KernelIdeal.S3x22x256 .f32) (a6 : FVec Ideal Cert.KernelIdeal.S4x256x512 .f32) (a7 : FVec Ideal Cert.KernelIdeal.S4x512 .f32) (a8 : FVec Ideal Cert.KernelIdeal.S4x512x256 .f32) (a9 : FVec Ideal Cert.KernelIdeal.S4x256 .f32) (a10 : FVec Ideal Cert.KernelIdeal.S256x256 .f32) (a11 : FVec Ideal Cert.KernelIdeal.S256 .f32) (a12 : FVec Ideal Cert.KernelIdeal.S256x768 .f32) (a13 : FVec Ideal Cert.KernelIdeal.S768 .f32)
    (h : Cert.KernelIdeal.Val.SrcInRange (Cert.KernelIdeal.Val.srcOf a2)) :
    Cert.KernelIdeal.Val.net a0 a1 a2 a3 a4 a5 a6 a7 a8 a9 a10 a11 a12 a13 = Cert.ReferenceIdeal.Read.val_main_v162 (F := Ideal) a0 a1 a2 a3 a4 a5 a6 a7 a8 a9 a10 a11 a12 a13 := by
  rw [Cert.ReferenceIdeal.Val.readoutR, Cert.ReferenceIdeal.Val.layer3R, Cert.ReferenceIdeal.Val.layer2R, Cert.ReferenceIdeal.Val.layer1R, Cert.ReferenceIdeal.Val.layer0R]
  unfold Cert.KernelIdeal.Val.net Cert.KernelIdeal.Val.nodes
  rw [layer_eq _ _ _ _ _ a2 _ h, layer_eq _ _ _ _ _ a2 _ h, layer_eq _ _ _ _ _ a2 _ h, layer_eq _ _ _ _ _ a2 _ h, gsum_eq,
    encN_eq, encE_eq,
    w1At0_eq, b1At0_eq, w2At0_eq, b2At0_eq, w1At1_eq, b1At1_eq, w2At1_eq, b2At1_eq,
    w1At2_eq, b1At2_eq, w2At2_eq, b2At2_eq, w1At3_eq, b1At3_eq, w2At3_eq, b2At3_eq]

end Cert.Bridge

end
-- ==== Proof.lean ====
/- The certificate's claims. The word-level kernel and its idealization each run to the end with their arguments
   unchanged (the generated frames); the reference does too (its generated run, the result dropped); the
   idealization's ledger is empty. Over the extended reals, on inputs whose float arrays are finite and whose
   edge sources are node indices, the idealized kernel program's result is the four-layer network and readout
   of its inputs (its run with the result named, the regions' values, the host stretches read back), the
   reference's result is its last stage (its generated run and read-back), and the two are one function of the inputs. -/
import proofs.«422649_j18588618457330_1_alg».proof.Defs
import proofs.«422649_j18588618457330_1_alg».proof.Proof.Gen.Kernel
import proofs.«422649_j18588618457330_1_alg».proof.Proof.Gen.Kernel.Skeleton
import proofs.«422649_j18588618457330_1_alg».proof.Proof.Gen.Kernel.Launch
import proofs.«422649_j18588618457330_1_alg».proof.Proof.Gen.Kernel.Points
import proofs.«422649_j18588618457330_1_alg».proof.Proof.Gen.Kernel.Frame
import proofs.«422649_j18588618457330_1_alg».proof.Proof.Gen.KernelIdeal
import proofs.«422649_j18588618457330_1_alg».proof.Proof.Gen.KernelIdeal.Skeleton
import proofs.«422649_j18588618457330_1_alg».proof.Proof.Gen.KernelIdeal.Launch
import proofs.«422649_j18588618457330_1_alg».proof.Proof.Gen.KernelIdeal.Points
import proofs.«422649_j18588618457330_1_alg».proof.Proof.Gen.KernelIdeal.Frame
import proofs.«422649_j18588618457330_1_alg».proof.Proof.Gen.ReferenceIdeal
import proofs.«422649_j18588618457330_1_alg».proof.Proof.Gen.ReferenceIdeal.Run
import proofs.«422649_j18588618457330_1_alg».proof.Proof.Gen.ReferenceIdeal.Read
import proofs.«422649_j18588618457330_1_alg».proof.Proof.Gen.Pre_finite_inputs
import proofs.«422649_j18588618457330_1_alg».proof.Proof.KRun
import proofs.«422649_j18588618457330_1_alg».proof.Proof.KValue
import proofs.«422649_j18588618457330_1_alg».proof.Proof.KPre
import proofs.«422649_j18588618457330_1_alg».proof.Proof.NetEq
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the network of the kernel program's inputs. -/
theorem algebraic : Cert.algebraic_KernelIdeal_ReferenceIdeal := by
  intro m ρ m' ρ' hpre hagree
  refine ⟨fun c => Cert.KernelIdeal.Val.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Val.kernel_value m ρ c), (h c).2⟩)
      (Cert.KernelIdeal.Run.run_value (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13⟩ := hagree c
    rw [(h c).1, Cert.ReferenceIdeal.Read.val_main_v162_eq, e0, e1, e2, e3, e4, e5, e6, e7, e8, e9, e10, e11, e12, e13]
    exact (Cert.Bridge.net_eq _ _ _ _ _ _ _ _ _ _ _ _ _ _ (Cert.KernelIdeal.Val.src_in_range m hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
